-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v41_0)) (v1 : (c : Dev Cert.KernelIdeal.nD) → Buf (Elt Ideal) ((c.tc : Thread Cert.KernelIdeal.nD Cert.KernelIdeal.τ).loc Cert.KernelIdeal.main_v41_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41_0) = v0 c
          ∧ r.2.mem ((c.tc : Thread Cert.KernelIdeal.nD Cert.KernelIdeal.τ).loc Cert.KernelIdeal.main_v41_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v621) = v0 c
          ∧ r.2.mem ((c.tc : Thread Cert.ReferenceIdeal.nD Cert.ReferenceIdeal.τ).loc Cert.ReferenceIdeal.main_v624) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x200 : Shape := ⟨3, ![16, 128, 200]⟩
abbrev S16x128 : Shape := ⟨2, ![16, 128]⟩
abbrev S8x20x100 : Shape := ⟨3, ![8, 20, 100]⟩
abbrev S_ : Shape := ⟨0, ![]⟩

class Facts : Prop where
  bcast_S_S16x128x200 : S_.BroadcastsInDim S16x128x200 (![] : Fin 0 → Fin S16x128x200.rank)
  reducesTo_S16x128x200_S_d0_1_2 : S16x128x200.ReducesTo [0, 1, 2] S_
  h_S_ : 0 < S_.numel
  bcast_S_S8x20x100 : S_.BroadcastsInDim S8x20x100 (![] : Fin 0 → Fin S8x20x100.rank)
  reducesTo_S8x20x100_S_d0_1_2 : S8x20x100.ReducesTo [0, 1, 2] S_

variable [Facts]

def fn {F : FTy → Type} [FloatOps F] (main_arg0 : FVec F S16x128x200 .f32) (main_arg1 : IVec S16x128 32) (main_arg2 : FVec F S16x128x200 .f32) (main_arg3 : IVec S16x128 32) (main_arg4 : FVec F S8x20x100 .f32) : IVec S_ 1 :=
  let main_v0 : FVec F S16x128x200 .f32 := Host.absf main_arg0
  let main_cst : FVec F S_ .f32 := constant S_ .f32 0x7F800000#32
  let main_v1 : FVec F S16x128x200 .f32 := broadcastInDim S16x128x200 ![] bcast_S_S16x128x200 main_cst
  let main_v2 : IVec S16x128x200 1 := cmpf .olt main_v0 main_v1
  let main_c : IVec S_ 1 := constantI S_ 1 1#1
  let main_v3 : IVec S_ 1 := (fun x v => Host.reduce IntOp.andi x v reducesTo_S16x128x200_S_d0_1_2 h_S_) main_v2 main_c
  let main_v4 : FVec F S16x128x200 .f32 := Host.absf main_arg2
  let main_cst_0 : FVec F S_ .f32 := constant S_ .f32 0x7F800000#32
  let main_v5 : FVec F S16x128x200 .f32 := broadcastInDim S16x128x200 ![] bcast_S_S16x128x200 main_cst_0
  let main_v6 : IVec S16x128x200 1 := cmpf .olt main_v4 main_v5
  let main_c_1 : IVec S_ 1 := constantI S_ 1 1#1
  let main_v7 : IVec S_ 1 := (fun x v => Host.reduce IntOp.andi x v reducesTo_S16x128x200_S_d0_1_2 h_S_) main_v6 main_c_1
  let main_v8 : IVec S_ 1 := andi main_v3 main_v7
  let main_v9 : FVec F S8x20x100 .f32 := Host.absf main_arg4
  let main_cst_2 : FVec F S_ .f32 := constant S_ .f32 0x7F800000#32
  let main_v10 : FVec F S8x20x100 .f32 := broadcastInDim S8x20x100 ![] bcast_S_S8x20x100 main_cst_2
  let main_v11 : IVec S8x20x100 1 := cmpf .olt main_v9 main_v10
  let main_c_3 : IVec S_ 1 := constantI S_ 1 1#1
  let main_v12 : IVec S_ 1 := (fun x v => Host.reduce IntOp.andi x v reducesTo_S8x20x100_S_d0_1_2 h_S_) main_v11 main_c_3
  let main_v13 : IVec S_ 1 := andi main_v8 main_v12
  main_v13
-- ==== Kernel.lean ====
abbrev S16x128x200 : Shape := ⟨3, ![16, 128, 200]⟩
abbrev S16x128 : Shape := ⟨2, ![16, 128]⟩
abbrev S8x20x100 : Shape := ⟨3, ![8, 20, 100]⟩
abbrev S16x128x100 : Shape := ⟨3, ![16, 128, 100]⟩
abbrev S_ : Shape := ⟨0, ![]⟩
abbrev S16 : Shape := ⟨1, ![16]⟩
abbrev S16x1 : Shape := ⟨2, ![16, 1]⟩
abbrev S16x2 : Shape := ⟨2, ![16, 2]⟩
abbrev S16x100 : Shape := ⟨2, ![16, 100]⟩
abbrev S16x1x100 : Shape := ⟨3, ![16, 1, 100]⟩
abbrev S16x128x210 : Shape := ⟨3, ![16, 128, 210]⟩
abbrev S1x128x200 : Shape := ⟨3, ![1, 128, 200]⟩
abbrev S1x1x100 : Shape := ⟨3, ![1, 1, 100]⟩
abbrev S1x128x210 : Shape := ⟨3, ![1, 128, 210]⟩
abbrev S128x200 : Shape := ⟨2, ![128, 200]⟩
abbrev S128x100 : Shape := ⟨2, ![128, 100]⟩
abbrev S100 : Shape := ⟨1, ![100]⟩
abbrev S1x100 : Shape := ⟨2, ![1, 100]⟩
abbrev S1x20x100 : Shape := ⟨3, ![1, 20, 100]⟩
abbrev S20x100 : Shape := ⟨2, ![20, 100]⟩
abbrev S128 : Shape := ⟨1, ![128]⟩
abbrev S128x1 : Shape := ⟨2, ![128, 1]⟩
abbrev S1x128 : Shape := ⟨2, ![1, 128]⟩
abbrev S100x128 : Shape := ⟨2, ![100, 128]⟩
abbrev S128x128 : Shape := ⟨2, ![128, 128]⟩
abbrev S1 : Shape := ⟨1, ![1]⟩
abbrev S100x20 : Shape := ⟨2, ![100, 20]⟩
abbrev S128x20 : Shape := ⟨2, ![128, 20]⟩
abbrev S20 : Shape := ⟨1, ![20]⟩
abbrev S1x20 : Shape := ⟨2, ![1, 20]⟩
abbrev S20x128 : Shape := ⟨2, ![20, 128]⟩
abbrev S32x100 : Shape := ⟨2, ![32, 100]⟩
abbrev S128x32 : Shape := ⟨2, ![128, 32]⟩
abbrev S1x32x100 : Shape := ⟨3, ![1, 32, 100]⟩
abbrev S128x32x1 : Shape := ⟨3, ![128, 32, 1]⟩
abbrev S128x32x100 : Shape := ⟨3, ![128, 32, 100]⟩
abbrev S32x128 : Shape := ⟨2, ![32, 128]⟩
abbrev S32x1x100 : Shape := ⟨3, ![32, 1, 100]⟩
abbrev S32x128x1 : Shape := ⟨3, ![32, 128, 1]⟩
abbrev S32x128x100 : Shape := ⟨3, ![32, 128, 100]⟩
abbrev S128x210 : Shape := ⟨2, ![128, 210]⟩

abbrev nBuf : Space → Nat
  | .hbm => 66
  | .vmem => 13
  | .smem => 0
  | _ => 0

abbrev bufTy : (tb : Table) → Fin (tcTables nBuf tb) → BufTy
  | .hbm, ⟨0, _⟩ => ⟨S16x128x200, .f32⟩
  | .hbm, ⟨1, _⟩ => ⟨S16x128, .i32⟩
  | .hbm, ⟨2, _⟩ => ⟨S16x128x200, .f32⟩
  | .hbm, ⟨3, _⟩ => ⟨S16x128, .i32⟩
  | .hbm, ⟨4, _⟩ => ⟨S8x20x100, .f32⟩
  | .hbm, ⟨5, _⟩ => ⟨S16x128x100, .f32⟩
  | .hbm, ⟨6, _⟩ => ⟨S16x128x100, .f32⟩
  | .hbm, ⟨7, _⟩ => ⟨S_, .i32⟩
  | .hbm, ⟨8, _⟩ => ⟨S16, .i32⟩
  | .hbm, ⟨9, _⟩ => ⟨S_, .i32⟩
  | .hbm, ⟨10, _⟩ => ⟨S16, .i32⟩
  | .hbm, ⟨11, _⟩ => ⟨S_, .i32⟩
  | .hbm, ⟨12, _⟩ => ⟨S16, .i32⟩
  | .hbm, ⟨13, _⟩ => ⟨S16, .i32⟩
  | .hbm, ⟨14, _⟩ => ⟨S_, .i32⟩
  | .hbm, ⟨15, _⟩ => ⟨S_, .i32⟩
  | .hbm, ⟨16, _⟩ => ⟨S16, .i32⟩
  | .hbm, ⟨17, _⟩ => ⟨S16, .i32⟩
  | .hbm, ⟨18, _⟩ => ⟨S_, .i32⟩
  | .hbm, ⟨19, _⟩ => ⟨S16, .i32⟩
  | .hbm, ⟨20, _⟩ => ⟨S16, .i32⟩
  | .hbm, ⟨21, _⟩ => ⟨S_, .i32⟩
  | .hbm, ⟨22, _⟩ => ⟨S_, .i32⟩
  | .hbm, ⟨23, _⟩ => ⟨S16, .i32⟩
  | .hbm, ⟨24, _⟩ => ⟨S16, .i32⟩
  | .hbm, ⟨25, _⟩ => ⟨S16, .i32⟩
  | .hbm, ⟨26, _⟩ => ⟨S_, .i32⟩
  | .hbm, ⟨27, _⟩ => ⟨S16, .i32⟩
  | .hbm, ⟨28, _⟩ => ⟨S16, .i1⟩
  | .hbm, ⟨29, _⟩ => ⟨S_, .i32⟩
  | .hbm, ⟨30, _⟩ => ⟨S16, .i32⟩
  | .hbm, ⟨31, _⟩ => ⟨S16, .i32⟩
  | .hbm, ⟨32, _⟩ => ⟨S16, .i32⟩
  | .hbm, ⟨33, _⟩ => ⟨S_, .i32⟩
  | .hbm, ⟨34, _⟩ => ⟨S16, .i32⟩
  | .hbm, ⟨35, _⟩ => ⟨S16, .i1⟩
  | .hbm, ⟨36, _⟩ => ⟨S_, .i32⟩
  | .hbm, ⟨37, _⟩ => ⟨S16, .i32⟩
  | .hbm, ⟨38, _⟩ => ⟨S16, .i32⟩
  | .hbm, ⟨39, _⟩ => ⟨S16, .i32⟩
  | .hbm, ⟨40, _⟩ => ⟨S16x1, .i32⟩
  | .hbm, ⟨41, _⟩ => ⟨S16x1, .i32⟩
  | .hbm, ⟨42, _⟩ => ⟨S16x2, .i32⟩
  | .hbm, ⟨43, _⟩ => ⟨S16x100, .f32⟩
  | .hbm, ⟨44, _⟩ => ⟨S16x1x100, .f32⟩
  | .hbm, ⟨45, _⟩ => ⟨S_, .i32⟩
  | .hbm, ⟨46, _⟩ => ⟨S16, .i32⟩
  | .hbm, ⟨47, _⟩ => ⟨S16, .i1⟩
  | .hbm, ⟨48, _⟩ => ⟨S_, .i32⟩
  | .hbm, ⟨49, _⟩ => ⟨S16, .i32⟩
  | .hbm, ⟨50, _⟩ => ⟨S16, .i32⟩
  | .hbm, ⟨51, _⟩ => ⟨S16, .i32⟩
  | .hbm, ⟨52, _⟩ => ⟨S_, .i32⟩
  | .hbm, ⟨53, _⟩ => ⟨S16, .i32⟩
  | .hbm, ⟨54, _⟩ => ⟨S16, .i1⟩
  | .hbm, ⟨55, _⟩ => ⟨S_, .i32⟩
  | .hbm, ⟨56, _⟩ => ⟨S16, .i32⟩
  | .hbm, ⟨57, _⟩ => ⟨S16, .i32⟩
  | .hbm, ⟨58, _⟩ => ⟨S16, .i32⟩
  | .hbm, ⟨59, _⟩ => ⟨S16x1, .i32⟩
  | .hbm, ⟨60, _⟩ => ⟨S16x1, .i32⟩
  | .hbm, ⟨61, _⟩ => ⟨S16x2, .i32⟩
  | .hbm, ⟨62, _⟩ => ⟨S16x100, .f32⟩
  | .hbm, ⟨63, _⟩ => ⟨S16x1x100, .f32⟩
  | .hbm, ⟨64, _⟩ => ⟨S16x128x210, .f32⟩
  | .hbm, ⟨65, _⟩ => ⟨S16x128x210, .f32⟩
  | .local _ .vmem, ⟨0, _⟩ => ⟨S1x128x200, .f32⟩
  | .local _ .vmem, ⟨1, _⟩ => ⟨S1x128x200, .f32⟩
  | .local _ .vmem, ⟨2, _⟩ => ⟨S1x128x200, .f32⟩
  | .local _ .vmem, ⟨3, _⟩ => ⟨S1x128x200, .f32⟩
  | .local _ .vmem, ⟨4, _⟩ => ⟨S1x1x100, .f32⟩
  | .local _ .vmem, ⟨5, _⟩ => ⟨S1x1x100, .f32⟩
  | .local _ .vmem, ⟨6, _⟩ => ⟨S1x1x100, .f32⟩
  | .local _ .vmem, ⟨7, _⟩ => ⟨S1x1x100, .f32⟩
  | .local _ .vmem, ⟨8, _⟩ => ⟨S8x20x100, .f32⟩
  | .local _ .vmem, ⟨9, _⟩ => ⟨S1x128x210, .f32⟩
  | .local _ .vmem, ⟨10, _⟩ => ⟨S1x128x210, .f32⟩
  | .local _ .vmem, ⟨11, _⟩ => ⟨S1x128x210, .f32⟩
  | .local _ .vmem, ⟨12, _⟩ => ⟨S1x128x210, .f32⟩
  | _, _ => ⟨S16x128x200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_c_2 : Ref sig .tc := ⟨.hbm, 14, rfl⟩
abbrev main_call0_v0 : Ref sig .tc := ⟨.hbm, 15, rfl⟩
abbrev main_call0_v1 : Ref sig .tc := ⟨.hbm, 16, rfl⟩
abbrev main_v6 : Ref sig .tc := ⟨.hbm, 17, rfl⟩
abbrev main_c_3 : Ref sig .tc := ⟨.hbm, 18, rfl⟩
abbrev main_v7 : Ref sig .tc := ⟨.hbm, 19, rfl⟩
abbrev main_v8 : Ref sig .tc := ⟨.hbm, 20, rfl⟩
abbrev main_c_4 : Ref sig .tc := ⟨.hbm, 21, rfl⟩
abbrev main_call1_v0 : Ref sig .tc := ⟨.hbm, 22, rfl⟩
abbrev main_call1_v1 : Ref sig .tc := ⟨.hbm, 23, rfl⟩
abbrev main_v9 : Ref sig .tc := ⟨.hbm, 24, rfl⟩
abbrev main_v10 : Ref sig .tc := ⟨.hbm, 25, rfl⟩
abbrev main_c_5 : Ref sig .tc := ⟨.hbm, 26, rfl⟩
abbrev main_v11 : Ref sig .tc := ⟨.hbm, 27, rfl⟩
abbrev main_v12 : Ref sig .tc := ⟨.hbm, 28, rfl⟩
abbrev main_c_6 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c_7 : Ref sig .tc := ⟨.hbm, 33, rfl⟩
abbrev main_v16 : Ref sig .tc := ⟨.hbm, 34, rfl⟩
abbrev main_v17 : Ref sig .tc := ⟨.hbm, 35, rfl⟩
abbrev main_c_8 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_9 : Ref sig .tc := ⟨.hbm, 45, rfl⟩
abbrev main_v26 : Ref sig .tc := ⟨.hbm, 46, rfl⟩
abbrev main_v27 : Ref sig .tc := ⟨.hbm, 47, rfl⟩
abbrev main_c_10 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_11 : Ref sig .tc := ⟨.hbm, 52, rfl⟩
abbrev main_v31 : Ref sig .tc := ⟨.hbm, 53, rfl⟩
abbrev main_v32 : Ref sig .tc := ⟨.hbm, 54, rfl⟩
abbrev main_c_12 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41_0 : Ref sig .tc := ⟨.hbm, 64, rfl⟩
abbrev main_v41_1 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x100 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x100 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x20x100 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x128x210 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x210 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S16x128x200_S16x128x100_0_0_0 : S16x128x200.Slices ![0, 0, 0] S16x128x100
  reducesTo_S16x128_S16_d1 : S16x128.ReducesTo [1] S16
  h_S_ : 0 < S_.numel
  bcast_S_S16 : S_.BroadcastsInDim S16 (![] : Fin 0 → Fin S16.rank)
  bcast_S16_S16x1_0 : S16.BroadcastsInDim S16x1 (![0] : Fin 1 → Fin S16x1.rank)
  concatenates_S16x1_S16x1_S16x2_d1 : Shape.Concatenates [S16x1, S16x1] S16x2 1
  bcast_S16x100_S16x1x100_0_2 : S16x100.BroadcastsInDim S16x1x100 (![0, 2] : Fin 2 → Fin S16x1x100.rank)
  inb_S1x128x200_S1x128x200_0_0_0 : ∀ a, (![0, 0, 0] : Fin 3 → Nat) a + S1x128x200.size a ≤ S1x128x200.size a
  h_S1x128x200 : 0 < S1x128x200.numel
  shapeCasts_S1x128x200_S128x200 : S1x128x200.ShapeCasts S128x200
  slices_S128x200_o0_0_S128x100 : S128x200.Slices ![0, 0] S128x100
  slices_S128x200_o0_100_S128x100 : S128x200.Slices ![0, 100] S128x100
  inb_S1x1x100_S1x1x100_0_0_0 : ∀ a, (![0, 0, 0] : Fin 3 → Nat) a + S1x1x100.size a ≤ S1x1x100.size a
  h_S1x1x100 : 0 < S1x1x100.numel
  shapeCasts_S1x1x100_S100 : S1x1x100.ShapeCasts S100
  slices_S128x100_o0_0_S1x100 : S128x100.Slices ![0, 0] S1x100
  shapeCasts_S1x100_S100 : S1x100.ShapeCasts S100
  inb_S8x20x100_S8x20x100_0_0_0 : ∀ a, (![0, 0, 0] : Fin 3 → Nat) a + S8x20x100.size a ≤ S8x20x100.size a
  h_S8x20x100 : 0 < S8x20x100.numel
  slices_S8x20x100_o0_0_0_S1x20x100 : S8x20x100.Slices ![0, 0, 0] S1x20x100
  shapeCasts_S1x20x100_S20x100 : S1x20x100.ShapeCasts S20x100
  slices_S8x20x100_o1_0_0_S1x20x100 : S8x20x100.Slices ![1, 0, 0] S1x20x100
  slices_S8x20x100_o2_0_0_S1x20x100 : S8x20x100.Slices ![2, 0, 0] S1x20x100
  slices_S8x20x100_o3_0_0_S1x20x100 : S8x20x100.Slices ![3, 0, 0] S1x20x100
  slices_S8x20x100_o4_0_0_S1x20x100 : S8x20x100.Slices ![4, 0, 0] S1x20x100
  slices_S8x20x100_o5_0_0_S1x20x100 : S8x20x100.Slices ![5, 0, 0] S1x20x100
  slices_S8x20x100_o6_0_0_S1x20x100 : S8x20x100.Slices ![6, 0, 0] S1x20x100
  slices_S8x20x100_o7_0_0_S1x20x100 : S8x20x100.Slices ![7, 0, 0] S1x20x100
  reduces_S128x100_S128 : S128x100.Reduces [1] S128
  shapeCasts_S128_S128x1 : S128.ShapeCasts S128x1
  shapeCasts_S128_S1x128 : S128.ShapeCasts S1x128
  transposes_S128x100_p1_0_S100x128 : S128x100.Transposes [1, 0] S100x128
  broadcasts_S128x1_S128x128 : S128x1.Broadcasts S128x128
  broadcasts_S1x128_S128x128 : S1x128.Broadcasts S128x128
  shapeCasts_S100_S1x100 : S100.ShapeCasts S1x100
  broadcasts_S1x100_S128x100 : S1x100.Broadcasts S128x100
  reduces_S1x100_S1 : S1x100.Reduces [1] S1
  broadcasts_S1_S128 : S1.Broadcasts S128
  transposes_S20x100_p1_0_S100x20 : S20x100.Transposes [1, 0] S100x20
  broadcasts_S1x100_S20x100 : S1x100.Broadcasts S20x100
  reduces_S20x100_S20 : S20x100.Reduces [1] S20
  shapeCasts_S20_S1x20 : S20.ShapeCasts S1x20
  broadcasts_S1x20_S128x20 : S1x20.Broadcasts S128x20
  slices_S20x100_o0_0_S1x100 : S20x100.Slices ![0, 0] S1x100
  reduces_S128x128_S128 : S128x128.Reduces [1] S128
  reduces_S128x128_S128_2 : S128x128.Reduces [0] S128
  slices_S20x100_o1_0_S1x100 : S20x100.Slices ![1, 0] S1x100
  slices_S20x100_o2_0_S1x100 : S20x100.Slices ![2, 0] S1x100
  slices_S20x100_o3_0_S1x100 : S20x100.Slices ![3, 0] S1x100
  slices_S20x100_o4_0_S1x100 : S20x100.Slices ![4, 0] S1x100
  slices_S20x100_o5_0_S1x100 : S20x100.Slices ![5, 0] S1x100
  slices_S20x100_o6_0_S1x100 : S20x100.Slices ![6, 0] S1x100
  slices_S20x100_o7_0_S1x100 : S20x100.Slices ![7, 0] S1x100
  slices_S20x100_o8_0_S1x100 : S20x100.Slices ![8, 0] S1x100
  slices_S20x100_o9_0_S1x100 : S20x100.Slices ![9, 0] S1x100
  slices_S20x100_o10_0_S1x100 : S20x100.Slices ![10, 0] S1x100
  slices_S20x100_o11_0_S1x100 : S20x100.Slices ![11, 0] S1x100
  slices_S20x100_o12_0_S1x100 : S20x100.Slices ![12, 0] S1x100
  slices_S20x100_o13_0_S1x100 : S20x100.Slices ![13, 0] S1x100
  slices_S20x100_o14_0_S1x100 : S20x100.Slices ![14, 0] S1x100
  slices_S20x100_o15_0_S1x100 : S20x100.Slices ![15, 0] S1x100
  slices_S20x100_o16_0_S1x100 : S20x100.Slices ![16, 0] S1x100
  slices_S20x100_o17_0_S1x100 : S20x100.Slices ![17, 0] S1x100
  slices_S20x100_o18_0_S1x100 : S20x100.Slices ![18, 0] S1x100
  slices_S20x100_o19_0_S1x100 : S20x100.Slices ![19, 0] S1x100
  concatenates_S128x1_S128x1_S128x1_S128x1_S128x1_S128x1_S128x1_S128x1_S128x1_S128x1_S128x1_S128x1_S128x1_S128x1_S128x1_S128x1_S128x1_S128x1_S128x1_S128x1_S128x20_d1 : Shape.Concatenates [S128x1, S128x1, S128x1, S128x1, S128x1, S128x1, S128x1, S128x1, S128x1, S128x1, S128x1, S128x1, S128x1, S128x1, S128x1, S128x1, S128x1, S128x1, S128x1, S128x1] S128x20 1
  concatenates_S1x128_S1x128_S1x128_S1x128_S1x128_S1x128_S1x128_S1x128_S1x128_S1x128_S1x128_S1x128_S1x128_S1x128_S1x128_S1x128_S1x128_S1x128_S1x128_S1x128_S20x128_d0 : Shape.Concatenates [S1x128, S1x128, S1x128, S1x128, S1x128, S1x128, S1x128, S1x128, S1x128, S1x128, S1x128, S1x128, S1x128, S1x128, S1x128, S1x128, S1x128, S1x128, S1x128, S1x128] S20x128 0
  transposes_S20x128_p1_0_S128x20 : S20x128.Transposes [1, 0] S128x20
  broadcasts_S128x1_S128x100 : S128x1.Broadcasts S128x100
  transposes_S128x128_p1_0_S128x128 : S128x128.Transposes [1, 0] S128x128
  slices_S128x100_o0_0_S32x100 : S128x100.Slices ![0, 0] S32x100
  slices_S128x128_o0_0_S128x32 : S128x128.Slices ![0, 0] S128x32
  shapeCasts_S32x100_S1x32x100 : S32x100.ShapeCasts S1x32x100
  shapeCasts_S128x32_S128x32x1 : S128x32.ShapeCasts S128x32x1
  broadcasts_S1x32x100_S128x32x100 : S1x32x100.Broadcasts S128x32x100
  broadcasts_S128x32x1_S128x32x100 : S128x32x1.Broadcasts S128x32x100
  reduces_S128x32x100_S128x100 : S128x32x100.Reduces [1] S128x100
  slices_S128x100_o32_0_S32x100 : S128x100.Slices ![32, 0] S32x100
  slices_S128x128_o0_32_S128x32 : S128x128.Slices ![0, 32] S128x32
  slices_S128x100_o64_0_S32x100 : S128x100.Slices ![64, 0] S32x100
  slices_S128x128_o0_64_S128x32 : S128x128.Slices ![0, 64] S128x32
  slices_S128x100_o96_0_S32x100 : S128x100.Slices ![96, 0] S32x100
  slices_S128x128_o0_96_S128x32 : S128x128.Slices ![0, 96] S128x32
  slices_S128x128_o0_0_S32x128 : S128x128.Slices ![0, 0] S32x128
  shapeCasts_S32x100_S32x1x100 : S32x100.ShapeCasts S32x1x100
  shapeCasts_S32x128_S32x128x1 : S32x128.ShapeCasts S32x128x1
  broadcasts_S32x1x100_S32x128x100 : S32x1x100.Broadcasts S32x128x100
  broadcasts_S32x128x1_S32x128x100 : S32x128x1.Broadcasts S32x128x100
  reduces_S32x128x100_S128x100 : S32x128x100.Reduces [0] S128x100
  slices_S128x128_o32_0_S32x128 : S128x128.Slices ![32, 0] S32x128
  slices_S128x128_o64_0_S32x128 : S128x128.Slices ![64, 0] S32x128
  slices_S128x128_o96_0_S32x128 : S128x128.Slices ![96, 0] S32x128
  concatenates_S128x1_S128x1_S128x1_S128x1_S128x1_S128x20_S128x1_S128x20_S128x20_S128x20_S128x20_S128x20_S128x1_S128x20_S128x1_S128x20_S128x1_S128x20_S128x1_S128x20_S128x210_d1 : Shape.Concatenates [S128x1, S128x1, S128x1, S128x1, S128x1, S128x20, S128x1, S128x20, S128x20, S128x20, S128x20, S128x20, S128x1, S128x20, S128x1, S128x20, S128x1, S128x20, S128x1, S128x20] S128x210 1
  inb_S1x128x210_S1x128x210_0_0_0 : ∀ a, (![0, 0, 0] : Fin 3 → Nat) a + S1x128x210.size a ≤ S1x128x210.size a
  h_S1x128x210 : 0 < S1x128x210.numel
  shapeCasts_S1x128x210_S128x210 : S1x128x210.ShapeCasts S128x210
  shapeCasts_S128x210_S1x128x210 : S128x210.ShapeCasts S1x128x210
  gather_S16x128x100_S16x2_S16x100_1_01_n_n_01_1_11100_wf : GatherDims.WF S16x128x100 S16x2 S16x100 [1] [0, 1] [] [0, 1] [] 1 ![1, 1, 100]
  dot_S128x100_S100x128_S128x128_1_0_0_1_n_n_wf : DotDims.WF S128x100 S100x128 S128x128 [1] [0] [0] [1] [] []
  dot_S128x100_S100x20_S128x20_1_0_0_1_n_n_wf : DotDims.WF S128x100 S100x20 S128x20 [1] [0] [0] [1] [] []
  dot_S128x128_S128x100_S128x100_1_0_0_1_n_n_wf : DotDims.WF S128x128 S128x100 S128x100 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x200.size a ≤ S16x128x200.size a
  hwx0_0 : ∀ i : grid0.Coords, EltTy.bits .f32 = 32 ∨ (Rect.block (s := S16x128x200) S1x128x200.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x200.size a ≤ S16x128x200.size a
  hwx0_1 : ∀ i : grid0.Coords, EltTy.bits .f32 = 32 ∨ (Rect.block (s := S16x128x200) S1x128x200.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x100.size a ≤ S16x1x100.size a
  hwx0_2 : ∀ i : grid0.Coords, EltTy.bits .f32 = 32 ∨ (Rect.block (s := S16x1x100) S1x1x100.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x100.size a ≤ S16x1x100.size a
  hwx0_3 : ∀ i : grid0.Coords, EltTy.bits .f32 = 32 ∨ (Rect.block (s := S16x1x100) S1x1x100.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x20x100.size a ≤ S8x20x100.size a
  hwx0_4 : ∀ i : grid0.Coords, EltTy.bits .f32 = 32 ∨ (Rect.block (s := S8x20x100) S8x20x100.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128x210.size a ≤ S16x128x210.size a
  hwx0_5 : ∀ i : grid0.Coords, EltTy.bits .f32 = 32 ∨ (Rect.block (s := S16x128x210) S1x128x210.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x128x210.size a ≤ S16x128x210.size a
  hwx0_6 : ∀ i : grid0.Coords, EltTy.bits .f32 = 32 ∨ (Rect.block (s := S16x128x210) S1x128x210.size (cc0_transform_6 i) (hinb0_6 i)).WholeWords (EltTy.packing .f32)

variable [Facts₀]

def gather_S16x128x100_S16x2_S16x100_1_01_n_n_01_1_11100 : GatherDims S16x128x100 S16x2 S16x100 where
  offsetDims := [1]
  collapsedSliceDims := [0, 1]
  operandBatchingDims := []
  startIndicesBatchingDims := []
  startIndexMap := [0, 1]
  indexVectorDim := 1
  sliceSizes := ![1, 1, 100]
  wf := gather_S16x128x100_S16x2_S16x100_1_01_n_n_01_1_11100_wf
def dot_S128x100_S100x128_S128x128_1_0_0_1_n_n : DotDims S128x100 S100x128 S128x128 where
  lhsContracting := [1]
  rhsContracting := [0]
  lhsNonContracting := [0]
  rhsNonContracting := [1]
  lhsBatch := []
  rhsBatch := []
  wf := dot_S128x100_S100x128_S128x128_1_0_0_1_n_n_wf
def dot_S128x100_S100x20_S128x20_1_0_0_1_n_n : DotDims S128x100 S100x20 S128x20 where
  lhsContracting := [1]
  rhsContracting := [0]
  lhsNonContracting := [0]
  rhsNonContracting := [1]
  lhsBatch := []
  rhsBatch := []
  wf := dot_S128x100_S100x20_S128x20_1_0_0_1_n_n_wf
def dot_S128x128_S128x100_S128x100_1_0_0_1_n_n : DotDims S128x128 S128x100 S128x100 where
  lhsContracting := [1]
  rhsContracting := [0]
  lhsNonContracting := [0]
  rhsNonContracting := [1]
  lhsBatch := []
  rhsBatch := []
  wf := dot_S128x128_S128x100_S128x100_1_0_0_1_n_n_wf

abbrev win0_0 : Pipeline.Window sig grid0 :=
  Pipeline.Window.ofSpec (Memref.whole main_arg0) S1x128x200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x128x200.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S1x1x100.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v40) S1x1x100.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S8x20x100.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v41_0) S1x128x210.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v41_1) S1x128x210.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16x128x200 : Shape := ⟨3, ![16, 128, 200]⟩
abbrev S16x128 : Shape := ⟨2, ![16, 128]⟩
abbrev S8x20x100 : Shape := ⟨3, ![8, 20, 100]⟩
abbrev S16x128x100 : Shape := ⟨3, ![16, 128, 100]⟩
abbrev S_ : Shape := ⟨0, ![]⟩
abbrev S16 : Shape := ⟨1, ![16]⟩
abbrev S16x1 : Shape := ⟨2, ![16, 1]⟩
abbrev S16x2 : Shape := ⟨2, ![16, 2]⟩
abbrev S16x100 : Shape := ⟨2, ![16, 100]⟩
abbrev S16x1x100 : Shape := ⟨3, ![16, 1, 100]⟩
abbrev S16x128x1 : Shape := ⟨3, ![16, 128, 1]⟩
abbrev S16x1x128 : Shape := ⟨3, ![16, 1, 128]⟩
abbrev S16x128x128 : Shape := ⟨3, ![16, 128, 128]⟩
abbrev S1x20x100 : Shape := ⟨3, ![1, 20, 100]⟩
abbrev S20x100 : Shape := ⟨2, ![20, 100]⟩
abbrev S1x1x20x100 : Shape := ⟨4, ![1, 1, 20, 100]⟩
abbrev S16x128x1x100 : Shape := ⟨4, ![16, 128, 1, 100]⟩
abbrev S16x128x20x100 : Shape := ⟨4, ![16, 128, 20, 100]⟩
abbrev S16x1x1x100 : Shape := ⟨4, ![16, 1, 1, 100]⟩
abbrev S16x1x20x100 : Shape := ⟨4, ![16, 1, 20, 100]⟩
abbrev S16x128x20 : Shape := ⟨3, ![16, 128, 20]⟩
abbrev S16x1x20 : Shape := ⟨3, ![16, 1, 20]⟩
abbrev S1x20x1x100 : Shape := ⟨4, ![1, 20, 1, 100]⟩
abbrev S16x1x128x100 : Shape := ⟨4, ![16, 1, 128, 100]⟩
abbrev S16x20x128x100 : Shape := ⟨4, ![16, 20, 128, 100]⟩
abbrev S16x20x128x128 : Shape := ⟨4, ![16, 20, 128, 128]⟩
abbrev S16x20x128 : Shape := ⟨3, ![16, 20, 128]⟩
abbrev S16x20x128x1 : Shape := ⟨4, ![16, 20, 128, 1]⟩
abbrev S16x20x1x128 : Shape := ⟨4, ![16, 20, 1, 128]⟩
abbrev S16x128x128x20 : Shape := ⟨4, ![16, 128, 128, 20]⟩
abbrev S16x128x128x1 : Shape := ⟨4, ![16, 128, 128, 1]⟩
abbrev S16x128x128x100 : Shape := ⟨4, ![16, 128, 128, 100]⟩
abbrev S16x128x168 : Shape := ⟨3, ![16, 128, 168]⟩
abbrev S16x128x42 : Shape := ⟨3, ![16, 128, 42]⟩
abbrev S16x128x210 : Shape := ⟨3, ![16, 128, 210]⟩

abbrev nBuf : Space → Nat
  | .hbm => 928
  | .vmem => 0
  | .smem => 0
  | _ => 0

abbrev hbmTy0_0 (i : Nat) : BufTy := match i % 128 with
  | 0 => ⟨S16x128x200, .f32⟩
  | 1 => ⟨S16x128, .i32⟩
  | 2 => ⟨S16x128x200, .f32⟩
  | 3 => ⟨S16x128, .i32⟩
  | 4 => ⟨S8x20x100, .f32⟩
  | 5 => ⟨S16x128x100, .f32⟩
  | 6 => ⟨S16x128x100, .f32⟩
  | 7 => ⟨S16x128x100, .f32⟩
  | 8 => ⟨S16x128x100, .f32⟩
  | 9 => ⟨S_, .i32⟩
  | 10 => ⟨S16, .i32⟩
  | 11 => ⟨S_, .i32⟩
  | 12 => ⟨S16, .i32⟩
  | 13 => ⟨S_, .i32⟩
  | 14 => ⟨S16, .i32⟩
  | 15 => ⟨S16, .i32⟩
  | 16 => ⟨S_, .i32⟩
  | 17 => ⟨S_, .i32⟩
  | 18 => ⟨S16, .i32⟩
  | 19 => ⟨S16, .i32⟩
  | 20 => ⟨S_, .i32⟩
  | 21 => ⟨S16, .i32⟩
  | 22 => ⟨S16, .i32⟩
  | 23 => ⟨S_, .i32⟩
  | 24 => ⟨S_, .i32⟩
  | 25 => ⟨S16, .i32⟩
  | 26 => ⟨S16, .i32⟩
  | 27 => ⟨S16, .i32⟩
  | 28 => ⟨S_, .i32⟩
  | 29 => ⟨S16, .i32⟩
  | 30 => ⟨S16, .i1⟩
  | 31 => ⟨S_, .i32⟩
  | 32 => ⟨S16, .i32⟩
  | 33 => ⟨S16, .i32⟩
  | 34 => ⟨S16, .i32⟩
  | 35 => ⟨S_, .i32⟩
  | 36 => ⟨S16, .i32⟩
  | 37 => ⟨S16, .i1⟩
  | 38 => ⟨S_, .i32⟩
  | 39 => ⟨S16, .i32⟩
  | 40 => ⟨S16, .i32⟩
  | 41 => ⟨S16, .i32⟩
  | 42 => ⟨S16x1, .i32⟩
  | 43 => ⟨S16x1, .i32⟩
  | 44 => ⟨S16x2, .i32⟩
  | 45 => ⟨S16x100, .f32⟩
  | 46 => ⟨S16x1x100, .f32⟩
  | 47 => ⟨S_, .i32⟩
  | 48 => ⟨S16, .i32⟩
  | 49 => ⟨S16, .i1⟩
  | 50 => ⟨S_, .i32⟩
  | 51 => ⟨S16, .i32⟩
  | 52 => ⟨S16, .i32⟩
  | 53 => ⟨S16, .i32⟩
  | 54 => ⟨S_, .i32⟩
  | 55 => ⟨S16, .i32⟩
  | 56 => ⟨S16, .i1⟩
  | 57 => ⟨S_, .i32⟩
  | 58 => ⟨S16, .i32⟩
  | 59 => ⟨S16, .i32⟩
  | 60 => ⟨S16, .i32⟩
  | 61 => ⟨S16x1, .i32⟩
  | 62 => ⟨S16x1, .i32⟩
  | 63 => ⟨S16x2, .i32⟩
  | 64 => ⟨S16x100, .f32⟩
  | 65 => ⟨S16x1x100, .f32⟩
  | 66 => ⟨S16x1x100, .f32⟩
  | 67 => ⟨S16x1x100, .f32⟩
  | 68 => ⟨S16x128x100, .f32⟩
  | 69 => ⟨S_, .f32⟩
  | 70 => ⟨S16x128, .f32⟩
  | 71 => ⟨S16x128, .f32⟩
  | 72 => ⟨S16x128x1, .f32⟩
  | 73 => ⟨S16x128x100, .f32⟩
  | 74 => ⟨S_, .f32⟩
  | 75 => ⟨S16x128, .f32⟩
  | 76 => ⟨S16x128, .f32⟩
  | 77 => ⟨S16x1x128, .f32⟩
  | 78 => ⟨S16x128x128, .f32⟩
  | 79 => ⟨S16x128x128, .f32⟩
  | 80 => ⟨S16x128x128, .f32⟩
  | 81 => ⟨S16x128x128, .f32⟩
  | 82 => ⟨S_, .f32⟩
  | 83 => ⟨S16x128x128, .f32⟩
  | 84 => ⟨S16x128x128, .f32⟩
  | 85 => ⟨S16x128x128, .f32⟩
  | 86 => ⟨S16x128x100, .f32⟩
  | 87 => ⟨S_, .f32⟩
  | 88 => ⟨S16x128, .f32⟩
  | 89 => ⟨S16x128, .f32⟩
  | 90 => ⟨S16x128x1, .f32⟩
  | 91 => ⟨S16x128x100, .f32⟩
  | 92 => ⟨S_, .f32⟩
  | 93 => ⟨S16x128, .f32⟩
  | 94 => ⟨S16x128, .f32⟩
  | 95 => ⟨S16x1x128, .f32⟩
  | 96 => ⟨S16x128x128, .f32⟩
  | 97 => ⟨S16x128x128, .f32⟩
  | 98 => ⟨S16x128x128, .f32⟩
  | 99 => ⟨S16x128x128, .f32⟩
  | 100 => ⟨S_, .f32⟩
  | 101 => ⟨S16x128x128, .f32⟩
  | 102 => ⟨S16x128x128, .f32⟩
  | 103 => ⟨S16x128x128, .f32⟩
  | 104 => ⟨S_, .f32⟩
  | 105 => ⟨S16x128, .f32⟩
  | 106 => ⟨S16x128x1, .f32⟩
  | 107 => ⟨S_, .f32⟩
  | 108 => ⟨S16x128, .f32⟩
  | 109 => ⟨S16x128x1, .f32⟩
  | 110 => ⟨S_, .f32⟩
  | 111 => ⟨S16x128x1, .f32⟩
  | 112 => ⟨S16x128x1, .f32⟩
  | 113 => ⟨S_, .f32⟩
  | 114 => ⟨S16x128, .f32⟩
  | 115 => ⟨S16x128x1, .f32⟩
  | 116 => ⟨S_, .f32⟩
  | 117 => ⟨S16x128, .f32⟩
  | 118 => ⟨S16x128x1, .f32⟩
  | 119 => ⟨S_, .f32⟩
  | 120 => ⟨S16x128x1, .f32⟩
  | 121 => ⟨S16x128x1, .f32⟩
  | 122 => ⟨S_, .f32⟩
  | 123 => ⟨S16x128, .f32⟩
  | 124 => ⟨S16x128x1, .f32⟩
  | 125 => ⟨S_, .f32⟩
  | 126 => ⟨S16x128, .f32⟩
  | 127 => ⟨S_, .f32⟩
  | _ => ⟨S16x128x200, .f32⟩

abbrev hbmTy0_1 (i : Nat) : BufTy := match i % 128 with
  | 0 => ⟨S16x128, .f32⟩
  | 1 => ⟨S16x128, .f32⟩
  | 2 => ⟨S16x128x1, .f32⟩
  | 3 => ⟨S_, .f32⟩
  | 4 => ⟨S16x128, .f32⟩
  | 5 => ⟨S16x128x1, .f32⟩
  | 6 => ⟨S_, .f32⟩
  | 7 => ⟨S16x128, .f32⟩
  | 8 => ⟨S_, .f32⟩
  | 9 => ⟨S16x128, .f32⟩
  | 10 => ⟨S16x128, .f32⟩
  | 11 => ⟨S16x128x1, .f32⟩
  | 12 => ⟨S1x20x100, .f32⟩
  | 13 => ⟨S20x100, .f32⟩
  | 14 => ⟨S16x128x100, .f32⟩
  | 15 => ⟨S_, .f32⟩
  | 16 => ⟨S16x128, .f32⟩
  | 17 => ⟨S16x128, .f32⟩
  | 18 => ⟨S16x1x100, .f32⟩
  | 19 => ⟨S_, .f32⟩
  | 20 => ⟨S16x1, .f32⟩
  | 21 => ⟨S16x1, .f32⟩
  | 22 => ⟨S16x128x100, .f32⟩
  | 23 => ⟨S16x128x100, .f32⟩
  | 24 => ⟨S_, .f32⟩
  | 25 => ⟨S16x128, .f32⟩
  | 26 => ⟨S_, .f32⟩
  | 27 => ⟨S16x128, .f32⟩
  | 28 => ⟨S16x128, .f32⟩
  | 29 => ⟨S_, .f32⟩
  | 30 => ⟨S16x1, .f32⟩
  | 31 => ⟨S16x1, .f32⟩
  | 32 => ⟨S16x128, .f32⟩
  | 33 => ⟨S16x128, .f32⟩
  | 34 => ⟨S16x128, .f32⟩
  | 35 => ⟨S16x128x1, .f32⟩
  | 36 => ⟨S1x1x20x100, .f32⟩
  | 37 => ⟨S16x128x1x100, .f32⟩
  | 38 => ⟨S16x128x20x100, .f32⟩
  | 39 => ⟨S16x128x20x100, .f32⟩
  | 40 => ⟨S16x128x20x100, .f32⟩
  | 41 => ⟨S1x1x20x100, .f32⟩
  | 42 => ⟨S16x1x1x100, .f32⟩
  | 43 => ⟨S16x1x20x100, .f32⟩
  | 44 => ⟨S16x1x20x100, .f32⟩
  | 45 => ⟨S16x1x20x100, .f32⟩
  | 46 => ⟨S16x128x20x100, .f32⟩
  | 47 => ⟨S_, .f32⟩
  | 48 => ⟨S16x128x20, .f32⟩
  | 49 => ⟨S16x128x20, .f32⟩
  | 50 => ⟨S16x1x20x100, .f32⟩
  | 51 => ⟨S_, .f32⟩
  | 52 => ⟨S16x1x20, .f32⟩
  | 53 => ⟨S16x1x20, .f32⟩
  | 54 => ⟨S16x128x20x100, .f32⟩
  | 55 => ⟨S16x128x20x100, .f32⟩
  | 56 => ⟨S_, .f32⟩
  | 57 => ⟨S16x128x20, .f32⟩
  | 58 => ⟨S_, .f32⟩
  | 59 => ⟨S16x128x20, .f32⟩
  | 60 => ⟨S16x128x20, .f32⟩
  | 61 => ⟨S_, .f32⟩
  | 62 => ⟨S16x1x20, .f32⟩
  | 63 => ⟨S16x1x20, .f32⟩
  | 64 => ⟨S16x128x20, .f32⟩
  | 65 => ⟨S16x128x20, .f32⟩
  | 66 => ⟨S16x128x20, .f32⟩
  | 67 => ⟨S1x20x100, .f32⟩
  | 68 => ⟨S20x100, .f32⟩
  | 69 => ⟨S16x128x100, .f32⟩
  | 70 => ⟨S_, .f32⟩
  | 71 => ⟨S16x128, .f32⟩
  | 72 => ⟨S16x128, .f32⟩
  | 73 => ⟨S16x1x100, .f32⟩
  | 74 => ⟨S_, .f32⟩
  | 75 => ⟨S16x1, .f32⟩
  | 76 => ⟨S16x1, .f32⟩
  | 77 => ⟨S16x128x100, .f32⟩
  | 78 => ⟨S16x128x100, .f32⟩
  | 79 => ⟨S_, .f32⟩
  | 80 => ⟨S16x128, .f32⟩
  | 81 => ⟨S_, .f32⟩
  | 82 => ⟨S16x128, .f32⟩
  | 83 => ⟨S16x128, .f32⟩
  | 84 => ⟨S_, .f32⟩
  | 85 => ⟨S16x1, .f32⟩
  | 86 => ⟨S16x1, .f32⟩
  | 87 => ⟨S16x128, .f32⟩
  | 88 => ⟨S16x128, .f32⟩
  | 89 => ⟨S16x128, .f32⟩
  | 90 => ⟨S16x128x1, .f32⟩
  | 91 => ⟨S1x1x20x100, .f32⟩
  | 92 => ⟨S16x128x1x100, .f32⟩
  | 93 => ⟨S16x128x20x100, .f32⟩
  | 94 => ⟨S16x128x20x100, .f32⟩
  | 95 => ⟨S16x128x20x100, .f32⟩
  | 96 => ⟨S1x1x20x100, .f32⟩
  | 97 => ⟨S16x1x1x100, .f32⟩
  | 98 => ⟨S16x1x20x100, .f32⟩
  | 99 => ⟨S16x1x20x100, .f32⟩
  | 100 => ⟨S16x1x20x100, .f32⟩
  | 101 => ⟨S16x128x20x100, .f32⟩
  | 102 => ⟨S_, .f32⟩
  | 103 => ⟨S16x128x20, .f32⟩
  | 104 => ⟨S16x128x20, .f32⟩
  | 105 => ⟨S16x1x20x100, .f32⟩
  | 106 => ⟨S_, .f32⟩
  | 107 => ⟨S16x1x20, .f32⟩
  | 108 => ⟨S16x1x20, .f32⟩
  | 109 => ⟨S16x128x20x100, .f32⟩
  | 110 => ⟨S16x128x20x100, .f32⟩
  | 111 => ⟨S_, .f32⟩
  | 112 => ⟨S16x128x20, .f32⟩
  | 113 => ⟨S_, .f32⟩
  | 114 => ⟨S16x128x20, .f32⟩
  | 115 => ⟨S16x128x20, .f32⟩
  | 116 => ⟨S_, .f32⟩
  | 117 => ⟨S16x1x20, .f32⟩
  | 118 => ⟨S16x1x20, .f32⟩
  | 119 => ⟨S16x128x20, .f32⟩
  | 120 => ⟨S16x128x20, .f32⟩
  | 121 => ⟨S16x128x20, .f32⟩
  | 122 => ⟨S1x20x100, .f32⟩
  | 123 => ⟨S20x100, .f32⟩
  | 124 => ⟨S16x128x100, .f32⟩
  | 125 => ⟨S_, .f32⟩
  | 126 => ⟨S16x128, .f32⟩
  | 127 => ⟨S16x128, .f32⟩
  | _ => ⟨S16x128x200, .f32⟩

abbrev hbmTy0_2 (i : Nat) : BufTy := match i % 128 with
  | 0 => ⟨S16x1x100, .f32⟩
  | 1 => ⟨S_, .f32⟩
  | 2 => ⟨S16x1, .f32⟩
  | 3 => ⟨S16x1, .f32⟩
  | 4 => ⟨S16x128x100, .f32⟩
  | 5 => ⟨S16x128x100, .f32⟩
  | 6 => ⟨S_, .f32⟩
  | 7 => ⟨S16x128, .f32⟩
  | 8 => ⟨S_, .f32⟩
  | 9 => ⟨S16x128, .f32⟩
  | 10 => ⟨S16x128, .f32⟩
  | 11 => ⟨S_, .f32⟩
  | 12 => ⟨S16x1, .f32⟩
  | 13 => ⟨S16x1, .f32⟩
  | 14 => ⟨S16x128, .f32⟩
  | 15 => ⟨S16x128, .f32⟩
  | 16 => ⟨S16x128, .f32⟩
  | 17 => ⟨S16x128x1, .f32⟩
  | 18 => ⟨S1x1x20x100, .f32⟩
  | 19 => ⟨S16x128x1x100, .f32⟩
  | 20 => ⟨S16x128x20x100, .f32⟩
  | 21 => ⟨S16x128x20x100, .f32⟩
  | 22 => ⟨S16x128x20x100, .f32⟩
  | 23 => ⟨S1x1x20x100, .f32⟩
  | 24 => ⟨S16x1x1x100, .f32⟩
  | 25 => ⟨S16x1x20x100, .f32⟩
  | 26 => ⟨S16x1x20x100, .f32⟩
  | 27 => ⟨S16x1x20x100, .f32⟩
  | 28 => ⟨S16x128x20x100, .f32⟩
  | 29 => ⟨S_, .f32⟩
  | 30 => ⟨S16x128x20, .f32⟩
  | 31 => ⟨S16x128x20, .f32⟩
  | 32 => ⟨S16x1x20x100, .f32⟩
  | 33 => ⟨S_, .f32⟩
  | 34 => ⟨S16x1x20, .f32⟩
  | 35 => ⟨S16x1x20, .f32⟩
  | 36 => ⟨S16x128x20x100, .f32⟩
  | 37 => ⟨S16x128x20x100, .f32⟩
  | 38 => ⟨S_, .f32⟩
  | 39 => ⟨S16x128x20, .f32⟩
  | 40 => ⟨S_, .f32⟩
  | 41 => ⟨S16x128x20, .f32⟩
  | 42 => ⟨S16x128x20, .f32⟩
  | 43 => ⟨S_, .f32⟩
  | 44 => ⟨S16x1x20, .f32⟩
  | 45 => ⟨S16x1x20, .f32⟩
  | 46 => ⟨S16x128x20, .f32⟩
  | 47 => ⟨S16x128x20, .f32⟩
  | 48 => ⟨S16x128x20, .f32⟩
  | 49 => ⟨S1x20x100, .f32⟩
  | 50 => ⟨S20x100, .f32⟩
  | 51 => ⟨S16x128x100, .f32⟩
  | 52 => ⟨S_, .f32⟩
  | 53 => ⟨S16x128, .f32⟩
  | 54 => ⟨S16x128, .f32⟩
  | 55 => ⟨S16x1x100, .f32⟩
  | 56 => ⟨S_, .f32⟩
  | 57 => ⟨S16x1, .f32⟩
  | 58 => ⟨S16x1, .f32⟩
  | 59 => ⟨S16x128x100, .f32⟩
  | 60 => ⟨S16x128x100, .f32⟩
  | 61 => ⟨S_, .f32⟩
  | 62 => ⟨S16x128, .f32⟩
  | 63 => ⟨S_, .f32⟩
  | 64 => ⟨S16x128, .f32⟩
  | 65 => ⟨S16x128, .f32⟩
  | 66 => ⟨S_, .f32⟩
  | 67 => ⟨S16x1, .f32⟩
  | 68 => ⟨S16x1, .f32⟩
  | 69 => ⟨S16x128, .f32⟩
  | 70 => ⟨S16x128, .f32⟩
  | 71 => ⟨S16x128, .f32⟩
  | 72 => ⟨S16x128x1, .f32⟩
  | 73 => ⟨S1x1x20x100, .f32⟩
  | 74 => ⟨S16x128x1x100, .f32⟩
  | 75 => ⟨S16x128x20x100, .f32⟩
  | 76 => ⟨S16x128x20x100, .f32⟩
  | 77 => ⟨S16x128x20x100, .f32⟩
  | 78 => ⟨S1x1x20x100, .f32⟩
  | 79 => ⟨S16x1x1x100, .f32⟩
  | 80 => ⟨S16x1x20x100, .f32⟩
  | 81 => ⟨S16x1x20x100, .f32⟩
  | 82 => ⟨S16x1x20x100, .f32⟩
  | 83 => ⟨S16x128x20x100, .f32⟩
  | 84 => ⟨S_, .f32⟩
  | 85 => ⟨S16x128x20, .f32⟩
  | 86 => ⟨S16x128x20, .f32⟩
  | 87 => ⟨S16x1x20x100, .f32⟩
  | 88 => ⟨S_, .f32⟩
  | 89 => ⟨S16x1x20, .f32⟩
  | 90 => ⟨S16x1x20, .f32⟩
  | 91 => ⟨S16x128x20x100, .f32⟩
  | 92 => ⟨S16x128x20x100, .f32⟩
  | 93 => ⟨S_, .f32⟩
  | 94 => ⟨S16x128x20, .f32⟩
  | 95 => ⟨S_, .f32⟩
  | 96 => ⟨S16x128x20, .f32⟩
  | 97 => ⟨S16x128x20, .f32⟩
  | 98 => ⟨S_, .f32⟩
  | 99 => ⟨S16x1x20, .f32⟩
  | 100 => ⟨S16x1x20, .f32⟩
  | 101 => ⟨S16x128x20, .f32⟩
  | 102 => ⟨S16x128x20, .f32⟩
  | 103 => ⟨S16x128x20, .f32⟩
  | 104 => ⟨S1x20x100, .f32⟩
  | 105 => ⟨S20x100, .f32⟩
  | 106 => ⟨S1x20x1x100, .f32⟩
  | 107 => ⟨S16x1x128x100, .f32⟩
  | 108 => ⟨S16x20x128x100, .f32⟩
  | 109 => ⟨S16x20x128x100, .f32⟩
  | 110 => ⟨S16x20x128x100, .f32⟩
  | 111 => ⟨S1x20x1x100, .f32⟩
  | 112 => ⟨S16x1x128x100, .f32⟩
  | 113 => ⟨S16x20x128x100, .f32⟩
  | 114 => ⟨S16x20x128x100, .f32⟩
  | 115 => ⟨S16x20x128x100, .f32⟩
  | 116 => ⟨S16x20x128x128, .f32⟩
  | 117 => ⟨S16x20x128x100, .f32⟩
  | 118 => ⟨S_, .f32⟩
  | 119 => ⟨S16x20x128, .f32⟩
  | 120 => ⟨S16x20x128, .f32⟩
  | 121 => ⟨S16x20x128x1, .f32⟩
  | 122 => ⟨S16x20x128x100, .f32⟩
  | 123 => ⟨S_, .f32⟩
  | 124 => ⟨S16x20x128, .f32⟩
  | 125 => ⟨S16x20x128, .f32⟩
  | 126 => ⟨S16x20x1x128, .f32⟩
  | 127 => ⟨S16x20x128x128, .f32⟩
  | _ => ⟨S16x128x200, .f32⟩

abbrev hbmTy0_3 (i : Nat) : BufTy := match i % 128 with
  | 0 => ⟨S16x20x128x128, .f32⟩
  | 1 => ⟨S16x20x128x128, .f32⟩
  | 2 => ⟨S_, .f32⟩
  | 3 => ⟨S16x20x128x128, .f32⟩
  | 4 => ⟨S16x20x128x128, .f32⟩
  | 5 => ⟨S16x20x128x128, .f32⟩
  | 6 => ⟨S16x128x128x20, .f32⟩
  | 7 => ⟨S1x20x100, .f32⟩
  | 8 => ⟨S20x100, .f32⟩
  | 9 => ⟨S1x20x1x100, .f32⟩
  | 10 => ⟨S16x1x128x100, .f32⟩
  | 11 => ⟨S16x20x128x100, .f32⟩
  | 12 => ⟨S16x20x128x100, .f32⟩
  | 13 => ⟨S16x20x128x100, .f32⟩
  | 14 => ⟨S1x20x1x100, .f32⟩
  | 15 => ⟨S16x1x128x100, .f32⟩
  | 16 => ⟨S16x20x128x100, .f32⟩
  | 17 => ⟨S16x20x128x100, .f32⟩
  | 18 => ⟨S16x20x128x100, .f32⟩
  | 19 => ⟨S16x20x128x128, .f32⟩
  | 20 => ⟨S16x20x128x100, .f32⟩
  | 21 => ⟨S_, .f32⟩
  | 22 => ⟨S16x20x128, .f32⟩
  | 23 => ⟨S16x20x128, .f32⟩
  | 24 => ⟨S16x20x128x1, .f32⟩
  | 25 => ⟨S16x20x128x100, .f32⟩
  | 26 => ⟨S_, .f32⟩
  | 27 => ⟨S16x20x128, .f32⟩
  | 28 => ⟨S16x20x128, .f32⟩
  | 29 => ⟨S16x20x1x128, .f32⟩
  | 30 => ⟨S16x20x128x128, .f32⟩
  | 31 => ⟨S16x20x128x128, .f32⟩
  | 32 => ⟨S16x20x128x128, .f32⟩
  | 33 => ⟨S_, .f32⟩
  | 34 => ⟨S16x20x128x128, .f32⟩
  | 35 => ⟨S16x20x128x128, .f32⟩
  | 36 => ⟨S16x20x128x128, .f32⟩
  | 37 => ⟨S16x128x128x20, .f32⟩
  | 38 => ⟨S_, .f32⟩
  | 39 => ⟨S16x128x20, .f32⟩
  | 40 => ⟨S_, .f32⟩
  | 41 => ⟨S16x128x20, .f32⟩
  | 42 => ⟨S_, .f32⟩
  | 43 => ⟨S16x128x20, .f32⟩
  | 44 => ⟨S16x128x20, .f32⟩
  | 45 => ⟨S_, .f32⟩
  | 46 => ⟨S16x128x20, .f32⟩
  | 47 => ⟨S_, .f32⟩
  | 48 => ⟨S16x128x20, .f32⟩
  | 49 => ⟨S_, .f32⟩
  | 50 => ⟨S16x128x20, .f32⟩
  | 51 => ⟨S16x128x20, .f32⟩
  | 52 => ⟨S_, .f32⟩
  | 53 => ⟨S16x128x20, .f32⟩
  | 54 => ⟨S_, .f32⟩
  | 55 => ⟨S16x128x20, .f32⟩
  | 56 => ⟨S_, .f32⟩
  | 57 => ⟨S16x128x20, .f32⟩
  | 58 => ⟨S16x128x20, .f32⟩
  | 59 => ⟨S_, .f32⟩
  | 60 => ⟨S16x128x20, .f32⟩
  | 61 => ⟨S_, .f32⟩
  | 62 => ⟨S16x128x20, .f32⟩
  | 63 => ⟨S_, .f32⟩
  | 64 => ⟨S16x128x20, .f32⟩
  | 65 => ⟨S16x128x20, .f32⟩
  | 66 => ⟨S16x128x100, .f32⟩
  | 67 => ⟨S_, .f32⟩
  | 68 => ⟨S16x128, .f32⟩
  | 69 => ⟨S16x128x1, .f32⟩
  | 70 => ⟨S_, .f32⟩
  | 71 => ⟨S16x128x1, .f32⟩
  | 72 => ⟨S16x128x1, .f32⟩
  | 73 => ⟨S16x128x100, .f32⟩
  | 74 => ⟨S16x128x100, .f32⟩
  | 75 => ⟨S16x128x100, .f32⟩
  | 76 => ⟨S_, .f32⟩
  | 77 => ⟨S16x128, .f32⟩
  | 78 => ⟨S16x128x1, .f32⟩
  | 79 => ⟨S_, .f32⟩
  | 80 => ⟨S16x128x1, .f32⟩
  | 81 => ⟨S16x128x1, .f32⟩
  | 82 => ⟨S16x128x100, .f32⟩
  | 83 => ⟨S16x128x100, .f32⟩
  | 84 => ⟨S16x128x100, .f32⟩
  | 85 => ⟨S_, .f32⟩
  | 86 => ⟨S16x128, .f32⟩
  | 87 => ⟨S16x128x1, .f32⟩
  | 88 => ⟨S_, .f32⟩
  | 89 => ⟨S16x128x1, .f32⟩
  | 90 => ⟨S16x128x1, .f32⟩
  | 91 => ⟨S16x128x100, .f32⟩
  | 92 => ⟨S16x128x100, .f32⟩
  | 93 => ⟨S16x128x100, .f32⟩
  | 94 => ⟨S_, .f32⟩
  | 95 => ⟨S16x128, .f32⟩
  | 96 => ⟨S16x128x1, .f32⟩
  | 97 => ⟨S_, .f32⟩
  | 98 => ⟨S16x128x1, .f32⟩
  | 99 => ⟨S16x128x1, .f32⟩
  | 100 => ⟨S16x128x100, .f32⟩
  | 101 => ⟨S16x128x100, .f32⟩
  | 102 => ⟨S1x20x100, .f32⟩
  | 103 => ⟨S20x100, .f32⟩
  | 104 => ⟨S16x128x100, .f32⟩
  | 105 => ⟨S_, .f32⟩
  | 106 => ⟨S16x128, .f32⟩
  | 107 => ⟨S16x128, .f32⟩
  | 108 => ⟨S16x128x100, .f32⟩
  | 109 => ⟨S_, .f32⟩
  | 110 => ⟨S16x128, .f32⟩
  | 111 => ⟨S16x128, .f32⟩
  | 112 => ⟨S16x128x100, .f32⟩
  | 113 => ⟨S_, .f32⟩
  | 114 => ⟨S16x128, .f32⟩
  | 115 => ⟨S_, .f32⟩
  | 116 => ⟨S16x128, .f32⟩
  | 117 => ⟨S16x128, .f32⟩
  | 118 => ⟨S_, .f32⟩
  | 119 => ⟨S16x128, .f32⟩
  | 120 => ⟨S16x128, .f32⟩
  | 121 => ⟨S16x128, .f32⟩
  | 122 => ⟨S16x128, .f32⟩
  | 123 => ⟨S16x128x1, .f32⟩
  | 124 => ⟨S1x1x20x100, .f32⟩
  | 125 => ⟨S16x128x1x100, .f32⟩
  | 126 => ⟨S16x128x20x100, .f32⟩
  | 127 => ⟨S16x128x20x100, .f32⟩
  | _ => ⟨S16x128x200, .f32⟩

abbrev hbmTy0_4 (i : Nat) : BufTy := match i % 128 with
  | 0 => ⟨S16x128x20x100, .f32⟩
  | 1 => ⟨S1x1x20x100, .f32⟩
  | 2 => ⟨S16x128x1x100, .f32⟩
  | 3 => ⟨S16x128x20x100, .f32⟩
  | 4 => ⟨S16x128x20x100, .f32⟩
  | 5 => ⟨S16x128x20x100, .f32⟩
  | 6 => ⟨S16x128x20x100, .f32⟩
  | 7 => ⟨S_, .f32⟩
  | 8 => ⟨S16x128x20, .f32⟩
  | 9 => ⟨S16x128x20, .f32⟩
  | 10 => ⟨S16x128x20x100, .f32⟩
  | 11 => ⟨S_, .f32⟩
  | 12 => ⟨S16x128x20, .f32⟩
  | 13 => ⟨S16x128x20, .f32⟩
  | 14 => ⟨S16x128x20x100, .f32⟩
  | 15 => ⟨S_, .f32⟩
  | 16 => ⟨S16x128x20, .f32⟩
  | 17 => ⟨S_, .f32⟩
  | 18 => ⟨S16x128x20, .f32⟩
  | 19 => ⟨S16x128x20, .f32⟩
  | 20 => ⟨S_, .f32⟩
  | 21 => ⟨S16x128x20, .f32⟩
  | 22 => ⟨S16x128x20, .f32⟩
  | 23 => ⟨S16x128x20, .f32⟩
  | 24 => ⟨S16x128x20, .f32⟩
  | 25 => ⟨S1x20x100, .f32⟩
  | 26 => ⟨S20x100, .f32⟩
  | 27 => ⟨S16x128x100, .f32⟩
  | 28 => ⟨S_, .f32⟩
  | 29 => ⟨S16x128, .f32⟩
  | 30 => ⟨S16x128, .f32⟩
  | 31 => ⟨S16x128x100, .f32⟩
  | 32 => ⟨S_, .f32⟩
  | 33 => ⟨S16x128, .f32⟩
  | 34 => ⟨S16x128, .f32⟩
  | 35 => ⟨S16x128x100, .f32⟩
  | 36 => ⟨S_, .f32⟩
  | 37 => ⟨S16x128, .f32⟩
  | 38 => ⟨S_, .f32⟩
  | 39 => ⟨S16x128, .f32⟩
  | 40 => ⟨S16x128, .f32⟩
  | 41 => ⟨S_, .f32⟩
  | 42 => ⟨S16x128, .f32⟩
  | 43 => ⟨S16x128, .f32⟩
  | 44 => ⟨S16x128, .f32⟩
  | 45 => ⟨S16x128, .f32⟩
  | 46 => ⟨S16x128x1, .f32⟩
  | 47 => ⟨S1x1x20x100, .f32⟩
  | 48 => ⟨S16x128x1x100, .f32⟩
  | 49 => ⟨S16x128x20x100, .f32⟩
  | 50 => ⟨S16x128x20x100, .f32⟩
  | 51 => ⟨S16x128x20x100, .f32⟩
  | 52 => ⟨S1x1x20x100, .f32⟩
  | 53 => ⟨S16x128x1x100, .f32⟩
  | 54 => ⟨S16x128x20x100, .f32⟩
  | 55 => ⟨S16x128x20x100, .f32⟩
  | 56 => ⟨S16x128x20x100, .f32⟩
  | 57 => ⟨S16x128x20x100, .f32⟩
  | 58 => ⟨S_, .f32⟩
  | 59 => ⟨S16x128x20, .f32⟩
  | 60 => ⟨S16x128x20, .f32⟩
  | 61 => ⟨S16x128x20x100, .f32⟩
  | 62 => ⟨S_, .f32⟩
  | 63 => ⟨S16x128x20, .f32⟩
  | 64 => ⟨S16x128x20, .f32⟩
  | 65 => ⟨S16x128x20x100, .f32⟩
  | 66 => ⟨S_, .f32⟩
  | 67 => ⟨S16x128x20, .f32⟩
  | 68 => ⟨S_, .f32⟩
  | 69 => ⟨S16x128x20, .f32⟩
  | 70 => ⟨S16x128x20, .f32⟩
  | 71 => ⟨S_, .f32⟩
  | 72 => ⟨S16x128x20, .f32⟩
  | 73 => ⟨S16x128x20, .f32⟩
  | 74 => ⟨S16x128x20, .f32⟩
  | 75 => ⟨S16x128x20, .f32⟩
  | 76 => ⟨S1x20x100, .f32⟩
  | 77 => ⟨S20x100, .f32⟩
  | 78 => ⟨S16x128x100, .f32⟩
  | 79 => ⟨S_, .f32⟩
  | 80 => ⟨S16x128, .f32⟩
  | 81 => ⟨S16x128, .f32⟩
  | 82 => ⟨S16x128x100, .f32⟩
  | 83 => ⟨S_, .f32⟩
  | 84 => ⟨S16x128, .f32⟩
  | 85 => ⟨S16x128, .f32⟩
  | 86 => ⟨S16x128x100, .f32⟩
  | 87 => ⟨S_, .f32⟩
  | 88 => ⟨S16x128, .f32⟩
  | 89 => ⟨S_, .f32⟩
  | 90 => ⟨S16x128, .f32⟩
  | 91 => ⟨S16x128, .f32⟩
  | 92 => ⟨S_, .f32⟩
  | 93 => ⟨S16x128, .f32⟩
  | 94 => ⟨S16x128, .f32⟩
  | 95 => ⟨S16x128, .f32⟩
  | 96 => ⟨S16x128, .f32⟩
  | 97 => ⟨S16x128x1, .f32⟩
  | 98 => ⟨S1x1x20x100, .f32⟩
  | 99 => ⟨S16x128x1x100, .f32⟩
  | 100 => ⟨S16x128x20x100, .f32⟩
  | 101 => ⟨S16x128x20x100, .f32⟩
  | 102 => ⟨S16x128x20x100, .f32⟩
  | 103 => ⟨S1x1x20x100, .f32⟩
  | 104 => ⟨S16x128x1x100, .f32⟩
  | 105 => ⟨S16x128x20x100, .f32⟩
  | 106 => ⟨S16x128x20x100, .f32⟩
  | 107 => ⟨S16x128x20x100, .f32⟩
  | 108 => ⟨S16x128x20x100, .f32⟩
  | 109 => ⟨S_, .f32⟩
  | 110 => ⟨S16x128x20, .f32⟩
  | 111 => ⟨S16x128x20, .f32⟩
  | 112 => ⟨S16x128x20x100, .f32⟩
  | 113 => ⟨S_, .f32⟩
  | 114 => ⟨S16x128x20, .f32⟩
  | 115 => ⟨S16x128x20, .f32⟩
  | 116 => ⟨S16x128x20x100, .f32⟩
  | 117 => ⟨S_, .f32⟩
  | 118 => ⟨S16x128x20, .f32⟩
  | 119 => ⟨S_, .f32⟩
  | 120 => ⟨S16x128x20, .f32⟩
  | 121 => ⟨S16x128x20, .f32⟩
  | 122 => ⟨S_, .f32⟩
  | 123 => ⟨S16x128x20, .f32⟩
  | 124 => ⟨S16x128x20, .f32⟩
  | 125 => ⟨S16x128x20, .f32⟩
  | 126 => ⟨S16x128x20, .f32⟩
  | 127 => ⟨S1x20x100, .f32⟩
  | _ => ⟨S16x128x200, .f32⟩

abbrev hbmTy0_5 (i : Nat) : BufTy := match i % 128 with
  | 0 => ⟨S20x100, .f32⟩
  | 1 => ⟨S16x128x100, .f32⟩
  | 2 => ⟨S_, .f32⟩
  | 3 => ⟨S16x128, .f32⟩
  | 4 => ⟨S16x128, .f32⟩
  | 5 => ⟨S16x128x100, .f32⟩
  | 6 => ⟨S_, .f32⟩
  | 7 => ⟨S16x128, .f32⟩
  | 8 => ⟨S16x128, .f32⟩
  | 9 => ⟨S16x128x100, .f32⟩
  | 10 => ⟨S_, .f32⟩
  | 11 => ⟨S16x128, .f32⟩
  | 12 => ⟨S_, .f32⟩
  | 13 => ⟨S16x128, .f32⟩
  | 14 => ⟨S16x128, .f32⟩
  | 15 => ⟨S_, .f32⟩
  | 16 => ⟨S16x128, .f32⟩
  | 17 => ⟨S16x128, .f32⟩
  | 18 => ⟨S16x128, .f32⟩
  | 19 => ⟨S16x128, .f32⟩
  | 20 => ⟨S16x128x1, .f32⟩
  | 21 => ⟨S1x1x20x100, .f32⟩
  | 22 => ⟨S16x128x1x100, .f32⟩
  | 23 => ⟨S16x128x20x100, .f32⟩
  | 24 => ⟨S16x128x20x100, .f32⟩
  | 25 => ⟨S16x128x20x100, .f32⟩
  | 26 => ⟨S1x1x20x100, .f32⟩
  | 27 => ⟨S16x128x1x100, .f32⟩
  | 28 => ⟨S16x128x20x100, .f32⟩
  | 29 => ⟨S16x128x20x100, .f32⟩
  | 30 => ⟨S16x128x20x100, .f32⟩
  | 31 => ⟨S16x128x20x100, .f32⟩
  | 32 => ⟨S_, .f32⟩
  | 33 => ⟨S16x128x20, .f32⟩
  | 34 => ⟨S16x128x20, .f32⟩
  | 35 => ⟨S16x128x20x100, .f32⟩
  | 36 => ⟨S_, .f32⟩
  | 37 => ⟨S16x128x20, .f32⟩
  | 38 => ⟨S16x128x20, .f32⟩
  | 39 => ⟨S16x128x20x100, .f32⟩
  | 40 => ⟨S_, .f32⟩
  | 41 => ⟨S16x128x20, .f32⟩
  | 42 => ⟨S_, .f32⟩
  | 43 => ⟨S16x128x20, .f32⟩
  | 44 => ⟨S16x128x20, .f32⟩
  | 45 => ⟨S_, .f32⟩
  | 46 => ⟨S16x128x20, .f32⟩
  | 47 => ⟨S16x128x20, .f32⟩
  | 48 => ⟨S16x128x20, .f32⟩
  | 49 => ⟨S16x128x20, .f32⟩
  | 50 => ⟨S16x1x128x100, .f32⟩
  | 51 => ⟨S16x128x128x1, .f32⟩
  | 52 => ⟨S16x128x128x100, .f32⟩
  | 53 => ⟨S16x128x128x100, .f32⟩
  | 54 => ⟨S16x128x128x100, .f32⟩
  | 55 => ⟨S_, .f32⟩
  | 56 => ⟨S16x128x100, .f32⟩
  | 57 => ⟨S16x1x128x100, .f32⟩
  | 58 => ⟨S16x128x128x1, .f32⟩
  | 59 => ⟨S16x128x128x100, .f32⟩
  | 60 => ⟨S16x128x128x100, .f32⟩
  | 61 => ⟨S16x128x128x100, .f32⟩
  | 62 => ⟨S_, .f32⟩
  | 63 => ⟨S16x128x100, .f32⟩
  | 64 => ⟨S16x128x1x100, .f32⟩
  | 65 => ⟨S16x128x128x1, .f32⟩
  | 66 => ⟨S16x128x128x100, .f32⟩
  | 67 => ⟨S16x128x128x100, .f32⟩
  | 68 => ⟨S16x128x128x100, .f32⟩
  | 69 => ⟨S_, .f32⟩
  | 70 => ⟨S16x128x100, .f32⟩
  | 71 => ⟨S16x128x1x100, .f32⟩
  | 72 => ⟨S16x128x128x1, .f32⟩
  | 73 => ⟨S16x128x128x100, .f32⟩
  | 74 => ⟨S16x128x128x100, .f32⟩
  | 75 => ⟨S16x128x128x100, .f32⟩
  | 76 => ⟨S_, .f32⟩
  | 77 => ⟨S16x128x100, .f32⟩
  | 78 => ⟨S1x20x100, .f32⟩
  | 79 => ⟨S20x100, .f32⟩
  | 80 => ⟨S16x128x100, .f32⟩
  | 81 => ⟨S_, .f32⟩
  | 82 => ⟨S16x128, .f32⟩
  | 83 => ⟨S16x128, .f32⟩
  | 84 => ⟨S16x128x100, .f32⟩
  | 85 => ⟨S_, .f32⟩
  | 86 => ⟨S16x128, .f32⟩
  | 87 => ⟨S16x128, .f32⟩
  | 88 => ⟨S16x128x100, .f32⟩
  | 89 => ⟨S_, .f32⟩
  | 90 => ⟨S16x128, .f32⟩
  | 91 => ⟨S_, .f32⟩
  | 92 => ⟨S16x128, .f32⟩
  | 93 => ⟨S16x128, .f32⟩
  | 94 => ⟨S_, .f32⟩
  | 95 => ⟨S16x128, .f32⟩
  | 96 => ⟨S16x128, .f32⟩
  | 97 => ⟨S16x128, .f32⟩
  | 98 => ⟨S16x128, .f32⟩
  | 99 => ⟨S16x128x1, .f32⟩
  | 100 => ⟨S1x1x20x100, .f32⟩
  | 101 => ⟨S16x128x1x100, .f32⟩
  | 102 => ⟨S16x128x20x100, .f32⟩
  | 103 => ⟨S16x128x20x100, .f32⟩
  | 104 => ⟨S16x128x20x100, .f32⟩
  | 105 => ⟨S1x1x20x100, .f32⟩
  | 106 => ⟨S16x128x1x100, .f32⟩
  | 107 => ⟨S16x128x20x100, .f32⟩
  | 108 => ⟨S16x128x20x100, .f32⟩
  | 109 => ⟨S16x128x20x100, .f32⟩
  | 110 => ⟨S16x128x20x100, .f32⟩
  | 111 => ⟨S_, .f32⟩
  | 112 => ⟨S16x128x20, .f32⟩
  | 113 => ⟨S16x128x20, .f32⟩
  | 114 => ⟨S16x128x20x100, .f32⟩
  | 115 => ⟨S_, .f32⟩
  | 116 => ⟨S16x128x20, .f32⟩
  | 117 => ⟨S16x128x20, .f32⟩
  | 118 => ⟨S16x128x20x100, .f32⟩
  | 119 => ⟨S_, .f32⟩
  | 120 => ⟨S16x128x20, .f32⟩
  | 121 => ⟨S_, .f32⟩
  | 122 => ⟨S16x128x20, .f32⟩
  | 123 => ⟨S16x128x20, .f32⟩
  | 124 => ⟨S_, .f32⟩
  | 125 => ⟨S16x128x20, .f32⟩
  | 126 => ⟨S16x128x20, .f32⟩
  | 127 => ⟨S16x128x20, .f32⟩
  | _ => ⟨S16x128x200, .f32⟩

abbrev hbmTy0_6 (i : Nat) : BufTy := match i % 128 with
  | 0 => ⟨S16x128x20, .f32⟩
  | 1 => ⟨S1x20x100, .f32⟩
  | 2 => ⟨S20x100, .f32⟩
  | 3 => ⟨S16x128x100, .f32⟩
  | 4 => ⟨S_, .f32⟩
  | 5 => ⟨S16x128, .f32⟩
  | 6 => ⟨S16x128, .f32⟩
  | 7 => ⟨S16x128x100, .f32⟩
  | 8 => ⟨S_, .f32⟩
  | 9 => ⟨S16x128, .f32⟩
  | 10 => ⟨S16x128, .f32⟩
  | 11 => ⟨S16x128x100, .f32⟩
  | 12 => ⟨S_, .f32⟩
  | 13 => ⟨S16x128, .f32⟩
  | 14 => ⟨S_, .f32⟩
  | 15 => ⟨S16x128, .f32⟩
  | 16 => ⟨S16x128, .f32⟩
  | 17 => ⟨S_, .f32⟩
  | 18 => ⟨S16x128, .f32⟩
  | 19 => ⟨S16x128, .f32⟩
  | 20 => ⟨S16x128, .f32⟩
  | 21 => ⟨S16x128, .f32⟩
  | 22 => ⟨S16x128x1, .f32⟩
  | 23 => ⟨S1x1x20x100, .f32⟩
  | 24 => ⟨S16x128x1x100, .f32⟩
  | 25 => ⟨S16x128x20x100, .f32⟩
  | 26 => ⟨S16x128x20x100, .f32⟩
  | 27 => ⟨S16x128x20x100, .f32⟩
  | 28 => ⟨S1x1x20x100, .f32⟩
  | 29 => ⟨S16x128x1x100, .f32⟩
  | 30 => ⟨S16x128x20x100, .f32⟩
  | 31 => ⟨S16x128x20x100, .f32⟩
  | 32 => ⟨S16x128x20x100, .f32⟩
  | 33 => ⟨S16x128x20x100, .f32⟩
  | 34 => ⟨S_, .f32⟩
  | 35 => ⟨S16x128x20, .f32⟩
  | 36 => ⟨S16x128x20, .f32⟩
  | 37 => ⟨S16x128x20x100, .f32⟩
  | 38 => ⟨S_, .f32⟩
  | 39 => ⟨S16x128x20, .f32⟩
  | 40 => ⟨S16x128x20, .f32⟩
  | 41 => ⟨S16x128x20x100, .f32⟩
  | 42 => ⟨S_, .f32⟩
  | 43 => ⟨S16x128x20, .f32⟩
  | 44 => ⟨S_, .f32⟩
  | 45 => ⟨S16x128x20, .f32⟩
  | 46 => ⟨S16x128x20, .f32⟩
  | 47 => ⟨S_, .f32⟩
  | 48 => ⟨S16x128x20, .f32⟩
  | 49 => ⟨S16x128x20, .f32⟩
  | 50 => ⟨S16x128x20, .f32⟩
  | 51 => ⟨S16x128x20, .f32⟩
  | 52 => ⟨S1x20x100, .f32⟩
  | 53 => ⟨S20x100, .f32⟩
  | 54 => ⟨S16x128x100, .f32⟩
  | 55 => ⟨S_, .f32⟩
  | 56 => ⟨S16x128, .f32⟩
  | 57 => ⟨S16x128, .f32⟩
  | 58 => ⟨S16x128x100, .f32⟩
  | 59 => ⟨S_, .f32⟩
  | 60 => ⟨S16x128, .f32⟩
  | 61 => ⟨S16x128, .f32⟩
  | 62 => ⟨S16x128x100, .f32⟩
  | 63 => ⟨S_, .f32⟩
  | 64 => ⟨S16x128, .f32⟩
  | 65 => ⟨S_, .f32⟩
  | 66 => ⟨S16x128, .f32⟩
  | 67 => ⟨S16x128, .f32⟩
  | 68 => ⟨S_, .f32⟩
  | 69 => ⟨S16x128, .f32⟩
  | 70 => ⟨S16x128, .f32⟩
  | 71 => ⟨S16x128, .f32⟩
  | 72 => ⟨S16x128, .f32⟩
  | 73 => ⟨S16x128x1, .f32⟩
  | 74 => ⟨S1x1x20x100, .f32⟩
  | 75 => ⟨S16x128x1x100, .f32⟩
  | 76 => ⟨S16x128x20x100, .f32⟩
  | 77 => ⟨S16x128x20x100, .f32⟩
  | 78 => ⟨S16x128x20x100, .f32⟩
  | 79 => ⟨S1x1x20x100, .f32⟩
  | 80 => ⟨S16x128x1x100, .f32⟩
  | 81 => ⟨S16x128x20x100, .f32⟩
  | 82 => ⟨S16x128x20x100, .f32⟩
  | 83 => ⟨S16x128x20x100, .f32⟩
  | 84 => ⟨S16x128x20x100, .f32⟩
  | 85 => ⟨S_, .f32⟩
  | 86 => ⟨S16x128x20, .f32⟩
  | 87 => ⟨S16x128x20, .f32⟩
  | 88 => ⟨S16x128x20x100, .f32⟩
  | 89 => ⟨S_, .f32⟩
  | 90 => ⟨S16x128x20, .f32⟩
  | 91 => ⟨S16x128x20, .f32⟩
  | 92 => ⟨S16x128x20x100, .f32⟩
  | 93 => ⟨S_, .f32⟩
  | 94 => ⟨S16x128x20, .f32⟩
  | 95 => ⟨S_, .f32⟩
  | 96 => ⟨S16x128x20, .f32⟩
  | 97 => ⟨S16x128x20, .f32⟩
  | 98 => ⟨S_, .f32⟩
  | 99 => ⟨S16x128x20, .f32⟩
  | 100 => ⟨S16x128x20, .f32⟩
  | 101 => ⟨S16x128x20, .f32⟩
  | 102 => ⟨S16x128x20, .f32⟩
  | 103 => ⟨S1x20x100, .f32⟩
  | 104 => ⟨S20x100, .f32⟩
  | 105 => ⟨S16x128x100, .f32⟩
  | 106 => ⟨S_, .f32⟩
  | 107 => ⟨S16x128, .f32⟩
  | 108 => ⟨S16x128, .f32⟩
  | 109 => ⟨S16x128x100, .f32⟩
  | 110 => ⟨S_, .f32⟩
  | 111 => ⟨S16x128, .f32⟩
  | 112 => ⟨S16x128, .f32⟩
  | 113 => ⟨S16x128x100, .f32⟩
  | 114 => ⟨S_, .f32⟩
  | 115 => ⟨S16x128, .f32⟩
  | 116 => ⟨S_, .f32⟩
  | 117 => ⟨S16x128, .f32⟩
  | 118 => ⟨S16x128, .f32⟩
  | 119 => ⟨S_, .f32⟩
  | 120 => ⟨S16x128, .f32⟩
  | 121 => ⟨S16x128, .f32⟩
  | 122 => ⟨S16x128, .f32⟩
  | 123 => ⟨S16x128, .f32⟩
  | 124 => ⟨S16x128x1, .f32⟩
  | 125 => ⟨S1x1x20x100, .f32⟩
  | 126 => ⟨S16x128x1x100, .f32⟩
  | 127 => ⟨S16x128x20x100, .f32⟩
  | _ => ⟨S16x128x200, .f32⟩

abbrev hbmTy0_7 (i : Nat) : BufTy := match i % 128 with
  | 0 => ⟨S16x128x20x100, .f32⟩
  | 1 => ⟨S16x128x20x100, .f32⟩
  | 2 => ⟨S1x1x20x100, .f32⟩
  | 3 => ⟨S16x128x1x100, .f32⟩
  | 4 => ⟨S16x128x20x100, .f32⟩
  | 5 => ⟨S16x128x20x100, .f32⟩
  | 6 => ⟨S16x128x20x100, .f32⟩
  | 7 => ⟨S16x128x20x100, .f32⟩
  | 8 => ⟨S_, .f32⟩
  | 9 => ⟨S16x128x20, .f32⟩
  | 10 => ⟨S16x128x20, .f32⟩
  | 11 => ⟨S16x128x20x100, .f32⟩
  | 12 => ⟨S_, .f32⟩
  | 13 => ⟨S16x128x20, .f32⟩
  | 14 => ⟨S16x128x20, .f32⟩
  | 15 => ⟨S16x128x20x100, .f32⟩
  | 16 => ⟨S_, .f32⟩
  | 17 => ⟨S16x128x20, .f32⟩
  | 18 => ⟨S_, .f32⟩
  | 19 => ⟨S16x128x20, .f32⟩
  | 20 => ⟨S16x128x20, .f32⟩
  | 21 => ⟨S_, .f32⟩
  | 22 => ⟨S16x128x20, .f32⟩
  | 23 => ⟨S16x128x20, .f32⟩
  | 24 => ⟨S16x128x20, .f32⟩
  | 25 => ⟨S16x128x20, .f32⟩
  | 26 => ⟨S16x128x168, .f32⟩
  | 27 => ⟨S16x128x42, .f32⟩
  | 28 => ⟨S16x128x210, .f32⟩
  | 29 => ⟨S16x128x168, .f32⟩
  | 30 => ⟨S16x128x42, .f32⟩
  | 31 => ⟨S16x128x210, .f32⟩
  | _ => ⟨S16x128x200, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S16x128x200, .f32⟩

abbrev bufTy : (tb : Table) → Fin (tcTables nBuf tb) → BufTy
  | .hbm, ⟨i, _⟩ => hbmTy i
  | _, _ => ⟨S16x128x200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_c_2 : Ref sig .tc := ⟨.hbm, 16, rfl⟩
abbrev main_call0_v0 : Ref sig .tc := ⟨.hbm, 17, rfl⟩
abbrev main_call0_v1 : Ref sig .tc := ⟨.hbm, 18, rfl⟩
abbrev main_v8 : Ref sig .tc := ⟨.hbm, 19, rfl⟩
abbrev main_c_3 : Ref sig .tc := ⟨.hbm, 20, rfl⟩
abbrev main_v9 : Ref sig .tc := ⟨.hbm, 21, rfl⟩
abbrev main_v10 : Ref sig .tc := ⟨.hbm, 22, rfl⟩
abbrev main_c_4 : Ref sig .tc := ⟨.hbm, 23, rfl⟩
abbrev main_call1_v0 : Ref sig .tc := ⟨.hbm, 24, rfl⟩
abbrev main_call1_v1 : Ref sig .tc := ⟨.hbm, 25, rfl⟩
abbrev main_v11 : Ref sig .tc := ⟨.hbm, 26, rfl⟩
abbrev main_v12 : Ref sig .tc := ⟨.hbm, 27, rfl⟩
abbrev main_c_5 : Ref sig .tc := ⟨.hbm, 28, rfl⟩
abbrev main_v13 : Ref sig .tc := ⟨.hbm, 29, rfl⟩
abbrev main_v14 : Ref sig .tc := ⟨.hbm, 30, rfl⟩
abbrev main_c_6 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_7 : Ref sig .tc := ⟨.hbm, 35, rfl⟩
abbrev main_v18 : Ref sig .tc := ⟨.hbm, 36, rfl⟩
abbrev main_v19 : Ref sig .tc := ⟨.hbm, 37, rfl⟩
abbrev main_c_8 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_9 : Ref sig .tc := ⟨.hbm, 47, rfl⟩
abbrev main_v28 : Ref sig .tc := ⟨.hbm, 48, rfl⟩
abbrev main_v29 : Ref sig .tc := ⟨.hbm, 49, rfl⟩
abbrev main_c_10 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_11 : Ref sig .tc := ⟨.hbm, 54, rfl⟩
abbrev main_v33 : Ref sig .tc := ⟨.hbm, 55, rfl⟩
abbrev main_v34 : Ref sig .tc := ⟨.hbm, 56, rfl⟩
abbrev main_c_12 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_call2_v0 : Ref sig .tc := ⟨.hbm, 68, rfl⟩
abbrev main_call2_cst : Ref sig .tc := ⟨.hbm, 69, rfl⟩
abbrev main_call2_v1 : Ref sig .tc := ⟨.hbm, 70, rfl⟩
abbrev main_v45 : Ref sig .tc := ⟨.hbm, 71, rfl⟩
abbrev main_v46 : Ref sig .tc := ⟨.hbm, 72, rfl⟩
abbrev main_call3_v0 : Ref sig .tc := ⟨.hbm, 73, rfl⟩
abbrev main_call3_cst : Ref sig .tc := ⟨.hbm, 74, rfl⟩
abbrev main_call3_v1 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_call4_v0 : Ref sig .tc := ⟨.hbm, 86, rfl⟩
abbrev main_call4_cst : Ref sig .tc := ⟨.hbm, 87, rfl⟩
abbrev main_call4_v1 : Ref sig .tc := ⟨.hbm, 88, rfl⟩
abbrev main_v56 : Ref sig .tc := ⟨.hbm, 89, rfl⟩
abbrev main_v57 : Ref sig .tc := ⟨.hbm, 90, rfl⟩
abbrev main_call5_v0 : Ref sig .tc := ⟨.hbm, 91, rfl⟩
abbrev main_call5_cst : Ref sig .tc := ⟨.hbm, 92, rfl⟩
abbrev main_call5_v1 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_13 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_14 : Ref sig .tc := ⟨.hbm, 104, rfl⟩
abbrev main_v67 : Ref sig .tc := ⟨.hbm, 105, rfl⟩
abbrev main_v68 : Ref sig .tc := ⟨.hbm, 106, rfl⟩
abbrev main_cst_15 : Ref sig .tc := ⟨.hbm, 107, rfl⟩
abbrev main_v69 : Ref sig .tc := ⟨.hbm, 108, rfl⟩
abbrev main_v70 : Ref sig .tc := ⟨.hbm, 109, rfl⟩
abbrev main_cst_16 : Ref sig .tc := ⟨.hbm, 110, rfl⟩
abbrev main_v71 : Ref sig .tc := ⟨.hbm, 111, rfl⟩
abbrev main_v72 : Ref sig .tc := ⟨.hbm, 112, rfl⟩
abbrev main_cst_17 : Ref sig .tc := ⟨.hbm, 113, rfl⟩
abbrev main_v73 : Ref sig .tc := ⟨.hbm, 114, rfl⟩
abbrev main_v74 : Ref sig .tc := ⟨.hbm, 115, rfl⟩
abbrev main_cst_18 : Ref sig .tc := ⟨.hbm, 116, rfl⟩
abbrev main_v75 : Ref sig .tc := ⟨.hbm, 117, rfl⟩
abbrev main_v76 : Ref sig .tc := ⟨.hbm, 118, rfl⟩
abbrev main_cst_19 : Ref sig .tc := ⟨.hbm, 119, rfl⟩
abbrev main_v77 : Ref sig .tc := ⟨.hbm, 120, rfl⟩
abbrev main_v78 : Ref sig .tc := ⟨.hbm, 121, rfl⟩
abbrev main_cst_20 : Ref sig .tc := ⟨.hbm, 122, rfl⟩
abbrev main_v79 : Ref sig .tc := ⟨.hbm, 123, rfl⟩
abbrev main_v80 : Ref sig .tc := ⟨.hbm, 124, rfl⟩
abbrev main_cst_21 : Ref sig .tc := ⟨.hbm, 125, rfl⟩
abbrev main_v81 : Ref sig .tc := ⟨.hbm, 126, rfl⟩
abbrev main_cst_22 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_cst_23 : Ref sig .tc := ⟨.hbm, 131, rfl⟩
abbrev main_v85 : Ref sig .tc := ⟨.hbm, 132, rfl⟩
abbrev main_v86 : Ref sig .tc := ⟨.hbm, 133, rfl⟩
abbrev main_cst_24 : Ref sig .tc := ⟨.hbm, 134, rfl⟩
abbrev main_v87 : Ref sig .tc := ⟨.hbm, 135, rfl⟩
abbrev main_cst_25 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_call6_v0 : Ref sig .tc := ⟨.hbm, 142, rfl⟩
abbrev main_call6_cst : Ref sig .tc := ⟨.hbm, 143, rfl⟩
abbrev main_call6_v1 : Ref sig .tc := ⟨.hbm, 144, rfl⟩
abbrev main_v93 : Ref sig .tc := ⟨.hbm, 145, rfl⟩
abbrev main_call7_v0 : Ref sig .tc := ⟨.hbm, 146, rfl⟩
abbrev main_call7_cst : Ref sig .tc := ⟨.hbm, 147, rfl⟩
abbrev main_call7_v1 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_cst_26 : Ref sig .tc := ⟨.hbm, 152, rfl⟩
abbrev main_v97 : Ref sig .tc := ⟨.hbm, 153, rfl⟩
abbrev main_cst_27 : Ref sig .tc := ⟨.hbm, 154, rfl⟩
abbrev main_v98 : Ref sig .tc := ⟨.hbm, 155, rfl⟩
abbrev main_v99 : Ref sig .tc := ⟨.hbm, 156, rfl⟩
abbrev main_cst_28 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_call8_v0 : Ref sig .tc := ⟨.hbm, 174, rfl⟩
abbrev main_call8_cst : Ref sig .tc := ⟨.hbm, 175, rfl⟩
abbrev main_call8_v1 : Ref sig .tc := ⟨.hbm, 176, rfl⟩
abbrev main_v116 : Ref sig .tc := ⟨.hbm, 177, rfl⟩
abbrev main_call9_v0 : Ref sig .tc := ⟨.hbm, 178, rfl⟩
abbrev main_call9_cst : Ref sig .tc := ⟨.hbm, 179, rfl⟩
abbrev main_call9_v1 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_cst_29 : Ref sig .tc := ⟨.hbm, 184, rfl⟩
abbrev main_v120 : Ref sig .tc := ⟨.hbm, 185, rfl⟩
abbrev main_cst_30 : Ref sig .tc := ⟨.hbm, 186, rfl⟩
abbrev main_v121 : Ref sig .tc := ⟨.hbm, 187, rfl⟩
abbrev main_v122 : Ref sig .tc := ⟨.hbm, 188, rfl⟩
abbrev main_cst_31 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩
abbrev main_v126 : Ref sig .tc := ⟨.hbm, 193, rfl⟩
abbrev main_v127 : Ref sig .tc := ⟨.hbm, 194, rfl⟩
abbrev main_v128 : Ref sig .tc := ⟨.hbm, 195, rfl⟩
abbrev main_v129 : Ref sig .tc := ⟨.hbm, 196, rfl⟩
abbrev main_call10_v0 : Ref sig .tc := ⟨.hbm, 197, rfl⟩
abbrev main_call10_cst : Ref sig .tc := ⟨.hbm, 198, rfl⟩
abbrev main_call10_v1 : Ref sig .tc := ⟨.hbm, 199, rfl⟩
abbrev main_v130 : Ref sig .tc := ⟨.hbm, 200, rfl⟩
abbrev main_call11_v0 : Ref sig .tc := ⟨.hbm, 201, rfl⟩
abbrev main_call11_cst : Ref sig .tc := ⟨.hbm, 202, rfl⟩
abbrev main_call11_v1 : Ref sig .tc := ⟨.hbm, 203, rfl⟩
abbrev main_v131 : Ref sig .tc := ⟨.hbm, 204, rfl⟩
abbrev main_v132 : Ref sig .tc := ⟨.hbm, 205, rfl⟩
abbrev main_v133 : Ref sig .tc := ⟨.hbm, 206, rfl⟩
abbrev main_cst_32 : Ref sig .tc := ⟨.hbm, 207, rfl⟩
abbrev main_v134 : Ref sig .tc := ⟨.hbm, 208, rfl⟩
abbrev main_cst_33 : Ref sig .tc := ⟨.hbm, 209, rfl⟩
abbrev main_v135 : Ref sig .tc := ⟨.hbm, 210, rfl⟩
abbrev main_v136 : Ref sig .tc := ⟨.hbm, 211, rfl⟩
abbrev main_cst_34 : Ref sig .tc := ⟨.hbm, 212, rfl⟩
abbrev main_v137 : Ref sig .tc := ⟨.hbm, 213, rfl⟩
abbrev main_v138 : Ref sig .tc := ⟨.hbm, 214, rfl⟩
abbrev main_v139 : Ref sig .tc := ⟨.hbm, 215, rfl⟩
abbrev main_v140 : Ref sig .tc := ⟨.hbm, 216, rfl⟩
abbrev main_v141 : Ref sig .tc := ⟨.hbm, 217, rfl⟩
abbrev main_v142 : Ref sig .tc := ⟨.hbm, 218, rfl⟩
abbrev main_v143 : Ref sig .tc := ⟨.hbm, 219, rfl⟩
abbrev main_v144 : Ref sig .tc := ⟨.hbm, 220, rfl⟩
abbrev main_v145 : Ref sig .tc := ⟨.hbm, 221, rfl⟩
abbrev main_v146 : Ref sig .tc := ⟨.hbm, 222, rfl⟩
abbrev main_v147 : Ref sig .tc := ⟨.hbm, 223, rfl⟩
abbrev main_v148 : Ref sig .tc := ⟨.hbm, 224, rfl⟩
abbrev main_v149 : Ref sig .tc := ⟨.hbm, 225, rfl⟩
abbrev main_v150 : Ref sig .tc := ⟨.hbm, 226, rfl⟩
abbrev main_v151 : Ref sig .tc := ⟨.hbm, 227, rfl⟩
abbrev main_v152 : Ref sig .tc := ⟨.hbm, 228, rfl⟩
abbrev main_call12_v0 : Ref sig .tc := ⟨.hbm, 229, rfl⟩
abbrev main_call12_cst : Ref sig .tc := ⟨.hbm, 230, rfl⟩
abbrev main_call12_v1 : Ref sig .tc := ⟨.hbm, 231, rfl⟩
abbrev main_v153 : Ref sig .tc := ⟨.hbm, 232, rfl⟩
abbrev main_call13_v0 : Ref sig .tc := ⟨.hbm, 233, rfl⟩
abbrev main_call13_cst : Ref sig .tc := ⟨.hbm, 234, rfl⟩
abbrev main_call13_v1 : Ref sig .tc := ⟨.hbm, 235, rfl⟩
abbrev main_v154 : Ref sig .tc := ⟨.hbm, 236, rfl⟩
abbrev main_v155 : Ref sig .tc := ⟨.hbm, 237, rfl⟩
abbrev main_v156 : Ref sig .tc := ⟨.hbm, 238, rfl⟩
abbrev main_cst_35 : Ref sig .tc := ⟨.hbm, 239, rfl⟩
abbrev main_v157 : Ref sig .tc := ⟨.hbm, 240, rfl⟩
abbrev main_cst_36 : Ref sig .tc := ⟨.hbm, 241, rfl⟩
abbrev main_v158 : Ref sig .tc := ⟨.hbm, 242, rfl⟩
abbrev main_v159 : Ref sig .tc := ⟨.hbm, 243, rfl⟩
abbrev main_cst_37 : Ref sig .tc := ⟨.hbm, 244, rfl⟩
abbrev main_v160 : Ref sig .tc := ⟨.hbm, 245, rfl⟩
abbrev main_v161 : Ref sig .tc := ⟨.hbm, 246, rfl⟩
abbrev main_v162 : Ref sig .tc := ⟨.hbm, 247, rfl⟩
abbrev main_v163 : Ref sig .tc := ⟨.hbm, 248, rfl⟩
abbrev main_v164 : Ref sig .tc := ⟨.hbm, 249, rfl⟩
abbrev main_v165 : Ref sig .tc := ⟨.hbm, 250, rfl⟩
abbrev main_v166 : Ref sig .tc := ⟨.hbm, 251, rfl⟩
abbrev main_call14_v0 : Ref sig .tc := ⟨.hbm, 252, rfl⟩
abbrev main_call14_cst : Ref sig .tc := ⟨.hbm, 253, rfl⟩
abbrev main_call14_v1 : Ref sig .tc := ⟨.hbm, 254, rfl⟩
abbrev main_v167 : Ref sig .tc := ⟨.hbm, 255, rfl⟩
abbrev main_call15_v0 : Ref sig .tc := ⟨.hbm, 256, rfl⟩
abbrev main_call15_cst : Ref sig .tc := ⟨.hbm, 257, rfl⟩
abbrev main_call15_v1 : Ref sig .tc := ⟨.hbm, 258, rfl⟩
abbrev main_v168 : Ref sig .tc := ⟨.hbm, 259, rfl⟩
abbrev main_v169 : Ref sig .tc := ⟨.hbm, 260, rfl⟩
abbrev main_v170 : Ref sig .tc := ⟨.hbm, 261, rfl⟩
abbrev main_cst_38 : Ref sig .tc := ⟨.hbm, 262, rfl⟩
abbrev main_v171 : Ref sig .tc := ⟨.hbm, 263, rfl⟩
abbrev main_cst_39 : Ref sig .tc := ⟨.hbm, 264, rfl⟩
abbrev main_v172 : Ref sig .tc := ⟨.hbm, 265, rfl⟩
abbrev main_v173 : Ref sig .tc := ⟨.hbm, 266, rfl⟩
abbrev main_cst_40 : Ref sig .tc := ⟨.hbm, 267, rfl⟩
abbrev main_v174 : Ref sig .tc := ⟨.hbm, 268, rfl⟩
abbrev main_v175 : Ref sig .tc := ⟨.hbm, 269, rfl⟩
abbrev main_v176 : Ref sig .tc := ⟨.hbm, 270, rfl⟩
abbrev main_v177 : Ref sig .tc := ⟨.hbm, 271, rfl⟩
abbrev main_v178 : Ref sig .tc := ⟨.hbm, 272, rfl⟩
abbrev main_v179 : Ref sig .tc := ⟨.hbm, 273, rfl⟩
abbrev main_v180 : Ref sig .tc := ⟨.hbm, 274, rfl⟩
abbrev main_v181 : Ref sig .tc := ⟨.hbm, 275, rfl⟩
abbrev main_v182 : Ref sig .tc := ⟨.hbm, 276, rfl⟩
abbrev main_v183 : Ref sig .tc := ⟨.hbm, 277, rfl⟩
abbrev main_v184 : Ref sig .tc := ⟨.hbm, 278, rfl⟩
abbrev main_v185 : Ref sig .tc := ⟨.hbm, 279, rfl⟩
abbrev main_v186 : Ref sig .tc := ⟨.hbm, 280, rfl⟩
abbrev main_v187 : Ref sig .tc := ⟨.hbm, 281, rfl⟩
abbrev main_v188 : Ref sig .tc := ⟨.hbm, 282, rfl⟩
abbrev main_v189 : Ref sig .tc := ⟨.hbm, 283, rfl⟩
abbrev main_call16_v0 : Ref sig .tc := ⟨.hbm, 284, rfl⟩
abbrev main_call16_cst : Ref sig .tc := ⟨.hbm, 285, rfl⟩
abbrev main_call16_v1 : Ref sig .tc := ⟨.hbm, 286, rfl⟩
abbrev main_v190 : Ref sig .tc := ⟨.hbm, 287, rfl⟩
abbrev main_call17_v0 : Ref sig .tc := ⟨.hbm, 288, rfl⟩
abbrev main_call17_cst : Ref sig .tc := ⟨.hbm, 289, rfl⟩
abbrev main_call17_v1 : Ref sig .tc := ⟨.hbm, 290, rfl⟩
abbrev main_v191 : Ref sig .tc := ⟨.hbm, 291, rfl⟩
abbrev main_v192 : Ref sig .tc := ⟨.hbm, 292, rfl⟩
abbrev main_v193 : Ref sig .tc := ⟨.hbm, 293, rfl⟩
abbrev main_cst_41 : Ref sig .tc := ⟨.hbm, 294, rfl⟩
abbrev main_v194 : Ref sig .tc := ⟨.hbm, 295, rfl⟩
abbrev main_cst_42 : Ref sig .tc := ⟨.hbm, 296, rfl⟩
abbrev main_v195 : Ref sig .tc := ⟨.hbm, 297, rfl⟩
abbrev main_v196 : Ref sig .tc := ⟨.hbm, 298, rfl⟩
abbrev main_cst_43 : Ref sig .tc := ⟨.hbm, 299, rfl⟩
abbrev main_v197 : Ref sig .tc := ⟨.hbm, 300, rfl⟩
abbrev main_v198 : Ref sig .tc := ⟨.hbm, 301, rfl⟩
abbrev main_v199 : Ref sig .tc := ⟨.hbm, 302, rfl⟩
abbrev main_v200 : Ref sig .tc := ⟨.hbm, 303, rfl⟩
abbrev main_v201 : Ref sig .tc := ⟨.hbm, 304, rfl⟩
abbrev main_v202 : Ref sig .tc := ⟨.hbm, 305, rfl⟩
abbrev main_v203 : Ref sig .tc := ⟨.hbm, 306, rfl⟩
abbrev main_call18_v0 : Ref sig .tc := ⟨.hbm, 307, rfl⟩
abbrev main_call18_cst : Ref sig .tc := ⟨.hbm, 308, rfl⟩
abbrev main_call18_v1 : Ref sig .tc := ⟨.hbm, 309, rfl⟩
abbrev main_v204 : Ref sig .tc := ⟨.hbm, 310, rfl⟩
abbrev main_call19_v0 : Ref sig .tc := ⟨.hbm, 311, rfl⟩
abbrev main_call19_cst : Ref sig .tc := ⟨.hbm, 312, rfl⟩
abbrev main_call19_v1 : Ref sig .tc := ⟨.hbm, 313, rfl⟩
abbrev main_v205 : Ref sig .tc := ⟨.hbm, 314, rfl⟩
abbrev main_v206 : Ref sig .tc := ⟨.hbm, 315, rfl⟩
abbrev main_v207 : Ref sig .tc := ⟨.hbm, 316, rfl⟩
abbrev main_cst_44 : Ref sig .tc := ⟨.hbm, 317, rfl⟩
abbrev main_v208 : Ref sig .tc := ⟨.hbm, 318, rfl⟩
abbrev main_cst_45 : Ref sig .tc := ⟨.hbm, 319, rfl⟩
abbrev main_v209 : Ref sig .tc := ⟨.hbm, 320, rfl⟩
abbrev main_v210 : Ref sig .tc := ⟨.hbm, 321, rfl⟩
abbrev main_cst_46 : Ref sig .tc := ⟨.hbm, 322, rfl⟩
abbrev main_v211 : Ref sig .tc := ⟨.hbm, 323, rfl⟩
abbrev main_v212 : Ref sig .tc := ⟨.hbm, 324, rfl⟩
abbrev main_v213 : Ref sig .tc := ⟨.hbm, 325, rfl⟩
abbrev main_v214 : Ref sig .tc := ⟨.hbm, 326, rfl⟩
abbrev main_v215 : Ref sig .tc := ⟨.hbm, 327, rfl⟩
abbrev main_v216 : Ref sig .tc := ⟨.hbm, 328, rfl⟩
abbrev main_v217 : Ref sig .tc := ⟨.hbm, 329, rfl⟩
abbrev main_v218 : Ref sig .tc := ⟨.hbm, 330, rfl⟩
abbrev main_v219 : Ref sig .tc := ⟨.hbm, 331, rfl⟩
abbrev main_v220 : Ref sig .tc := ⟨.hbm, 332, rfl⟩
abbrev main_v221 : Ref sig .tc := ⟨.hbm, 333, rfl⟩
abbrev main_v222 : Ref sig .tc := ⟨.hbm, 334, rfl⟩
abbrev main_v223 : Ref sig .tc := ⟨.hbm, 335, rfl⟩
abbrev main_v224 : Ref sig .tc := ⟨.hbm, 336, rfl⟩
abbrev main_v225 : Ref sig .tc := ⟨.hbm, 337, rfl⟩
abbrev main_v226 : Ref sig .tc := ⟨.hbm, 338, rfl⟩
abbrev main_call20_v0 : Ref sig .tc := ⟨.hbm, 339, rfl⟩
abbrev main_call20_cst : Ref sig .tc := ⟨.hbm, 340, rfl⟩
abbrev main_call20_v1 : Ref sig .tc := ⟨.hbm, 341, rfl⟩
abbrev main_v227 : Ref sig .tc := ⟨.hbm, 342, rfl⟩
abbrev main_call21_v0 : Ref sig .tc := ⟨.hbm, 343, rfl⟩
abbrev main_call21_cst : Ref sig .tc := ⟨.hbm, 344, rfl⟩
abbrev main_call21_v1 : Ref sig .tc := ⟨.hbm, 345, rfl⟩
abbrev main_v228 : Ref sig .tc := ⟨.hbm, 346, rfl⟩
abbrev main_v229 : Ref sig .tc := ⟨.hbm, 347, rfl⟩
abbrev main_v230 : Ref sig .tc := ⟨.hbm, 348, rfl⟩
abbrev main_cst_47 : Ref sig .tc := ⟨.hbm, 349, rfl⟩
abbrev main_v231 : Ref sig .tc := ⟨.hbm, 350, rfl⟩
abbrev main_cst_48 : Ref sig .tc := ⟨.hbm, 351, rfl⟩
abbrev main_v232 : Ref sig .tc := ⟨.hbm, 352, rfl⟩
abbrev main_v233 : Ref sig .tc := ⟨.hbm, 353, rfl⟩
abbrev main_cst_49 : Ref sig .tc := ⟨.hbm, 354, rfl⟩
abbrev main_v234 : Ref sig .tc := ⟨.hbm, 355, rfl⟩
abbrev main_v235 : Ref sig .tc := ⟨.hbm, 356, rfl⟩
abbrev main_v236 : Ref sig .tc := ⟨.hbm, 357, rfl⟩
abbrev main_v237 : Ref sig .tc := ⟨.hbm, 358, rfl⟩
abbrev main_v238 : Ref sig .tc := ⟨.hbm, 359, rfl⟩
abbrev main_v239 : Ref sig .tc := ⟨.hbm, 360, rfl⟩
abbrev main_v240 : Ref sig .tc := ⟨.hbm, 361, rfl⟩
abbrev main_v241 : Ref sig .tc := ⟨.hbm, 362, rfl⟩
abbrev main_v242 : Ref sig .tc := ⟨.hbm, 363, rfl⟩
abbrev main_v243 : Ref sig .tc := ⟨.hbm, 364, rfl⟩
abbrev main_v244 : Ref sig .tc := ⟨.hbm, 365, rfl⟩
abbrev main_v245 : Ref sig .tc := ⟨.hbm, 366, rfl⟩
abbrev main_v246 : Ref sig .tc := ⟨.hbm, 367, rfl⟩
abbrev main_v247 : Ref sig .tc := ⟨.hbm, 368, rfl⟩
abbrev main_v248 : Ref sig .tc := ⟨.hbm, 369, rfl⟩
abbrev main_v249 : Ref sig .tc := ⟨.hbm, 370, rfl⟩
abbrev main_v250 : Ref sig .tc := ⟨.hbm, 371, rfl⟩
abbrev main_v251 : Ref sig .tc := ⟨.hbm, 372, rfl⟩
abbrev main_call22_v0 : Ref sig .tc := ⟨.hbm, 373, rfl⟩
abbrev main_call22_cst : Ref sig .tc := ⟨.hbm, 374, rfl⟩
abbrev main_call22_v1 : Ref sig .tc := ⟨.hbm, 375, rfl⟩
abbrev main_v252 : Ref sig .tc := ⟨.hbm, 376, rfl⟩
abbrev main_v253 : Ref sig .tc := ⟨.hbm, 377, rfl⟩
abbrev main_call23_v0 : Ref sig .tc := ⟨.hbm, 378, rfl⟩
abbrev main_call23_cst : Ref sig .tc := ⟨.hbm, 379, rfl⟩
abbrev main_call23_v1 : Ref sig .tc := ⟨.hbm, 380, rfl⟩
abbrev main_v254 : Ref sig .tc := ⟨.hbm, 381, rfl⟩
abbrev main_v255 : Ref sig .tc := ⟨.hbm, 382, rfl⟩
abbrev main_v256 : Ref sig .tc := ⟨.hbm, 383, rfl⟩
abbrev main_v257 : Ref sig .tc := ⟨.hbm, 384, rfl⟩
abbrev main_v258 : Ref sig .tc := ⟨.hbm, 385, rfl⟩
abbrev main_cst_50 : Ref sig .tc := ⟨.hbm, 386, rfl⟩
abbrev main_v259 : Ref sig .tc := ⟨.hbm, 387, rfl⟩
abbrev main_v260 : Ref sig .tc := ⟨.hbm, 388, rfl⟩
abbrev main_v261 : Ref sig .tc := ⟨.hbm, 389, rfl⟩
abbrev main_v262 : Ref sig .tc := ⟨.hbm, 390, rfl⟩
abbrev main_v263 : Ref sig .tc := ⟨.hbm, 391, rfl⟩
abbrev main_v264 : Ref sig .tc := ⟨.hbm, 392, rfl⟩
abbrev main_v265 : Ref sig .tc := ⟨.hbm, 393, rfl⟩
abbrev main_v266 : Ref sig .tc := ⟨.hbm, 394, rfl⟩
abbrev main_v267 : Ref sig .tc := ⟨.hbm, 395, rfl⟩
abbrev main_v268 : Ref sig .tc := ⟨.hbm, 396, rfl⟩
abbrev main_v269 : Ref sig .tc := ⟨.hbm, 397, rfl⟩
abbrev main_v270 : Ref sig .tc := ⟨.hbm, 398, rfl⟩
abbrev main_v271 : Ref sig .tc := ⟨.hbm, 399, rfl⟩
abbrev main_v272 : Ref sig .tc := ⟨.hbm, 400, rfl⟩
abbrev main_v273 : Ref sig .tc := ⟨.hbm, 401, rfl⟩
abbrev main_v274 : Ref sig .tc := ⟨.hbm, 402, rfl⟩
abbrev main_v275 : Ref sig .tc := ⟨.hbm, 403, rfl⟩
abbrev main_call24_v0 : Ref sig .tc := ⟨.hbm, 404, rfl⟩
abbrev main_call24_cst : Ref sig .tc := ⟨.hbm, 405, rfl⟩
abbrev main_call24_v1 : Ref sig .tc := ⟨.hbm, 406, rfl⟩
abbrev main_v276 : Ref sig .tc := ⟨.hbm, 407, rfl⟩
abbrev main_v277 : Ref sig .tc := ⟨.hbm, 408, rfl⟩
abbrev main_call25_v0 : Ref sig .tc := ⟨.hbm, 409, rfl⟩
abbrev main_call25_cst : Ref sig .tc := ⟨.hbm, 410, rfl⟩
abbrev main_call25_v1 : Ref sig .tc := ⟨.hbm, 411, rfl⟩
abbrev main_v278 : Ref sig .tc := ⟨.hbm, 412, rfl⟩
abbrev main_v279 : Ref sig .tc := ⟨.hbm, 413, rfl⟩
abbrev main_v280 : Ref sig .tc := ⟨.hbm, 414, rfl⟩
abbrev main_v281 : Ref sig .tc := ⟨.hbm, 415, rfl⟩
abbrev main_v282 : Ref sig .tc := ⟨.hbm, 416, rfl⟩
abbrev main_cst_51 : Ref sig .tc := ⟨.hbm, 417, rfl⟩
abbrev main_v283 : Ref sig .tc := ⟨.hbm, 418, rfl⟩
abbrev main_v284 : Ref sig .tc := ⟨.hbm, 419, rfl⟩
abbrev main_v285 : Ref sig .tc := ⟨.hbm, 420, rfl⟩
abbrev main_v286 : Ref sig .tc := ⟨.hbm, 421, rfl⟩
abbrev main_cst_52 : Ref sig .tc := ⟨.hbm, 422, rfl⟩
abbrev main_v287 : Ref sig .tc := ⟨.hbm, 423, rfl⟩
abbrev main_cst_53 : Ref sig .tc := ⟨.hbm, 424, rfl⟩
abbrev main_v288 : Ref sig .tc := ⟨.hbm, 425, rfl⟩
abbrev main_cst_54 : Ref sig .tc := ⟨.hbm, 426, rfl⟩
abbrev main_v289 : Ref sig .tc := ⟨.hbm, 427, rfl⟩
abbrev main_v290 : Ref sig .tc := ⟨.hbm, 428, rfl⟩
abbrev main_cst_55 : Ref sig .tc := ⟨.hbm, 429, rfl⟩
abbrev main_v291 : Ref sig .tc := ⟨.hbm, 430, rfl⟩
abbrev main_cst_56 : Ref sig .tc := ⟨.hbm, 431, rfl⟩
abbrev main_v292 : Ref sig .tc := ⟨.hbm, 432, rfl⟩
abbrev main_cst_57 : Ref sig .tc := ⟨.hbm, 433, rfl⟩
abbrev main_v293 : Ref sig .tc := ⟨.hbm, 434, rfl⟩
abbrev main_v294 : Ref sig .tc := ⟨.hbm, 435, rfl⟩
abbrev main_cst_58 : Ref sig .tc := ⟨.hbm, 436, rfl⟩
abbrev main_v295 : Ref sig .tc := ⟨.hbm, 437, rfl⟩
abbrev main_cst_59 : Ref sig .tc := ⟨.hbm, 438, rfl⟩
abbrev main_v296 : Ref sig .tc := ⟨.hbm, 439, rfl⟩
abbrev main_cst_60 : Ref sig .tc := ⟨.hbm, 440, rfl⟩
abbrev main_v297 : Ref sig .tc := ⟨.hbm, 441, rfl⟩
abbrev main_v298 : Ref sig .tc := ⟨.hbm, 442, rfl⟩
abbrev main_cst_61 : Ref sig .tc := ⟨.hbm, 443, rfl⟩
abbrev main_v299 : Ref sig .tc := ⟨.hbm, 444, rfl⟩
abbrev main_cst_62 : Ref sig .tc := ⟨.hbm, 445, rfl⟩
abbrev main_v300 : Ref sig .tc := ⟨.hbm, 446, rfl⟩
abbrev main_cst_63 : Ref sig .tc := ⟨.hbm, 447, rfl⟩
abbrev main_v301 : Ref sig .tc := ⟨.hbm, 448, rfl⟩
abbrev main_v302 : Ref sig .tc := ⟨.hbm, 449, rfl⟩
abbrev main_v303 : Ref sig .tc := ⟨.hbm, 450, rfl⟩
abbrev main_cst_64 : Ref sig .tc := ⟨.hbm, 451, rfl⟩
abbrev main_v304 : Ref sig .tc := ⟨.hbm, 452, rfl⟩
abbrev main_v305 : Ref sig .tc := ⟨.hbm, 453, rfl⟩
abbrev main_cst_65 : Ref sig .tc := ⟨.hbm, 454, rfl⟩
abbrev main_v306 : Ref sig .tc := ⟨.hbm, 455, rfl⟩
abbrev main_v307 : Ref sig .tc := ⟨.hbm, 456, rfl⟩
abbrev main_v308 : Ref sig .tc := ⟨.hbm, 457, rfl⟩
abbrev main_v309 : Ref sig .tc := ⟨.hbm, 458, rfl⟩
abbrev main_v310 : Ref sig .tc := ⟨.hbm, 459, rfl⟩
abbrev main_cst_66 : Ref sig .tc := ⟨.hbm, 460, rfl⟩
abbrev main_v311 : Ref sig .tc := ⟨.hbm, 461, rfl⟩
abbrev main_v312 : Ref sig .tc := ⟨.hbm, 462, rfl⟩
abbrev main_cst_67 : Ref sig .tc := ⟨.hbm, 463, rfl⟩
abbrev main_v313 : Ref sig .tc := ⟨.hbm, 464, rfl⟩
abbrev main_v314 : Ref sig .tc := ⟨.hbm, 465, rfl⟩
abbrev main_v315 : Ref sig .tc := ⟨.hbm, 466, rfl⟩
abbrev main_v316 : Ref sig .tc := ⟨.hbm, 467, rfl⟩
abbrev main_v317 : Ref sig .tc := ⟨.hbm, 468, rfl⟩
abbrev main_cst_68 : Ref sig .tc := ⟨.hbm, 469, rfl⟩
abbrev main_v318 : Ref sig .tc := ⟨.hbm, 470, rfl⟩
abbrev main_v319 : Ref sig .tc := ⟨.hbm, 471, rfl⟩
abbrev main_cst_69 : Ref sig .tc := ⟨.hbm, 472, rfl⟩
abbrev main_v320 : Ref sig .tc := ⟨.hbm, 473, rfl⟩
abbrev main_v321 : Ref sig .tc := ⟨.hbm, 474, rfl⟩
abbrev main_v322 : Ref sig .tc := ⟨.hbm, 475, rfl⟩
abbrev main_v323 : Ref sig .tc := ⟨.hbm, 476, rfl⟩
abbrev main_v324 : Ref sig .tc := ⟨.hbm, 477, rfl⟩
abbrev main_cst_70 : Ref sig .tc := ⟨.hbm, 478, rfl⟩
abbrev main_v325 : Ref sig .tc := ⟨.hbm, 479, rfl⟩
abbrev main_v326 : Ref sig .tc := ⟨.hbm, 480, rfl⟩
abbrev main_cst_71 : Ref sig .tc := ⟨.hbm, 481, rfl⟩
abbrev main_v327 : Ref sig .tc := ⟨.hbm, 482, rfl⟩
abbrev main_v328 : Ref sig .tc := ⟨.hbm, 483, rfl⟩
abbrev main_v329 : Ref sig .tc := ⟨.hbm, 484, rfl⟩
abbrev main_v330 : Ref sig .tc := ⟨.hbm, 485, rfl⟩
abbrev main_v331 : Ref sig .tc := ⟨.hbm, 486, rfl⟩
abbrev main_v332 : Ref sig .tc := ⟨.hbm, 487, rfl⟩
abbrev main_call26_v0 : Ref sig .tc := ⟨.hbm, 488, rfl⟩
abbrev main_call26_cst : Ref sig .tc := ⟨.hbm, 489, rfl⟩
abbrev main_call26_v1 : Ref sig .tc := ⟨.hbm, 490, rfl⟩
abbrev main_v333 : Ref sig .tc := ⟨.hbm, 491, rfl⟩
abbrev main_call27_v0 : Ref sig .tc := ⟨.hbm, 492, rfl⟩
abbrev main_call27_cst : Ref sig .tc := ⟨.hbm, 493, rfl⟩
abbrev main_call27_v1 : Ref sig .tc := ⟨.hbm, 494, rfl⟩
abbrev main_v334 : Ref sig .tc := ⟨.hbm, 495, rfl⟩
abbrev main_v335 : Ref sig .tc := ⟨.hbm, 496, rfl⟩
abbrev main_cst_72 : Ref sig .tc := ⟨.hbm, 497, rfl⟩
abbrev main_v336 : Ref sig .tc := ⟨.hbm, 498, rfl⟩
abbrev main_cst_73 : Ref sig .tc := ⟨.hbm, 499, rfl⟩
abbrev main_v337 : Ref sig .tc := ⟨.hbm, 500, rfl⟩
abbrev main_v338 : Ref sig .tc := ⟨.hbm, 501, rfl⟩
abbrev main_cst_74 : Ref sig .tc := ⟨.hbm, 502, rfl⟩
abbrev main_v339 : Ref sig .tc := ⟨.hbm, 503, rfl⟩
abbrev main_v340 : Ref sig .tc := ⟨.hbm, 504, rfl⟩
abbrev main_v341 : Ref sig .tc := ⟨.hbm, 505, rfl⟩
abbrev main_v342 : Ref sig .tc := ⟨.hbm, 506, rfl⟩
abbrev main_v343 : Ref sig .tc := ⟨.hbm, 507, rfl⟩
abbrev main_v344 : Ref sig .tc := ⟨.hbm, 508, rfl⟩
abbrev main_v345 : Ref sig .tc := ⟨.hbm, 509, rfl⟩
abbrev main_v346 : Ref sig .tc := ⟨.hbm, 510, rfl⟩
abbrev main_v347 : Ref sig .tc := ⟨.hbm, 511, rfl⟩
abbrev main_v348 : Ref sig .tc := ⟨.hbm, 512, rfl⟩
abbrev main_v349 : Ref sig .tc := ⟨.hbm, 513, rfl⟩
abbrev main_v350 : Ref sig .tc := ⟨.hbm, 514, rfl⟩
abbrev main_v351 : Ref sig .tc := ⟨.hbm, 515, rfl⟩
abbrev main_v352 : Ref sig .tc := ⟨.hbm, 516, rfl⟩
abbrev main_v353 : Ref sig .tc := ⟨.hbm, 517, rfl⟩
abbrev main_call28_v0 : Ref sig .tc := ⟨.hbm, 518, rfl⟩
abbrev main_call28_cst : Ref sig .tc := ⟨.hbm, 519, rfl⟩
abbrev main_call28_v1 : Ref sig .tc := ⟨.hbm, 520, rfl⟩
abbrev main_v354 : Ref sig .tc := ⟨.hbm, 521, rfl⟩
abbrev main_call29_v0 : Ref sig .tc := ⟨.hbm, 522, rfl⟩
abbrev main_call29_cst : Ref sig .tc := ⟨.hbm, 523, rfl⟩
abbrev main_call29_v1 : Ref sig .tc := ⟨.hbm, 524, rfl⟩
abbrev main_v355 : Ref sig .tc := ⟨.hbm, 525, rfl⟩
abbrev main_v356 : Ref sig .tc := ⟨.hbm, 526, rfl⟩
abbrev main_cst_75 : Ref sig .tc := ⟨.hbm, 527, rfl⟩
abbrev main_v357 : Ref sig .tc := ⟨.hbm, 528, rfl⟩
abbrev main_cst_76 : Ref sig .tc := ⟨.hbm, 529, rfl⟩
abbrev main_v358 : Ref sig .tc := ⟨.hbm, 530, rfl⟩
abbrev main_v359 : Ref sig .tc := ⟨.hbm, 531, rfl⟩
abbrev main_cst_77 : Ref sig .tc := ⟨.hbm, 532, rfl⟩
abbrev main_v360 : Ref sig .tc := ⟨.hbm, 533, rfl⟩
abbrev main_v361 : Ref sig .tc := ⟨.hbm, 534, rfl⟩
abbrev main_v362 : Ref sig .tc := ⟨.hbm, 535, rfl⟩
abbrev main_v363 : Ref sig .tc := ⟨.hbm, 536, rfl⟩
abbrev main_v364 : Ref sig .tc := ⟨.hbm, 537, rfl⟩
abbrev main_v365 : Ref sig .tc := ⟨.hbm, 538, rfl⟩
abbrev main_call30_v0 : Ref sig .tc := ⟨.hbm, 539, rfl⟩
abbrev main_call30_cst : Ref sig .tc := ⟨.hbm, 540, rfl⟩
abbrev main_call30_v1 : Ref sig .tc := ⟨.hbm, 541, rfl⟩
abbrev main_v366 : Ref sig .tc := ⟨.hbm, 542, rfl⟩
abbrev main_call31_v0 : Ref sig .tc := ⟨.hbm, 543, rfl⟩
abbrev main_call31_cst : Ref sig .tc := ⟨.hbm, 544, rfl⟩
abbrev main_call31_v1 : Ref sig .tc := ⟨.hbm, 545, rfl⟩
abbrev main_v367 : Ref sig .tc := ⟨.hbm, 546, rfl⟩
abbrev main_v368 : Ref sig .tc := ⟨.hbm, 547, rfl⟩
abbrev main_cst_78 : Ref sig .tc := ⟨.hbm, 548, rfl⟩
abbrev main_v369 : Ref sig .tc := ⟨.hbm, 549, rfl⟩
abbrev main_cst_79 : Ref sig .tc := ⟨.hbm, 550, rfl⟩
abbrev main_v370 : Ref sig .tc := ⟨.hbm, 551, rfl⟩
abbrev main_v371 : Ref sig .tc := ⟨.hbm, 552, rfl⟩
abbrev main_cst_80 : Ref sig .tc := ⟨.hbm, 553, rfl⟩
abbrev main_v372 : Ref sig .tc := ⟨.hbm, 554, rfl⟩
abbrev main_v373 : Ref sig .tc := ⟨.hbm, 555, rfl⟩
abbrev main_v374 : Ref sig .tc := ⟨.hbm, 556, rfl⟩
abbrev main_v375 : Ref sig .tc := ⟨.hbm, 557, rfl⟩
abbrev main_v376 : Ref sig .tc := ⟨.hbm, 558, rfl⟩
abbrev main_v377 : Ref sig .tc := ⟨.hbm, 559, rfl⟩
abbrev main_v378 : Ref sig .tc := ⟨.hbm, 560, rfl⟩
abbrev main_v379 : Ref sig .tc := ⟨.hbm, 561, rfl⟩
abbrev main_v380 : Ref sig .tc := ⟨.hbm, 562, rfl⟩
abbrev main_v381 : Ref sig .tc := ⟨.hbm, 563, rfl⟩
abbrev main_v382 : Ref sig .tc := ⟨.hbm, 564, rfl⟩
abbrev main_v383 : Ref sig .tc := ⟨.hbm, 565, rfl⟩
abbrev main_v384 : Ref sig .tc := ⟨.hbm, 566, rfl⟩
abbrev main_v385 : Ref sig .tc := ⟨.hbm, 567, rfl⟩
abbrev main_v386 : Ref sig .tc := ⟨.hbm, 568, rfl⟩
abbrev main_call32_v0 : Ref sig .tc := ⟨.hbm, 569, rfl⟩
abbrev main_call32_cst : Ref sig .tc := ⟨.hbm, 570, rfl⟩
abbrev main_call32_v1 : Ref sig .tc := ⟨.hbm, 571, rfl⟩
abbrev main_v387 : Ref sig .tc := ⟨.hbm, 572, rfl⟩
abbrev main_call33_v0 : Ref sig .tc := ⟨.hbm, 573, rfl⟩
abbrev main_call33_cst : Ref sig .tc := ⟨.hbm, 574, rfl⟩
abbrev main_call33_v1 : Ref sig .tc := ⟨.hbm, 575, rfl⟩
abbrev main_v388 : Ref sig .tc := ⟨.hbm, 576, rfl⟩
abbrev main_v389 : Ref sig .tc := ⟨.hbm, 577, rfl⟩
abbrev main_cst_81 : Ref sig .tc := ⟨.hbm, 578, rfl⟩
abbrev main_v390 : Ref sig .tc := ⟨.hbm, 579, rfl⟩
abbrev main_cst_82 : Ref sig .tc := ⟨.hbm, 580, rfl⟩
abbrev main_v391 : Ref sig .tc := ⟨.hbm, 581, rfl⟩
abbrev main_v392 : Ref sig .tc := ⟨.hbm, 582, rfl⟩
abbrev main_cst_83 : Ref sig .tc := ⟨.hbm, 583, rfl⟩
abbrev main_v393 : Ref sig .tc := ⟨.hbm, 584, rfl⟩
abbrev main_v394 : Ref sig .tc := ⟨.hbm, 585, rfl⟩
abbrev main_v395 : Ref sig .tc := ⟨.hbm, 586, rfl⟩
abbrev main_v396 : Ref sig .tc := ⟨.hbm, 587, rfl⟩
abbrev main_v397 : Ref sig .tc := ⟨.hbm, 588, rfl⟩
abbrev main_v398 : Ref sig .tc := ⟨.hbm, 589, rfl⟩
abbrev main_call34_v0 : Ref sig .tc := ⟨.hbm, 590, rfl⟩
abbrev main_call34_cst : Ref sig .tc := ⟨.hbm, 591, rfl⟩
abbrev main_call34_v1 : Ref sig .tc := ⟨.hbm, 592, rfl⟩
abbrev main_v399 : Ref sig .tc := ⟨.hbm, 593, rfl⟩
abbrev main_call35_v0 : Ref sig .tc := ⟨.hbm, 594, rfl⟩
abbrev main_call35_cst : Ref sig .tc := ⟨.hbm, 595, rfl⟩
abbrev main_call35_v1 : Ref sig .tc := ⟨.hbm, 596, rfl⟩
abbrev main_v400 : Ref sig .tc := ⟨.hbm, 597, rfl⟩
abbrev main_v401 : Ref sig .tc := ⟨.hbm, 598, rfl⟩
abbrev main_cst_84 : Ref sig .tc := ⟨.hbm, 599, rfl⟩
abbrev main_v402 : Ref sig .tc := ⟨.hbm, 600, rfl⟩
abbrev main_cst_85 : Ref sig .tc := ⟨.hbm, 601, rfl⟩
abbrev main_v403 : Ref sig .tc := ⟨.hbm, 602, rfl⟩
abbrev main_v404 : Ref sig .tc := ⟨.hbm, 603, rfl⟩
abbrev main_cst_86 : Ref sig .tc := ⟨.hbm, 604, rfl⟩
abbrev main_v405 : Ref sig .tc := ⟨.hbm, 605, rfl⟩
abbrev main_v406 : Ref sig .tc := ⟨.hbm, 606, rfl⟩
abbrev main_v407 : Ref sig .tc := ⟨.hbm, 607, rfl⟩
abbrev main_v408 : Ref sig .tc := ⟨.hbm, 608, rfl⟩
abbrev main_v409 : Ref sig .tc := ⟨.hbm, 609, rfl⟩
abbrev main_v410 : Ref sig .tc := ⟨.hbm, 610, rfl⟩
abbrev main_v411 : Ref sig .tc := ⟨.hbm, 611, rfl⟩
abbrev main_v412 : Ref sig .tc := ⟨.hbm, 612, rfl⟩
abbrev main_v413 : Ref sig .tc := ⟨.hbm, 613, rfl⟩
abbrev main_v414 : Ref sig .tc := ⟨.hbm, 614, rfl⟩
abbrev main_v415 : Ref sig .tc := ⟨.hbm, 615, rfl⟩
abbrev main_v416 : Ref sig .tc := ⟨.hbm, 616, rfl⟩
abbrev main_v417 : Ref sig .tc := ⟨.hbm, 617, rfl⟩
abbrev main_v418 : Ref sig .tc := ⟨.hbm, 618, rfl⟩
abbrev main_v419 : Ref sig .tc := ⟨.hbm, 619, rfl⟩
abbrev main_call36_v0 : Ref sig .tc := ⟨.hbm, 620, rfl⟩
abbrev main_call36_cst : Ref sig .tc := ⟨.hbm, 621, rfl⟩
abbrev main_call36_v1 : Ref sig .tc := ⟨.hbm, 622, rfl⟩
abbrev main_v420 : Ref sig .tc := ⟨.hbm, 623, rfl⟩
abbrev main_call37_v0 : Ref sig .tc := ⟨.hbm, 624, rfl⟩
abbrev main_call37_cst : Ref sig .tc := ⟨.hbm, 625, rfl⟩
abbrev main_call37_v1 : Ref sig .tc := ⟨.hbm, 626, rfl⟩
abbrev main_v421 : Ref sig .tc := ⟨.hbm, 627, rfl⟩
abbrev main_v422 : Ref sig .tc := ⟨.hbm, 628, rfl⟩
abbrev main_cst_87 : Ref sig .tc := ⟨.hbm, 629, rfl⟩
abbrev main_v423 : Ref sig .tc := ⟨.hbm, 630, rfl⟩
abbrev main_cst_88 : Ref sig .tc := ⟨.hbm, 631, rfl⟩
abbrev main_v424 : Ref sig .tc := ⟨.hbm, 632, rfl⟩
abbrev main_v425 : Ref sig .tc := ⟨.hbm, 633, rfl⟩
abbrev main_cst_89 : Ref sig .tc := ⟨.hbm, 634, rfl⟩
abbrev main_v426 : Ref sig .tc := ⟨.hbm, 635, rfl⟩
abbrev main_v427 : Ref sig .tc := ⟨.hbm, 636, rfl⟩
abbrev main_v428 : Ref sig .tc := ⟨.hbm, 637, rfl⟩
abbrev main_v429 : Ref sig .tc := ⟨.hbm, 638, rfl⟩
abbrev main_v430 : Ref sig .tc := ⟨.hbm, 639, rfl⟩
abbrev main_v431 : Ref sig .tc := ⟨.hbm, 640, rfl⟩
abbrev main_call38_v0 : Ref sig .tc := ⟨.hbm, 641, rfl⟩
abbrev main_call38_cst : Ref sig .tc := ⟨.hbm, 642, rfl⟩
abbrev main_call38_v1 : Ref sig .tc := ⟨.hbm, 643, rfl⟩
abbrev main_v432 : Ref sig .tc := ⟨.hbm, 644, rfl⟩
abbrev main_call39_v0 : Ref sig .tc := ⟨.hbm, 645, rfl⟩
abbrev main_call39_cst : Ref sig .tc := ⟨.hbm, 646, rfl⟩
abbrev main_call39_v1 : Ref sig .tc := ⟨.hbm, 647, rfl⟩
abbrev main_v433 : Ref sig .tc := ⟨.hbm, 648, rfl⟩
abbrev main_v434 : Ref sig .tc := ⟨.hbm, 649, rfl⟩
abbrev main_cst_90 : Ref sig .tc := ⟨.hbm, 650, rfl⟩
abbrev main_v435 : Ref sig .tc := ⟨.hbm, 651, rfl⟩
abbrev main_cst_91 : Ref sig .tc := ⟨.hbm, 652, rfl⟩
abbrev main_v436 : Ref sig .tc := ⟨.hbm, 653, rfl⟩
abbrev main_v437 : Ref sig .tc := ⟨.hbm, 654, rfl⟩
abbrev main_cst_92 : Ref sig .tc := ⟨.hbm, 655, rfl⟩
abbrev main_v438 : Ref sig .tc := ⟨.hbm, 656, rfl⟩
abbrev main_v439 : Ref sig .tc := ⟨.hbm, 657, rfl⟩
abbrev main_v440 : Ref sig .tc := ⟨.hbm, 658, rfl⟩
abbrev main_v441 : Ref sig .tc := ⟨.hbm, 659, rfl⟩
abbrev main_v442 : Ref sig .tc := ⟨.hbm, 660, rfl⟩
abbrev main_v443 : Ref sig .tc := ⟨.hbm, 661, rfl⟩
abbrev main_v444 : Ref sig .tc := ⟨.hbm, 662, rfl⟩
abbrev main_v445 : Ref sig .tc := ⟨.hbm, 663, rfl⟩
abbrev main_v446 : Ref sig .tc := ⟨.hbm, 664, rfl⟩
abbrev main_v447 : Ref sig .tc := ⟨.hbm, 665, rfl⟩
abbrev main_v448 : Ref sig .tc := ⟨.hbm, 666, rfl⟩
abbrev main_v449 : Ref sig .tc := ⟨.hbm, 667, rfl⟩
abbrev main_v450 : Ref sig .tc := ⟨.hbm, 668, rfl⟩
abbrev main_v451 : Ref sig .tc := ⟨.hbm, 669, rfl⟩
abbrev main_v452 : Ref sig .tc := ⟨.hbm, 670, rfl⟩
abbrev main_call40_v0 : Ref sig .tc := ⟨.hbm, 671, rfl⟩
abbrev main_call40_cst : Ref sig .tc := ⟨.hbm, 672, rfl⟩
abbrev main_call40_v1 : Ref sig .tc := ⟨.hbm, 673, rfl⟩
abbrev main_v453 : Ref sig .tc := ⟨.hbm, 674, rfl⟩
abbrev main_call41_v0 : Ref sig .tc := ⟨.hbm, 675, rfl⟩
abbrev main_call41_cst : Ref sig .tc := ⟨.hbm, 676, rfl⟩
abbrev main_call41_v1 : Ref sig .tc := ⟨.hbm, 677, rfl⟩
abbrev main_v454 : Ref sig .tc := ⟨.hbm, 678, rfl⟩
abbrev main_v455 : Ref sig .tc := ⟨.hbm, 679, rfl⟩
abbrev main_cst_93 : Ref sig .tc := ⟨.hbm, 680, rfl⟩
abbrev main_v456 : Ref sig .tc := ⟨.hbm, 681, rfl⟩
abbrev main_cst_94 : Ref sig .tc := ⟨.hbm, 682, rfl⟩
abbrev main_v457 : Ref sig .tc := ⟨.hbm, 683, rfl⟩
abbrev main_v458 : Ref sig .tc := ⟨.hbm, 684, rfl⟩
abbrev main_cst_95 : Ref sig .tc := ⟨.hbm, 685, rfl⟩
abbrev main_v459 : Ref sig .tc := ⟨.hbm, 686, rfl⟩
abbrev main_v460 : Ref sig .tc := ⟨.hbm, 687, rfl⟩
abbrev main_v461 : Ref sig .tc := ⟨.hbm, 688, rfl⟩
abbrev main_v462 : Ref sig .tc := ⟨.hbm, 689, rfl⟩
abbrev main_v463 : Ref sig .tc := ⟨.hbm, 690, rfl⟩
abbrev main_v464 : Ref sig .tc := ⟨.hbm, 691, rfl⟩
abbrev main_v465 : Ref sig .tc := ⟨.hbm, 692, rfl⟩
abbrev main_v466 : Ref sig .tc := ⟨.hbm, 693, rfl⟩
abbrev main_v467 : Ref sig .tc := ⟨.hbm, 694, rfl⟩
abbrev main_cst_96 : Ref sig .tc := ⟨.hbm, 695, rfl⟩
abbrev main_v468 : Ref sig .tc := ⟨.hbm, 696, rfl⟩
abbrev main_v469 : Ref sig .tc := ⟨.hbm, 697, rfl⟩
abbrev main_v470 : Ref sig .tc := ⟨.hbm, 698, rfl⟩
abbrev main_v471 : Ref sig .tc := ⟨.hbm, 699, rfl⟩
abbrev main_v472 : Ref sig .tc := ⟨.hbm, 700, rfl⟩
abbrev main_v473 : Ref sig .tc := ⟨.hbm, 701, rfl⟩
abbrev main_cst_97 : Ref sig .tc := ⟨.hbm, 702, rfl⟩
abbrev main_v474 : Ref sig .tc := ⟨.hbm, 703, rfl⟩
abbrev main_v475 : Ref sig .tc := ⟨.hbm, 704, rfl⟩
abbrev main_v476 : Ref sig .tc := ⟨.hbm, 705, rfl⟩
abbrev main_v477 : Ref sig .tc := ⟨.hbm, 706, rfl⟩
abbrev main_v478 : Ref sig .tc := ⟨.hbm, 707, rfl⟩
abbrev main_v479 : Ref sig .tc := ⟨.hbm, 708, rfl⟩
abbrev main_cst_98 : Ref sig .tc := ⟨.hbm, 709, rfl⟩
abbrev main_v480 : Ref sig .tc := ⟨.hbm, 710, rfl⟩
abbrev main_v481 : Ref sig .tc := ⟨.hbm, 711, rfl⟩
abbrev main_v482 : Ref sig .tc := ⟨.hbm, 712, rfl⟩
abbrev main_v483 : Ref sig .tc := ⟨.hbm, 713, rfl⟩
abbrev main_v484 : Ref sig .tc := ⟨.hbm, 714, rfl⟩
abbrev main_v485 : Ref sig .tc := ⟨.hbm, 715, rfl⟩
abbrev main_cst_99 : Ref sig .tc := ⟨.hbm, 716, rfl⟩
abbrev main_v486 : Ref sig .tc := ⟨.hbm, 717, rfl⟩
abbrev main_v487 : Ref sig .tc := ⟨.hbm, 718, rfl⟩
abbrev main_v488 : Ref sig .tc := ⟨.hbm, 719, rfl⟩
abbrev main_call42_v0 : Ref sig .tc := ⟨.hbm, 720, rfl⟩
abbrev main_call42_cst : Ref sig .tc := ⟨.hbm, 721, rfl⟩
abbrev main_call42_v1 : Ref sig .tc := ⟨.hbm, 722, rfl⟩
abbrev main_v489 : Ref sig .tc := ⟨.hbm, 723, rfl⟩
abbrev main_call43_v0 : Ref sig .tc := ⟨.hbm, 724, rfl⟩
abbrev main_call43_cst : Ref sig .tc := ⟨.hbm, 725, rfl⟩
abbrev main_call43_v1 : Ref sig .tc := ⟨.hbm, 726, rfl⟩
abbrev main_v490 : Ref sig .tc := ⟨.hbm, 727, rfl⟩
abbrev main_v491 : Ref sig .tc := ⟨.hbm, 728, rfl⟩
abbrev main_cst_100 : Ref sig .tc := ⟨.hbm, 729, rfl⟩
abbrev main_v492 : Ref sig .tc := ⟨.hbm, 730, rfl⟩
abbrev main_cst_101 : Ref sig .tc := ⟨.hbm, 731, rfl⟩
abbrev main_v493 : Ref sig .tc := ⟨.hbm, 732, rfl⟩
abbrev main_v494 : Ref sig .tc := ⟨.hbm, 733, rfl⟩
abbrev main_cst_102 : Ref sig .tc := ⟨.hbm, 734, rfl⟩
abbrev main_v495 : Ref sig .tc := ⟨.hbm, 735, rfl⟩
abbrev main_v496 : Ref sig .tc := ⟨.hbm, 736, rfl⟩
abbrev main_v497 : Ref sig .tc := ⟨.hbm, 737, rfl⟩
abbrev main_v498 : Ref sig .tc := ⟨.hbm, 738, rfl⟩
abbrev main_v499 : Ref sig .tc := ⟨.hbm, 739, rfl⟩
abbrev main_v500 : Ref sig .tc := ⟨.hbm, 740, rfl⟩
abbrev main_v501 : Ref sig .tc := ⟨.hbm, 741, rfl⟩
abbrev main_v502 : Ref sig .tc := ⟨.hbm, 742, rfl⟩
abbrev main_v503 : Ref sig .tc := ⟨.hbm, 743, rfl⟩
abbrev main_v504 : Ref sig .tc := ⟨.hbm, 744, rfl⟩
abbrev main_v505 : Ref sig .tc := ⟨.hbm, 745, rfl⟩
abbrev main_v506 : Ref sig .tc := ⟨.hbm, 746, rfl⟩
abbrev main_v507 : Ref sig .tc := ⟨.hbm, 747, rfl⟩
abbrev main_v508 : Ref sig .tc := ⟨.hbm, 748, rfl⟩
abbrev main_v509 : Ref sig .tc := ⟨.hbm, 749, rfl⟩
abbrev main_call44_v0 : Ref sig .tc := ⟨.hbm, 750, rfl⟩
abbrev main_call44_cst : Ref sig .tc := ⟨.hbm, 751, rfl⟩
abbrev main_call44_v1 : Ref sig .tc := ⟨.hbm, 752, rfl⟩
abbrev main_v510 : Ref sig .tc := ⟨.hbm, 753, rfl⟩
abbrev main_call45_v0 : Ref sig .tc := ⟨.hbm, 754, rfl⟩
abbrev main_call45_cst : Ref sig .tc := ⟨.hbm, 755, rfl⟩
abbrev main_call45_v1 : Ref sig .tc := ⟨.hbm, 756, rfl⟩
abbrev main_v511 : Ref sig .tc := ⟨.hbm, 757, rfl⟩
abbrev main_v512 : Ref sig .tc := ⟨.hbm, 758, rfl⟩
abbrev main_cst_103 : Ref sig .tc := ⟨.hbm, 759, rfl⟩
abbrev main_v513 : Ref sig .tc := ⟨.hbm, 760, rfl⟩
abbrev main_cst_104 : Ref sig .tc := ⟨.hbm, 761, rfl⟩
abbrev main_v514 : Ref sig .tc := ⟨.hbm, 762, rfl⟩
abbrev main_v515 : Ref sig .tc := ⟨.hbm, 763, rfl⟩
abbrev main_cst_105 : Ref sig .tc := ⟨.hbm, 764, rfl⟩
abbrev main_v516 : Ref sig .tc := ⟨.hbm, 765, rfl⟩
abbrev main_v517 : Ref sig .tc := ⟨.hbm, 766, rfl⟩
abbrev main_v518 : Ref sig .tc := ⟨.hbm, 767, rfl⟩
abbrev main_v519 : Ref sig .tc := ⟨.hbm, 768, rfl⟩
abbrev main_v520 : Ref sig .tc := ⟨.hbm, 769, rfl⟩
abbrev main_v521 : Ref sig .tc := ⟨.hbm, 770, rfl⟩
abbrev main_call46_v0 : Ref sig .tc := ⟨.hbm, 771, rfl⟩
abbrev main_call46_cst : Ref sig .tc := ⟨.hbm, 772, rfl⟩
abbrev main_call46_v1 : Ref sig .tc := ⟨.hbm, 773, rfl⟩
abbrev main_v522 : Ref sig .tc := ⟨.hbm, 774, rfl⟩
abbrev main_call47_v0 : Ref sig .tc := ⟨.hbm, 775, rfl⟩
abbrev main_call47_cst : Ref sig .tc := ⟨.hbm, 776, rfl⟩
abbrev main_call47_v1 : Ref sig .tc := ⟨.hbm, 777, rfl⟩
abbrev main_v523 : Ref sig .tc := ⟨.hbm, 778, rfl⟩
abbrev main_v524 : Ref sig .tc := ⟨.hbm, 779, rfl⟩
abbrev main_cst_106 : Ref sig .tc := ⟨.hbm, 780, rfl⟩
abbrev main_v525 : Ref sig .tc := ⟨.hbm, 781, rfl⟩
abbrev main_cst_107 : Ref sig .tc := ⟨.hbm, 782, rfl⟩
abbrev main_v526 : Ref sig .tc := ⟨.hbm, 783, rfl⟩
abbrev main_v527 : Ref sig .tc := ⟨.hbm, 784, rfl⟩
abbrev main_cst_108 : Ref sig .tc := ⟨.hbm, 785, rfl⟩
abbrev main_v528 : Ref sig .tc := ⟨.hbm, 786, rfl⟩
abbrev main_v529 : Ref sig .tc := ⟨.hbm, 787, rfl⟩
abbrev main_v530 : Ref sig .tc := ⟨.hbm, 788, rfl⟩
abbrev main_v531 : Ref sig .tc := ⟨.hbm, 789, rfl⟩
abbrev main_v532 : Ref sig .tc := ⟨.hbm, 790, rfl⟩
abbrev main_v533 : Ref sig .tc := ⟨.hbm, 791, rfl⟩
abbrev main_v534 : Ref sig .tc := ⟨.hbm, 792, rfl⟩
abbrev main_v535 : Ref sig .tc := ⟨.hbm, 793, rfl⟩
abbrev main_v536 : Ref sig .tc := ⟨.hbm, 794, rfl⟩
abbrev main_v537 : Ref sig .tc := ⟨.hbm, 795, rfl⟩
abbrev main_v538 : Ref sig .tc := ⟨.hbm, 796, rfl⟩
abbrev main_v539 : Ref sig .tc := ⟨.hbm, 797, rfl⟩
abbrev main_v540 : Ref sig .tc := ⟨.hbm, 798, rfl⟩
abbrev main_v541 : Ref sig .tc := ⟨.hbm, 799, rfl⟩
abbrev main_v542 : Ref sig .tc := ⟨.hbm, 800, rfl⟩
abbrev main_call48_v0 : Ref sig .tc := ⟨.hbm, 801, rfl⟩
abbrev main_call48_cst : Ref sig .tc := ⟨.hbm, 802, rfl⟩
abbrev main_call48_v1 : Ref sig .tc := ⟨.hbm, 803, rfl⟩
abbrev main_v543 : Ref sig .tc := ⟨.hbm, 804, rfl⟩
abbrev main_call49_v0 : Ref sig .tc := ⟨.hbm, 805, rfl⟩
abbrev main_call49_cst : Ref sig .tc := ⟨.hbm, 806, rfl⟩
abbrev main_call49_v1 : Ref sig .tc := ⟨.hbm, 807, rfl⟩
abbrev main_v544 : Ref sig .tc := ⟨.hbm, 808, rfl⟩
abbrev main_v545 : Ref sig .tc := ⟨.hbm, 809, rfl⟩
abbrev main_cst_109 : Ref sig .tc := ⟨.hbm, 810, rfl⟩
abbrev main_v546 : Ref sig .tc := ⟨.hbm, 811, rfl⟩
abbrev main_cst_110 : Ref sig .tc := ⟨.hbm, 812, rfl⟩
abbrev main_v547 : Ref sig .tc := ⟨.hbm, 813, rfl⟩
abbrev main_v548 : Ref sig .tc := ⟨.hbm, 814, rfl⟩
abbrev main_cst_111 : Ref sig .tc := ⟨.hbm, 815, rfl⟩
abbrev main_v549 : Ref sig .tc := ⟨.hbm, 816, rfl⟩
abbrev main_v550 : Ref sig .tc := ⟨.hbm, 817, rfl⟩
abbrev main_v551 : Ref sig .tc := ⟨.hbm, 818, rfl⟩
abbrev main_v552 : Ref sig .tc := ⟨.hbm, 819, rfl⟩
abbrev main_v553 : Ref sig .tc := ⟨.hbm, 820, rfl⟩
abbrev main_v554 : Ref sig .tc := ⟨.hbm, 821, rfl⟩
abbrev main_call50_v0 : Ref sig .tc := ⟨.hbm, 822, rfl⟩
abbrev main_call50_cst : Ref sig .tc := ⟨.hbm, 823, rfl⟩
abbrev main_call50_v1 : Ref sig .tc := ⟨.hbm, 824, rfl⟩
abbrev main_v555 : Ref sig .tc := ⟨.hbm, 825, rfl⟩
abbrev main_call51_v0 : Ref sig .tc := ⟨.hbm, 826, rfl⟩
abbrev main_call51_cst : Ref sig .tc := ⟨.hbm, 827, rfl⟩
abbrev main_call51_v1 : Ref sig .tc := ⟨.hbm, 828, rfl⟩
abbrev main_v556 : Ref sig .tc := ⟨.hbm, 829, rfl⟩
abbrev main_v557 : Ref sig .tc := ⟨.hbm, 830, rfl⟩
abbrev main_cst_112 : Ref sig .tc := ⟨.hbm, 831, rfl⟩
abbrev main_v558 : Ref sig .tc := ⟨.hbm, 832, rfl⟩
abbrev main_cst_113 : Ref sig .tc := ⟨.hbm, 833, rfl⟩
abbrev main_v559 : Ref sig .tc := ⟨.hbm, 834, rfl⟩
abbrev main_v560 : Ref sig .tc := ⟨.hbm, 835, rfl⟩
abbrev main_cst_114 : Ref sig .tc := ⟨.hbm, 836, rfl⟩
abbrev main_v561 : Ref sig .tc := ⟨.hbm, 837, rfl⟩
abbrev main_v562 : Ref sig .tc := ⟨.hbm, 838, rfl⟩
abbrev main_v563 : Ref sig .tc := ⟨.hbm, 839, rfl⟩
abbrev main_v564 : Ref sig .tc := ⟨.hbm, 840, rfl⟩
abbrev main_v565 : Ref sig .tc := ⟨.hbm, 841, rfl⟩
abbrev main_v566 : Ref sig .tc := ⟨.hbm, 842, rfl⟩
abbrev main_v567 : Ref sig .tc := ⟨.hbm, 843, rfl⟩
abbrev main_v568 : Ref sig .tc := ⟨.hbm, 844, rfl⟩
abbrev main_v569 : Ref sig .tc := ⟨.hbm, 845, rfl⟩
abbrev main_v570 : Ref sig .tc := ⟨.hbm, 846, rfl⟩
abbrev main_v571 : Ref sig .tc := ⟨.hbm, 847, rfl⟩
abbrev main_v572 : Ref sig .tc := ⟨.hbm, 848, rfl⟩
abbrev main_v573 : Ref sig .tc := ⟨.hbm, 849, rfl⟩
abbrev main_v574 : Ref sig .tc := ⟨.hbm, 850, rfl⟩
abbrev main_v575 : Ref sig .tc := ⟨.hbm, 851, rfl⟩
abbrev main_call52_v0 : Ref sig .tc := ⟨.hbm, 852, rfl⟩
abbrev main_call52_cst : Ref sig .tc := ⟨.hbm, 853, rfl⟩
abbrev main_call52_v1 : Ref sig .tc := ⟨.hbm, 854, rfl⟩
abbrev main_v576 : Ref sig .tc := ⟨.hbm, 855, rfl⟩
abbrev main_call53_v0 : Ref sig .tc := ⟨.hbm, 856, rfl⟩
abbrev main_call53_cst : Ref sig .tc := ⟨.hbm, 857, rfl⟩
abbrev main_call53_v1 : Ref sig .tc := ⟨.hbm, 858, rfl⟩
abbrev main_v577 : Ref sig .tc := ⟨.hbm, 859, rfl⟩
abbrev main_v578 : Ref sig .tc := ⟨.hbm, 860, rfl⟩
abbrev main_cst_115 : Ref sig .tc := ⟨.hbm, 861, rfl⟩
abbrev main_v579 : Ref sig .tc := ⟨.hbm, 862, rfl⟩
abbrev main_cst_116 : Ref sig .tc := ⟨.hbm, 863, rfl⟩
abbrev main_v580 : Ref sig .tc := ⟨.hbm, 864, rfl⟩
abbrev main_v581 : Ref sig .tc := ⟨.hbm, 865, rfl⟩
abbrev main_cst_117 : Ref sig .tc := ⟨.hbm, 866, rfl⟩
abbrev main_v582 : Ref sig .tc := ⟨.hbm, 867, rfl⟩
abbrev main_v583 : Ref sig .tc := ⟨.hbm, 868, rfl⟩
abbrev main_v584 : Ref sig .tc := ⟨.hbm, 869, rfl⟩
abbrev main_v585 : Ref sig .tc := ⟨.hbm, 870, rfl⟩
abbrev main_v586 : Ref sig .tc := ⟨.hbm, 871, rfl⟩
abbrev main_v587 : Ref sig .tc := ⟨.hbm, 872, rfl⟩
abbrev main_call54_v0 : Ref sig .tc := ⟨.hbm, 873, rfl⟩
abbrev main_call54_cst : Ref sig .tc := ⟨.hbm, 874, rfl⟩
abbrev main_call54_v1 : Ref sig .tc := ⟨.hbm, 875, rfl⟩
abbrev main_v588 : Ref sig .tc := ⟨.hbm, 876, rfl⟩
abbrev main_call55_v0 : Ref sig .tc := ⟨.hbm, 877, rfl⟩
abbrev main_call55_cst : Ref sig .tc := ⟨.hbm, 878, rfl⟩
abbrev main_call55_v1 : Ref sig .tc := ⟨.hbm, 879, rfl⟩
abbrev main_v589 : Ref sig .tc := ⟨.hbm, 880, rfl⟩
abbrev main_v590 : Ref sig .tc := ⟨.hbm, 881, rfl⟩
abbrev main_cst_118 : Ref sig .tc := ⟨.hbm, 882, rfl⟩
abbrev main_v591 : Ref sig .tc := ⟨.hbm, 883, rfl⟩
abbrev main_cst_119 : Ref sig .tc := ⟨.hbm, 884, rfl⟩
abbrev main_v592 : Ref sig .tc := ⟨.hbm, 885, rfl⟩
abbrev main_v593 : Ref sig .tc := ⟨.hbm, 886, rfl⟩
abbrev main_cst_120 : Ref sig .tc := ⟨.hbm, 887, rfl⟩
abbrev main_v594 : Ref sig .tc := ⟨.hbm, 888, rfl⟩
abbrev main_v595 : Ref sig .tc := ⟨.hbm, 889, rfl⟩
abbrev main_v596 : Ref sig .tc := ⟨.hbm, 890, rfl⟩
abbrev main_v597 : Ref sig .tc := ⟨.hbm, 891, rfl⟩
abbrev main_v598 : Ref sig .tc := ⟨.hbm, 892, rfl⟩
abbrev main_v599 : Ref sig .tc := ⟨.hbm, 893, rfl⟩
abbrev main_v600 : Ref sig .tc := ⟨.hbm, 894, rfl⟩
abbrev main_v601 : Ref sig .tc := ⟨.hbm, 895, rfl⟩
abbrev main_v602 : Ref sig .tc := ⟨.hbm, 896, rfl⟩
abbrev main_v603 : Ref sig .tc := ⟨.hbm, 897, rfl⟩
abbrev main_v604 : Ref sig .tc := ⟨.hbm, 898, rfl⟩
abbrev main_v605 : Ref sig .tc := ⟨.hbm, 899, rfl⟩
abbrev main_v606 : Ref sig .tc := ⟨.hbm, 900, rfl⟩
abbrev main_v607 : Ref sig .tc := ⟨.hbm, 901, rfl⟩
abbrev main_v608 : Ref sig .tc := ⟨.hbm, 902, rfl⟩
abbrev main_call56_v0 : Ref sig .tc := ⟨.hbm, 903, rfl⟩
abbrev main_call56_cst : Ref sig .tc := ⟨.hbm, 904, rfl⟩
abbrev main_call56_v1 : Ref sig .tc := ⟨.hbm, 905, rfl⟩
abbrev main_v609 : Ref sig .tc := ⟨.hbm, 906, rfl⟩
abbrev main_call57_v0 : Ref sig .tc := ⟨.hbm, 907, rfl⟩
abbrev main_call57_cst : Ref sig .tc := ⟨.hbm, 908, rfl⟩
abbrev main_call57_v1 : Ref sig .tc := ⟨.hbm, 909, rfl⟩
abbrev main_v610 : Ref sig .tc := ⟨.hbm, 910, rfl⟩
abbrev main_v611 : Ref sig .tc := ⟨.hbm, 911, rfl⟩
abbrev main_cst_121 : Ref sig .tc := ⟨.hbm, 912, rfl⟩
abbrev main_v612 : Ref sig .tc := ⟨.hbm, 913, rfl⟩
abbrev main_cst_122 : Ref sig .tc := ⟨.hbm, 914, rfl⟩
abbrev main_v613 : Ref sig .tc := ⟨.hbm, 915, rfl⟩
abbrev main_v614 : Ref sig .tc := ⟨.hbm, 916, rfl⟩
abbrev main_cst_123 : Ref sig .tc := ⟨.hbm, 917, rfl⟩
abbrev main_v615 : Ref sig .tc := ⟨.hbm, 918, rfl⟩
abbrev main_v616 : Ref sig .tc := ⟨.hbm, 919, rfl⟩
abbrev main_v617 : Ref sig .tc := ⟨.hbm, 920, rfl⟩
abbrev main_v618 : Ref sig .tc := ⟨.hbm, 921, rfl⟩
abbrev main_v619 : Ref sig .tc := ⟨.hbm, 922, rfl⟩
abbrev main_v620 : Ref sig .tc := ⟨.hbm, 923, rfl⟩
abbrev main_v621 : Ref sig .tc := ⟨.hbm, 924, rfl⟩
abbrev main_v622 : Ref sig .tc := ⟨.hbm, 925, rfl⟩
abbrev main_v623 : Ref sig .tc := ⟨.hbm, 926, rfl⟩
abbrev main_v624 : Ref sig .tc := ⟨.hbm, 927, rfl⟩

abbrev nD : Nat := 1
abbrev τ : Topo := Topo.v7x

variable {F : FTy → Type} [FloatOps F]

class Facts₀ : Prop where
  slices_S16x128x200_S16x128x100_0_0_0 : S16x128x200.Slices ![0, 0, 0] S16x128x100
  slices_S16x128x200_S16x128x100_0_0_100 : S16x128x200.Slices ![0, 0, 100] S16x128x100
  reducesTo_S16x128_S16_d1 : S16x128.ReducesTo [1] S16
  h_S_ : 0 < S_.numel
  bcast_S_S16 : S_.BroadcastsInDim S16 (![] : Fin 0 → Fin S16.rank)
  bcast_S16_S16x1_0 : S16.BroadcastsInDim S16x1 (![0] : Fin 1 → Fin S16x1.rank)
  concatenates_S16x1_S16x1_S16x2_d1 : Shape.Concatenates [S16x1, S16x1] S16x2 1
  bcast_S16x100_S16x1x100_0_2 : S16x100.BroadcastsInDim S16x1x100 (![0, 2] : Fin 2 → Fin S16x1x100.rank)
  slices_S16x128x100_S16x1x100_0_0_0 : S16x128x100.Slices ![0, 0, 0] S16x1x100
  reducesTo_S16x128x100_S16x128_d2 : S16x128x100.ReducesTo [2] S16x128
  bcast_S16x128_S16x128x1_0_1 : S16x128.BroadcastsInDim S16x128x1 (![0, 1] : Fin 2 → Fin S16x128x1.rank)
  bcast_S16x128_S16x1x128_0_2 : S16x128.BroadcastsInDim S16x1x128 (![0, 2] : Fin 2 → Fin S16x1x128.rank)
  bcast_S16x128x1_S16x128x128_0_1_2 : S16x128x1.BroadcastsInDim S16x128x128 (![0, 1, 2] : Fin 3 → Fin S16x128x128.rank)
  bcast_S16x1x128_S16x128x128_0_1_2 : S16x1x128.BroadcastsInDim S16x128x128 (![0, 1, 2] : Fin 3 → Fin S16x128x128.rank)
  bcast_S_S16x128x128 : S_.BroadcastsInDim S16x128x128 (![] : Fin 0 → Fin S16x128x128.rank)
  reducesTo_S16x128x128_S16x128_d2 : S16x128x128.ReducesTo [2] S16x128
  bcast_S_S16x128x1 : S_.BroadcastsInDim S16x128x1 (![] : Fin 0 → Fin S16x128x1.rank)
  reducesTo_S16x128x128_S16x128_d1 : S16x128x128.ReducesTo [1] S16x128
  bcast_S_S16x128 : S_.BroadcastsInDim S16x128 (![] : Fin 0 → Fin S16x128.rank)
  slices_S8x20x100_S1x20x100_0_0_0 : S8x20x100.Slices ![0, 0, 0] S1x20x100
  shapeCasts_S1x20x100_S20x100 : S1x20x100.ShapeCasts S20x100
  reducesTo_S16x1x100_S16x1_d2 : S16x1x100.ReducesTo [2] S16x1
  bcast_S16x1x100_S16x128x100_0_1_2 : S16x1x100.BroadcastsInDim S16x128x100 (![0, 1, 2] : Fin 3 → Fin S16x128x100.rank)
  bcast_S_S16x1 : S_.BroadcastsInDim S16x1 (![] : Fin 0 → Fin S16x1.rank)
  bcast_S16x1_S16x128_0_1 : S16x1.BroadcastsInDim S16x128 (![0, 1] : Fin 2 → Fin S16x128.rank)
  bcast_S20x100_S1x1x20x100_2_3 : S20x100.BroadcastsInDim S1x1x20x100 (![2, 3] : Fin 2 → Fin S1x1x20x100.rank)
  bcast_S16x128x100_S16x128x1x100_0_1_3 : S16x128x100.BroadcastsInDim S16x128x1x100 (![0, 1, 3] : Fin 3 → Fin S16x128x1x100.rank)
  bcast_S1x1x20x100_S16x128x20x100_0_1_2_3 : S1x1x20x100.BroadcastsInDim S16x128x20x100 (![0, 1, 2, 3] : Fin 4 → Fin S16x128x20x100.rank)
  bcast_S16x128x1x100_S16x128x20x100_0_1_2_3 : S16x128x1x100.BroadcastsInDim S16x128x20x100 (![0, 1, 2, 3] : Fin 4 → Fin S16x128x20x100.rank)
  bcast_S16x1x100_S16x1x1x100_0_1_3 : S16x1x100.BroadcastsInDim S16x1x1x100 (![0, 1, 3] : Fin 3 → Fin S16x1x1x100.rank)
  bcast_S1x1x20x100_S16x1x20x100_0_1_2_3 : S1x1x20x100.BroadcastsInDim S16x1x20x100 (![0, 1, 2, 3] : Fin 4 → Fin S16x1x20x100.rank)
  bcast_S16x1x1x100_S16x1x20x100_0_1_2_3 : S16x1x1x100.BroadcastsInDim S16x1x20x100 (![0, 1, 2, 3] : Fin 4 → Fin S16x1x20x100.rank)
  reducesTo_S16x128x20x100_S16x128x20_d3 : S16x128x20x100.ReducesTo [3] S16x128x20
  reducesTo_S16x1x20x100_S16x1x20_d3 : S16x1x20x100.ReducesTo [3] S16x1x20
  bcast_S16x1x20x100_S16x128x20x100_0_1_2_3 : S16x1x20x100.BroadcastsInDim S16x128x20x100 (![0, 1, 2, 3] : Fin 4 → Fin S16x128x20x100.rank)
  bcast_S_S16x128x20 : S_.BroadcastsInDim S16x128x20 (![] : Fin 0 → Fin S16x128x20.rank)
  bcast_S_S16x1x20 : S_.BroadcastsInDim S16x1x20 (![] : Fin 0 → Fin S16x1x20.rank)
  bcast_S16x1x20_S16x128x20_0_1_2 : S16x1x20.BroadcastsInDim S16x128x20 (![0, 1, 2] : Fin 3 → Fin S16x128x20.rank)
  slices_S8x20x100_S1x20x100_1_0_0 : S8x20x100.Slices ![1, 0, 0] S1x20x100
  slices_S8x20x100_S1x20x100_2_0_0 : S8x20x100.Slices ![2, 0, 0] S1x20x100
  bcast_S20x100_S1x20x1x100_1_3 : S20x100.BroadcastsInDim S1x20x1x100 (![1, 3] : Fin 2 → Fin S1x20x1x100.rank)
  bcast_S16x128x100_S16x1x128x100_0_2_3 : S16x128x100.BroadcastsInDim S16x1x128x100 (![0, 2, 3] : Fin 3 → Fin S16x1x128x100.rank)
  bcast_S1x20x1x100_S16x20x128x100_0_1_2_3 : S1x20x1x100.BroadcastsInDim S16x20x128x100 (![0, 1, 2, 3] : Fin 4 → Fin S16x20x128x100.rank)
  bcast_S16x1x128x100_S16x20x128x100_0_1_2_3 : S16x1x128x100.BroadcastsInDim S16x20x128x100 (![0, 1, 2, 3] : Fin 4 → Fin S16x20x128x100.rank)
  reducesTo_S16x20x128x100_S16x20x128_d3 : S16x20x128x100.ReducesTo [3] S16x20x128
  bcast_S16x20x128_S16x20x128x1_0_1_2 : S16x20x128.BroadcastsInDim S16x20x128x1 (![0, 1, 2] : Fin 3 → Fin S16x20x128x1.rank)
  bcast_S16x20x128_S16x20x1x128_0_1_3 : S16x20x128.BroadcastsInDim S16x20x1x128 (![0, 1, 3] : Fin 3 → Fin S16x20x1x128.rank)
  bcast_S16x20x128x1_S16x20x128x128_0_1_2_3 : S16x20x128x1.BroadcastsInDim S16x20x128x128 (![0, 1, 2, 3] : Fin 4 → Fin S16x20x128x128.rank)
  bcast_S16x20x1x128_S16x20x128x128_0_1_2_3 : S16x20x1x128.BroadcastsInDim S16x20x128x128 (![0, 1, 2, 3] : Fin 4 → Fin S16x20x128x128.rank)
  bcast_S_S16x20x128x128 : S_.BroadcastsInDim S16x20x128x128 (![] : Fin 0 → Fin S16x20x128x128.rank)
  transposes_S16x20x128x128_S16x128x128x20_0_2_3_1 : S16x20x128x128.Transposes [0, 2, 3, 1] S16x128x128x20
  slices_S8x20x100_S1x20x100_3_0_0 : S8x20x100.Slices ![3, 0, 0] S1x20x100
  reducesTo_S16x128x128x20_S16x128x20_d2 : S16x128x128x20.ReducesTo [2] S16x128x20
  reducesTo_S16x128x128x20_S16x128x20_d1 : S16x128x128x20.ReducesTo [1] S16x128x20
  bcast_S16x128x1_S16x128x100_0_1_2 : S16x128x1.BroadcastsInDim S16x128x100 (![0, 1, 2] : Fin 3 → Fin S16x128x100.rank)
  slices_S8x20x100_S1x20x100_4_0_0 : S8x20x100.Slices ![4, 0, 0] S1x20x100
  slices_S8x20x100_S1x20x100_5_0_0 : S8x20x100.Slices ![5, 0, 0] S1x20x100
  bcast_S16x128x128_S16x128x128x1_0_1_2 : S16x128x128.BroadcastsInDim S16x128x128x1 (![0, 1, 2] : Fin 3 → Fin S16x128x128x1.rank)
  bcast_S16x1x128x100_S16x128x128x100_0_1_2_3 : S16x1x128x100.BroadcastsInDim S16x128x128x100 (![0, 1, 2, 3] : Fin 4 → Fin S16x128x128x100.rank)
  bcast_S16x128x128x1_S16x128x128x100_0_1_2_3 : S16x128x128x1.BroadcastsInDim S16x128x128x100 (![0, 1, 2, 3] : Fin 4 → Fin S16x128x128x100.rank)
  reducesTo_S16x128x128x100_S16x128x100_d2 : S16x128x128x100.ReducesTo [2] S16x128x100
  bcast_S16x128x1x100_S16x128x128x100_0_1_2_3 : S16x128x1x100.BroadcastsInDim S16x128x128x100 (![0, 1, 2, 3] : Fin 4 → Fin S16x128x128x100.rank)
  reducesTo_S16x128x128x100_S16x128x100_d1 : S16x128x128x100.ReducesTo [1] S16x128x100
  slices_S8x20x100_S1x20x100_6_0_0 : S8x20x100.Slices ![6, 0, 0] S1x20x100
  slices_S8x20x100_S1x20x100_7_0_0 : S8x20x100.Slices ![7, 0, 0] S1x20x100
  concatenates_S16x128x1_S16x128x1_S16x128x1_S16x128x1_S16x128x1_S16x128x20_S16x128x1_S16x128x20_S16x128x20_S16x128x20_S16x128x20_S16x128x20_S16x128x1_S16x128x20_S16x128x1_S16x128x20_S16x128x168_d2 : Shape.Concatenates [S16x128x1, S16x128x1, S16x128x1, S16x128x1, S16x128x1, S16x128x20, S16x128x1, S16x128x20, S16x128x20, S16x128x20, S16x128x20, S16x128x20, S16x128x1, S16x128x20, S16x128x1, S16x128x20] S16x128x168 2
  concatenates_S16x128x1_S16x128x20_S16x128x1_S16x128x20_S16x128x42_d2 : Shape.Concatenates [S16x128x1, S16x128x20, S16x128x1, S16x128x20] S16x128x42 2
  concatenates_S16x128x168_S16x128x42_S16x128x210_d2 : Shape.Concatenates [S16x128x168, S16x128x42] S16x128x210 2
  gather_S16x128x100_S16x2_S16x100_1_01_n_n_01_1_11100_wf : GatherDims.WF S16x128x100 S16x2 S16x100 [1] [0, 1] [] [0, 1] [] 1 ![1, 1, 100]
  dot_S16x128x100_S16x128x100_S16x128x128_2_2_1_1_0_0_wf : DotDims.WF S16x128x100 S16x128x100 S16x128x128 [2] [2] [1] [1] [0] [0]
  dot_S16x20x128x100_S16x20x128x100_S16x20x128x128_3_3_2_2_01_01_wf : DotDims.WF S16x20x128x100 S16x20x128x100 S16x20x128x128 [3] [3] [2] [2] [0, 1] [0, 1]
  dot_S16x128x128_S16x128x100_S16x128x100_2_1_1_2_0_0_wf : DotDims.WF S16x128x128 S16x128x100 S16x128x100 [2] [1] [1] [2] [0] [0]
  dot_S16x128x128_S16x128x100_S16x128x100_1_1_2_2_0_0_wf : DotDims.WF S16x128x128 S16x128x100 S16x128x100 [1] [1] [2] [2] [0] [0]

variable [Facts₀]

def gather_S16x128x100_S16x2_S16x100_1_01_n_n_01_1_11100 : GatherDims S16x128x100 S16x2 S16x100 where
  offsetDims := [1]
  collapsedSliceDims := [0, 1]
  operandBatchingDims := []
  startIndicesBatchingDims := []
  startIndexMap := [0, 1]
  indexVectorDim := 1
  sliceSizes := ![1, 1, 100]
  wf := gather_S16x128x100_S16x2_S16x100_1_01_n_n_01_1_11100_wf
def dot_S16x128x100_S16x128x100_S16x128x128_2_2_1_1_0_0 : DotDims S16x128x100 S16x128x100 S16x128x128 where
  lhsContracting := [2]
  rhsContracting := [2]
  lhsNonContracting := [1]
  rhsNonContracting := [1]
  lhsBatch := [0]
  rhsBatch := [0]
  wf := dot_S16x128x100_S16x128x100_S16x128x128_2_2_1_1_0_0_wf
def dot_S16x20x128x100_S16x20x128x100_S16x20x128x128_3_3_2_2_01_01 : DotDims S16x20x128x100 S16x20x128x100 S16x20x128x128 where
  lhsContracting := [3]
  rhsContracting := [3]
  lhsNonContracting := [2]
  rhsNonContracting := [2]
  lhsBatch := [0, 1]
  rhsBatch := [0, 1]
  wf := dot_S16x20x128x100_S16x20x128x100_S16x20x128x128_3_3_2_2_01_01_wf
def dot_S16x128x128_S16x128x100_S16x128x100_2_1_1_2_0_0 : DotDims S16x128x128 S16x128x100 S16x128x100 where
  lhsContracting := [2]
  rhsContracting := [1]
  lhsNonContracting := [1]
  rhsNonContracting := [2]
  lhsBatch := [0]
  rhsBatch := [0]
  wf := dot_S16x128x128_S16x128x100_S16x128x100_2_1_1_2_0_0_wf
def dot_S16x128x128_S16x128x100_S16x128x100_1_1_2_2_0_0 : DotDims S16x128x128 S16x128x100 S16x128x100 where
  lhsContracting := [1]
  rhsContracting := [1]
  lhsNonContracting := [2]
  rhsNonContracting := [2]
  lhsBatch := [0]
  rhsBatch := [0]
  wf := dot_S16x128x128_S16x128x100_S16x128x100_1_1_2_2_0_0_wf

class Facts : Prop extends Facts₀ where

variable [Facts]
-- ==== Proof.Mpm.Math.lean ====
/-
  The mathematics both programs compute, over rows of extended reals: the inner product of two rows of length
  100, a row's Euclidean norm, a row scaled entrywise by a perspective's weights, the two cosine forms the model
  uses (each norm clipped at eps before the product; or the product of the norms clipped), maxima and means
  over the 128 sequence positions, and the attentive mean and maximum of a sequence under a row of cosines.
-/
import Idealize.ShloMosaic.PureOps.Ideal
import Idealize.ShloMosaic.PureOps.Ideal.Laws

noncomputable section

namespace Cert.Mpm

open Idealize.ShloMosaic
open scoped BigOperators

/-- The clip value 1e-8 as the f32 both programs carry. -/
def eps : EReal := Ideal.ofBits .f32 0x322BCC77#32
/-- The sequence length 128 as an f32. -/
def c128 : EReal := Ideal.ofBits .f32 0x43000000#32
/-- The f32 -inf a maximum starts from. -/
def ninf : EReal := Ideal.ofBits .f32 0xFF800000#32

/-- The inner product of two rows. -/
def dot (a b : Fin 100 → EReal) : EReal := ∑ h, a h * b h
/-- A row's Euclidean norm. -/
def nrm (a : Fin 100 → EReal) : EReal := Ideal.sqrt (dot a a)
/-- A row scaled entrywise by a perspective's weights. -/
def wmul (w a : Fin 100 → EReal) : Fin 100 → EReal := fun h => w h * a h
/-- Cosine with each norm clipped at eps before the product. -/
def cosSim (a b : Fin 100 → EReal) : EReal := Ideal.div (dot a b) (max (nrm a) eps * max (nrm b) eps)
/-- Cosine with the product of the norms clipped at eps. -/
def cosPair (a b : Fin 100 → EReal) : EReal := Ideal.div (dot a b) (max (nrm a * nrm b) eps)
/-- The maximum of n values, from -inf. -/
def fmax {n : ℕ} (f : Fin n → EReal) : EReal := (Finset.univ : Finset (Fin n)).fold max ninf f
/-- The mean of 128 values. -/
def fmean (f : Fin 128 → EReal) : EReal := Ideal.div (∑ j, f j) c128
/-- The attentive mean: a sequence's cosine-weighted sum over its clipped total weight, at feature h. -/
def attMean (c : Fin 128 → EReal) (V : Fin 128 → Fin 100 → EReal) (h : Fin 100) : EReal :=
  Ideal.div (∑ j, c j * V j h) (max (∑ j, c j) eps)
/-- The attentive maximum: the largest cosine-weighted entry of a sequence, at feature h. -/
def attMax (c : Fin 128 → EReal) (V : Fin 128 → Fin 100 → EReal) (h : Fin 100) : EReal :=
  fmax fun j => V j h * c j

/-- Scaling both rows by the same weights: the inner product with the squared weights moved onto the second row. -/
theorem dot_wmul_right (w a b : Fin 100 → EReal) : dot (wmul w a) (wmul w b) = ∑ h, a h * ((w h * w h) * b h) := by
  unfold dot wmul
  exact Finset.sum_congr rfl fun h _ => by ac_rfl

/-- The same with the two rows' product taken first and the squared weights last. -/
theorem dot_wmul_prod (w a b : Fin 100 → EReal) : dot (wmul w a) (wmul w b) = ∑ h, (a h * b h) * (w h * w h) := by
  unfold dot wmul
  exact Finset.sum_congr rfl fun h _ => by ac_rfl

/-- The squared weights first, as the single-vector form has them. -/
theorem dot_wmul_sq_left (w b : Fin 100 → EReal) : dot (wmul w b) (wmul w b) = ∑ h, (w h * w h) * (b h * b h) := by
  unfold dot wmul
  exact Finset.sum_congr rfl fun h _ => by ac_rfl

end Cert.Mpm
end
-- ==== Proof.Mpm.Spec.lean ====
/-
  What each of the 210 output columns is, for one batch element, as a function of the rows the two programs read:
  the two halves (forward and backward features) of the premise rows pf, pb and of the hypothesis rows hf, hb, the two
  last forward states pl (premise) and hl (hypothesis), and the eight weight matrices w k (20 perspectives each).
  The backward "last" states are the first rows pb 0 and hb 0.
  Output P (one row per premise position l):
     0..3    max / mean over hypothesis positions of the forward cosine, then of the backward cosine
     4, 5..24      full match, forward:  cosine with hl;  the same under each perspective of w 0
     25, 26..45    full match, backward: with hb 0, perspectives of w 1
     46..65, 66..85     max / mean over hypothesis positions of the perspective cosine, forward (w 2)
     86..105, 106..125  the same, backward (w 3)
     126, 127..146  attentive mean match, forward (w 4);   147, 148..167  backward (w 5)
     168, 169..188  attentive max match, forward (w 6);    189, 190..209  backward (w 7)
  Output H is the same with the roles of premise and hypothesis exchanged (and pl in place of hl).
-/
import proofs.«116293_j48241072668683_2_alg».proof.Proof.Mpm.Math

noncomputable section

namespace Cert.Mpm

/-- The rows of one batch element. -/
structure Rows where
  pf : Fin 128 → Fin 100 → EReal
  pb : Fin 128 → Fin 100 → EReal
  hf : Fin 128 → Fin 100 → EReal
  hb : Fin 128 → Fin 100 → EReal
  pl : Fin 100 → EReal
  hl : Fin 100 → EReal
  w : Fin 8 → Fin 20 → Fin 100 → EReal

namespace Rows
variable (R : Rows)

/-- The forward and backward cosine matrices (premise position i, hypothesis position j). -/
def cosF (i j : Fin 128) : EReal := cosPair (R.pf i) (R.hf j)
def cosB (i j : Fin 128) : EReal := cosPair (R.pb i) (R.hb j)

/-- The cosine of two rows under perspective p of weight matrix k. -/
def persp (k : Fin 8) (p : Fin 20) (a b : Fin 100 → EReal) : EReal := cosSim (wmul (R.w k p) a) (wmul (R.w k p) b)
/-- The pairwise perspective cosine (product of norms clipped). -/
def perspPair (k : Fin 8) (p : Fin 20) (a b : Fin 100 → EReal) : EReal := cosPair (wmul (R.w k p) a) (wmul (R.w k p) b)

/-- The attentive means and maxima: for a premise position l over the hypothesis, for a hypothesis position l over the premise. -/
def amHF (l : Fin 128) : Fin 100 → EReal := attMean (fun j => R.cosF l j) R.hf
def amHB (l : Fin 128) : Fin 100 → EReal := attMean (fun j => R.cosB l j) R.hb
def amPF (l : Fin 128) : Fin 100 → EReal := attMean (fun i => R.cosF i l) R.pf
def amPB (l : Fin 128) : Fin 100 → EReal := attMean (fun i => R.cosB i l) R.pb
def axHF (l : Fin 128) : Fin 100 → EReal := attMax (fun j => R.cosF l j) R.hf
def axHB (l : Fin 128) : Fin 100 → EReal := attMax (fun j => R.cosB l j) R.hb
def axPF (l : Fin 128) : Fin 100 → EReal := attMax (fun i => R.cosF i l) R.pf
def axPB (l : Fin 128) : Fin 100 → EReal := attMax (fun i => R.cosB i l) R.pb

/-! ### Output P: the one-column segments (index 0 .. 11 in the order they are stored) and the 20-column segments (0 .. 7) -/

/-- P's one-column segments at premise position l: columns 0, 1, 2, 3, 4, 25, 126, 147, 168, 189. -/
def p1 (s : Fin 10) (l : Fin 128) : EReal :=
  match s with
  | 0 => fmax fun j => R.cosF l j
  | 1 => fmean fun j => R.cosF l j
  | 2 => fmax fun j => R.cosB l j
  | 3 => fmean fun j => R.cosB l j
  | 4 => cosSim (R.pf l) R.hl
  | 5 => cosSim (R.pb l) (R.hb 0)
  | 6 => cosSim (R.pf l) (R.amHF l)
  | 7 => cosSim (R.pb l) (R.amHB l)
  | 8 => cosSim (R.pf l) (R.axHF l)
  | 9 => cosSim (R.pb l) (R.axHB l)

/-- P's 20-column segments at (l, p): columns 5.., 26.., 46.., 66.., 86.., 106.., 127.., 148.., 169.., 190... -/
def p20 (s : Fin 10) (l : Fin 128) (p : Fin 20) : EReal :=
  match s with
  | 0 => R.persp 0 p (R.pf l) R.hl
  | 1 => R.persp 1 p (R.pb l) (R.hb 0)
  | 2 => fmax fun j => R.perspPair 2 p (R.pf l) (R.hf j)
  | 3 => fmean fun j => R.perspPair 2 p (R.pf l) (R.hf j)
  | 4 => fmax fun j => R.perspPair 3 p (R.pb l) (R.hb j)
  | 5 => fmean fun j => R.perspPair 3 p (R.pb l) (R.hb j)
  | 6 => R.persp 4 p (R.pf l) (R.amHF l)
  | 7 => R.persp 5 p (R.pb l) (R.amHB l)
  | 8 => R.persp 6 p (R.pf l) (R.axHF l)
  | 9 => R.persp 7 p (R.pb l) (R.axHB l)

/-! ### Output H -/

/-- H's one-column segments at hypothesis position l. -/
def h1 (s : Fin 10) (l : Fin 128) : EReal :=
  match s with
  | 0 => fmax fun i => R.cosF i l
  | 1 => fmean fun i => R.cosF i l
  | 2 => fmax fun i => R.cosB i l
  | 3 => fmean fun i => R.cosB i l
  | 4 => cosSim (R.hf l) R.pl
  | 5 => cosSim (R.hb l) (R.pb 0)
  | 6 => cosSim (R.hf l) (R.amPF l)
  | 7 => cosSim (R.hb l) (R.amPB l)
  | 8 => cosSim (R.hf l) (R.axPF l)
  | 9 => cosSim (R.hb l) (R.axPB l)

/-- H's 20-column segments at (l, p). -/
def h20 (s : Fin 10) (l : Fin 128) (p : Fin 20) : EReal :=
  match s with
  | 0 => R.persp 0 p (R.hf l) R.pl
  | 1 => R.persp 1 p (R.hb l) (R.pb 0)
  | 2 => fmax fun i => R.perspPair 2 p (R.pf i) (R.hf l)
  | 3 => fmean fun i => R.perspPair 2 p (R.pf i) (R.hf l)
  | 4 => fmax fun i => R.perspPair 3 p (R.pb i) (R.hb l)
  | 5 => fmean fun i => R.perspPair 3 p (R.pb i) (R.hb l)
  | 6 => R.persp 4 p (R.hf l) (R.amPF l)
  | 7 => R.persp 5 p (R.hb l) (R.amPB l)
  | 8 => R.persp 6 p (R.hf l) (R.axPF l)
  | 9 => R.persp 7 p (R.hb l) (R.axPB l)

end Rows

/-- The column where each segment starts, in storage order: the 20 segments alternate as the kernel and the
    reference concatenate them. Segment t (0 .. 19) is one column wide when `segWide t = false`. -/
def segStart : Fin 20 → ℕ := ![0, 1, 2, 3, 4, 5, 25, 26, 46, 66, 86, 106, 126, 127, 147, 148, 168, 169, 189, 190]

end Cert.Mpm
end
-- ==== Proof.Mpm.KArr.lean ====
/-
  From the output blocks to the whole output arrays after the kernel's run.
  The grid has one point per batch element. At point t every batch-indexed window sits on block (t, 0, 0) of its
  array, whose blocks have extent 1 along the batch axis, and the weights' window holds the whole weight array at
  every point. So an input block read at (0, l, k) is its array at (t, l, k), and, since every point writes its
  output block back and distinct points write distinct blocks, the final output arrays at (t, l, col) hold what
  point t computed from its input blocks at (0, l, col).
-/
import proofs.«116293_j48241072668683_2_alg».proof.Proof.Gen.KernelIdeal.Value
import Idealize.ShloMosaic.Lib.ValueIdx
import Idealize.ShloMosaic.Lib.Pipeline.Value
import Idealize.ShloMosaic.Lib.StableHlo.Run

noncomputable section

namespace Cert.Mpm

open Idealize.ShloMosaic Idealize.ShloMosaic.ValueIdx Idealize.ShloMosaic.TcCoe Idealize.SL.Sem
open Idealize.ShloMosaic.Pipeline (Dat)
open Cert.KernelIdeal Cert.KernelIdeal.Gen Cert.KernelIdeal.Value

variable (m : (ℓ : Loc nD τ sig) → Buf (Elt Ideal) ℓ) (c : Dev nD)

/-- Where each window sits at grid point t: the six batch-indexed windows on block (t, 0, 0), the weights'
    window on block (0, 0, 0). Decided over the 16 points. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = 0 ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0)
    ∧ (win0_6.index t (0 : Fin 3) = t.val ∧ win0_6.index t (1 : Fin 3) = 0 ∧ win0_6.index t (2 : Fin 3) = 0) :=
  (by decide +kernel : ∀ t : Fin grid0.N, _)

/-! ## The input blocks, read off their arrays -/

/-- The premise block at point t is batch element t of the premise array. -/
theorem iblk0_at (t : Fin cfg0.N) (y : S1x128x200.Idx) (i : S16x128x200.Idx)
    (h0 : (i 0).val = t.val) (h1 : (i 1).val = (y 1).val) (h2 : (i 2).val = (y 2).val) :
    (iblk m c 0 t : Vec Ideal S1x128x200 .f32) y = V m c main_arg0 i := by
  obtain ⟨⟨e0, e1, e2⟩, -⟩ := idx_facts t
  show V m c main_arg0 (((cfg0.win 0).blk t).view.emb y) = V m c main_arg0 i
  refine congrArg _ (funext fun a => Fin.ext ?_)
  have hy : (y 0).val < 1 := (y 0).isLt
  match a with
  | ⟨0, _⟩ => show win0_0.index t (0 : Fin 3) * 1 + 1 * (y 0).val = (i 0).val; omega
  | ⟨1, _⟩ => show win0_0.index t (1 : Fin 3) * 128 + 1 * (y 1).val = (i 1).val; omega
  | ⟨2, _⟩ => show win0_0.index t (2 : Fin 3) * 200 + 1 * (y 2).val = (i 2).val; omega

/-- The hypothesis block at point t is batch element t of the hypothesis array. -/
theorem iblk1_at (t : Fin cfg0.N) (y : S1x128x200.Idx) (i : S16x128x200.Idx)
    (h0 : (i 0).val = t.val) (h1 : (i 1).val = (y 1).val) (h2 : (i 2).val = (y 2).val) :
    (iblk m c 1 t : Vec Ideal S1x128x200 .f32) y = V m c main_arg2 i := by
  obtain ⟨-, ⟨e0, e1, e2⟩, -⟩ := idx_facts t
  show V m c main_arg2 (((cfg0.win 1).blk t).view.emb y) = V m c main_arg2 i
  refine congrArg _ (funext fun a => Fin.ext ?_)
  have hy : (y 0).val < 1 := (y 0).isLt
  match a with
  | ⟨0, _⟩ => show win0_1.index t (0 : Fin 3) * 1 + 1 * (y 0).val = (i 0).val; omega
  | ⟨1, _⟩ => show win0_1.index t (1 : Fin 3) * 128 + 1 * (y 1).val = (i 1).val; omega
  | ⟨2, _⟩ => show win0_1.index t (2 : Fin 3) * 200 + 1 * (y 2).val = (i 2).val; omega

/-- The premise's last-state block at point t is batch element t of the last-state array. -/
theorem iblk2_at (t : Fin cfg0.N) (y : S1x1x100.Idx) (i : S16x1x100.Idx)
    (h0 : (i 0).val = t.val) (h2 : (i 2).val = (y 2).val) :
    (iblk m c 2 t : Vec Ideal S1x1x100 .f32) y = V m c main_v25 i := by
  obtain ⟨-, -, ⟨e0, e1, e2⟩, -⟩ := idx_facts t
  show V m c main_v25 (((cfg0.win 2).blk t).view.emb y) = V m c main_v25 i
  refine congrArg _ (funext fun a => Fin.ext ?_)
  have hy0 : (y 0).val < 1 := (y 0).isLt
  have hy1 : (y 1).val < 1 := (y 1).isLt
  have hi1 : (i 1).val < 1 := (i 1).isLt
  match a with
  | ⟨0, _⟩ => show win0_2.index t (0 : Fin 3) * 1 + 1 * (y 0).val = (i 0).val; omega
  | ⟨1, _⟩ => show win0_2.index t (1 : Fin 3) * 1 + 1 * (y 1).val = (i 1).val; omega
  | ⟨2, _⟩ => show win0_2.index t (2 : Fin 3) * 100 + 1 * (y 2).val = (i 2).val; omega

/-- The hypothesis's last-state block at point t is batch element t of the last-state array. -/
theorem iblk3_at (t : Fin cfg0.N) (y : S1x1x100.Idx) (i : S16x1x100.Idx)
    (h0 : (i 0).val = t.val) (h2 : (i 2).val = (y 2).val) :
    (iblk m c 3 t : Vec Ideal S1x1x100 .f32) y = V m c main_v40 i := by
  obtain ⟨-, -, -, ⟨e0, e1, e2⟩, -⟩ := idx_facts t
  show V m c main_v40 (((cfg0.win 3).blk t).view.emb y) = V m c main_v40 i
  refine congrArg _ (funext fun a => Fin.ext ?_)
  have hy0 : (y 0).val < 1 := (y 0).isLt
  have hy1 : (y 1).val < 1 := (y 1).isLt
  have hi1 : (i 1).val < 1 := (i 1).isLt
  match a with
  | ⟨0, _⟩ => show win0_3.index t (0 : Fin 3) * 1 + 1 * (y 0).val = (i 0).val; omega
  | ⟨1, _⟩ => show win0_3.index t (1 : Fin 3) * 1 + 1 * (y 1).val = (i 1).val; omega
  | ⟨2, _⟩ => show win0_3.index t (2 : Fin 3) * 100 + 1 * (y 2).val = (i 2).val; omega

/-- The weights' block at every point is the whole weight array. -/
theorem iblk4_at (t : Fin cfg0.N) (y : S8x20x100.Idx) :
    (iblk m c 4 t : Vec Ideal S8x20x100 .f32) y = V m c main_arg4 y := by
  obtain ⟨-, -, -, -, ⟨e0, e1, e2⟩, -⟩ := idx_facts t
  show V m c main_arg4 (((cfg0.win 4).blk t).view.emb y) = V m c main_arg4 y
  refine congrArg _ (funext fun a => Fin.ext ?_)
  match a with
  | ⟨0, _⟩ => show win0_4.index t (0 : Fin 3) * 8 + 1 * (y 0).val = (y 0).val; omega
  | ⟨1, _⟩ => show win0_4.index t (1 : Fin 3) * 20 + 1 * (y 1).val = (y 1).val; omega
  | ⟨2, _⟩ => show win0_4.index t (2 : Fin 3) * 100 + 1 * (y 2).val = (y 2).val; omega

/-- The premise block at (0, l, k) is the premise array at (t, l, k). -/
theorem iblk0_apply (t : Fin 16) (l : Fin 128) (k : Fin 200) :
    iblk m c 0 t (ix3 0 l k) = V m c main_arg0 (ix3 t l k) :=
  iblk0_at m c t (ix3 0 l k) (ix3 t l k) rfl rfl rfl

/-- The hypothesis block at (0, l, k) is the hypothesis array at (t, l, k). -/
theorem iblk1_apply (t : Fin 16) (l : Fin 128) (k : Fin 200) :
    iblk m c 1 t (ix3 0 l k) = V m c main_arg2 (ix3 t l k) :=
  iblk1_at m c t (ix3 0 l k) (ix3 t l k) rfl rfl rfl

/-- The premise's last-state block at (0, 0, h) is the last-state array at (t, 0, h). -/
theorem iblk2_apply (t : Fin 16) (h : Fin 100) :
    iblk m c 2 t (ix3 0 0 h) = V m c main_v25 (ix3 t 0 h) :=
  iblk2_at m c t (ix3 0 0 h) (ix3 t 0 h) rfl rfl

/-- The hypothesis's last-state block at (0, 0, h) is the last-state array at (t, 0, h). -/
theorem iblk3_apply (t : Fin 16) (h : Fin 100) :
    iblk m c 3 t (ix3 0 0 h) = V m c main_v40 (ix3 t 0 h) :=
  iblk3_at m c t (ix3 0 0 h) (ix3 t 0 h) rfl rfl

/-- The weights' block at (k, p, h) is the weight array at (k, p, h), at every point. -/
theorem iblk4_apply (t : Fin 16) (k : Fin 8) (p : Fin 20) (h : Fin 100) :
    iblk m c 4 t (ix3 k p h) = V m c main_arg4 (ix3 k p h) :=
  iblk4_at m c t (ix3 k p h)

/-! ## The output arrays after the run -/

/-- The first output array at an index of batch element t holds what point t computed from its input blocks,
    at the same row and column of the block: point t's block is the only one that covers the index, and what is
    read back from it is what the point wrote. -/
theorem arr5_at (t : Fin cfg0.N) (y : S1x128x210.Idx) (i : S16x128x210.Idx)
    (h0 : (i 0).val = t.val) (h1 : (i 1).val = (y 1).val) (h2 : (i 2).val = (y 2).val) :
    (dats m 0 c).arrAt 5 cfg0.N i
      = (out0_5 (iblk m c 0 t) (iblk m c 1 t) (iblk m c 2 t) (iblk m c 3 t) (iblk m c 4 t) : Vec Ideal S1x128x210 .f32) y := by
  obtain ⟨-, -, -, -, -, ⟨e0, e1, e2⟩, -⟩ := idx_facts t
  have hb := congrFun ((blocks5 m c t (flush0_5 t)).trans (flushed5 m c t)) y
  have hi : ((cfg0.win 5).blk t).view.emb y = i := funext fun a => Fin.ext (by
    have hy : (y 0).val < 1 := (y 0).isLt
    match a with
    | ⟨0, _⟩ => show win0_5.index t (0 : Fin 3) * 1 + 1 * (y 0).val = (i 0).val; omega
    | ⟨1, _⟩ => show win0_5.index t (1 : Fin 3) * 128 + 1 * (y 1).val = (i 1).val; omega
    | ⟨2, _⟩ => show win0_5.index t (2 : Fin 3) * 210 + 1 * (y 2).val = (i 2).val; omega)
  rw [← hi]
  exact hb

/-- The same for the second output array. -/
theorem arr6_at (t : Fin cfg0.N) (y : S1x128x210.Idx) (i : S16x128x210.Idx)
    (h0 : (i 0).val = t.val) (h1 : (i 1).val = (y 1).val) (h2 : (i 2).val = (y 2).val) :
    (dats m 0 c).arrAt 6 cfg0.N i
      = (out0_6 (iblk m c 0 t) (iblk m c 1 t) (iblk m c 2 t) (iblk m c 3 t) (iblk m c 4 t) : Vec Ideal S1x128x210 .f32) y := by
  obtain ⟨-, -, -, -, -, -, ⟨e0, e1, e2⟩⟩ := idx_facts t
  have hb := congrFun ((blocks6 m c t (flush0_6 t)).trans (flushed6 m c t)) y
  have hi : ((cfg0.win 6).blk t).view.emb y = i := funext fun a => Fin.ext (by
    have hy : (y 0).val < 1 := (y 0).isLt
    match a with
    | ⟨0, _⟩ => show win0_6.index t (0 : Fin 3) * 1 + 1 * (y 0).val = (i 0).val; omega
    | ⟨1, _⟩ => show win0_6.index t (1 : Fin 3) * 128 + 1 * (y 1).val = (i 1).val; omega
    | ⟨2, _⟩ => show win0_6.index t (2 : Fin 3) * 210 + 1 * (y 2).val = (i 2).val; omega)
  rw [← hi]
  exact hb

/-- The first output array at (t, l, col) is point t's result at (0, l, col). -/
theorem arr5_apply (t : Fin 16) (l : Fin 128) (col : Fin 210) :
    (dats m 0 c).arrAt 5 cfg0.N (ix3 t l col)
      = out0_5 (iblk m c 0 t) (iblk m c 1 t) (iblk m c 2 t) (iblk m c 3 t) (iblk m c 4 t) (ix3 0 l col) :=
  arr5_at m c t (ix3 0 l col) (ix3 t l col) rfl rfl rfl

/-- The second output array at (t, l, col) is point t's result at (0, l, col). -/
theorem arr6_apply (t : Fin 16) (l : Fin 128) (col : Fin 210) :
    (dats m 0 c).arrAt 6 cfg0.N (ix3 t l col)
      = out0_6 (iblk m c 0 t) (iblk m c 1 t) (iblk m c 2 t) (iblk m c 3 t) (iblk m c 4 t) (ix3 0 l col) :=
  arr6_at m c t (ix3 0 l col) (ix3 t l col) rfl rfl rfl

/-! ## The host prefix: the two last-state arrays the region finds -/

section Host
variable {F : FTy → Type} [FloatOps F]

/-- The clipped last index max(0, sum(mask) - 1), one word per batch element. -/
def lastIdxK (mask : IVec S16x128 32) : IVec S16 32 :=
  maxsi (broadcastInDim S16 ![] bcast_S_S16 (id (constantI S_ 32 0#32)))
    (subi (Host.reduce IntOp.addi mask (constantI S_ 32 0#32) reducesTo_S16x128_S16_d1 h_S_)
      (broadcastInDim S16 ![] bcast_S_S16 (constantI S_ 32 1#32)))

/-- The row of each batch element at its index, as a [16, 1, 100] array: an indexed read of x at the pair
    (b, ix b), each coordinate wrapped once if negative. -/
def gatherLastK (x : FVec F S16x128x100 .f32) (ix : IVec S16 32) : FVec F S16x1x100 .f32 :=
  broadcastInDim S16x1x100 ![0, 2] bcast_S16x100_S16x1x100_0_2
    (Host.gather gather_S16x128x100_S16x2_S16x100_1_01_n_n_01_1_11100 x
      (concatenate S16x2 1
        [⟨S16x1, broadcastInDim S16x1 ![0] bcast_S16_S16x1_0
            (select (cmpi .slt (iotaInDim S16 32 0) (broadcastInDim S16 ![] bcast_S_S16 (constantI S_ 32 0#32)))
              (addi (iotaInDim S16 32 0) (broadcastInDim S16 ![] bcast_S_S16 (constantI S_ 32 16#32)))
              (iotaInDim S16 32 0))⟩,
         ⟨S16x1, broadcastInDim S16x1 ![0] bcast_S16_S16x1_0
            (select (cmpi .slt ix (broadcastInDim S16 ![] bcast_S_S16 (constantI S_ 32 0#32)))
              (addi ix (broadcastInDim S16 ![] bcast_S_S16 (constantI S_ 32 128#32)))
              ix)⟩]
        concatenates_S16x1_S16x1_S16x2_d1))

end Host

set_option maxHeartbeats 2000000 in
/-- The premise's last-state array as the region finds it: the host operations before the region, read as one
    function of the premise array and its mask. The forward half of the premise is gathered at each batch
    element's clipped last index and kept as a [16, 1, 100] array. -/
theorem V_last_p :
    (V m c main_v25 : FVec Ideal S16x1x100 .f32)
      = gatherLastK (F := Ideal)
          (extractStridedSlice S16x128x100 ![0, 0, 0] (m ((c : Thread nD τ).loc main_arg0)) slices_S16x128x200_S16x128x100_0_0_0)
          (lastIdxK (m ((c : Thread nD τ).loc main_arg1))) := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results_simp
  rfl

set_option maxHeartbeats 2000000 in
/-- The hypothesis's last-state array as the region finds it: the same function of the hypothesis array and
    its mask. -/
theorem V_last_h :
    (V m c main_v40 : FVec Ideal S16x1x100 .f32)
      = gatherLastK (F := Ideal)
          (extractStridedSlice S16x128x100 ![0, 0, 0] (m ((c : Thread nD τ).loc main_arg2)) slices_S16x128x200_S16x128x100_0_0_0)
          (lastIdxK (m ((c : Thread nD τ).loc main_arg3))) := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results_simp
  rfl

end Cert.Mpm
end
-- ==== Proof.Mpm.KBase.lean ====
/-
  Layout and reduction readings used by the kernel side: a vector cast to a column, a column or a single entry
  broadcast over a matrix or a vector, and a sum or a maximum along one axis of a matrix, each read at an index
  given by its coordinates. All are stated for arbitrary extents.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Mpm

open Idealize.ShloMosaic Idealize.ShloMosaic.ValueIdx
open scoped BigOperators

variable {α : Type}

/-- A vector of length a cast to a column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A one-entry vector broadcast to length a reads its one entry everywhere. -/
theorem broadcastTo_1_a_apply {a : ℕ} (v : (⟨1, ![1]⟩ : Shape).Idx → α) (h : (⟨1, ![1]⟩ : Shape).Broadcasts ⟨1, ![a]⟩)
    (p : Fin a) : broadcastTo ⟨1, ![a]⟩ v h (ix1 p) = v (ix1 (0 : Fin 1)) := by
  refine broadcastTo_apply v h (ix1 p) (ix1 (0 : Fin 1)) fun ax => ?_
  match ax with
  | ⟨0, _⟩ =>
    show (0 : ℕ) = if (1 : ℕ) = 1 then 0 else p.val
    rw [if_pos rfl]

variable {φ : FTy}

/-- The sum of a matrix along its second axis, at row i: the sum over the columns of that row. -/
theorem multiReduction_add_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  rw [Ideal.multiReduction_add_single]
  refine Finset.sum_congr rfl fun k _ => congrArg src ?_
  funext d
  match d with
  | ⟨0, _⟩ => exact Fin.ext rfl
  | ⟨1, _⟩ => exact Fin.ext rfl

/-- The sum of a matrix along its first axis, at column j: the sum over the rows of that column. -/
theorem multiReduction_add_cols {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ k : Fin a, src (ix2 k j) := by
  rw [Ideal.multiReduction_add_single]
  refine Finset.sum_congr rfl fun k _ => congrArg src ?_
  funext d
  match d with
  | ⟨0, _⟩ => exact Fin.ext rfl
  | ⟨1, _⟩ => exact Fin.ext rfl

/-- The maximum of a matrix along its second axis, at row i: the fold of max over that row from the accumulator's value. -/
theorem multiReduction_max_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (FloatOps.ofBits φ acc) fun k => src (ix2 i k) := by
  rw [Ideal.multiReduction_maximumf_single]
  refine congrArg (Finset.fold max _ · Finset.univ) (funext fun k => congrArg src ?_)
  funext d
  match d with
  | ⟨0, _⟩ => exact Fin.ext rfl
  | ⟨1, _⟩ => exact Fin.ext rfl

/-- The maximum of a matrix along its first axis, at column j. -/
theorem multiReduction_max_cols {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ) (j : Fin b) :
    multiReduction .maximumf [0] ⟨1, ![b]⟩ src acc h hφ hacc (ix1 j)
      = (Finset.univ : Finset (Fin a)).fold max (FloatOps.ofBits φ acc) fun k => src (ix2 k j) := by
  rw [Ideal.multiReduction_maximumf_single]
  refine congrArg (Finset.fold max _ · Finset.univ) (funext fun k => congrArg src ?_)
  funext d
  match d with
  | ⟨0, _⟩ => exact Fin.ext rfl
  | ⟨1, _⟩ => exact Fin.ext rfl

end Cert.Mpm
end
-- ==== Proof.Mpm.KIn.lean ====
/-
  The kernel's inputs as it cuts them from the loaded blocks, each read at an index.
  A premise or hypothesis block is [1, 128, 200]: the kernel drops the leading unit axis and cuts columns 0..99 (the
  forward half) and 100..199 (the backward half). A last-state block [1, 1, 100] is flattened to its 100 features; the
  backward "last" state is row 0 of the backward half. The weights [8, 20, 100] are cut into their eight matrices.
  Also here: a load through a whole buffer reads it, one store through a whole buffer leaves its payload, and the
  final cast [128, 210] -> [1, 128, 210] of the stored value.
-/
import proofs.«116293_j48241072668683_2_alg».proof.Proof.Gen.KernelIdeal.Frame
import proofs.«116293_j48241072668683_2_alg».proof.Proof.Mpm.KBase

noncomputable section

namespace Cert.Mpm

open Idealize.ShloMosaic Idealize.ShloMosaic.ValueIdx Cert.KernelIdeal Cert.KernelIdeal.Gen

variable {F : FTy → Type} [FloatOps F]

/-- Column h of the forward half, as a column of the whole block. -/
def colF (h : Fin 100) : Fin 200 := ⟨h.val, by omega⟩
/-- Column h of the backward half, as a column of the whole block. -/
def colB (h : Fin 100) : Fin 200 := ⟨100 + h.val, by omega⟩

/-- Three zero offsets are the constant zero. -/
theorem off3_zero : (![0, 0, 0] : Fin 3 → Nat) = fun _ => 0 := funext fun a => by fin_cases a <;> rfl

/-- A load through a whole premise or hypothesis buffer reads its contents. -/
theorem ld_r0_0 (x : Vec F S1x128x200 .f32) : View.ld x r0_0 = x :=
  View.ld_unit_zero (Val := Elt F) (S := S1x128x200) off3_zero _ x
/-- A load through a whole last-state buffer reads its contents. -/
theorem ld_r0_1 (x : Vec F S1x1x100 .f32) : View.ld x r0_1 = x :=
  View.ld_unit_zero (Val := Elt F) (S := S1x1x100) off3_zero _ x
/-- A load through the whole weights buffer reads its contents. -/
theorem ld_r0_2 (x : Vec F S8x20x100 .f32) : View.ld x r0_2 = x :=
  View.ld_unit_zero (Val := Elt F) (S := S8x20x100) off3_zero _ x
/-- One store through a whole output buffer leaves its payload. -/
theorem canon_r0_3 (w : Vec F S1x128x210 .f32) :
    View.canon [(⟨r0_3, w⟩ : View.Piece (Elt F) S1x128x210 .f32)] = w :=
  View.canon_unit_zero (Val := Elt F) (S := S1x128x210) off3_zero _ w

/-- The stored value of the first output at (0, l, c) is the concatenated matrix at (l, c). -/
theorem pay3_apply (v : FVec F S128x210 .f32) (u : Fin 1) (l : Fin 128) (c : Fin 210) :
    k0_pay3 v (ix3 u l c) = v (ix2 l c) := by
  unfold k0_pay3
  exact shapeCast_ab_1ab_apply v shapeCasts_S128x210_S1x128x210 u l c
/-- The stored value of the second output at (0, l, c) is the concatenated matrix at (l, c). -/
theorem pay4_apply (v : FVec F S128x210 .f32) (u : Fin 1) (l : Fin 128) (c : Fin 210) :
    k0_pay4 v (ix3 u l c) = v (ix2 l c) := by
  unfold k0_pay4
  exact shapeCast_ab_1ab_apply v shapeCasts_S128x210_S1x128x210 u l c

/-- The premise's forward half at (l, h) is the block at (0, l, h). -/
theorem pay7_apply (x : Vec F S1x128x200 .f32) (l : Fin 128) (h : Fin 100) :
    k0_pay7 x (ix2 l h) = x (ix3 (0 : Fin 1) l (colF h)) := by
  unfold k0_pay7 k0_pay5
  refine (slice2_axis1_apply 0 _ slices_S128x200_o0_0_S128x100 l h (colF h) (Nat.zero_add _).symm).trans ?_
  exact shapeCast_1ab_ab_apply x shapeCasts_S1x128x200_S128x200 l (colF h)
/-- The premise's backward half at (l, h) is the block at (0, l, 100 + h). -/
theorem pay8_apply (x : Vec F S1x128x200 .f32) (l : Fin 128) (h : Fin 100) :
    k0_pay8 x (ix2 l h) = x (ix3 (0 : Fin 1) l (colB h)) := by
  unfold k0_pay8 k0_pay5
  refine (slice2_axis1_apply 100 _ slices_S128x200_o0_100_S128x100 l h (colB h) rfl).trans ?_
  exact shapeCast_1ab_ab_apply x shapeCasts_S1x128x200_S128x200 l (colB h)
/-- The hypothesis's forward half at (l, h) is the block at (0, l, h). -/
theorem pay9_apply (x : Vec F S1x128x200 .f32) (l : Fin 128) (h : Fin 100) :
    k0_pay9 x (ix2 l h) = x (ix3 (0 : Fin 1) l (colF h)) := by
  unfold k0_pay9 k0_pay6
  refine (slice2_axis1_apply 0 _ slices_S128x200_o0_0_S128x100 l h (colF h) (Nat.zero_add _).symm).trans ?_
  exact shapeCast_1ab_ab_apply x shapeCasts_S1x128x200_S128x200 l (colF h)
/-- The hypothesis's backward half at (l, h) is the block at (0, l, 100 + h). -/
theorem pay10_apply (x : Vec F S1x128x200 .f32) (l : Fin 128) (h : Fin 100) :
    k0_pay10 x (ix2 l h) = x (ix3 (0 : Fin 1) l (colB h)) := by
  unfold k0_pay10 k0_pay6
  refine (slice2_axis1_apply 100 _ slices_S128x200_o0_100_S128x100 l h (colB h) rfl).trans ?_
  exact shapeCast_1ab_ab_apply x shapeCasts_S1x128x200_S128x200 l (colB h)

/-- A block [1, 1, 100] flattened reads, at h, the block at (0, 0, h). -/
theorem flat_11a_apply (x : Vec F S1x1x100 .f32) (h : Fin 100) :
    shapeCast S100 x shapeCasts_S1x1x100_S100 (ix1 h) = x (ix3 (0 : Fin 1) (0 : Fin 1) h) := by
  refine shapeCast_apply x shapeCasts_S1x1x100_S100 (ix1 h) (ix3 (0 : Fin 1) (0 : Fin 1) h) ?_
  rw [Shape.rowMajor_val_three, Shape.rowMajor_val_one]
  show ((0 : ℕ) * 1 + 0) * 100 + h.val = h.val
  omega
/-- The premise's last forward state at h. -/
theorem pay11_apply (x : Vec F S1x1x100 .f32) (h : Fin 100) :
    k0_pay11 x (ix1 h) = x (ix3 (0 : Fin 1) (0 : Fin 1) h) := by
  unfold k0_pay11
  exact flat_11a_apply x h
/-- The hypothesis's last forward state at h. -/
theorem pay12_apply (x : Vec F S1x1x100 .f32) (h : Fin 100) :
    k0_pay12 x (ix1 h) = x (ix3 (0 : Fin 1) (0 : Fin 1) h) := by
  unfold k0_pay12
  exact flat_11a_apply x h

/-- The premise's backward "last" state: row 0 of its backward half. -/
theorem pay13_apply (x : Vec F S1x128x200 .f32) (h : Fin 100) :
    k0_pay13 x (ix1 h) = x (ix3 (0 : Fin 1) (0 : Fin 128) (colB h)) := by
  unfold k0_pay13
  refine (shapeCast_1a_a_apply _ shapeCasts_S1x100_S100 h).trans ?_
  refine (slice2_axis0_apply 0 _ slices_S128x100_o0_0_S1x100 (0 : Fin 1) h (0 : Fin 128) rfl).trans ?_
  exact pay8_apply x 0 h
/-- The hypothesis's backward "last" state: row 0 of its backward half. -/
theorem pay14_apply (x : Vec F S1x128x200 .f32) (h : Fin 100) :
    k0_pay14 x (ix1 h) = x (ix3 (0 : Fin 1) (0 : Fin 128) (colB h)) := by
  unfold k0_pay14
  refine (shapeCast_1a_a_apply _ shapeCasts_S1x100_S100 h).trans ?_
  refine (slice2_axis0_apply 0 _ slices_S128x100_o0_0_S1x100 (0 : Fin 1) h (0 : Fin 128) rfl).trans ?_
  exact pay10_apply x 0 h

/-- Weight matrix k, cut from the stack and with its unit axis dropped, at (p, h) is the stack at (k, p, h). -/
theorem wcut_apply (k : Fin 8) (x : Vec F S8x20x100 .f32) (hs : S8x20x100.Slices ![k.val, 0, 0] S1x20x100)
    (p : Fin 20) (h : Fin 100) :
    shapeCast S20x100 (extractStridedSlice S1x20x100 ![k.val, 0, 0] x hs) shapeCasts_S1x20x100_S20x100 (ix2 p h)
      = x (ix3 k p h) := by
  refine (shapeCast_1ab_ab_apply _ shapeCasts_S1x20x100_S20x100 p h).trans ?_
  refine extractStridedSlice_apply ![k.val, 0, 0] x hs (ix3 (0 : Fin 1) p h) (ix3 k p h) fun a => ?_
  match a with
  | ⟨0, _⟩ => rfl
  | ⟨1, _⟩ => exact (Nat.zero_add _).symm
  | ⟨2, _⟩ => exact (Nat.zero_add _).symm

/-- The eight weight matrices at (p, h). -/
theorem pay15_apply (x : Vec F S8x20x100 .f32) (p : Fin 20) (h : Fin 100) : k0_pay15 x (ix2 p h) = x (ix3 (0 : Fin 8) p h) :=
  wcut_apply 0 x slices_S8x20x100_o0_0_0_S1x20x100 p h
theorem pay16_apply (x : Vec F S8x20x100 .f32) (p : Fin 20) (h : Fin 100) : k0_pay16 x (ix2 p h) = x (ix3 (1 : Fin 8) p h) :=
  wcut_apply 1 x slices_S8x20x100_o1_0_0_S1x20x100 p h
theorem pay17_apply (x : Vec F S8x20x100 .f32) (p : Fin 20) (h : Fin 100) : k0_pay17 x (ix2 p h) = x (ix3 (2 : Fin 8) p h) :=
  wcut_apply 2 x slices_S8x20x100_o2_0_0_S1x20x100 p h
theorem pay18_apply (x : Vec F S8x20x100 .f32) (p : Fin 20) (h : Fin 100) : k0_pay18 x (ix2 p h) = x (ix3 (3 : Fin 8) p h) :=
  wcut_apply 3 x slices_S8x20x100_o3_0_0_S1x20x100 p h
theorem pay19_apply (x : Vec F S8x20x100 .f32) (p : Fin 20) (h : Fin 100) : k0_pay19 x (ix2 p h) = x (ix3 (4 : Fin 8) p h) :=
  wcut_apply 4 x slices_S8x20x100_o4_0_0_S1x20x100 p h
theorem pay20_apply (x : Vec F S8x20x100 .f32) (p : Fin 20) (h : Fin 100) : k0_pay20 x (ix2 p h) = x (ix3 (5 : Fin 8) p h) :=
  wcut_apply 5 x slices_S8x20x100_o5_0_0_S1x20x100 p h
theorem pay21_apply (x : Vec F S8x20x100 .f32) (p : Fin 20) (h : Fin 100) : k0_pay21 x (ix2 p h) = x (ix3 (6 : Fin 8) p h) :=
  wcut_apply 6 x slices_S8x20x100_o6_0_0_S1x20x100 p h
theorem pay22_apply (x : Vec F S8x20x100 .f32) (p : Fin 20) (h : Fin 100) : k0_pay22 x (ix2 p h) = x (ix3 (7 : Fin 8) p h) :=
  wcut_apply 7 x slices_S8x20x100_o7_0_0_S1x20x100 p h

end Cert.Mpm
end
-- ==== Proof.Mpm.KDot.lean ====
/- The kernel's three matrix products read at an index. Each contracts the left factor's second axis with the right
  factor's first and accumulates into zero, so at (i, p) it is the sum over k of left (i, k) times right (k, p).
-/
import proofs.«116293_j48241072668683_2_alg».proof.Proof.Gen.KernelIdeal
import Idealize.ShloMosaic.Lib.ValueIdx
import Idealize.ShloMosaic.PureOps.Ideal.Laws

noncomputable section

namespace Cert.Mpm

open Idealize.ShloMosaic Idealize.ShloMosaic.ValueIdx Cert.KernelIdeal Cert.KernelIdeal.Gen
open scoped BigOperators

/-! ### `dot_S128x100_S100x128_S128x128_1_0_0_1_n_n`: [128, 100] times [100, 128] -/

theorem lhs_rowsT_0 (i : S128x128.Idx) (q : dot_S128x100_S100x128_S128x128_1_0_0_1_n_n.contr.Idx) :
    (dot_S128x100_S100x128_S128x128_1_0_0_1_n_n.lhsIdx i q 0).val = (i 0).val := by
  unfold DotDims.lhsIdx
  rw [dif_neg (show ¬(0 : Fin S128x100.rank) ∈ dot_S128x100_S100x128_S128x128_1_0_0_1_n_n.lhsBatch by decide), dif_pos (show (0 : Fin S128x100.rank) ∈ dot_S128x100_S100x128_S128x128_1_0_0_1_n_n.lhsNonContracting by decide)]
  rfl
theorem lhs_rowsT_1 (i : S128x128.Idx) (q : dot_S128x100_S100x128_S128x128_1_0_0_1_n_n.contr.Idx) :
    (dot_S128x100_S100x128_S128x128_1_0_0_1_n_n.lhsIdx i q 1).val = (q ⟨0, by decide⟩).val :=
  dot_S128x100_S100x128_S128x128_1_0_0_1_n_n.lhsIdx_val_of_single rfl i q
theorem rhs_rowsT_0 (i : S128x128.Idx) (q : dot_S128x100_S100x128_S128x128_1_0_0_1_n_n.contr.Idx) :
    (dot_S128x100_S100x128_S128x128_1_0_0_1_n_n.rhsIdx i q 0).val = (q ⟨0, by decide⟩).val :=
  dot_S128x100_S100x128_S128x128_1_0_0_1_n_n.rhsIdx_val_of_single rfl i q
theorem rhs_rowsT_1 (i : S128x128.Idx) (q : dot_S128x100_S100x128_S128x128_1_0_0_1_n_n.contr.Idx) :
    (dot_S128x100_S100x128_S128x128_1_0_0_1_n_n.rhsIdx i q 1).val = (i 1).val := by
  unfold DotDims.rhsIdx
  rw [dif_neg (show ¬(1 : Fin S100x128.rank) ∈ dot_S128x100_S100x128_S128x128_1_0_0_1_n_n.rhsBatch by decide), dif_pos (show (1 : Fin S100x128.rank) ∈ dot_S128x100_S100x128_S128x128_1_0_0_1_n_n.rhsNonContracting by decide)]
  rfl

/-- The product into a zero accumulator, at (i, p): the sum over the contracted axis of row i of the left factor
    against column p of the right. -/
theorem matmul_rowsT_apply (lhs : FVec Ideal S128x100 .f32) (rhs : FVec Ideal S100x128 .f32) (i : Fin 128) (p : Fin 128) :
    matmul dot_S128x100_S100x128_S128x128_1_0_0_1_n_n none lhs rhs (constant S128x128 .f32 0x00000000#32) (ix2 i p)
      = ∑ k : Fin 100, lhs (ix2 i k) * rhs (ix2 k p) := by
  simp only [matmul]
  rw [Ideal.matmul_constant_zero_apply, ← Equiv.sum_comp (ValueIdx.contrEquiv1 dot_S128x100_S100x128_S128x128_1_0_0_1_n_n 100 rfl rfl).symm]
  refine Finset.sum_congr rfl fun k _ => ?_
  have hk := ValueIdx.contrEquiv1_symm_val dot_S128x100_S100x128_S128x128_1_0_0_1_n_n 100 rfl rfl k
  have el : dot_S128x100_S100x128_S128x128_1_0_0_1_n_n.lhsIdx (ix2 i p) ((ValueIdx.contrEquiv1 dot_S128x100_S100x128_S128x128_1_0_0_1_n_n 100 rfl rfl).symm k) = ix2 i k := funext fun a => Fin.ext (by
    match a with
    | ⟨0, _⟩ => exact lhs_rowsT_0 _ _
    | ⟨1, _⟩ => exact (lhs_rowsT_1 _ _).trans hk)
  have er : dot_S128x100_S100x128_S128x128_1_0_0_1_n_n.rhsIdx (ix2 i p) ((ValueIdx.contrEquiv1 dot_S128x100_S100x128_S128x128_1_0_0_1_n_n 100 rfl rfl).symm k) = ix2 k p := funext fun a => Fin.ext (by
    match a with
    | ⟨0, _⟩ => exact (rhs_rowsT_0 _ _).trans hk
    | ⟨1, _⟩ => exact rhs_rowsT_1 _ _)
  rw [el, er]

/-! ### `dot_S128x100_S100x20_S128x20_1_0_0_1_n_n`: [128, 100] times [100, 20] -/

theorem lhs_persp_0 (i : S128x20.Idx) (q : dot_S128x100_S100x20_S128x20_1_0_0_1_n_n.contr.Idx) :
    (dot_S128x100_S100x20_S128x20_1_0_0_1_n_n.lhsIdx i q 0).val = (i 0).val := by
  unfold DotDims.lhsIdx
  rw [dif_neg (show ¬(0 : Fin S128x100.rank) ∈ dot_S128x100_S100x20_S128x20_1_0_0_1_n_n.lhsBatch by decide), dif_pos (show (0 : Fin S128x100.rank) ∈ dot_S128x100_S100x20_S128x20_1_0_0_1_n_n.lhsNonContracting by decide)]
  rfl
theorem lhs_persp_1 (i : S128x20.Idx) (q : dot_S128x100_S100x20_S128x20_1_0_0_1_n_n.contr.Idx) :
    (dot_S128x100_S100x20_S128x20_1_0_0_1_n_n.lhsIdx i q 1).val = (q ⟨0, by decide⟩).val :=
  dot_S128x100_S100x20_S128x20_1_0_0_1_n_n.lhsIdx_val_of_single rfl i q
theorem rhs_persp_0 (i : S128x20.Idx) (q : dot_S128x100_S100x20_S128x20_1_0_0_1_n_n.contr.Idx) :
    (dot_S128x100_S100x20_S128x20_1_0_0_1_n_n.rhsIdx i q 0).val = (q ⟨0, by decide⟩).val :=
  dot_S128x100_S100x20_S128x20_1_0_0_1_n_n.rhsIdx_val_of_single rfl i q
theorem rhs_persp_1 (i : S128x20.Idx) (q : dot_S128x100_S100x20_S128x20_1_0_0_1_n_n.contr.Idx) :
    (dot_S128x100_S100x20_S128x20_1_0_0_1_n_n.rhsIdx i q 1).val = (i 1).val := by
  unfold DotDims.rhsIdx
  rw [dif_neg (show ¬(1 : Fin S100x20.rank) ∈ dot_S128x100_S100x20_S128x20_1_0_0_1_n_n.rhsBatch by decide), dif_pos (show (1 : Fin S100x20.rank) ∈ dot_S128x100_S100x20_S128x20_1_0_0_1_n_n.rhsNonContracting by decide)]
  rfl

/-- The product into a zero accumulator, at (i, p): the sum over the contracted axis of row i of the left factor
    against column p of the right. -/
theorem matmul_persp_apply (lhs : FVec Ideal S128x100 .f32) (rhs : FVec Ideal S100x20 .f32) (i : Fin 128) (p : Fin 20) :
    matmul dot_S128x100_S100x20_S128x20_1_0_0_1_n_n none lhs rhs (constant S128x20 .f32 0x00000000#32) (ix2 i p)
      = ∑ k : Fin 100, lhs (ix2 i k) * rhs (ix2 k p) := by
  simp only [matmul]
  rw [Ideal.matmul_constant_zero_apply, ← Equiv.sum_comp (ValueIdx.contrEquiv1 dot_S128x100_S100x20_S128x20_1_0_0_1_n_n 100 rfl rfl).symm]
  refine Finset.sum_congr rfl fun k _ => ?_
  have hk := ValueIdx.contrEquiv1_symm_val dot_S128x100_S100x20_S128x20_1_0_0_1_n_n 100 rfl rfl k
  have el : dot_S128x100_S100x20_S128x20_1_0_0_1_n_n.lhsIdx (ix2 i p) ((ValueIdx.contrEquiv1 dot_S128x100_S100x20_S128x20_1_0_0_1_n_n 100 rfl rfl).symm k) = ix2 i k := funext fun a => Fin.ext (by
    match a with
    | ⟨0, _⟩ => exact lhs_persp_0 _ _
    | ⟨1, _⟩ => exact (lhs_persp_1 _ _).trans hk)
  have er : dot_S128x100_S100x20_S128x20_1_0_0_1_n_n.rhsIdx (ix2 i p) ((ValueIdx.contrEquiv1 dot_S128x100_S100x20_S128x20_1_0_0_1_n_n 100 rfl rfl).symm k) = ix2 k p := funext fun a => Fin.ext (by
    match a with
    | ⟨0, _⟩ => exact (rhs_persp_0 _ _).trans hk
    | ⟨1, _⟩ => exact rhs_persp_1 _ _)
  rw [el, er]

/-! ### `dot_S128x128_S128x100_S128x100_1_0_0_1_n_n`: [128, 128] times [128, 100] -/

theorem lhs_mix_0 (i : S128x100.Idx) (q : dot_S128x128_S128x100_S128x100_1_0_0_1_n_n.contr.Idx) :
    (dot_S128x128_S128x100_S128x100_1_0_0_1_n_n.lhsIdx i q 0).val = (i 0).val := by
  unfold DotDims.lhsIdx
  rw [dif_neg (show ¬(0 : Fin S128x128.rank) ∈ dot_S128x128_S128x100_S128x100_1_0_0_1_n_n.lhsBatch by decide), dif_pos (show (0 : Fin S128x128.rank) ∈ dot_S128x128_S128x100_S128x100_1_0_0_1_n_n.lhsNonContracting by decide)]
  rfl
theorem lhs_mix_1 (i : S128x100.Idx) (q : dot_S128x128_S128x100_S128x100_1_0_0_1_n_n.contr.Idx) :
    (dot_S128x128_S128x100_S128x100_1_0_0_1_n_n.lhsIdx i q 1).val = (q ⟨0, by decide⟩).val :=
  dot_S128x128_S128x100_S128x100_1_0_0_1_n_n.lhsIdx_val_of_single rfl i q
theorem rhs_mix_0 (i : S128x100.Idx) (q : dot_S128x128_S128x100_S128x100_1_0_0_1_n_n.contr.Idx) :
    (dot_S128x128_S128x100_S128x100_1_0_0_1_n_n.rhsIdx i q 0).val = (q ⟨0, by decide⟩).val :=
  dot_S128x128_S128x100_S128x100_1_0_0_1_n_n.rhsIdx_val_of_single rfl i q
theorem rhs_mix_1 (i : S128x100.Idx) (q : dot_S128x128_S128x100_S128x100_1_0_0_1_n_n.contr.Idx) :
    (dot_S128x128_S128x100_S128x100_1_0_0_1_n_n.rhsIdx i q 1).val = (i 1).val := by
  unfold DotDims.rhsIdx
  rw [dif_neg (show ¬(1 : Fin S128x100.rank) ∈ dot_S128x128_S128x100_S128x100_1_0_0_1_n_n.rhsBatch by decide), dif_pos (show (1 : Fin S128x100.rank) ∈ dot_S128x128_S128x100_S128x100_1_0_0_1_n_n.rhsNonContracting by decide)]
  rfl

/-- The product into a zero accumulator, at (i, p): the sum over the contracted axis of row i of the left factor
    against column p of the right. -/
theorem matmul_mix_apply (lhs : FVec Ideal S128x128 .f32) (rhs : FVec Ideal S128x100 .f32) (i : Fin 128) (p : Fin 100) :
    matmul dot_S128x128_S128x100_S128x100_1_0_0_1_n_n none lhs rhs (constant S128x100 .f32 0x00000000#32) (ix2 i p)
      = ∑ k : Fin 128, lhs (ix2 i k) * rhs (ix2 k p) := by
  simp only [matmul]
  rw [Ideal.matmul_constant_zero_apply, ← Equiv.sum_comp (ValueIdx.contrEquiv1 dot_S128x128_S128x100_S128x100_1_0_0_1_n_n 128 rfl rfl).symm]
  refine Finset.sum_congr rfl fun k _ => ?_
  have hk := ValueIdx.contrEquiv1_symm_val dot_S128x128_S128x100_S128x100_1_0_0_1_n_n 128 rfl rfl k
  have el : dot_S128x128_S128x100_S128x100_1_0_0_1_n_n.lhsIdx (ix2 i p) ((ValueIdx.contrEquiv1 dot_S128x128_S128x100_S128x100_1_0_0_1_n_n 128 rfl rfl).symm k) = ix2 i k := funext fun a => Fin.ext (by
    match a with
    | ⟨0, _⟩ => exact lhs_mix_0 _ _
    | ⟨1, _⟩ => exact (lhs_mix_1 _ _).trans hk)
  have er : dot_S128x128_S128x100_S128x100_1_0_0_1_n_n.rhsIdx (ix2 i p) ((ValueIdx.contrEquiv1 dot_S128x128_S128x100_S128x100_1_0_0_1_n_n 128 rfl rfl).symm k) = ix2 k p := funext fun a => Fin.ext (by
    match a with
    | ⟨0, _⟩ => exact (rhs_mix_0 _ _).trans hk
    | ⟨1, _⟩ => exact rhs_mix_1 _ _)
  rw [el, er]

end Cert.Mpm
end
-- ==== Proof.Mpm.KVec.lean ====
/-
  The "full match" pieces of the kernel, where the second operand is ONE row v2 (a sequence's last state):
    mv1VecK v1 v2   : at row l, the cosine of v1's row l with v2, each norm clipped at eps;
    mvpVecK v1 v2 w : at (l, p), the same cosine after both rows are scaled by perspective p's weights.
  The kernel never forms the scaled rows: it squares the weights once and contracts them against v1's squares
  (for the first norm), against v1 with v2 folded into the weights (for the inner product) and against v2's
  squares (for the second norm). Moving the weights between the factors of each product shows these are the
  inner products of the scaled rows.
-/
import proofs.«116293_j48241072668683_2_alg».proof.Proof.Gen.KernelIdeal.Skeleton
import proofs.«116293_j48241072668683_2_alg».proof.Proof.Mpm.KBase
import proofs.«116293_j48241072668683_2_alg».proof.Proof.Mpm.KDot
import proofs.«116293_j48241072668683_2_alg».proof.Proof.Mpm.Math

set_option pp.maxSteps 5000
set_option pp.deepTerms false

noncomputable section

namespace Cert.Mpm

open Idealize.ShloMosaic Idealize.ShloMosaic.ValueIdx Cert.KernelIdeal Cert.KernelIdeal.Gen
open scoped BigOperators

section Defs
variable {F : FTy → Type} [FloatOps F]

/-- The cosine column against one row, as the kernel computes it. -/
def mv1VecK (v1 : FVec F S128x100 .f32) (v2 : FVec F S100 .f32) : FVec F S128x1 .f32 :=
  shapeCast S128x1
    (divf
      (multiReduction .add [1] S128 (mulf v1 (broadcastTo S128x100 (shapeCast S1x100 v2 shapeCasts_S100_S1x100) broadcasts_S1x100_S128x100)) 0x00000000#32 reduces_S128x100_S128 (.inl rfl) rfl)
      (mulf
        (maximumf (sqrt (multiReduction .add [1] S128 (mulf v1 v1) 0x00000000#32 reduces_S128x100_S128 (.inl rfl) rfl)) (broadcast S128 (Scalar.ofBits .f32 0x322BCC77#32)))
        (broadcastTo S128
          (maximumf (sqrt (multiReduction .add [1] S1 (shapeCast S1x100 (mulf v2 v2) shapeCasts_S100_S1x100) 0x00000000#32 reduces_S1x100_S1 (.inl rfl) rfl)) (broadcast S1 (Scalar.ofBits .f32 0x322BCC77#32)))
          broadcasts_S1_S128)))
    shapeCasts_S128_S128x1

/-- The perspective block against one row, as the kernel computes it. -/
def mvpVecK (v1 : FVec F S128x100 .f32) (v2 : FVec F S100 .f32) (w : FVec F S20x100 .f32) : FVec F S128x20 .f32 :=
  divf
    (matmul dot_S128x100_S100x20_S128x20_1_0_0_1_n_n none v1
      (transpose S100x20 [1, 0] (mulf (mulf w w) (broadcastTo S20x100 (shapeCast S1x100 v2 shapeCasts_S100_S1x100) broadcasts_S1x100_S20x100)) transposes_S20x100_p1_0_S100x20)
      (constant S128x20 .f32 0x00000000#32))
    (mulf
      (maximumf
        (sqrt (matmul dot_S128x100_S100x20_S128x20_1_0_0_1_n_n none (mulf v1 v1) (transpose S100x20 [1, 0] (mulf w w) transposes_S20x100_p1_0_S100x20) (constant S128x20 .f32 0x00000000#32)))
        (broadcast S128x20 (Scalar.ofBits .f32 0x322BCC77#32)))
      (broadcastTo S128x20
        (maximumf
          (shapeCast S1x20
            (sqrt (multiReduction .add [1] S20 (mulf (mulf w w) (broadcastTo S20x100 (shapeCast S1x100 (mulf v2 v2) shapeCasts_S100_S1x100) broadcasts_S1x100_S20x100)) 0x00000000#32 reduces_S20x100_S20 (.inl rfl) rfl))
            shapeCasts_S20_S1x20)
          (broadcast S1x20 (Scalar.ofBits .f32 0x322BCC77#32)))
        broadcasts_S1x20_S128x20))

/-- The payload that holds the first cosine column is exactly this. -/
theorem pay28_eq (v4 : FVec F S128x100 .f32) (v11 : FVec F S100 .f32) : k0_pay28 v4 v11 = mv1VecK v4 v11 := rfl

/-- The first perspective block, cut by position over five payloads, is exactly this. -/
theorem pay32_eq (v4 : FVec F S128x100 .f32) (v11 : FVec F S100 .f32) (v18 : FVec F S20x100 .f32) :
    k0_pay32 v4 v11 (k0_pay29 v18) (k0_pay30 v4 v18) (k0_pay31 v11) = mvpVecK v4 v11 v18 := rfl

end Defs

/-- A vector's square root at an index is the square root of the entry. -/
theorem sqrt_apply {s : Shape} {φ : FTy} (a : FVec Ideal s φ) (i : s.Idx) : sqrt a i = Ideal.sqrt (a i) := rfl

/-- At row l the kernel's column is the clipped cosine of v1's row l with v2. -/
theorem mv1VecK_apply (v1 : FVec Ideal S128x100 .f32) (v2 : FVec Ideal S100 .f32) (l : Fin 128) (u : Fin 1) :
    mv1VecK v1 v2 (ix2 l u) = cosSim (fun h => v1 (ix2 l h)) (fun h => v2 (ix1 h)) := by
  unfold mv1VecK
  rw [shapeCast_a_a1_apply]
  simp only [divf_apply, mulf_apply, maximumf_apply, broadcast_apply, sqrt_apply]
  erw [multiReduction_add_rows, multiReduction_add_rows, broadcastTo_1_a_apply]
  simp only [maximumf_apply, broadcast_apply, sqrt_apply]
  erw [multiReduction_add_rows]
  simp only [mulf_apply, broadcastTo_1b_ab_apply, shapeCast_a_1a_apply]
  rfl

/-- At (l, p) the kernel's block is the clipped cosine of v1's row l and the row v2, both scaled by perspective
    p's weights. The kernel's three sums carry the squared weights next to v2 (inner product), after v1's squares
    (first norm) and before v2's squares (second norm); each is the inner product of the corresponding pair of
    scaled rows. -/
theorem mvpVecK_apply (v1 : FVec Ideal S128x100 .f32) (v2 : FVec Ideal S100 .f32) (w : FVec Ideal S20x100 .f32) (l : Fin 128) (p : Fin 20) :
    mvpVecK v1 v2 w (ix2 l p)
      = cosSim (wmul (fun h => w (ix2 p h)) (fun h => v1 (ix2 l h))) (wmul (fun h => w (ix2 p h)) (fun h => v2 (ix1 h))) := by
  have e12 := dot_wmul_right (fun h => w (ix2 p h)) (fun h => v1 (ix2 l h)) (fun h => v2 (ix1 h))
  have e11 := dot_wmul_prod (fun h => w (ix2 p h)) (fun h => v1 (ix2 l h)) (fun h => v1 (ix2 l h))
  have e22 := dot_wmul_sq_left (fun h => w (ix2 p h)) (fun h => v2 (ix1 h))
  -- the transposed squared weights at (h, p): the square of perspective p's weight at feature h
  have hT : ∀ h : Fin 100, transpose S100x20 [1, 0] (mulf w w) transposes_S20x100_p1_0_S100x20 (ix2 h p) = w (ix2 p h) * w (ix2 p h) :=
    fun h => transpose_ix2_apply (mulf w w) transposes_S20x100_p1_0_S100x20 h p
  -- the same with the row v2 folded into the weights before the transpose
  have hTv : ∀ h : Fin 100,
      transpose S100x20 [1, 0] (mulf (mulf w w) (broadcastTo S20x100 (shapeCast S1x100 v2 shapeCasts_S100_S1x100) broadcasts_S1x100_S20x100)) transposes_S20x100_p1_0_S100x20 (ix2 h p)
        = (w (ix2 p h) * w (ix2 p h)) * v2 (ix1 h) :=
    fun h => (transpose_ix2_apply _ transposes_S20x100_p1_0_S100x20 h p).trans (by
      simp only [mulf_apply, broadcastTo_1b_ab_apply, shapeCast_a_1a_apply])
  unfold mvpVecK
  simp only [divf_apply, mulf_apply, maximumf_apply, broadcast_apply, sqrt_apply]
  rw [matmul_persp_apply, matmul_persp_apply, broadcastTo_1b_ab_apply]
  simp only [maximumf_apply, broadcast_apply, shapeCast_a_1a_apply, sqrt_apply]
  erw [multiReduction_add_rows]
  simp only [mulf_apply, broadcastTo_1b_ab_apply, shapeCast_a_1a_apply, hT, hTv]
  unfold cosSim nrm
  rw [e12, e11, e22]
  rfl

end Cert.Mpm
end
-- ==== Proof.Mpm.KCos.lean ====
/-
  The pairwise cosine matrix of two sequences and its row and column statistics, as the kernel computes them:
    cosK v1 v2  : at (i, j), the inner product of v1's row i with v2's row j over the product of the two rows'
                  norms, that product clipped at eps;
    rowMaxK c, rowMeanK c : at row l, the maximum and the mean of c over the columns of that row;
    colMaxK c, colMeanK c : at column l, the maximum and the mean of c over the rows of that column.
  The kernel forms the inner products as one matrix product of v1 with the transpose of v2, and the norms as a
  column (for v1) and a row (for v2), each spread over the whole matrix before they are multiplied. Reading every
  layout step at an index gives the entrywise formula.
-/
import proofs.«116293_j48241072668683_2_alg».proof.Proof.Gen.KernelIdeal.Skeleton
import proofs.«116293_j48241072668683_2_alg».proof.Proof.Mpm.KBase
import proofs.«116293_j48241072668683_2_alg».proof.Proof.Mpm.KDot
import proofs.«116293_j48241072668683_2_alg».proof.Proof.Mpm.Math

set_option pp.maxSteps 5000
set_option pp.deepTerms false

noncomputable section

namespace Cert.Mpm

open Idealize.ShloMosaic Idealize.ShloMosaic.ValueIdx Cert.KernelIdeal Cert.KernelIdeal.Gen
open scoped BigOperators

section Defs
variable {F : FTy → Type} [FloatOps F]

/-- The pairwise cosine matrix of two sequences, as the kernel computes it: the matrix product of the first with
    the transpose of the second, over the clipped product of the norms column and the norms row. -/
def cosK (v1 v2 : FVec F S128x100 .f32) : FVec F S128x128 .f32 :=
  divf
    (matmul dot_S128x100_S100x128_S128x128_1_0_0_1_n_n none v1
      (transpose S100x128 [1, 0] v2 transposes_S128x100_p1_0_S100x128)
      (constant S128x128 .f32 0x00000000#32))
    (maximumf
      (mulf
        (broadcastTo S128x128
          (shapeCast S128x1
            (sqrt (multiReduction .add [1] S128 (mulf v1 v1) 0x00000000#32 reduces_S128x100_S128 (.inl rfl) rfl))
            shapeCasts_S128_S128x1)
          broadcasts_S128x1_S128x128)
        (broadcastTo S128x128
          (shapeCast S1x128
            (sqrt (multiReduction .add [1] S128 (mulf v2 v2) 0x00000000#32 reduces_S128x100_S128 (.inl rfl) rfl))
            shapeCasts_S128_S1x128)
          broadcasts_S1x128_S128x128))
      (broadcast S128x128 (Scalar.ofBits .f32 0x322BCC77#32)))

/-- The payload that holds the second cosine matrix is exactly this. -/
theorem pay27_eq (v5 v7 : FVec F S128x100 .f32) : k0_pay27 v5 v7 = cosK v5 v7 := rfl

/-- The first cosine matrix, whose norms column, norms row and transpose are taken from the loaded blocks in
    three earlier payloads, is exactly this. -/
theorem pay26_eq (x0 x1 : Vec F S1x128x200 .f32) :
    k0_pay26 (k0_pay7 x0) (k0_pay23 x0) (k0_pay24 x1) (k0_pay25 x1) = cosK (k0_pay7 x0) (k0_pay9 x1) := rfl

/-- The maximum of each row of a square matrix, as a column. -/
def rowMaxK (c : FVec F S128x128 .f32) : FVec F S128x1 .f32 :=
  shapeCast S128x1 (multiReduction .maximumf [1] S128 c 0xFF800000#32 reduces_S128x128_S128 (.inl rfl) rfl) shapeCasts_S128_S128x1

/-- The mean of each row of a square matrix, as a column: the row's sum over 128. -/
def rowMeanK (c : FVec F S128x128 .f32) : FVec F S128x1 .f32 :=
  divf
    (shapeCast S128x1 (multiReduction .add [1] S128 c 0x00000000#32 reduces_S128x128_S128 (.inl rfl) rfl) shapeCasts_S128_S128x1)
    (broadcast S128x1 (Scalar.ofBits .f32 0x43000000#32))

/-- The maximum of each column of a square matrix, as a column. -/
def colMaxK (c : FVec F S128x128 .f32) : FVec F S128x1 .f32 :=
  shapeCast S128x1 (multiReduction .maximumf [0] S128 c 0xFF800000#32 reduces_S128x128_S128_2 (.inl rfl) rfl) shapeCasts_S128_S128x1

/-- The mean of each column of a square matrix, as a column: the column's sum over 128. -/
def colMeanK (c : FVec F S128x128 .f32) : FVec F S128x1 .f32 :=
  divf
    (shapeCast S128x1 (multiReduction .add [0] S128 c 0x00000000#32 reduces_S128x128_S128_2 (.inl rfl) rfl) shapeCasts_S128_S128x1)
    (broadcast S128x1 (Scalar.ofBits .f32 0x43000000#32))

/-- The payload that holds the first matrix's row maxima is exactly this. -/
theorem pay379_eq (c : FVec F S128x128 .f32) : k0_pay379 c = rowMaxK c := rfl

/-- The first matrix's row sums over the splat 128, held in two payloads, are exactly the row means. -/
theorem pay380_eq (c : FVec F S128x128 .f32) : divf (k0_pay380 c) (k0_pay381 (F := F)) = rowMeanK c := rfl

end Defs

/-- A vector's square root at an index is the square root of the entry. -/
private theorem sqrt_at {s : Shape} {φ : FTy} (a : FVec Ideal s φ) (i : s.Idx) : sqrt a i = Ideal.sqrt (a i) := rfl

/-- At (i, j) the kernel's matrix is the cosine of v1's row i with v2's row j, the product of their norms
    clipped at eps. -/
theorem cosK_apply (v1 v2 : FVec Ideal S128x100 .f32) (i j : Fin 128) :
    cosK v1 v2 (ix2 i j) = cosPair (fun h => v1 (ix2 i h)) (fun h => v2 (ix2 j h)) := by
  unfold cosK
  simp only [divf_apply, mulf_apply, maximumf_apply, broadcast_apply]
  rw [matmul_rowsT_apply, broadcastTo_a1_ab_apply, broadcastTo_1b_ab_apply, shapeCast_a_a1_apply, shapeCast_a_1a_apply]
  simp only [sqrt_at]
  erw [multiReduction_add_rows, multiReduction_add_rows]
  have ht : ∀ k : Fin 100, transpose S100x128 [1, 0] v2 transposes_S128x100_p1_0_S100x128 (ix2 k j) = v2 (ix2 j k) :=
    fun k => transpose_ix2_apply v2 transposes_S128x100_p1_0_S100x128 k j
  simp only [mulf_apply, ht]
  rfl

/-- At row l the column of row maxima is the maximum of that row's entries. -/
theorem rowMaxK_apply (c : FVec Ideal S128x128 .f32) (l : Fin 128) (u : Fin 1) :
    rowMaxK c (ix2 l u) = fmax fun j => c (ix2 l j) := by
  unfold rowMaxK
  rw [shapeCast_a_a1_apply]
  erw [multiReduction_max_rows]
  rfl

/-- At row l the column of row means is the mean of that row's entries. -/
theorem rowMeanK_apply (c : FVec Ideal S128x128 .f32) (l : Fin 128) (u : Fin 1) :
    rowMeanK c (ix2 l u) = fmean fun j => c (ix2 l j) := by
  unfold rowMeanK
  simp only [divf_apply, broadcast_apply]
  rw [shapeCast_a_a1_apply]
  erw [multiReduction_add_rows]
  rfl

/-- At position l the column of column maxima is the maximum of the entries of column l. -/
theorem colMaxK_apply (c : FVec Ideal S128x128 .f32) (l : Fin 128) (u : Fin 1) :
    colMaxK c (ix2 l u) = fmax fun i => c (ix2 i l) := by
  unfold colMaxK
  rw [shapeCast_a_a1_apply]
  erw [multiReduction_max_cols]
  rfl

/-- At position l the column of column means is the mean of the entries of column l. -/
theorem colMeanK_apply (c : FVec Ideal S128x128 .f32) (l : Fin 128) (u : Fin 1) :
    colMeanK c (ix2 l u) = fmean fun i => c (ix2 i l) := by
  unfold colMeanK
  simp only [divf_apply, broadcast_apply]
  rw [shapeCast_a_a1_apply]
  erw [multiReduction_add_cols]
  rfl

end Cert.Mpm
end
-- ==== Proof.Mpm.KGen.lean ====
/-
  The general matching pieces of the kernel, where the second operand is a whole sequence v2, paired row by
  row with v1:
    mv1K v1 v2   : at row l, the cosine of v1's row l with v2's row l, each norm clipped at eps;
    mvpK v1 v2 w : at (l, p), the same cosine after both rows are scaled by perspective p's weights.
  For the perspective block the kernel never forms the scaled rows: it squares the weights once and contracts
  them against the entrywise product of the two rows (for the inner product) and against each row's squares
  (for the two norms). Moving the squared weights inside each product shows these three sums are the inner
  products of the scaled rows.
-/
import proofs.«116293_j48241072668683_2_alg».proof.Proof.Gen.KernelIdeal.Skeleton
import proofs.«116293_j48241072668683_2_alg».proof.Proof.Mpm.KBase
import proofs.«116293_j48241072668683_2_alg».proof.Proof.Mpm.KDot
import proofs.«116293_j48241072668683_2_alg».proof.Proof.Mpm.Math

set_option pp.maxSteps 5000
set_option pp.deepTerms false

noncomputable section

namespace Cert.Mpm

open Idealize.ShloMosaic Idealize.ShloMosaic.ValueIdx Cert.KernelIdeal Cert.KernelIdeal.Gen
open scoped BigOperators

section Defs
variable {F : FTy → Type} [FloatOps F]

/-- The cosine column of two sequences paired row by row, as the kernel computes it: the row sums of the
    entrywise product over the product of the two clipped row norms, written as a column. -/
def mv1K (v1 v2 : FVec F S128x100 .f32) : FVec F S128x1 .f32 :=
  shapeCast S128x1
    (divf
      (multiReduction .add [1] S128 (mulf v1 v2) 0x00000000#32 reduces_S128x100_S128 (.inl rfl) rfl)
      (mulf
        (maximumf (sqrt (multiReduction .add [1] S128 (mulf v1 v1) 0x00000000#32 reduces_S128x100_S128 (.inl rfl) rfl)) (broadcast S128 (Scalar.ofBits .f32 0x322BCC77#32)))
        (maximumf (sqrt (multiReduction .add [1] S128 (mulf v2 v2) 0x00000000#32 reduces_S128x100_S128 (.inl rfl) rfl)) (broadcast S128 (Scalar.ofBits .f32 0x322BCC77#32)))))
    shapeCasts_S128_S128x1

/-- The perspective block of two sequences paired row by row, as the kernel computes it: three products
    against the transposed squared weights (of the rows' entrywise product, of v1's squares, of v2's squares),
    the first over the product of the clipped square roots of the other two. -/
def mvpK (v1 v2 : FVec F S128x100 .f32) (w : FVec F S20x100 .f32) : FVec F S128x20 .f32 :=
  divf
    (matmul dot_S128x100_S100x20_S128x20_1_0_0_1_n_n none (mulf v1 v2) (transpose S100x20 [1, 0] (mulf w w) transposes_S20x100_p1_0_S100x20) (constant S128x20 .f32 0x00000000#32))
    (mulf
      (maximumf
        (sqrt (matmul dot_S128x100_S100x20_S128x20_1_0_0_1_n_n none (mulf v1 v1) (transpose S100x20 [1, 0] (mulf w w) transposes_S20x100_p1_0_S100x20) (constant S128x20 .f32 0x00000000#32)))
        (broadcast S128x20 (Scalar.ofBits .f32 0x322BCC77#32)))
      (maximumf
        (sqrt (matmul dot_S128x100_S100x20_S128x20_1_0_0_1_n_n none (mulf v2 v2) (transpose S100x20 [1, 0] (mulf w w) transposes_S20x100_p1_0_S100x20) (constant S128x20 .f32 0x00000000#32)))
        (broadcast S128x20 (Scalar.ofBits .f32 0x322BCC77#32))))

/-- The payload holding one paired cosine column is exactly mv1K. -/
theorem pay341_eq (v5 a : FVec F S128x100 .f32) : k0_pay341 v5 a = mv1K v5 a := rfl

/-- One paired perspective block, cut by position over numerator, denominator and quotient, is exactly mvpK. -/
theorem pay345_eq (v5 a : FVec F S128x100 .f32) (w : FVec F S20x100 .f32) :
    k0_pay345 (k0_pay343 v5 w a) (k0_pay344 v5 w a) = mvpK v5 a w := rfl

/-- Another paired cosine column. -/
theorem pay346_eq (v6 a : FVec F S128x100 .f32) : k0_pay346 v6 a = mv1K v6 a := rfl

/-- Another paired perspective block, held by a single payload. -/
theorem pay347_eq (v6 : FVec F S128x100 .f32) (w : FVec F S20x100 .f32) (a : FVec F S128x100 .f32) :
    k0_pay347 v6 w a = mvpK v6 a w := rfl

/-- Another paired perspective block. -/
theorem pay353_eq (v7 : FVec F S128x100 .f32) (w : FVec F S20x100 .f32) (a : FVec F S128x100 .f32) :
    k0_pay353 v7 w a = mvpK v7 a w := rfl

/-- Another paired cosine column. -/
theorem pay365_eq (v4 a : FVec F S128x100 .f32) : k0_pay365 v4 a = mv1K v4 a := rfl

/-- Another paired perspective block. -/
theorem pay366_eq (v4 : FVec F S128x100 .f32) (w : FVec F S20x100 .f32) (a : FVec F S128x100 .f32) :
    k0_pay366 v4 w a = mvpK v4 a w := rfl

/-- Another paired perspective block. -/
theorem pay369_eq (v5 : FVec F S128x100 .f32) (w : FVec F S20x100 .f32) (a : FVec F S128x100 .f32) :
    k0_pay369 v5 w a = mvpK v5 a w := rfl

/-- Another paired perspective block. -/
theorem pay372_eq (v6 : FVec F S128x100 .f32) (w : FVec F S20x100 .f32) (a : FVec F S128x100 .f32) :
    k0_pay372 v6 w a = mvpK v6 a w := rfl

/-- Another paired cosine column. -/
theorem pay373_eq (v7 a : FVec F S128x100 .f32) : k0_pay373 v7 a = mv1K v7 a := rfl

end Defs

/-- A vector's square root at an index is the square root of the entry. -/
private theorem sqrt_at {s : Shape} {φ : FTy} (a : FVec Ideal s φ) (i : s.Idx) : sqrt a i = Ideal.sqrt (a i) := rfl

/-- At row l the kernel's column is the clipped cosine of v1's row l with v2's row l. -/
theorem mv1K_apply (v1 v2 : FVec Ideal S128x100 .f32) (l : Fin 128) (u : Fin 1) :
    mv1K v1 v2 (ix2 l u) = cosSim (fun h => v1 (ix2 l h)) (fun h => v2 (ix2 l h)) := by
  unfold mv1K
  rw [shapeCast_a_a1_apply]
  simp only [divf_apply, mulf_apply, maximumf_apply, broadcast_apply, sqrt_at]
  erw [multiReduction_add_rows, multiReduction_add_rows, multiReduction_add_rows]
  simp only [mulf_apply]
  rfl

/-- At (l, p) the kernel's block is the clipped cosine of v1's row l and v2's row l, both scaled by
    perspective p's weights: each of the three contractions against the squared weights is the inner product
    of the corresponding pair of scaled rows. -/
theorem mvpK_apply (v1 v2 : FVec Ideal S128x100 .f32) (w : FVec Ideal S20x100 .f32) (l : Fin 128) (p : Fin 20) :
    mvpK v1 v2 w (ix2 l p)
      = cosSim (wmul (fun h => w (ix2 p h)) (fun h => v1 (ix2 l h))) (wmul (fun h => w (ix2 p h)) (fun h => v2 (ix2 l h))) := by
  have e12 := dot_wmul_prod (fun h => w (ix2 p h)) (fun h => v1 (ix2 l h)) (fun h => v2 (ix2 l h))
  have e11 := dot_wmul_prod (fun h => w (ix2 p h)) (fun h => v1 (ix2 l h)) (fun h => v1 (ix2 l h))
  have e22 := dot_wmul_prod (fun h => w (ix2 p h)) (fun h => v2 (ix2 l h)) (fun h => v2 (ix2 l h))
  -- the transposed squared weights at (h, p): the square of perspective p's weight at feature h
  have hT : ∀ h : Fin 100, transpose S100x20 [1, 0] (mulf w w) transposes_S20x100_p1_0_S100x20 (ix2 h p) = w (ix2 p h) * w (ix2 p h) :=
    fun h => transpose_ix2_apply (mulf w w) transposes_S20x100_p1_0_S100x20 h p
  unfold mvpK
  simp only [divf_apply, mulf_apply, maximumf_apply, broadcast_apply, sqrt_at]
  rw [matmul_persp_apply, matmul_persp_apply, matmul_persp_apply]
  simp only [mulf_apply, hT]
  unfold cosSim nrm
  rw [e12, e11, e22]
  rfl

end Cert.Mpm
end
-- ==== Proof.Mpm.MaxChunks.lean ====
/-
  A maximum over 128 positions taken in four runs of 32. Folding max from a start value b over all 128 positions
  gives the same as starting from b and absorbing, one after the other, the four maxima (each again folded from b)
  of positions 0..31, 32..63, 64..95 and 96..127: every entry, and b itself, lies below the nested maximum, and
  every run's maximum lies below the whole one. Only the order is used, so no arithmetic on the values is needed.
-/
import proofs.«116293_j48241072668683_2_alg».proof.Proof.Mpm.Math

noncomputable section

namespace Cert.Mpm

open Idealize.ShloMosaic

/-- Position o + k of 128, for a run of 32 that starts at o. -/
def runIdx (o : ℕ) (ho : o + 32 ≤ 128) (k : Fin 32) : Fin 128 := ⟨o + k.val, by have := k.isLt; omega⟩

/-- The start value lies below the fold of max from it. -/
theorem start_le_fold {n : ℕ} (b : EReal) (g : Fin n → EReal) : b ≤ (Finset.univ : Finset (Fin n)).fold max b g :=
  (Finset.le_fold_max b).2 (Or.inl le_rfl)

/-- Every entry lies below the fold of max. -/
theorem entry_le_fold {n : ℕ} (b : EReal) (g : Fin n → EReal) (i : Fin n) : g i ≤ (Finset.univ : Finset (Fin n)).fold max b g :=
  (Finset.le_fold_max (g i)).2 (Or.inr ⟨i, Finset.mem_univ i, le_rfl⟩)

/-- The maximum of one run of 32 lies below the maximum of all 128 positions. -/
theorem run_le_all (b : EReal) (f : Fin 128 → EReal) (o : ℕ) (ho : o + 32 ≤ 128) :
    (Finset.univ : Finset (Fin 32)).fold max b (fun k => f (runIdx o ho k)) ≤ (Finset.univ : Finset (Fin 128)).fold max b f :=
  (Finset.fold_max_le _).2 ⟨start_le_fold b f, fun k _ => entry_le_fold b f (runIdx o ho k)⟩

/-- An entry at a position of the run that starts at o lies below that run's maximum. -/
theorem entry_le_run (b : EReal) (f : Fin 128 → EReal) (o : ℕ) (ho : o + 32 ≤ 128) (j : Fin 128) (h1 : o ≤ j.val) (h2 : j.val < o + 32) :
    f j ≤ (Finset.univ : Finset (Fin 32)).fold max b (fun k => f (runIdx o ho k)) := by
  have e : runIdx o ho ⟨j.val - o, by omega⟩ = j := Fin.ext (by show o + (j.val - o) = j.val; omega)
  have := entry_le_fold b (fun k => f (runIdx o ho k)) ⟨j.val - o, by omega⟩
  rwa [e] at this

/-- Folding max from b over 128 positions is b absorbed into the four runs' maxima, one after the other. -/
theorem fold_max_runs (b : EReal) (f : Fin 128 → EReal) :
    (Finset.univ : Finset (Fin 128)).fold max b f
      = max (max (max (max b
          ((Finset.univ : Finset (Fin 32)).fold max b fun k => f (runIdx 0 (by decide) k)))
          ((Finset.univ : Finset (Fin 32)).fold max b fun k => f (runIdx 32 (by decide) k)))
          ((Finset.univ : Finset (Fin 32)).fold max b fun k => f (runIdx 64 (by decide) k)))
          ((Finset.univ : Finset (Fin 32)).fold max b fun k => f (runIdx 96 (by decide) k)) := by
  refine le_antisymm ((Finset.fold_max_le _).2 ⟨?_, fun j _ => ?_⟩) ?_
  · exact le_max_of_le_left (le_max_of_le_left (le_max_of_le_left (le_max_left _ _)))
  · by_cases h0 : j.val < 32
    · exact le_max_of_le_left (le_max_of_le_left (le_max_of_le_left (le_max_of_le_right
        (entry_le_run b f 0 (by decide) j (Nat.zero_le _) (by omega)))))
    · by_cases h1 : j.val < 64
      · exact le_max_of_le_left (le_max_of_le_left (le_max_of_le_right
          (entry_le_run b f 32 (by decide) j (by omega) (by omega))))
      · by_cases h2 : j.val < 96
        · exact le_max_of_le_left (le_max_of_le_right (entry_le_run b f 64 (by decide) j (by omega) (by omega)))
        · exact le_max_of_le_right (entry_le_run b f 96 (by decide) j (by omega) (by have := j.isLt; omega))
  · exact max_le (max_le (max_le (max_le (start_le_fold b f) (run_le_all b f 0 _)) (run_le_all b f 32 _)) (run_le_all b f 64 _))
      (run_le_all b f 96 _)

/-- The same for the maximum from -inf, as both programs take it. -/
theorem fmax_runs (f : Fin 128 → EReal) :
    fmax f = max (max (max (max ninf
          (fmax fun k : Fin 32 => f (runIdx 0 (by decide) k)))
          (fmax fun k : Fin 32 => f (runIdx 32 (by decide) k)))
          (fmax fun k : Fin 32 => f (runIdx 64 (by decide) k)))
          (fmax fun k : Fin 32 => f (runIdx 96 (by decide) k)) :=
  fold_max_runs ninf f

end Cert.Mpm
end
-- ==== Proof.Mpm.KAtt.lean ====
/-
  The attentive pieces of the kernel, for a sequence V (128 rows of 100 features) under a matrix c of cosines:
    attMeanJK c v2 : at (l, h), the sum over j of c (l, j) * v2 (j, h), over the clipped row total of c;
    attMeanIK c v1 : at (j, h), the sum over i of c (i, j) * v1 (i, h), over the clipped column total of c;
    attMaxJK v2 c  : at (l, h), the largest v2 (j, h) * c (l, j) over j;
    attMaxIK v1 c  : at (j, h), the largest v1 (i, h) * c (i, j) over i.
  The means are one matrix product each (against c, or against c transposed) divided by a column of totals spread
  over the features. The maxima are taken in four runs of 32 positions: each run forms the products as a block
  with three axes and takes the maximum along the run's axis from -inf, and the running result absorbs it. Since
  max only orders its arguments, the four runs together give the maximum over all 128 positions.
-/
import proofs.«116293_j48241072668683_2_alg».proof.Proof.Gen.KernelIdeal.Skeleton
import proofs.«116293_j48241072668683_2_alg».proof.Proof.Mpm.KBase
import proofs.«116293_j48241072668683_2_alg».proof.Proof.Mpm.KDot
import proofs.«116293_j48241072668683_2_alg».proof.Proof.Mpm.Math
import proofs.«116293_j48241072668683_2_alg».proof.Proof.Mpm.MaxChunks

set_option pp.maxSteps 5000
set_option pp.deepTerms false

noncomputable section

namespace Cert.Mpm

open Idealize.ShloMosaic Idealize.ShloMosaic.ValueIdx Cert.KernelIdeal Cert.KernelIdeal.Gen
open scoped BigOperators

section Rank3
variable {α : Type}

/-- A matrix [a, b] cast to a block [a, b, 1] reads, at (i, k, u), the matrix at (i, k). -/
theorem shapeCast_ab_ab1_apply {a b : ℕ} (x : (⟨2, ![a, b]⟩ : Shape).Idx → α) (h : (⟨2, ![a, b]⟩ : Shape).ShapeCasts ⟨3, ![a, b, 1]⟩)
    (i : Fin a) (k : Fin b) (u : Fin 1) : shapeCast ⟨3, ![a, b, 1]⟩ x h (ix3 i k u) = x (ix2 i k) :=
  shapeCast_apply x h _ _ (by
    have hu : u.val = 0 := by omega
    rw [Shape.rowMajor_val_three, Shape.rowMajor_val_two]
    show i.val * b + k.val = (i.val * b + k.val) * 1 + u.val
    rw [hu, Nat.mul_one, Nat.add_zero])

/-- A matrix [a, c] cast to a block [a, 1, c] reads, at (i, u, j), the matrix at (i, j). -/
theorem shapeCast_ac_a1c_apply {a c : ℕ} (x : (⟨2, ![a, c]⟩ : Shape).Idx → α) (h : (⟨2, ![a, c]⟩ : Shape).ShapeCasts ⟨3, ![a, 1, c]⟩)
    (i : Fin a) (u : Fin 1) (j : Fin c) : shapeCast ⟨3, ![a, 1, c]⟩ x h (ix3 i u j) = x (ix2 i j) :=
  shapeCast_apply x h _ _ (by
    have hu : u.val = 0 := by omega
    rw [Shape.rowMajor_val_three, Shape.rowMajor_val_two]
    show i.val * c + j.val = (i.val * 1 + u.val) * c + j.val
    rw [hu, Nat.mul_one, Nat.add_zero])

/-- A block [1, b, c] spread over a new first axis reads, at (i, k, j), its one slab at (k, j). -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (k : Fin b) (j : Fin c) :
    broadcastTo ⟨3, ![a, b, c]⟩ v h (ix3 i k j) = v (ix3 (0 : Fin 1) k j) := by
  refine broadcastTo_apply v h (ix3 i k j) (ix3 (0 : Fin 1) k j) fun ax => ?_
  match ax with
  | ⟨0, _⟩ => rfl
  | ⟨1, _⟩ =>
    show k.val = if b = 1 then 0 else k.val
    split
    · have := k.isLt; omega
    · rfl
  | ⟨2, _⟩ =>
    show j.val = if c = 1 then 0 else j.val
    split
    · have := j.isLt; omega
    · rfl

/-- A block [a, b, 1] spread over the last axis reads, at (i, k, j), its one column at (i, k). -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (k : Fin b) (j : Fin c) :
    broadcastTo ⟨3, ![a, b, c]⟩ v h (ix3 i k j) = v (ix3 i k (0 : Fin 1)) := by
  refine broadcastTo_apply v h (ix3 i k j) (ix3 i k (0 : Fin 1)) fun ax => ?_
  match ax with
  | ⟨0, _⟩ =>
    show i.val = if a = 1 then 0 else i.val
    split
    · have := i.isLt; omega
    · rfl
  | ⟨1, _⟩ =>
    show k.val = if b = 1 then 0 else k.val
    split
    · have := k.isLt; omega
    · rfl
  | ⟨2, _⟩ => rfl

/-- A block [a, 1, c] spread over the middle axis reads, at (i, k, j), its one row at (i, j). -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (k : Fin b) (j : Fin c) :
    broadcastTo ⟨3, ![a, b, c]⟩ v h (ix3 i k j) = v (ix3 i (0 : Fin 1) j) := by
  refine broadcastTo_apply v h (ix3 i k j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if c = 1 then 0 else j.val
    split
    · have := j.isLt; omega
    · rfl

variable {φ : FTy}

/-- The maximum of a block [a, b, c] along its middle axis, at (i, j): the fold of max over k of the block at (i, k, j). -/
theorem multiReduction_max_mid {a b c : ℕ} (src : FVec Ideal ⟨3, ![a, b, c]⟩ φ) (acc : BitVec φ.bits)
    (h : (⟨3, ![a, b, c]⟩ : Shape).Reduces [1] ⟨2, ![a, c]⟩) (hφ : FKind.Formats φ) (hacc : acc = FKind.maximumf.neutral φ hφ)
    (i : Fin a) (j : Fin c) :
    multiReduction .maximumf [1] ⟨2, ![a, c]⟩ src acc h hφ hacc (ix2 i j)
      = (Finset.univ : Finset (Fin b)).fold max (FloatOps.ofBits φ acc) fun k => src (ix3 i k j) := by
  rw [Ideal.multiReduction_maximumf_single]
  refine congrArg (Finset.fold max _ · Finset.univ) (funext fun k => congrArg src ?_)
  funext d
  match d with
  | ⟨0, _⟩ => exact Fin.ext rfl
  | ⟨1, _⟩ => exact Fin.ext rfl
  | ⟨2, _⟩ => exact Fin.ext rfl

/-- The maximum of a block [a, b, c] along its first axis, at (i, j): the fold of max over k of the block at (k, i, j). -/
theorem multiReduction_max_first {a b c : ℕ} (src : FVec Ideal ⟨3, ![a, b, c]⟩ φ) (acc : BitVec φ.bits)
    (h : (⟨3, ![a, b, c]⟩ : Shape).Reduces [0] ⟨2, ![b, c]⟩) (hφ : FKind.Formats φ) (hacc : acc = FKind.maximumf.neutral φ hφ)
    (i : Fin b) (j : Fin c) :
    multiReduction .maximumf [0] ⟨2, ![b, c]⟩ src acc h hφ hacc (ix2 i j)
      = (Finset.univ : Finset (Fin a)).fold max (FloatOps.ofBits φ acc) fun k => src (ix3 k i j) := by
  rw [Ideal.multiReduction_maximumf_single]
  refine congrArg (Finset.fold max _ · Finset.univ) (funext fun k => congrArg src ?_)
  funext d
  match d with
  | ⟨0, _⟩ => exact Fin.ext rfl
  | ⟨1, _⟩ => exact Fin.ext rfl
  | ⟨2, _⟩ => exact Fin.ext rfl

end Rank3

section MeanDefs
variable {F : FTy → Type} [FloatOps F]

/-- The attentive mean along the second axis of c, as the kernel computes it: c times v2, over c's clipped row totals. -/
def attMeanJK (c : FVec F S128x128 .f32) (v2 : FVec F S128x100 .f32) : FVec F S128x100 .f32 :=
  divf
    (matmul dot_S128x128_S128x100_S128x100_1_0_0_1_n_n none c v2 (constant S128x100 .f32 0x00000000#32))
    (broadcastTo S128x100
      (maximumf
        (shapeCast S128x1 (multiReduction .add [1] S128 c 0x00000000#32 reduces_S128x128_S128 (.inl rfl) rfl) shapeCasts_S128_S128x1)
        (broadcast S128x1 (Scalar.ofBits .f32 0x322BCC77#32)))
      broadcasts_S128x1_S128x100)

/-- The attentive mean along the first axis of c, as the kernel computes it: c transposed times v1, over c's clipped
    column totals. -/
def attMeanIK (c : FVec F S128x128 .f32) (v1 : FVec F S128x100 .f32) : FVec F S128x100 .f32 :=
  divf
    (matmul dot_S128x128_S128x100_S128x100_1_0_0_1_n_n none (transpose S128x128 [1, 0] c transposes_S128x128_p1_0_S128x128) v1
      (constant S128x100 .f32 0x00000000#32))
    (broadcastTo S128x100
      (maximumf
        (shapeCast S128x1 (multiReduction .add [0] S128 c 0x00000000#32 reduces_S128x128_S128_2 (.inl rfl) rfl) shapeCasts_S128_S128x1)
        (broadcast S128x1 (Scalar.ofBits .f32 0x322BCC77#32)))
      broadcasts_S128x1_S128x100)

/-- The payload that holds the second sequence's backward attentive mean is exactly this. -/
theorem pay334_eq (v7 : FVec F S128x100 .f32) (c : FVec F S128x128 .f32) : k0_pay334 v7 c = attMeanJK c v7 := rfl

/-- The second sequence's forward attentive mean, whose clipped totals sit in an earlier payload, is exactly this. -/
theorem pay333_eq (v6 : FVec F S128x100 .f32) (c : FVec F S128x128 .f32) : k0_pay333 v6 c (k0_pay332 c) = attMeanJK c v6 := rfl

/-- The payload that holds the first sequence's forward attentive mean is exactly this. -/
theorem pay335_eq (v4 : FVec F S128x100 .f32) (c : FVec F S128x128 .f32) : k0_pay335 v4 c = attMeanIK c v4 := rfl

/-- The payload that holds the first sequence's backward attentive mean is exactly this. -/
theorem pay336_eq (v5 : FVec F S128x100 .f32) (c : FVec F S128x128 .f32) : k0_pay336 v5 c = attMeanIK c v5 := rfl

end MeanDefs

/-- At (l, h) the kernel's block is the attentive mean of v2 under row l of c. -/
theorem attMeanJK_apply (c : FVec Ideal S128x128 .f32) (v2 : FVec Ideal S128x100 .f32) (l : Fin 128) (h : Fin 100) :
    attMeanJK c v2 (ix2 l h) = attMean (fun j => c (ix2 l j)) (fun j h => v2 (ix2 j h)) h := by
  unfold attMeanJK
  rw [divf_apply, matmul_mix_apply, broadcastTo_a1_ab_apply, maximumf_apply, broadcast_apply, shapeCast_a_a1_apply]
  erw [multiReduction_add_rows]
  rfl

/-- At (j, h) the kernel's block is the attentive mean of v1 under column j of c. -/
theorem attMeanIK_apply (c : FVec Ideal S128x128 .f32) (v1 : FVec Ideal S128x100 .f32) (j : Fin 128) (h : Fin 100) :
    attMeanIK c v1 (ix2 j h) = attMean (fun i => c (ix2 i j)) (fun i h => v1 (ix2 i h)) h := by
  unfold attMeanIK
  rw [divf_apply, matmul_mix_apply, broadcastTo_a1_ab_apply, maximumf_apply, broadcast_apply, shapeCast_a_a1_apply]
  erw [multiReduction_add_cols]
  have e : ∀ k : Fin 128, transpose S128x128 [1, 0] c transposes_S128x128_p1_0_S128x128 (ix2 j k) = c (ix2 k j) :=
    fun k => transpose_ix2_apply c transposes_S128x128_p1_0_S128x128 j k
  simp only [e]
  rfl

section MaxDefs
variable {F : FTy → Type} [FloatOps F]

/-- One run of the maximum along the second axis of c: 32 rows vj of the sequence against the matching 32 columns cij
    of c; at (l, h) the largest vj (k, h) * cij (l, k) over the run, from -inf. -/
def attMaxJRun (vj : FVec F S32x100 .f32) (cij : FVec F S128x32 .f32) : FVec F S128x100 .f32 :=
  multiReduction .maximumf [1] S128x100
    (mulf
      (broadcastTo S128x32x100 (shapeCast S1x32x100 vj shapeCasts_S32x100_S1x32x100) broadcasts_S1x32x100_S128x32x100)
      (broadcastTo S128x32x100 (shapeCast S128x32x1 cij shapeCasts_S128x32_S128x32x1) broadcasts_S128x32x1_S128x32x100))
    0xFF800000#32 reduces_S128x32x100_S128x100 (.inl rfl) rfl

/-- The attentive maximum along the second axis of c, as the kernel computes it: four runs of 32 positions absorbed,
    one after the other, into a block of -inf. -/
def attMaxJK (v2 : FVec F S128x100 .f32) (c : FVec F S128x128 .f32) : FVec F S128x100 .f32 :=
  maximumf
    (maximumf
      (maximumf
        (maximumf (broadcast S128x100 (Scalar.ofBits .f32 0xFF800000#32))
          (attMaxJRun (extractStridedSlice S32x100 ![0, 0] v2 slices_S128x100_o0_0_S32x100)
            (extractStridedSlice S128x32 ![0, 0] c slices_S128x128_o0_0_S128x32)))
        (attMaxJRun (extractStridedSlice S32x100 ![32, 0] v2 slices_S128x100_o32_0_S32x100)
          (extractStridedSlice S128x32 ![0, 32] c slices_S128x128_o0_32_S128x32)))
      (attMaxJRun (extractStridedSlice S32x100 ![64, 0] v2 slices_S128x100_o64_0_S32x100)
        (extractStridedSlice S128x32 ![0, 64] c slices_S128x128_o0_64_S128x32)))
    (attMaxJRun (extractStridedSlice S32x100 ![96, 0] v2 slices_S128x100_o96_0_S32x100)
      (extractStridedSlice S128x32 ![0, 96] c slices_S128x128_o0_96_S128x32))

/-- One run of the maximum along the first axis of c: 32 rows vi of the sequence against the matching 32 rows cij of c;
    at (j, h) the largest vi (k, h) * cij (k, j) over the run, from -inf. -/
def attMaxIRun (vi : FVec F S32x100 .f32) (cij : FVec F S32x128 .f32) : FVec F S128x100 .f32 :=
  multiReduction .maximumf [0] S128x100
    (mulf
      (broadcastTo S32x128x100 (shapeCast S32x1x100 vi shapeCasts_S32x100_S32x1x100) broadcasts_S32x1x100_S32x128x100)
      (broadcastTo S32x128x100 (shapeCast S32x128x1 cij shapeCasts_S32x128_S32x128x1) broadcasts_S32x128x1_S32x128x100))
    0xFF800000#32 reduces_S32x128x100_S128x100 (.inl rfl) rfl

/-- The attentive maximum along the first axis of c, as the kernel computes it: four runs of 32 positions absorbed,
    one after the other, into a block of -inf. -/
def attMaxIK (v1 : FVec F S128x100 .f32) (c : FVec F S128x128 .f32) : FVec F S128x100 .f32 :=
  maximumf
    (maximumf
      (maximumf
        (maximumf (broadcast S128x100 (Scalar.ofBits .f32 0xFF800000#32))
          (attMaxIRun (extractStridedSlice S32x100 ![0, 0] v1 slices_S128x100_o0_0_S32x100)
            (extractStridedSlice S32x128 ![0, 0] c slices_S128x128_o0_0_S32x128)))
        (attMaxIRun (extractStridedSlice S32x100 ![32, 0] v1 slices_S128x100_o32_0_S32x100)
          (extractStridedSlice S32x128 ![32, 0] c slices_S128x128_o32_0_S32x128)))
      (attMaxIRun (extractStridedSlice S32x100 ![64, 0] v1 slices_S128x100_o64_0_S32x100)
        (extractStridedSlice S32x128 ![64, 0] c slices_S128x128_o64_0_S32x128)))
    (attMaxIRun (extractStridedSlice S32x100 ![96, 0] v1 slices_S128x100_o96_0_S32x100)
      (extractStridedSlice S32x128 ![96, 0] c slices_S128x128_o96_0_S32x128))

/-- The payload that holds the second sequence's backward attentive maximum is exactly this. -/
theorem pay357_eq (v7 : FVec F S128x100 .f32) (c : FVec F S128x128 .f32) : k0_pay357 v7 c = attMaxJK v7 c := rfl

/-- The second sequence's forward attentive maximum, cut by position over three payloads, is exactly this. -/
theorem pay356_eq (v6 : FVec F S128x100 .f32) (c : FVec F S128x128 .f32) :
    k0_pay356 c (k0_pay354 v6 c) (k0_pay355 v6) = attMaxJK v6 c := rfl

/-- The first sequence's forward attentive maximum, cut by position over three payloads, is exactly this. -/
theorem pay360_eq (v4 : FVec F S128x100 .f32) (c : FVec F S128x128 .f32) :
    k0_pay360 v4 c (k0_pay358 (F := F)) (k0_pay359 v4 c) = attMaxIK v4 c := rfl

/-- The first sequence's backward attentive maximum, cut by position over four payloads, is exactly this. -/
theorem pay364_eq (v5 : FVec F S128x100 .f32) (c : FVec F S128x128 .f32) :
    k0_pay364 v5 c (k0_pay361 v5 c) (k0_pay362 c) (k0_pay363 v5) = attMaxIK v5 c := rfl

end MaxDefs

/-- One run along the second axis, at (l, h): the largest product of the run's rows at feature h with row l of the
    run's cosines. -/
theorem attMaxJRun_apply (vj : FVec Ideal S32x100 .f32) (cij : FVec Ideal S128x32 .f32) (l : Fin 128) (h : Fin 100) :
    attMaxJRun vj cij (ix2 l h) = fmax fun k : Fin 32 => vj (ix2 k h) * cij (ix2 l k) := by
  unfold attMaxJRun
  erw [multiReduction_max_mid]
  simp only [mulf_apply, broadcastTo_1bc_abc_apply, broadcastTo_ab1_abc_apply, shapeCast_ab_1ab_apply, shapeCast_ab_ab1_apply]
  rfl

/-- One run along the first axis, at (j, h): the largest product of the run's rows at feature h with column j of the
    run's cosines. -/
theorem attMaxIRun_apply (vi : FVec Ideal S32x100 .f32) (cij : FVec Ideal S32x128 .f32) (j : Fin 128) (h : Fin 100) :
    attMaxIRun vi cij (ix2 j h) = fmax fun k : Fin 32 => vi (ix2 k h) * cij (ix2 k j) := by
  unfold attMaxIRun
  erw [multiReduction_max_first]
  simp only [mulf_apply, broadcastTo_a1c_abc_apply, broadcastTo_ab1_abc_apply, shapeCast_ac_a1c_apply, shapeCast_ab_ab1_apply]
  rfl

/-- At (l, h) the kernel's block is the attentive maximum of v2 under row l of c. -/
theorem attMaxJK_apply (v2 : FVec Ideal S128x100 .f32) (c : FVec Ideal S128x128 .f32) (l : Fin 128) (h : Fin 100) :
    attMaxJK v2 c (ix2 l h) = attMax (fun j => c (ix2 l j)) (fun j h => v2 (ix2 j h)) h := by
  unfold attMaxJK
  simp only [maximumf_apply, broadcast_apply, attMaxJRun_apply]
  have a0 : ∀ k : Fin 32, extractStridedSlice S32x100 ![0, 0] v2 slices_S128x100_o0_0_S32x100 (ix2 k h)
      = v2 (ix2 (runIdx 0 (by decide) k) h) := fun k => slice2_axis0_apply 0 v2 _ k h _ rfl
  have a1 : ∀ k : Fin 32, extractStridedSlice S32x100 ![32, 0] v2 slices_S128x100_o32_0_S32x100 (ix2 k h)
      = v2 (ix2 (runIdx 32 (by decide) k) h) := fun k => slice2_axis0_apply 32 v2 _ k h _ rfl
  have a2 : ∀ k : Fin 32, extractStridedSlice S32x100 ![64, 0] v2 slices_S128x100_o64_0_S32x100 (ix2 k h)
      = v2 (ix2 (runIdx 64 (by decide) k) h) := fun k => slice2_axis0_apply 64 v2 _ k h _ rfl
  have a3 : ∀ k : Fin 32, extractStridedSlice S32x100 ![96, 0] v2 slices_S128x100_o96_0_S32x100 (ix2 k h)
      = v2 (ix2 (runIdx 96 (by decide) k) h) := fun k => slice2_axis0_apply 96 v2 _ k h _ rfl
  have b0 : ∀ k : Fin 32, extractStridedSlice S128x32 ![0, 0] c slices_S128x128_o0_0_S128x32 (ix2 l k)
      = c (ix2 l (runIdx 0 (by decide) k)) := fun k => slice2_axis1_apply 0 c _ l k _ rfl
  have b1 : ∀ k : Fin 32, extractStridedSlice S128x32 ![0, 32] c slices_S128x128_o0_32_S128x32 (ix2 l k)
      = c (ix2 l (runIdx 32 (by decide) k)) := fun k => slice2_axis1_apply 32 c _ l k _ rfl
  have b2 : ∀ k : Fin 32, extractStridedSlice S128x32 ![0, 64] c slices_S128x128_o0_64_S128x32 (ix2 l k)
      = c (ix2 l (runIdx 64 (by decide) k)) := fun k => slice2_axis1_apply 64 c _ l k _ rfl
  have b3 : ∀ k : Fin 32, extractStridedSlice S128x32 ![0, 96] c slices_S128x128_o0_96_S128x32 (ix2 l k)
      = c (ix2 l (runIdx 96 (by decide) k)) := fun k => slice2_axis1_apply 96 c _ l k _ rfl
  simp only [a0, a1, a2, a3, b0, b1, b2, b3]
  exact (fmax_runs fun j => v2 (ix2 j h) * c (ix2 l j)).symm

/-- At (j, h) the kernel's block is the attentive maximum of v1 under column j of c. -/
theorem attMaxIK_apply (v1 : FVec Ideal S128x100 .f32) (c : FVec Ideal S128x128 .f32) (j : Fin 128) (h : Fin 100) :
    attMaxIK v1 c (ix2 j h) = attMax (fun i => c (ix2 i j)) (fun i h => v1 (ix2 i h)) h := by
  unfold attMaxIK
  simp only [maximumf_apply, broadcast_apply, attMaxIRun_apply]
  have a0 : ∀ k : Fin 32, extractStridedSlice S32x100 ![0, 0] v1 slices_S128x100_o0_0_S32x100 (ix2 k h)
      = v1 (ix2 (runIdx 0 (by decide) k) h) := fun k => slice2_axis0_apply 0 v1 _ k h _ rfl
  have a1 : ∀ k : Fin 32, extractStridedSlice S32x100 ![32, 0] v1 slices_S128x100_o32_0_S32x100 (ix2 k h)
      = v1 (ix2 (runIdx 32 (by decide) k) h) := fun k => slice2_axis0_apply 32 v1 _ k h _ rfl
  have a2 : ∀ k : Fin 32, extractStridedSlice S32x100 ![64, 0] v1 slices_S128x100_o64_0_S32x100 (ix2 k h)
      = v1 (ix2 (runIdx 64 (by decide) k) h) := fun k => slice2_axis0_apply 64 v1 _ k h _ rfl
  have a3 : ∀ k : Fin 32, extractStridedSlice S32x100 ![96, 0] v1 slices_S128x100_o96_0_S32x100 (ix2 k h)
      = v1 (ix2 (runIdx 96 (by decide) k) h) := fun k => slice2_axis0_apply 96 v1 _ k h _ rfl
  have b0 : ∀ k : Fin 32, extractStridedSlice S32x128 ![0, 0] c slices_S128x128_o0_0_S32x128 (ix2 k j)
      = c (ix2 (runIdx 0 (by decide) k) j) := fun k => slice2_axis0_apply 0 c _ k j _ rfl
  have b1 : ∀ k : Fin 32, extractStridedSlice S32x128 ![32, 0] c slices_S128x128_o32_0_S32x128 (ix2 k j)
      = c (ix2 (runIdx 32 (by decide) k) j) := fun k => slice2_axis0_apply 32 c _ k j _ rfl
  have b2 : ∀ k : Fin 32, extractStridedSlice S32x128 ![64, 0] c slices_S128x128_o64_0_S32x128 (ix2 k j)
      = c (ix2 (runIdx 64 (by decide) k) j) := fun k => slice2_axis0_apply 64 c _ k j _ rfl
  have b3 : ∀ k : Fin 32, extractStridedSlice S32x128 ![96, 0] c slices_S128x128_o96_0_S32x128 (ix2 k j)
      = c (ix2 (runIdx 96 (by decide) k) j) := fun k => slice2_axis0_apply 96 c _ k j _ rfl
  simp only [a0, a1, a2, a3, b0, b1, b2, b3]
  exact (fmax_runs fun i => v1 (ix2 i h) * c (ix2 i j)).symm

end Cert.Mpm
end
-- ==== Proof.Mpm.KPair.lean ====
/-
  One perspective of the pairwise match, and the joining of the twenty perspectives.
  For a perspective with weight row wp, both sequences are scaled entrywise by wp (a = v1 * wp, b = v2 * wp); the
  matrix of cosines is res (i, j) = <a_i, b_j> / max(|a_i| * |b_j|, eps): one matrix product for all the inner
  products, the row norms of a spread down the columns and those of b along the rows. Four statistics of res are
  kept: its maximum and its mean along each row (over the second sequence), and along each column (over the first).
  The twenty perspectives' columns are then laid side by side; the twenty rows are stacked and the stack transposed.
-/
import proofs.«116293_j48241072668683_2_alg».proof.Proof.Gen.KernelIdeal.Skeleton
import proofs.«116293_j48241072668683_2_alg».proof.Proof.Mpm.KBase
import proofs.«116293_j48241072668683_2_alg».proof.Proof.Mpm.KDot
import proofs.«116293_j48241072668683_2_alg».proof.Proof.Mpm.Math

set_option pp.maxSteps 5000
set_option pp.deepTerms false

noncomputable section

namespace Cert.Mpm

open Idealize.ShloMosaic Idealize.ShloMosaic.ValueIdx Cert.KernelIdeal Cert.KernelIdeal.Gen
open scoped BigOperators

/-- Each single row of the weights is a block of them. -/
theorem wSlices (pi : Fin 20) : S20x100.Slices ![pi.val, 0] S1x100 :=
  ⟨rfl, fun a => match a with
    | ⟨0, _⟩ => pi.isLt
    | ⟨1, _⟩ => Nat.le_refl 100⟩

section Defs
variable {F : FTy → Type} [FloatOps F]

/-- Row pi of the weights, as a vector of length 100. -/
def wRowK (w : FVec F S20x100 .f32) (pi : Fin 20) (hs : S20x100.Slices ![pi.val, 0] S1x100) : FVec F S100 .f32 :=
  shapeCast S100 (extractStridedSlice S1x100 ![pi.val, 0] w hs) shapeCasts_S1x100_S100

/-- A sequence with every row scaled entrywise by one weight row. -/
def scaleRowsK (v : FVec F S128x100 .f32) (wp : FVec F S100 .f32) : FVec F S128x100 .f32 :=
  mulf v (broadcastTo S128x100 (shapeCast S1x100 wp shapeCasts_S100_S1x100) broadcasts_S1x100_S128x100)

/-- The Euclidean norm of every row of a sequence. -/
def rowNormsK (a : FVec F S128x100 .f32) : FVec F S128 .f32 :=
  sqrt (multiReduction .add [1] S128 (mulf a a) 0x00000000#32 reduces_S128x100_S128 (.inl rfl) rfl)

/-- The matrix of cosines between the rows of a and the rows of b, the product of the two norms clipped at eps. -/
def cosMatK (a b : FVec F S128x100 .f32) : FVec F S128x128 .f32 :=
  divf
    (matmul dot_S128x100_S100x128_S128x128_1_0_0_1_n_n none a
      (transpose S100x128 [1, 0] b transposes_S128x100_p1_0_S100x128)
      (constant S128x128 .f32 0x00000000#32))
    (maximumf
      (mulf
        (broadcastTo S128x128 (shapeCast S128x1 (rowNormsK a) shapeCasts_S128_S128x1) broadcasts_S128x1_S128x128)
        (broadcastTo S128x128 (shapeCast S1x128 (rowNormsK b) shapeCasts_S128_S1x128) broadcasts_S1x128_S128x128))
      (broadcast S128x128 (Scalar.ofBits .f32 0x322BCC77#32)))

/-- The maximum of every row of a square matrix, as a column. -/
def maxRowK (res : FVec F S128x128 .f32) : FVec F S128x1 .f32 :=
  shapeCast S128x1 (multiReduction .maximumf [1] S128 res 0xFF800000#32 reduces_S128x128_S128 (.inl rfl) rfl) shapeCasts_S128_S128x1

/-- The mean of every row of a square matrix, as a column. -/
def meanRowK (res : FVec F S128x128 .f32) : FVec F S128x1 .f32 :=
  divf
    (shapeCast S128x1 (multiReduction .add [1] S128 res 0x00000000#32 reduces_S128x128_S128 (.inl rfl) rfl) shapeCasts_S128_S128x1)
    (broadcast S128x1 (Scalar.ofBits .f32 0x43000000#32))

/-- The maximum of every column of a square matrix, as a row. -/
def maxColK (res : FVec F S128x128 .f32) : FVec F S1x128 .f32 :=
  shapeCast S1x128 (multiReduction .maximumf [0] S128 res 0xFF800000#32 reduces_S128x128_S128_2 (.inl rfl) rfl) shapeCasts_S128_S1x128

/-- The mean of every column of a square matrix, as a row. -/
def meanColK (res : FVec F S128x128 .f32) : FVec F S1x128 .f32 :=
  divf
    (shapeCast S1x128 (multiReduction .add [0] S128 res 0x00000000#32 reduces_S128x128_S128_2 (.inl rfl) rfl) shapeCasts_S128_S1x128)
    (broadcast S1x128 (Scalar.ofBits .f32 0x43000000#32))

/-- The cosine matrix of the two sequences under perspective pi: both scaled by weight row pi. -/
def pwResK (v1 v2 : FVec F S128x100 .f32) (w : FVec F S20x100 .f32) (pi : Fin 20) (hs : S20x100.Slices ![pi.val, 0] S1x100) :
    FVec F S128x128 .f32 :=
  cosMatK (scaleRowsK v1 (wRowK w pi hs)) (scaleRowsK v2 (wRowK w pi hs))

/-- Under perspective pi, for each position of the first sequence, the largest cosine over the second. -/
def pwMaxRowK (v1 v2 : FVec F S128x100 .f32) (w : FVec F S20x100 .f32) (pi : Fin 20) (hs : S20x100.Slices ![pi.val, 0] S1x100) :
    FVec F S128x1 .f32 :=
  maxRowK (pwResK v1 v2 w pi hs)

/-- Under perspective pi, for each position of the first sequence, the mean cosine over the second. -/
def pwMeanRowK (v1 v2 : FVec F S128x100 .f32) (w : FVec F S20x100 .f32) (pi : Fin 20) (hs : S20x100.Slices ![pi.val, 0] S1x100) :
    FVec F S128x1 .f32 :=
  meanRowK (pwResK v1 v2 w pi hs)

/-- Under perspective pi, for each position of the second sequence, the largest cosine over the first. -/
def pwMaxColK (v1 v2 : FVec F S128x100 .f32) (w : FVec F S20x100 .f32) (pi : Fin 20) (hs : S20x100.Slices ![pi.val, 0] S1x100) :
    FVec F S1x128 .f32 :=
  maxColK (pwResK v1 v2 w pi hs)

/-- Under perspective pi, for each position of the second sequence, the mean cosine over the first. -/
def pwMeanColK (v1 v2 : FVec F S128x100 .f32) (w : FVec F S20x100 .f32) (pi : Fin 20) (hs : S20x100.Slices ![pi.val, 0] S1x100) :
    FVec F S1x128 .f32 :=
  meanColK (pwResK v1 v2 w pi hs)

/-- The first perspective's cosine matrix. -/
theorem pay50_eq (v4 v6 : FVec F S128x100 .f32) (v22 : FVec F S20x100 .f32) :
    k0_pay50 v4 v6 v22 = pwResK v4 v6 v22 0 slices_S20x100_o0_0_S1x100 := rfl

/-- The first perspective's row maxima. -/
theorem pay51_eq (v4 v6 : FVec F S128x100 .f32) (v22 : FVec F S20x100 .f32) :
    k0_pay51 v4 v6 v22 = pwMaxRowK v4 v6 v22 0 slices_S20x100_o0_0_S1x100 := rfl

/-- The first perspective's row means. -/
theorem pay52_eq (v4 v6 : FVec F S128x100 .f32) (v22 : FVec F S20x100 .f32) :
    k0_pay52 v4 v6 v22 = pwMeanRowK v4 v6 v22 0 slices_S20x100_o0_0_S1x100 := rfl

/-- The first perspective's column maxima. -/
theorem pay53_eq (v4 v6 : FVec F S128x100 .f32) (v22 : FVec F S20x100 .f32) :
    k0_pay53 v4 v6 v22 = pwMaxColK v4 v6 v22 0 slices_S20x100_o0_0_S1x100 := rfl

/-- The first perspective's column means. -/
theorem pay54_eq (v4 v6 : FVec F S128x100 .f32) (v22 : FVec F S20x100 .f32) :
    k0_pay54 v4 v6 v22 = pwMeanColK v4 v6 v22 0 slices_S20x100_o0_0_S1x100 := rfl

/-- The second perspective's row maxima, from its scaled second sequence, its inner products and the squares of its
    scaled first sequence. -/
theorem pay61_eq (v4 v6 : FVec F S128x100 .f32) (v22 : FVec F S20x100 .f32) :
    k0_pay61 (k0_pay57 v6 v22) (k0_pay58 v4 v6 v22) (k0_pay59 v4 v22) = pwMaxRowK v4 v6 v22 1 slices_S20x100_o1_0_S1x100 := rfl

/-- Twenty columns laid side by side: column p of the result is the p-th of them. -/
def cat20 (f : Fin 20 → FVec F S128x1 .f32) : FVec F S128x20 .f32 :=
  concatenate S128x20 1 [⟨S128x1, f 0⟩, ⟨S128x1, f 1⟩, ⟨S128x1, f 2⟩, ⟨S128x1, f 3⟩, ⟨S128x1, f 4⟩, ⟨S128x1, f 5⟩, ⟨S128x1, f 6⟩, ⟨S128x1, f 7⟩, ⟨S128x1, f 8⟩, ⟨S128x1, f 9⟩, ⟨S128x1, f 10⟩, ⟨S128x1, f 11⟩, ⟨S128x1, f 12⟩, ⟨S128x1, f 13⟩, ⟨S128x1, f 14⟩, ⟨S128x1, f 15⟩, ⟨S128x1, f 16⟩, ⟨S128x1, f 17⟩, ⟨S128x1, f 18⟩, ⟨S128x1, f 19⟩]
    concatenates_S128x1_S128x1_S128x1_S128x1_S128x1_S128x1_S128x1_S128x1_S128x1_S128x1_S128x1_S128x1_S128x1_S128x1_S128x1_S128x1_S128x1_S128x1_S128x1_S128x1_S128x20_d1

/-- Twenty rows stacked and the stack transposed: column p of the result is the p-th row. -/
def cat20T (g : Fin 20 → FVec F S1x128 .f32) : FVec F S128x20 .f32 :=
  transpose S128x20 [1, 0]
    (concatenate S20x128 0 [⟨S1x128, g 0⟩, ⟨S1x128, g 1⟩, ⟨S1x128, g 2⟩, ⟨S1x128, g 3⟩, ⟨S1x128, g 4⟩, ⟨S1x128, g 5⟩, ⟨S1x128, g 6⟩, ⟨S1x128, g 7⟩, ⟨S1x128, g 8⟩, ⟨S1x128, g 9⟩, ⟨S1x128, g 10⟩, ⟨S1x128, g 11⟩, ⟨S1x128, g 12⟩, ⟨S1x128, g 13⟩, ⟨S1x128, g 14⟩, ⟨S1x128, g 15⟩, ⟨S1x128, g 16⟩, ⟨S1x128, g 17⟩, ⟨S1x128, g 18⟩, ⟨S1x128, g 19⟩]
      concatenates_S1x128_S1x128_S1x128_S1x128_S1x128_S1x128_S1x128_S1x128_S1x128_S1x128_S1x128_S1x128_S1x128_S1x128_S1x128_S1x128_S1x128_S1x128_S1x128_S1x128_S20x128_d0)
    transposes_S20x128_p1_0_S128x20

/-- The last perspective's cosine matrix: its matrix of inner products over its matrix of norm products clipped
    at eps. -/
theorem pay190_eq (v4 v6 : FVec F S128x100 .f32) (v22 : FVec F S20x100 .f32) :
    k0_pay190 (k0_pay188 v4 v6 v22) (k0_pay189 v4 v6 v22) (Scalar.ofBits .f32 0x322BCC77#32)
      = pwResK v4 v6 v22 19 slices_S20x100_o19_0_S1x100 := rfl

/-- The joined row maxima: nineteen columns given, the twentieth taken from the last cosine matrix. -/
theorem pay191_eq (c0 c1 c2 c3 c4 c5 c6 c7 c8 c9 c10 c11 c12 c13 c14 c15 c16 c17 c18 : FVec F S128x1 .f32)
    (v930 v941 : FVec F S128x128 .f32) (cst : F .f32) :
    k0_pay191 c0 c1 c2 c3 c4 c5 c6 c7 c8 c9 c10 c11 c12 c13 c14 c15 c16 c17 c18 v930 v941 cst
      = cat20 ![c0, c1, c2, c3, c4, c5, c6, c7, c8, c9, c10, c11, c12, c13, c14, c15, c16, c17, c18, maxRowK (k0_pay190 v930 v941 cst)] := by
  show concatenate S128x20 1 [⟨S128x1, c0⟩, ⟨S128x1, c1⟩, ⟨S128x1, c2⟩, ⟨S128x1, c3⟩, ⟨S128x1, c4⟩, ⟨S128x1, c5⟩, ⟨S128x1, c6⟩, ⟨S128x1, c7⟩, ⟨S128x1, c8⟩, ⟨S128x1, c9⟩, ⟨S128x1, c10⟩, ⟨S128x1, c11⟩, ⟨S128x1, c12⟩, ⟨S128x1, c13⟩, ⟨S128x1, c14⟩, ⟨S128x1, c15⟩, ⟨S128x1, c16⟩, ⟨S128x1, c17⟩, ⟨S128x1, c18⟩, ⟨S128x1, maxRowK (k0_pay190 v930 v941 cst)⟩]
    concatenates_S128x1_S128x1_S128x1_S128x1_S128x1_S128x1_S128x1_S128x1_S128x1_S128x1_S128x1_S128x1_S128x1_S128x1_S128x1_S128x1_S128x1_S128x1_S128x1_S128x1_S128x20_d1 = _
  generalize maxRowK (k0_pay190 v930 v941 cst) = c19
  rfl

/-- The joined row means. -/
theorem pay192_eq (c0 c1 c2 c3 c4 c5 c6 c7 c8 c9 c10 c11 c12 c13 c14 c15 c16 c17 c18 : FVec F S128x1 .f32)
    (v930 v941 : FVec F S128x128 .f32) (cst : F .f32) :
    k0_pay192 c0 c1 c2 c3 c4 c5 c6 c7 c8 c9 c10 c11 c12 c13 c14 c15 c16 c17 c18 v930 v941 cst
      = cat20 ![c0, c1, c2, c3, c4, c5, c6, c7, c8, c9, c10, c11, c12, c13, c14, c15, c16, c17, c18, meanRowK (k0_pay190 v930 v941 cst)] := rfl

/-- The joined column maxima. -/
theorem pay193_eq (c0 c1 c2 c3 c4 c5 c6 c7 c8 c9 c10 c11 c12 c13 c14 c15 c16 c17 c18 : FVec F S1x128 .f32)
    (v930 v941 : FVec F S128x128 .f32) (cst : F .f32) :
    k0_pay193 c0 c1 c2 c3 c4 c5 c6 c7 c8 c9 c10 c11 c12 c13 c14 c15 c16 c17 c18 v930 v941 cst
      = cat20T ![c0, c1, c2, c3, c4, c5, c6, c7, c8, c9, c10, c11, c12, c13, c14, c15, c16, c17, c18, maxColK (k0_pay190 v930 v941 cst)] := by
  show transpose S128x20 [1, 0]
    (concatenate S20x128 0 [⟨S1x128, c0⟩, ⟨S1x128, c1⟩, ⟨S1x128, c2⟩, ⟨S1x128, c3⟩, ⟨S1x128, c4⟩, ⟨S1x128, c5⟩, ⟨S1x128, c6⟩, ⟨S1x128, c7⟩, ⟨S1x128, c8⟩, ⟨S1x128, c9⟩, ⟨S1x128, c10⟩, ⟨S1x128, c11⟩, ⟨S1x128, c12⟩, ⟨S1x128, c13⟩, ⟨S1x128, c14⟩, ⟨S1x128, c15⟩, ⟨S1x128, c16⟩, ⟨S1x128, c17⟩, ⟨S1x128, c18⟩, ⟨S1x128, maxColK (k0_pay190 v930 v941 cst)⟩]
      concatenates_S1x128_S1x128_S1x128_S1x128_S1x128_S1x128_S1x128_S1x128_S1x128_S1x128_S1x128_S1x128_S1x128_S1x128_S1x128_S1x128_S1x128_S1x128_S1x128_S1x128_S20x128_d0)
    transposes_S20x128_p1_0_S128x20 = _
  generalize maxColK (k0_pay190 v930 v941 cst) = c19
  rfl

/-- The joined column means. -/
theorem pay194_eq (c0 c1 c2 c3 c4 c5 c6 c7 c8 c9 c10 c11 c12 c13 c14 c15 c16 c17 c18 : FVec F S1x128 .f32)
    (v930 v941 : FVec F S128x128 .f32) (cst : F .f32) :
    k0_pay194 c0 c1 c2 c3 c4 c5 c6 c7 c8 c9 c10 c11 c12 c13 c14 c15 c16 c17 c18 v930 v941 cst
      = cat20T ![c0, c1, c2, c3, c4, c5, c6, c7, c8, c9, c10, c11, c12, c13, c14, c15, c16, c17, c18, meanColK (k0_pay190 v930 v941 cst)] := rfl

end Defs

/-- A vector's square root at an index is the square root of the entry. -/
private theorem sqrt_at {s : Shape} {φ : FTy} (a : FVec Ideal s φ) (i : s.Idx) : sqrt a i = Ideal.sqrt (a i) := rfl

/-- Entry h of the weight row is the weights' entry (pi, h). -/
theorem wRowK_apply (w : FVec Ideal S20x100 .f32) (pi : Fin 20) (hs : S20x100.Slices ![pi.val, 0] S1x100) (h : Fin 100) :
    wRowK w pi hs (ix1 h) = w (ix2 pi h) := by
  unfold wRowK
  rw [shapeCast_1a_a_apply]
  exact slice2_axis0_apply pi.val w hs (0 : Fin 1) h pi rfl

/-- Entry (i, h) of a scaled sequence is the sequence's entry times the weight. -/
theorem scaleRowsK_apply (v : FVec Ideal S128x100 .f32) (wp : FVec Ideal S100 .f32) (i : Fin 128) (h : Fin 100) :
    scaleRowsK v wp (ix2 i h) = v (ix2 i h) * wp (ix1 h) := by
  unfold scaleRowsK
  simp only [mulf_apply, broadcastTo_1b_ab_apply, shapeCast_a_1a_apply]

/-- The norm of row i. -/
theorem rowNormsK_apply (a : FVec Ideal S128x100 .f32) (i : Fin 128) :
    rowNormsK a (ix1 i) = nrm fun h => a (ix2 i h) := by
  unfold rowNormsK
  rw [sqrt_at]
  erw [multiReduction_add_rows]
  rfl

/-- Entry (i, j) of the cosine matrix is the cosine of row i of a with row j of b. -/
theorem cosMatK_apply (a b : FVec Ideal S128x100 .f32) (i j : Fin 128) :
    cosMatK a b (ix2 i j) = cosPair (fun h => a (ix2 i h)) (fun h => b (ix2 j h)) := by
  unfold cosMatK
  simp only [divf_apply, mulf_apply, maximumf_apply, broadcast_apply]
  rw [matmul_rowsT_apply, broadcastTo_a1_ab_apply, shapeCast_a_a1_apply, broadcastTo_1b_ab_apply, shapeCast_a_1a_apply,
    rowNormsK_apply, rowNormsK_apply]
  have e : ∀ k : Fin 100, transpose S100x128 [1, 0] b transposes_S128x100_p1_0_S100x128 (ix2 k j) = b (ix2 j k) :=
    fun k => transpose_ix2_apply b transposes_S128x100_p1_0_S100x128 k j
  simp only [e]
  rfl

/-- The largest entry of row i. -/
theorem maxRowK_apply (res : FVec Ideal S128x128 .f32) (i : Fin 128) (u : Fin 1) :
    maxRowK res (ix2 i u) = fmax fun j => res (ix2 i j) := by
  unfold maxRowK
  rw [shapeCast_a_a1_apply]
  erw [multiReduction_max_rows]
  rfl

/-- The mean of row i. -/
theorem meanRowK_apply (res : FVec Ideal S128x128 .f32) (i : Fin 128) (u : Fin 1) :
    meanRowK res (ix2 i u) = fmean fun j => res (ix2 i j) := by
  unfold meanRowK
  rw [divf_apply, broadcast_apply, shapeCast_a_a1_apply]
  erw [multiReduction_add_rows]
  rfl

/-- The largest entry of column j. -/
theorem maxColK_apply (res : FVec Ideal S128x128 .f32) (u : Fin 1) (j : Fin 128) :
    maxColK res (ix2 u j) = fmax fun i => res (ix2 i j) := by
  unfold maxColK
  rw [shapeCast_a_1a_apply]
  erw [multiReduction_max_cols]
  rfl

/-- The mean of column j. -/
theorem meanColK_apply (res : FVec Ideal S128x128 .f32) (u : Fin 1) (j : Fin 128) :
    meanColK res (ix2 u j) = fmean fun i => res (ix2 i j) := by
  unfold meanColK
  rw [divf_apply, broadcast_apply, shapeCast_a_1a_apply]
  erw [multiReduction_add_cols]
  rfl

/-- Row i of a sequence scaled by weight row pi is that row scaled entrywise by the weights. -/
theorem scaleRowsK_wRowK_row (v : FVec Ideal S128x100 .f32) (w : FVec Ideal S20x100 .f32) (pi : Fin 20)
    (hs : S20x100.Slices ![pi.val, 0] S1x100) (i : Fin 128) :
    (fun h => scaleRowsK v (wRowK w pi hs) (ix2 i h)) = wmul (fun h => w (ix2 pi h)) (fun h => v (ix2 i h)) := by
  funext h
  rw [scaleRowsK_apply, wRowK_apply]
  exact mul_comm _ _

/-- Entry (i, j) of perspective pi's matrix: the cosine of row i of the first sequence with row j of the second,
    both scaled by the perspective's weights, the product of the norms clipped at eps. -/
theorem pwResK_apply (v1 v2 : FVec Ideal S128x100 .f32) (w : FVec Ideal S20x100 .f32) (pi : Fin 20)
    (hs : S20x100.Slices ![pi.val, 0] S1x100) (i j : Fin 128) :
    pwResK v1 v2 w pi hs (ix2 i j)
      = cosPair (wmul (fun h => w (ix2 pi h)) (fun h => v1 (ix2 i h))) (wmul (fun h => w (ix2 pi h)) (fun h => v2 (ix2 j h))) := by
  unfold pwResK
  rw [cosMatK_apply, scaleRowsK_wRowK_row, scaleRowsK_wRowK_row]

/-- At position i of the first sequence: the largest of the perspective's cosines over the second sequence. -/
theorem pwMaxRowK_apply (v1 v2 : FVec Ideal S128x100 .f32) (w : FVec Ideal S20x100 .f32) (pi : Fin 20)
    (hs : S20x100.Slices ![pi.val, 0] S1x100) (i : Fin 128) (u : Fin 1) :
    pwMaxRowK v1 v2 w pi hs (ix2 i u)
      = fmax fun j => cosPair (wmul (fun h => w (ix2 pi h)) (fun h => v1 (ix2 i h))) (wmul (fun h => w (ix2 pi h)) (fun h => v2 (ix2 j h))) := by
  unfold pwMaxRowK
  rw [maxRowK_apply]
  exact congrArg fmax (funext fun j => pwResK_apply v1 v2 w pi hs i j)

/-- At position i of the first sequence: the mean of the perspective's cosines over the second sequence. -/
theorem pwMeanRowK_apply (v1 v2 : FVec Ideal S128x100 .f32) (w : FVec Ideal S20x100 .f32) (pi : Fin 20)
    (hs : S20x100.Slices ![pi.val, 0] S1x100) (i : Fin 128) (u : Fin 1) :
    pwMeanRowK v1 v2 w pi hs (ix2 i u)
      = fmean fun j => cosPair (wmul (fun h => w (ix2 pi h)) (fun h => v1 (ix2 i h))) (wmul (fun h => w (ix2 pi h)) (fun h => v2 (ix2 j h))) := by
  unfold pwMeanRowK
  rw [meanRowK_apply]
  exact congrArg fmean (funext fun j => pwResK_apply v1 v2 w pi hs i j)

/-- At position j of the second sequence: the largest of the perspective's cosines over the first sequence. -/
theorem pwMaxColK_apply (v1 v2 : FVec Ideal S128x100 .f32) (w : FVec Ideal S20x100 .f32) (pi : Fin 20)
    (hs : S20x100.Slices ![pi.val, 0] S1x100) (u : Fin 1) (j : Fin 128) :
    pwMaxColK v1 v2 w pi hs (ix2 u j)
      = fmax fun i => cosPair (wmul (fun h => w (ix2 pi h)) (fun h => v1 (ix2 i h))) (wmul (fun h => w (ix2 pi h)) (fun h => v2 (ix2 j h))) := by
  unfold pwMaxColK
  rw [maxColK_apply]
  exact congrArg fmax (funext fun i => pwResK_apply v1 v2 w pi hs i j)

/-- At position j of the second sequence: the mean of the perspective's cosines over the first sequence. -/
theorem pwMeanColK_apply (v1 v2 : FVec Ideal S128x100 .f32) (w : FVec Ideal S20x100 .f32) (pi : Fin 20)
    (hs : S20x100.Slices ![pi.val, 0] S1x100) (u : Fin 1) (j : Fin 128) :
    pwMeanColK v1 v2 w pi hs (ix2 u j)
      = fmean fun i => cosPair (wmul (fun h => w (ix2 pi h)) (fun h => v1 (ix2 i h))) (wmul (fun h => w (ix2 pi h)) (fun h => v2 (ix2 j h))) := by
  unfold pwMeanColK
  rw [meanColK_apply]
  exact congrArg fmean (funext fun i => pwResK_apply v1 v2 w pi hs i j)

/-- Entry (l, p) of the joined columns is entry l of column p. -/
theorem cat20_apply (f : Fin 20 → FVec Ideal S128x1 .f32) (l : Fin 128) (p : Fin 20) :
    cat20 f (ix2 l p) = f p (ix2 l 0) := by
  unfold cat20
  refine concatenate_ofFn_unit_apply (t := S128x20) (s₁ := S128x1) 1 f
    concatenates_S128x1_S128x1_S128x1_S128x1_S128x1_S128x1_S128x1_S128x1_S128x1_S128x1_S128x1_S128x1_S128x1_S128x1_S128x1_S128x1_S128x1_S128x1_S128x1_S128x1_S128x20_d1
    rfl rfl (ix2 l p) p rfl (ix2 l 0) fun b hb => ?_
  match b with
  | ⟨0, _⟩ => rfl
  | ⟨1, _⟩ => exact absurd rfl hb

/-- Entry (l, p) of the transposed stack is entry l of row p. -/
theorem cat20T_apply (g : Fin 20 → FVec Ideal S1x128 .f32) (l : Fin 128) (p : Fin 20) :
    cat20T g (ix2 l p) = g p (ix2 0 l) := by
  unfold cat20T
  rw [transpose_ix2_apply]
  refine concatenate_ofFn_unit_apply (t := S20x128) (s₁ := S1x128) 0 g
    concatenates_S1x128_S1x128_S1x128_S1x128_S1x128_S1x128_S1x128_S1x128_S1x128_S1x128_S1x128_S1x128_S1x128_S1x128_S1x128_S1x128_S1x128_S1x128_S1x128_S1x128_S20x128_d0
    rfl rfl (ix2 p l) p rfl (ix2 0 l) fun b hb => ?_
  match b with
  | ⟨0, _⟩ => exact absurd rfl hb
  | ⟨1, _⟩ => rfl

end Cert.Mpm
end
-- ==== Proof.Mpm.KOut.lean ====
/-
  Each stored segment of the two output blocks, read at an index, as the quantity the specification names.
  An output row of 210 columns is twenty segments laid side by side. Reading a block at (0, l, c) goes through
  the one store that covers the whole buffer, the cast that adds the leading unit axis, and the concatenation,
  which is located at the segment holding column c. What is left is one of the kernel's matching pieces at
  (l, p), already read as a formula over its operand rows; the operand rows are the input blocks' rows.
-/
import proofs.«116293_j48241072668683_2_alg».proof.Proof.Gen.KernelIdeal.Frame
import proofs.«116293_j48241072668683_2_alg».proof.Proof.Mpm.KIn
import proofs.«116293_j48241072668683_2_alg».proof.Proof.Mpm.KVec
import proofs.«116293_j48241072668683_2_alg».proof.Proof.Mpm.KCos
import proofs.«116293_j48241072668683_2_alg».proof.Proof.Mpm.KGen
import proofs.«116293_j48241072668683_2_alg».proof.Proof.Mpm.KAtt
import proofs.«116293_j48241072668683_2_alg».proof.Proof.Mpm.KPair
import proofs.«116293_j48241072668683_2_alg».proof.Proof.Mpm.Spec

set_option pp.maxSteps 5000
set_option pp.deepTerms false

noncomputable section

namespace Cert.Mpm

open Idealize.ShloMosaic Idealize.ShloMosaic.ValueIdx Cert.KernelIdeal Cert.KernelIdeal.Gen
open scoped BigOperators

/-! ## Locating a column in a row of segments -/

/-- The shapes of the twenty segments of an output row, in storage order. -/
def segShapes : List Shape :=
  [S128x1, S128x1, S128x1, S128x1, S128x1, S128x20, S128x1, S128x20, S128x20, S128x20,
   S128x20, S128x20, S128x1, S128x20, S128x1, S128x20, S128x1, S128x20, S128x1, S128x20]

/-- Matrices laid side by side, read at (l, c): the piece k whose columns start at pre, read at (l, c - pre).
    The start is the sum of the widths of the pieces before it, a fact about the shapes alone. -/
theorem concat_cols_apply {α : Type} {a N : ℕ} (xs : List ((s : Shape) × (s.Idx → α)))
    (h : Shape.Concatenates (xs.map (·.1)) ⟨2, ![a, N]⟩ 1) (l : Fin a) (c : Fin N)
    (k n : ℕ) (x₁ : (⟨2, ![a, n]⟩ : Shape).Idx → α) (hxk : xs[k]? = some ⟨⟨2, ![a, n]⟩, x₁⟩)
    (shapes : List Shape) (hsh : xs.map (·.1) = shapes) (pre : ℕ)
    (hpre : ((shapes.take k).map fun s => if h : s.rank = 2 then s.size ((1 : Fin 2).cast h.symm) else 0).sum = pre)
    (q : Fin n) (hc : pre + q.val = c.val) :
    concatenate ⟨2, ![a, N]⟩ 1 xs h (ix2 l c) = x₁ (ix2 l q) := by
  obtain ⟨hk, hx⟩ := List.getElem?_eq_some_iff.mp hxk
  refine concatenate_apply_piece 1 xs h (ix2 l c) k hk ⟨2, ![a, n]⟩ x₁ hx rfl pre ?_ (ix2 l q) (fun b hb => ?_) hc
  · rw [List.map_take, hsh]; exact hpre
  · match b, hb with
    | ⟨0, _⟩, _ => rfl
    | ⟨1, _⟩, hb => exact absurd (Fin.ext rfl) hb

section Loc
variable {F : FTy → Type} [FloatOps F]

/-! ### The premise's row: twenty segments, two of them (the backward cosine's row maximum and mean) made in place -/

section Loc1
variable (v64 : FVec F S128x128 .f32) (v83 : FVec F S128x1 .f32) (v107 : FVec F S128x20 .f32) (v126 : FVec F S128x1 .f32)
  (v150 v957 v958 v1683 v1684 : FVec F S128x20 .f32) (v1733 : FVec F S128x1 .f32) (v1751 : FVec F S128x20 .f32)
  (v1766 : FVec F S128x1 .f32) (v1784 : FVec F S128x20 .f32) (v2013 : FVec F S128x1 .f32) (v2031 : FVec F S128x20 .f32)
  (v2046 : FVec F S128x1 .f32) (v2064 : FVec F S128x20 .f32) (v2132 v2136 : FVec F S128x1 .f32)

/-- Column 0 is the first one-column piece. -/
theorem pay1_c0 (l : Fin 128) :
    k0_pay1 v64 v83 v107 v126 v150 v957 v958 v1683 v1684 v1733 v1751 v1766 v1784 v2013 v2031 v2046 v2064 v2132 v2136
      (ix2 l (⟨0, by omega⟩ : Fin 210)) = v2132 (ix2 l (0 : Fin 1)) := by
  unfold k0_pay1
  exact concat_cols_apply _ _ l _ 0 1 v2132 rfl segShapes rfl 0 (by decide) 0 rfl
/-- Column 1 is the second one-column piece. -/
theorem pay1_c1 (l : Fin 128) :
    k0_pay1 v64 v83 v107 v126 v150 v957 v958 v1683 v1684 v1733 v1751 v1766 v1784 v2013 v2031 v2046 v2064 v2132 v2136
      (ix2 l (⟨1, by omega⟩ : Fin 210)) = v2136 (ix2 l (0 : Fin 1)) := by
  unfold k0_pay1
  exact concat_cols_apply _ _ l _ 1 1 v2136 rfl segShapes rfl 1 (by decide) 0 rfl
/-- Column 2 is the row maximum of the backward cosine matrix. -/
theorem pay1_c2 (l : Fin 128) :
    k0_pay1 v64 v83 v107 v126 v150 v957 v958 v1683 v1684 v1733 v1751 v1766 v1784 v2013 v2031 v2046 v2064 v2132 v2136
      (ix2 l (⟨2, by omega⟩ : Fin 210)) = rowMaxK v64 (ix2 l (0 : Fin 1)) := by
  unfold k0_pay1
  exact concat_cols_apply _ _ l _ 2 1 (rowMaxK v64) rfl segShapes rfl 2 (by decide) 0 rfl
/-- Column 3 is the row mean of the backward cosine matrix. -/
theorem pay1_c3 (l : Fin 128) :
    k0_pay1 v64 v83 v107 v126 v150 v957 v958 v1683 v1684 v1733 v1751 v1766 v1784 v2013 v2031 v2046 v2064 v2132 v2136
      (ix2 l (⟨3, by omega⟩ : Fin 210)) = rowMeanK v64 (ix2 l (0 : Fin 1)) := by
  unfold k0_pay1
  exact concat_cols_apply _ _ l _ 3 1 (rowMeanK v64) rfl segShapes rfl 3 (by decide) 0 rfl
/-- Column 4. -/
theorem pay1_c4 (l : Fin 128) :
    k0_pay1 v64 v83 v107 v126 v150 v957 v958 v1683 v1684 v1733 v1751 v1766 v1784 v2013 v2031 v2046 v2064 v2132 v2136
      (ix2 l (⟨4, by omega⟩ : Fin 210)) = v83 (ix2 l (0 : Fin 1)) := by
  unfold k0_pay1
  exact concat_cols_apply _ _ l _ 4 1 v83 rfl segShapes rfl 4 (by decide) 0 rfl
/-- Columns 5 .. 24. -/
theorem pay1_w5 (l : Fin 128) (p : Fin 20) :
    k0_pay1 v64 v83 v107 v126 v150 v957 v958 v1683 v1684 v1733 v1751 v1766 v1784 v2013 v2031 v2046 v2064 v2132 v2136
      (ix2 l (⟨5 + p.val, by omega⟩ : Fin 210)) = v107 (ix2 l p) := by
  unfold k0_pay1
  exact concat_cols_apply _ _ l _ 5 20 v107 rfl segShapes rfl 5 (by decide) p rfl
/-- Column 25. -/
theorem pay1_c25 (l : Fin 128) :
    k0_pay1 v64 v83 v107 v126 v150 v957 v958 v1683 v1684 v1733 v1751 v1766 v1784 v2013 v2031 v2046 v2064 v2132 v2136
      (ix2 l (⟨25, by omega⟩ : Fin 210)) = v126 (ix2 l (0 : Fin 1)) := by
  unfold k0_pay1
  exact concat_cols_apply _ _ l _ 6 1 v126 rfl segShapes rfl 25 (by decide) 0 rfl
/-- Columns 26 .. 45. -/
theorem pay1_w26 (l : Fin 128) (p : Fin 20) :
    k0_pay1 v64 v83 v107 v126 v150 v957 v958 v1683 v1684 v1733 v1751 v1766 v1784 v2013 v2031 v2046 v2064 v2132 v2136
      (ix2 l (⟨26 + p.val, by omega⟩ : Fin 210)) = v150 (ix2 l p) := by
  unfold k0_pay1
  exact concat_cols_apply _ _ l _ 7 20 v150 rfl segShapes rfl 26 (by decide) p rfl
/-- Columns 46 .. 65. -/
theorem pay1_w46 (l : Fin 128) (p : Fin 20) :
    k0_pay1 v64 v83 v107 v126 v150 v957 v958 v1683 v1684 v1733 v1751 v1766 v1784 v2013 v2031 v2046 v2064 v2132 v2136
      (ix2 l (⟨46 + p.val, by omega⟩ : Fin 210)) = v957 (ix2 l p) := by
  unfold k0_pay1
  exact concat_cols_apply _ _ l _ 8 20 v957 rfl segShapes rfl 46 (by decide) p rfl
/-- Columns 66 .. 85. -/
theorem pay1_w66 (l : Fin 128) (p : Fin 20) :
    k0_pay1 v64 v83 v107 v126 v150 v957 v958 v1683 v1684 v1733 v1751 v1766 v1784 v2013 v2031 v2046 v2064 v2132 v2136
      (ix2 l (⟨66 + p.val, by omega⟩ : Fin 210)) = v958 (ix2 l p) := by
  unfold k0_pay1
  exact concat_cols_apply _ _ l _ 9 20 v958 rfl segShapes rfl 66 (by decide) p rfl
/-- Columns 86 .. 105. -/
theorem pay1_w86 (l : Fin 128) (p : Fin 20) :
    k0_pay1 v64 v83 v107 v126 v150 v957 v958 v1683 v1684 v1733 v1751 v1766 v1784 v2013 v2031 v2046 v2064 v2132 v2136
      (ix2 l (⟨86 + p.val, by omega⟩ : Fin 210)) = v1683 (ix2 l p) := by
  unfold k0_pay1
  exact concat_cols_apply _ _ l _ 10 20 v1683 rfl segShapes rfl 86 (by decide) p rfl
/-- Columns 106 .. 125. -/
theorem pay1_w106 (l : Fin 128) (p : Fin 20) :
    k0_pay1 v64 v83 v107 v126 v150 v957 v958 v1683 v1684 v1733 v1751 v1766 v1784 v2013 v2031 v2046 v2064 v2132 v2136
      (ix2 l (⟨106 + p.val, by omega⟩ : Fin 210)) = v1684 (ix2 l p) := by
  unfold k0_pay1
  exact concat_cols_apply _ _ l _ 11 20 v1684 rfl segShapes rfl 106 (by decide) p rfl
/-- Column 126. -/
theorem pay1_c126 (l : Fin 128) :
    k0_pay1 v64 v83 v107 v126 v150 v957 v958 v1683 v1684 v1733 v1751 v1766 v1784 v2013 v2031 v2046 v2064 v2132 v2136
      (ix2 l (⟨126, by omega⟩ : Fin 210)) = v1733 (ix2 l (0 : Fin 1)) := by
  unfold k0_pay1
  exact concat_cols_apply _ _ l _ 12 1 v1733 rfl segShapes rfl 126 (by decide) 0 rfl
/-- Columns 127 .. 146. -/
theorem pay1_w127 (l : Fin 128) (p : Fin 20) :
    k0_pay1 v64 v83 v107 v126 v150 v957 v958 v1683 v1684 v1733 v1751 v1766 v1784 v2013 v2031 v2046 v2064 v2132 v2136
      (ix2 l (⟨127 + p.val, by omega⟩ : Fin 210)) = v1751 (ix2 l p) := by
  unfold k0_pay1
  exact concat_cols_apply _ _ l _ 13 20 v1751 rfl segShapes rfl 127 (by decide) p rfl
/-- Column 147. -/
theorem pay1_c147 (l : Fin 128) :
    k0_pay1 v64 v83 v107 v126 v150 v957 v958 v1683 v1684 v1733 v1751 v1766 v1784 v2013 v2031 v2046 v2064 v2132 v2136
      (ix2 l (⟨147, by omega⟩ : Fin 210)) = v1766 (ix2 l (0 : Fin 1)) := by
  unfold k0_pay1
  exact concat_cols_apply _ _ l _ 14 1 v1766 rfl segShapes rfl 147 (by decide) 0 rfl
/-- Columns 148 .. 167. -/
theorem pay1_w148 (l : Fin 128) (p : Fin 20) :
    k0_pay1 v64 v83 v107 v126 v150 v957 v958 v1683 v1684 v1733 v1751 v1766 v1784 v2013 v2031 v2046 v2064 v2132 v2136
      (ix2 l (⟨148 + p.val, by omega⟩ : Fin 210)) = v1784 (ix2 l p) := by
  unfold k0_pay1
  exact concat_cols_apply _ _ l _ 15 20 v1784 rfl segShapes rfl 148 (by decide) p rfl
/-- Column 168. -/
theorem pay1_c168 (l : Fin 128) :
    k0_pay1 v64 v83 v107 v126 v150 v957 v958 v1683 v1684 v1733 v1751 v1766 v1784 v2013 v2031 v2046 v2064 v2132 v2136
      (ix2 l (⟨168, by omega⟩ : Fin 210)) = v2013 (ix2 l (0 : Fin 1)) := by
  unfold k0_pay1
  exact concat_cols_apply _ _ l _ 16 1 v2013 rfl segShapes rfl 168 (by decide) 0 rfl
/-- Columns 169 .. 188. -/
theorem pay1_w169 (l : Fin 128) (p : Fin 20) :
    k0_pay1 v64 v83 v107 v126 v150 v957 v958 v1683 v1684 v1733 v1751 v1766 v1784 v2013 v2031 v2046 v2064 v2132 v2136
      (ix2 l (⟨169 + p.val, by omega⟩ : Fin 210)) = v2031 (ix2 l p) := by
  unfold k0_pay1
  exact concat_cols_apply _ _ l _ 17 20 v2031 rfl segShapes rfl 169 (by decide) p rfl
/-- Column 189. -/
theorem pay1_c189 (l : Fin 128) :
    k0_pay1 v64 v83 v107 v126 v150 v957 v958 v1683 v1684 v1733 v1751 v1766 v1784 v2013 v2031 v2046 v2064 v2132 v2136
      (ix2 l (⟨189, by omega⟩ : Fin 210)) = v2046 (ix2 l (0 : Fin 1)) := by
  unfold k0_pay1
  exact concat_cols_apply _ _ l _ 18 1 v2046 rfl segShapes rfl 189 (by decide) 0 rfl
/-- Columns 190 .. 209. -/
theorem pay1_w190 (l : Fin 128) (p : Fin 20) :
    k0_pay1 v64 v83 v107 v126 v150 v957 v958 v1683 v1684 v1733 v1751 v1766 v1784 v2013 v2031 v2046 v2064 v2132 v2136
      (ix2 l (⟨190 + p.val, by omega⟩ : Fin 210)) = v2064 (ix2 l p) := by
  unfold k0_pay1
  exact concat_cols_apply _ _ l _ 19 20 v2064 rfl segShapes rfl 190 (by decide) p rfl

end Loc1

/-! ### The hypothesis's row: twenty segments, four of them (both cosines' column maxima and means) made in place -/

section Loc2
variable (v48 v64 : FVec F S128x128 .f32) (v169 : FVec F S128x1 .f32) (v193 : FVec F S128x20 .f32) (v212 : FVec F S128x1 .f32)
  (v236 v960 v962 v1686 v1688 : FVec F S128x20 .f32) (v1799 : FVec F S128x1 .f32) (v1817 : FVec F S128x20 .f32)
  (v1832 : FVec F S128x1 .f32) (v1850 : FVec F S128x20 .f32) (v2079 : FVec F S128x1 .f32) (v2097 : FVec F S128x20 .f32)
  (v2112 : FVec F S128x1 .f32) (v2130 : FVec F S128x20 .f32)

/-- Column 0 is the column maximum of the forward cosine matrix. -/
theorem pay2_c0 (l : Fin 128) :
    k0_pay2 v48 v64 v169 v193 v212 v236 v960 v962 v1686 v1688 v1799 v1817 v1832 v1850 v2079 v2097 v2112 v2130
      (ix2 l (⟨0, by omega⟩ : Fin 210)) = colMaxK v48 (ix2 l (0 : Fin 1)) := by
  unfold k0_pay2
  exact concat_cols_apply _ _ l _ 0 1 (colMaxK v48) rfl segShapes rfl 0 (by decide) 0 rfl
/-- Column 1 is the column mean of the forward cosine matrix. -/
theorem pay2_c1 (l : Fin 128) :
    k0_pay2 v48 v64 v169 v193 v212 v236 v960 v962 v1686 v1688 v1799 v1817 v1832 v1850 v2079 v2097 v2112 v2130
      (ix2 l (⟨1, by omega⟩ : Fin 210)) = colMeanK v48 (ix2 l (0 : Fin 1)) := by
  unfold k0_pay2
  exact concat_cols_apply _ _ l _ 1 1 (colMeanK v48) rfl segShapes rfl 1 (by decide) 0 rfl
/-- Column 2 is the column maximum of the backward cosine matrix. -/
theorem pay2_c2 (l : Fin 128) :
    k0_pay2 v48 v64 v169 v193 v212 v236 v960 v962 v1686 v1688 v1799 v1817 v1832 v1850 v2079 v2097 v2112 v2130
      (ix2 l (⟨2, by omega⟩ : Fin 210)) = colMaxK v64 (ix2 l (0 : Fin 1)) := by
  unfold k0_pay2
  exact concat_cols_apply _ _ l _ 2 1 (colMaxK v64) rfl segShapes rfl 2 (by decide) 0 rfl
/-- Column 3 is the column mean of the backward cosine matrix. -/
theorem pay2_c3 (l : Fin 128) :
    k0_pay2 v48 v64 v169 v193 v212 v236 v960 v962 v1686 v1688 v1799 v1817 v1832 v1850 v2079 v2097 v2112 v2130
      (ix2 l (⟨3, by omega⟩ : Fin 210)) = colMeanK v64 (ix2 l (0 : Fin 1)) := by
  unfold k0_pay2
  exact concat_cols_apply _ _ l _ 3 1 (colMeanK v64) rfl segShapes rfl 3 (by decide) 0 rfl
/-- Column 4. -/
theorem pay2_c4 (l : Fin 128) :
    k0_pay2 v48 v64 v169 v193 v212 v236 v960 v962 v1686 v1688 v1799 v1817 v1832 v1850 v2079 v2097 v2112 v2130
      (ix2 l (⟨4, by omega⟩ : Fin 210)) = v169 (ix2 l (0 : Fin 1)) := by
  unfold k0_pay2
  exact concat_cols_apply _ _ l _ 4 1 v169 rfl segShapes rfl 4 (by decide) 0 rfl
/-- Columns 5 .. 24. -/
theorem pay2_w5 (l : Fin 128) (p : Fin 20) :
    k0_pay2 v48 v64 v169 v193 v212 v236 v960 v962 v1686 v1688 v1799 v1817 v1832 v1850 v2079 v2097 v2112 v2130
      (ix2 l (⟨5 + p.val, by omega⟩ : Fin 210)) = v193 (ix2 l p) := by
  unfold k0_pay2
  exact concat_cols_apply _ _ l _ 5 20 v193 rfl segShapes rfl 5 (by decide) p rfl
/-- Column 25. -/
theorem pay2_c25 (l : Fin 128) :
    k0_pay2 v48 v64 v169 v193 v212 v236 v960 v962 v1686 v1688 v1799 v1817 v1832 v1850 v2079 v2097 v2112 v2130
      (ix2 l (⟨25, by omega⟩ : Fin 210)) = v212 (ix2 l (0 : Fin 1)) := by
  unfold k0_pay2
  exact concat_cols_apply _ _ l _ 6 1 v212 rfl segShapes rfl 25 (by decide) 0 rfl
/-- Columns 26 .. 45. -/
theorem pay2_w26 (l : Fin 128) (p : Fin 20) :
    k0_pay2 v48 v64 v169 v193 v212 v236 v960 v962 v1686 v1688 v1799 v1817 v1832 v1850 v2079 v2097 v2112 v2130
      (ix2 l (⟨26 + p.val, by omega⟩ : Fin 210)) = v236 (ix2 l p) := by
  unfold k0_pay2
  exact concat_cols_apply _ _ l _ 7 20 v236 rfl segShapes rfl 26 (by decide) p rfl
/-- Columns 46 .. 65. -/
theorem pay2_w46 (l : Fin 128) (p : Fin 20) :
    k0_pay2 v48 v64 v169 v193 v212 v236 v960 v962 v1686 v1688 v1799 v1817 v1832 v1850 v2079 v2097 v2112 v2130
      (ix2 l (⟨46 + p.val, by omega⟩ : Fin 210)) = v960 (ix2 l p) := by
  unfold k0_pay2
  exact concat_cols_apply _ _ l _ 8 20 v960 rfl segShapes rfl 46 (by decide) p rfl
/-- Columns 66 .. 85. -/
theorem pay2_w66 (l : Fin 128) (p : Fin 20) :
    k0_pay2 v48 v64 v169 v193 v212 v236 v960 v962 v1686 v1688 v1799 v1817 v1832 v1850 v2079 v2097 v2112 v2130
      (ix2 l (⟨66 + p.val, by omega⟩ : Fin 210)) = v962 (ix2 l p) := by
  unfold k0_pay2
  exact concat_cols_apply _ _ l _ 9 20 v962 rfl segShapes rfl 66 (by decide) p rfl
/-- Columns 86 .. 105. -/
theorem pay2_w86 (l : Fin 128) (p : Fin 20) :
    k0_pay2 v48 v64 v169 v193 v212 v236 v960 v962 v1686 v1688 v1799 v1817 v1832 v1850 v2079 v2097 v2112 v2130
      (ix2 l (⟨86 + p.val, by omega⟩ : Fin 210)) = v1686 (ix2 l p) := by
  unfold k0_pay2
  exact concat_cols_apply _ _ l _ 10 20 v1686 rfl segShapes rfl 86 (by decide) p rfl
/-- Columns 106 .. 125. -/
theorem pay2_w106 (l : Fin 128) (p : Fin 20) :
    k0_pay2 v48 v64 v169 v193 v212 v236 v960 v962 v1686 v1688 v1799 v1817 v1832 v1850 v2079 v2097 v2112 v2130
      (ix2 l (⟨106 + p.val, by omega⟩ : Fin 210)) = v1688 (ix2 l p) := by
  unfold k0_pay2
  exact concat_cols_apply _ _ l _ 11 20 v1688 rfl segShapes rfl 106 (by decide) p rfl
/-- Column 126. -/
theorem pay2_c126 (l : Fin 128) :
    k0_pay2 v48 v64 v169 v193 v212 v236 v960 v962 v1686 v1688 v1799 v1817 v1832 v1850 v2079 v2097 v2112 v2130
      (ix2 l (⟨126, by omega⟩ : Fin 210)) = v1799 (ix2 l (0 : Fin 1)) := by
  unfold k0_pay2
  exact concat_cols_apply _ _ l _ 12 1 v1799 rfl segShapes rfl 126 (by decide) 0 rfl
/-- Columns 127 .. 146. -/
theorem pay2_w127 (l : Fin 128) (p : Fin 20) :
    k0_pay2 v48 v64 v169 v193 v212 v236 v960 v962 v1686 v1688 v1799 v1817 v1832 v1850 v2079 v2097 v2112 v2130
      (ix2 l (⟨127 + p.val, by omega⟩ : Fin 210)) = v1817 (ix2 l p) := by
  unfold k0_pay2
  exact concat_cols_apply _ _ l _ 13 20 v1817 rfl segShapes rfl 127 (by decide) p rfl
/-- Column 147. -/
theorem pay2_c147 (l : Fin 128) :
    k0_pay2 v48 v64 v169 v193 v212 v236 v960 v962 v1686 v1688 v1799 v1817 v1832 v1850 v2079 v2097 v2112 v2130
      (ix2 l (⟨147, by omega⟩ : Fin 210)) = v1832 (ix2 l (0 : Fin 1)) := by
  unfold k0_pay2
  exact concat_cols_apply _ _ l _ 14 1 v1832 rfl segShapes rfl 147 (by decide) 0 rfl
/-- Columns 148 .. 167. -/
theorem pay2_w148 (l : Fin 128) (p : Fin 20) :
    k0_pay2 v48 v64 v169 v193 v212 v236 v960 v962 v1686 v1688 v1799 v1817 v1832 v1850 v2079 v2097 v2112 v2130
      (ix2 l (⟨148 + p.val, by omega⟩ : Fin 210)) = v1850 (ix2 l p) := by
  unfold k0_pay2
  exact concat_cols_apply _ _ l _ 15 20 v1850 rfl segShapes rfl 148 (by decide) p rfl
/-- Column 168. -/
theorem pay2_c168 (l : Fin 128) :
    k0_pay2 v48 v64 v169 v193 v212 v236 v960 v962 v1686 v1688 v1799 v1817 v1832 v1850 v2079 v2097 v2112 v2130
      (ix2 l (⟨168, by omega⟩ : Fin 210)) = v2079 (ix2 l (0 : Fin 1)) := by
  unfold k0_pay2
  exact concat_cols_apply _ _ l _ 16 1 v2079 rfl segShapes rfl 168 (by decide) 0 rfl
/-- Columns 169 .. 188. -/
theorem pay2_w169 (l : Fin 128) (p : Fin 20) :
    k0_pay2 v48 v64 v169 v193 v212 v236 v960 v962 v1686 v1688 v1799 v1817 v1832 v1850 v2079 v2097 v2112 v2130
      (ix2 l (⟨169 + p.val, by omega⟩ : Fin 210)) = v2097 (ix2 l p) := by
  unfold k0_pay2
  exact concat_cols_apply _ _ l _ 17 20 v2097 rfl segShapes rfl 169 (by decide) p rfl
/-- Column 189. -/
theorem pay2_c189 (l : Fin 128) :
    k0_pay2 v48 v64 v169 v193 v212 v236 v960 v962 v1686 v1688 v1799 v1817 v1832 v1850 v2079 v2097 v2112 v2130
      (ix2 l (⟨189, by omega⟩ : Fin 210)) = v2112 (ix2 l (0 : Fin 1)) := by
  unfold k0_pay2
  exact concat_cols_apply _ _ l _ 18 1 v2112 rfl segShapes rfl 189 (by decide) 0 rfl
/-- Columns 190 .. 209. -/
theorem pay2_w190 (l : Fin 128) (p : Fin 20) :
    k0_pay2 v48 v64 v169 v193 v212 v236 v960 v962 v1686 v1688 v1799 v1817 v1832 v1850 v2079 v2097 v2112 v2130
      (ix2 l (⟨190 + p.val, by omega⟩ : Fin 210)) = v2130 (ix2 l p) := by
  unfold k0_pay2
  exact concat_cols_apply _ _ l _ 19 20 v2130 rfl segShapes rfl 190 (by decide) p rfl

end Loc2

/-! ## The remaining payloads as the matching pieces they compute -/

/-- The backward full-match column of the premise. -/
theorem pay33_eq (v5 : FVec F S128x100 .f32) (v15 : FVec F S100 .f32) : k0_pay33 v5 v15 = mv1VecK v5 v15 := rfl
/-- The backward full-match perspective block of the premise, cut over five payloads. -/
theorem pay38_eq (v5 : FVec F S128x100 .f32) (v15 : FVec F S100 .f32) (v20 : FVec F S20x100 .f32) :
    k0_pay38 (k0_pay34 v20) (k0_pay35 v5 v20) (k0_pay36 v5 v15 v20) (k0_pay37 v15) = mvpVecK v5 v15 v20 := rfl
/-- The forward full-match column of the hypothesis. -/
theorem pay39_eq (v6 : FVec F S128x100 .f32) (v9 : FVec F S100 .f32) : k0_pay39 v6 v9 = mv1VecK v6 v9 := rfl
/-- The forward full-match perspective block of the hypothesis, cut over four payloads. -/
theorem pay44_eq (v6 : FVec F S128x100 .f32) (v9 : FVec F S100 .f32) (v18 : FVec F S20x100 .f32) :
    k0_pay44 (k0_pay41 v6 v18) (k0_pay42 v6 v9 v18) (k0_pay43 v9 v18) (Scalar.ofBits .f32 0x322BCC77#32) = mvpVecK v6 v9 v18 := rfl
/-- The backward full-match column of the hypothesis. -/
theorem pay45_eq (v7 : FVec F S128x100 .f32) (v13 : FVec F S100 .f32) : k0_pay45 v7 v13 = mv1VecK v7 v13 := rfl
/-- The backward full-match perspective block of the hypothesis, cut over three payloads. -/
theorem pay49_eq (v7 : FVec F S128x100 .f32) (v13 : FVec F S100 .f32) (v20 : FVec F S20x100 .f32) :
    k0_pay49 (k0_pay47 v7 v13 v20) (k0_pay48 v7 v13 v20) = mvpVecK v7 v13 v20 := rfl
/-- The premise's forward attentive-mean column: the attentive mean is formed inside the same payload. -/
theorem pay337_eq (v4 v6 : FVec F S128x100 .f32) (c : FVec F S128x128 .f32) :
    k0_pay337 v4 v6 c (k0_pay332 c) = mv1K v4 (attMeanJK c v6) := rfl
/-- The premise's forward attentive-mean perspective block. -/
theorem pay340_eq (v4 a : FVec F S128x100 .f32) (w : FVec F S20x100 .f32) :
    k0_pay340 v4 a (k0_pay338 w) (k0_pay339 v4 w) = mvpK v4 a w := rfl
/-- The hypothesis's backward attentive-mean column, cut over five payloads. -/
theorem pay352_eq (v7 a : FVec F S128x100 .f32) :
    k0_pay352 (k0_pay348 v7 a) (k0_pay349 a) (k0_pay350 v7) (k0_pay351 (F := F)) = mv1K v7 a := rfl
/-- The premise's backward attentive-max column. -/
theorem pay368_eq (v5 a : FVec F S128x100 .f32) : k0_pay368 v5 a (k0_pay367 v5) = mv1K v5 a := rfl
/-- The hypothesis's forward attentive-max column. -/
theorem pay371_eq (v6 a : FVec F S128x100 .f32) : k0_pay371 (k0_pay370 v6 a) = mv1K v6 a := rfl
/-- The hypothesis's backward attentive-max perspective block, cut over four payloads. -/
theorem pay378_eq (v7 a : FVec F S128x100 .f32) (w : FVec F S20x100 .f32) :
    k0_pay378 (k0_pay375 v7 w) (k0_pay376 v7 w a) (k0_pay377 w a) (Scalar.ofBits .f32 0x322BCC77#32) = mvpK v7 a w := rfl

end Loc

/-! ## The rows the kernel reads -/

/-- The rows of one batch element, from the five input blocks. -/
def rowsK (x0 x1 : Vec Ideal S1x128x200 .f32) (x2 x3 : Vec Ideal S1x1x100 .f32) (x4 : Vec Ideal S8x20x100 .f32) : Rows where
  pf l h := x0 (ix3 (0 : Fin 1) l (colF h))
  pb l h := x0 (ix3 (0 : Fin 1) l (colB h))
  hf l h := x1 (ix3 (0 : Fin 1) l (colF h))
  hb l h := x1 (ix3 (0 : Fin 1) l (colB h))
  pl h := x2 (ix3 (0 : Fin 1) (0 : Fin 1) h)
  hl h := x3 (ix3 (0 : Fin 1) (0 : Fin 1) h)
  w k p h := x4 (ix3 k p h)

/-! ## The premise's output block, segment by segment -/

section P
variable (x0 x1 : Vec Ideal S1x128x200 .f32) (x2 x3 : Vec Ideal S1x1x100 .f32) (x4 : Vec Ideal S8x20x100 .f32)

/-- Column 0: the largest forward cosine of premise row l against the hypothesis rows. -/
theorem out5_c0 (l : Fin 128) :
    out0_5 x0 x1 x2 x3 x4 (ix3 (0 : Fin 1) l (⟨0, by omega⟩ : Fin 210)) = (rowsK x0 x1 x2 x3 x4).p1 0 l := by
  unfold out0_5
  refine (congrFun (canon_r0_3 _) _).trans ?_
  rw [pay3_apply, pay1_c0]
  simp only [ld_r0_0, ld_r0_1, ld_r0_2]
  rw [pay379_eq, rowMaxK_apply]
  simp only [pay26_eq, cosK_apply, pay7_apply, pay9_apply]
  rfl

/-- Column 1: the mean forward cosine of premise row l against the hypothesis rows. -/
theorem out5_c1 (l : Fin 128) :
    out0_5 x0 x1 x2 x3 x4 (ix3 (0 : Fin 1) l (⟨1, by omega⟩ : Fin 210)) = (rowsK x0 x1 x2 x3 x4).p1 1 l := by
  unfold out0_5
  refine (congrFun (canon_r0_3 _) _).trans ?_
  rw [pay3_apply, pay1_c1]
  simp only [ld_r0_0, ld_r0_1, ld_r0_2]
  rw [pay380_eq, rowMeanK_apply]
  simp only [pay26_eq, cosK_apply, pay7_apply, pay9_apply]
  rfl

/-- Column 2: the largest backward cosine of premise row l against the hypothesis rows. -/
theorem out5_c2 (l : Fin 128) :
    out0_5 x0 x1 x2 x3 x4 (ix3 (0 : Fin 1) l (⟨2, by omega⟩ : Fin 210)) = (rowsK x0 x1 x2 x3 x4).p1 2 l := by
  unfold out0_5
  refine (congrFun (canon_r0_3 _) _).trans ?_
  rw [pay3_apply, pay1_c2]
  simp only [ld_r0_0, ld_r0_1, ld_r0_2]
  rw [rowMaxK_apply]
  simp only [pay27_eq, cosK_apply, pay8_apply, pay10_apply]
  rfl

/-- Column 3: the mean backward cosine of premise row l against the hypothesis rows. -/
theorem out5_c3 (l : Fin 128) :
    out0_5 x0 x1 x2 x3 x4 (ix3 (0 : Fin 1) l (⟨3, by omega⟩ : Fin 210)) = (rowsK x0 x1 x2 x3 x4).p1 3 l := by
  unfold out0_5
  refine (congrFun (canon_r0_3 _) _).trans ?_
  rw [pay3_apply, pay1_c3]
  simp only [ld_r0_0, ld_r0_1, ld_r0_2]
  rw [rowMeanK_apply]
  simp only [pay27_eq, cosK_apply, pay8_apply, pay10_apply]
  rfl

/-- Column 4: the forward full match, premise row l against the hypothesis's last state. -/
theorem out5_c4 (l : Fin 128) :
    out0_5 x0 x1 x2 x3 x4 (ix3 (0 : Fin 1) l (⟨4, by omega⟩ : Fin 210)) = (rowsK x0 x1 x2 x3 x4).p1 4 l := by
  unfold out0_5
  refine (congrFun (canon_r0_3 _) _).trans ?_
  rw [pay3_apply, pay1_c4]
  simp only [ld_r0_0, ld_r0_1, ld_r0_2]
  rw [pay28_eq, mv1VecK_apply]
  simp only [pay7_apply, pay12_apply]
  rfl

/-- Columns 5 .. 24: the same under each perspective of the first weight matrix. -/
theorem out5_w5 (l : Fin 128) (p : Fin 20) :
    out0_5 x0 x1 x2 x3 x4 (ix3 (0 : Fin 1) l (⟨5 + p.val, by omega⟩ : Fin 210)) = (rowsK x0 x1 x2 x3 x4).p20 0 l p := by
  unfold out0_5
  refine (congrFun (canon_r0_3 _) _).trans ?_
  rw [pay3_apply, pay1_w5]
  simp only [ld_r0_0, ld_r0_1, ld_r0_2]
  rw [pay32_eq, mvpVecK_apply]
  simp only [pay15_apply, pay7_apply, pay12_apply]
  rfl

/-- Column 25: the backward full match, premise row l against the hypothesis's first backward row. -/
theorem out5_c25 (l : Fin 128) :
    out0_5 x0 x1 x2 x3 x4 (ix3 (0 : Fin 1) l (⟨25, by omega⟩ : Fin 210)) = (rowsK x0 x1 x2 x3 x4).p1 5 l := by
  unfold out0_5
  refine (congrFun (canon_r0_3 _) _).trans ?_
  rw [pay3_apply, pay1_c25]
  simp only [ld_r0_0, ld_r0_1, ld_r0_2]
  rw [pay33_eq, mv1VecK_apply]
  simp only [pay8_apply, pay14_apply]
  rfl

/-- Columns 26 .. 45: the same under each perspective of the second weight matrix. -/
theorem out5_w26 (l : Fin 128) (p : Fin 20) :
    out0_5 x0 x1 x2 x3 x4 (ix3 (0 : Fin 1) l (⟨26 + p.val, by omega⟩ : Fin 210)) = (rowsK x0 x1 x2 x3 x4).p20 1 l p := by
  unfold out0_5
  refine (congrFun (canon_r0_3 _) _).trans ?_
  rw [pay3_apply, pay1_w26]
  simp only [ld_r0_0, ld_r0_1, ld_r0_2]
  rw [pay38_eq, mvpVecK_apply]
  simp only [pay16_apply, pay8_apply, pay14_apply]
  rfl

/-- Column 126: premise row l against its forward attentive mean of the hypothesis. -/
theorem out5_c126 (l : Fin 128) :
    out0_5 x0 x1 x2 x3 x4 (ix3 (0 : Fin 1) l (⟨126, by omega⟩ : Fin 210)) = (rowsK x0 x1 x2 x3 x4).p1 6 l := by
  unfold out0_5
  refine (congrFun (canon_r0_3 _) _).trans ?_
  rw [pay3_apply, pay1_c126]
  simp only [ld_r0_0, ld_r0_1, ld_r0_2]
  rw [pay337_eq, mv1K_apply]
  simp only [attMeanJK_apply, pay26_eq, cosK_apply, pay7_apply, pay9_apply]
  rfl

/-- Columns 127 .. 146: the same under each perspective of the fifth weight matrix. -/
theorem out5_w127 (l : Fin 128) (p : Fin 20) :
    out0_5 x0 x1 x2 x3 x4 (ix3 (0 : Fin 1) l (⟨127 + p.val, by omega⟩ : Fin 210)) = (rowsK x0 x1 x2 x3 x4).p20 6 l p := by
  unfold out0_5
  refine (congrFun (canon_r0_3 _) _).trans ?_
  rw [pay3_apply, pay1_w127]
  simp only [ld_r0_0, ld_r0_1, ld_r0_2]
  rw [pay340_eq, mvpK_apply]
  simp only [pay333_eq, attMeanJK_apply, pay26_eq, cosK_apply, pay19_apply, pay7_apply, pay9_apply]
  rfl

/-- Column 147: premise row l against its backward attentive mean of the hypothesis. -/
theorem out5_c147 (l : Fin 128) :
    out0_5 x0 x1 x2 x3 x4 (ix3 (0 : Fin 1) l (⟨147, by omega⟩ : Fin 210)) = (rowsK x0 x1 x2 x3 x4).p1 7 l := by
  unfold out0_5
  refine (congrFun (canon_r0_3 _) _).trans ?_
  rw [pay3_apply, pay1_c147]
  simp only [ld_r0_0, ld_r0_1, ld_r0_2]
  rw [pay341_eq, mv1K_apply]
  simp only [pay334_eq, attMeanJK_apply, pay27_eq, cosK_apply, pay8_apply, pay10_apply]
  rfl

/-- Columns 148 .. 167: the same under each perspective of the sixth weight matrix. -/
theorem out5_w148 (l : Fin 128) (p : Fin 20) :
    out0_5 x0 x1 x2 x3 x4 (ix3 (0 : Fin 1) l (⟨148 + p.val, by omega⟩ : Fin 210)) = (rowsK x0 x1 x2 x3 x4).p20 7 l p := by
  unfold out0_5
  refine (congrFun (canon_r0_3 _) _).trans ?_
  rw [pay3_apply, pay1_w148]
  simp only [ld_r0_0, ld_r0_1, ld_r0_2]
  rw [pay345_eq, mvpK_apply]
  simp only [pay334_eq, attMeanJK_apply, pay27_eq, cosK_apply, pay20_apply, pay8_apply, pay10_apply]
  rfl

/-- Column 168: premise row l against its forward attentive maximum of the hypothesis. -/
theorem out5_c168 (l : Fin 128) :
    out0_5 x0 x1 x2 x3 x4 (ix3 (0 : Fin 1) l (⟨168, by omega⟩ : Fin 210)) = (rowsK x0 x1 x2 x3 x4).p1 8 l := by
  unfold out0_5
  refine (congrFun (canon_r0_3 _) _).trans ?_
  rw [pay3_apply, pay1_c168]
  simp only [ld_r0_0, ld_r0_1, ld_r0_2]
  rw [pay365_eq, mv1K_apply]
  simp only [pay356_eq, attMaxJK_apply, pay26_eq, cosK_apply, pay7_apply, pay9_apply]
  rfl

/-- Columns 169 .. 188: the same under each perspective of the seventh weight matrix. -/
theorem out5_w169 (l : Fin 128) (p : Fin 20) :
    out0_5 x0 x1 x2 x3 x4 (ix3 (0 : Fin 1) l (⟨169 + p.val, by omega⟩ : Fin 210)) = (rowsK x0 x1 x2 x3 x4).p20 8 l p := by
  unfold out0_5
  refine (congrFun (canon_r0_3 _) _).trans ?_
  rw [pay3_apply, pay1_w169]
  simp only [ld_r0_0, ld_r0_1, ld_r0_2]
  rw [pay366_eq, mvpK_apply]
  simp only [pay356_eq, attMaxJK_apply, pay26_eq, cosK_apply, pay21_apply, pay7_apply, pay9_apply]
  rfl

/-- Column 189: premise row l against its backward attentive maximum of the hypothesis. -/
theorem out5_c189 (l : Fin 128) :
    out0_5 x0 x1 x2 x3 x4 (ix3 (0 : Fin 1) l (⟨189, by omega⟩ : Fin 210)) = (rowsK x0 x1 x2 x3 x4).p1 9 l := by
  unfold out0_5
  refine (congrFun (canon_r0_3 _) _).trans ?_
  rw [pay3_apply, pay1_c189]
  simp only [ld_r0_0, ld_r0_1, ld_r0_2]
  rw [pay368_eq, mv1K_apply]
  simp only [pay357_eq, attMaxJK_apply, pay27_eq, cosK_apply, pay8_apply, pay10_apply]
  rfl

/-- Columns 190 .. 209: the same under each perspective of the eighth weight matrix. -/
theorem out5_w190 (l : Fin 128) (p : Fin 20) :
    out0_5 x0 x1 x2 x3 x4 (ix3 (0 : Fin 1) l (⟨190 + p.val, by omega⟩ : Fin 210)) = (rowsK x0 x1 x2 x3 x4).p20 9 l p := by
  unfold out0_5
  refine (congrFun (canon_r0_3 _) _).trans ?_
  rw [pay3_apply, pay1_w190]
  simp only [ld_r0_0, ld_r0_1, ld_r0_2]
  rw [pay369_eq, mvpK_apply]
  simp only [pay357_eq, attMaxJK_apply, pay27_eq, cosK_apply, pay22_apply, pay8_apply, pay10_apply]
  rfl

end P

/-! ## The hypothesis's output block, segment by segment -/

section H
variable (x0 x1 : Vec Ideal S1x128x200 .f32) (x2 x3 : Vec Ideal S1x1x100 .f32) (x4 : Vec Ideal S8x20x100 .f32)

/-- Column 0: the largest forward cosine of hypothesis row l against the premise rows. -/
theorem out6_c0 (l : Fin 128) :
    out0_6 x0 x1 x2 x3 x4 (ix3 (0 : Fin 1) l (⟨0, by omega⟩ : Fin 210)) = (rowsK x0 x1 x2 x3 x4).h1 0 l := by
  unfold out0_6
  refine (congrFun (canon_r0_3 _) _).trans ?_
  rw [pay4_apply, pay2_c0]
  simp only [ld_r0_0, ld_r0_1, ld_r0_2]
  rw [colMaxK_apply]
  simp only [pay26_eq, cosK_apply, pay7_apply, pay9_apply]
  rfl

/-- Column 1: the mean forward cosine of hypothesis row l against the premise rows. -/
theorem out6_c1 (l : Fin 128) :
    out0_6 x0 x1 x2 x3 x4 (ix3 (0 : Fin 1) l (⟨1, by omega⟩ : Fin 210)) = (rowsK x0 x1 x2 x3 x4).h1 1 l := by
  unfold out0_6
  refine (congrFun (canon_r0_3 _) _).trans ?_
  rw [pay4_apply, pay2_c1]
  simp only [ld_r0_0, ld_r0_1, ld_r0_2]
  rw [colMeanK_apply]
  simp only [pay26_eq, cosK_apply, pay7_apply, pay9_apply]
  rfl

/-- Column 2: the largest backward cosine of hypothesis row l against the premise rows. -/
theorem out6_c2 (l : Fin 128) :
    out0_6 x0 x1 x2 x3 x4 (ix3 (0 : Fin 1) l (⟨2, by omega⟩ : Fin 210)) = (rowsK x0 x1 x2 x3 x4).h1 2 l := by
  unfold out0_6
  refine (congrFun (canon_r0_3 _) _).trans ?_
  rw [pay4_apply, pay2_c2]
  simp only [ld_r0_0, ld_r0_1, ld_r0_2]
  rw [colMaxK_apply]
  simp only [pay27_eq, cosK_apply, pay8_apply, pay10_apply]
  rfl

/-- Column 3: the mean backward cosine of hypothesis row l against the premise rows. -/
theorem out6_c3 (l : Fin 128) :
    out0_6 x0 x1 x2 x3 x4 (ix3 (0 : Fin 1) l (⟨3, by omega⟩ : Fin 210)) = (rowsK x0 x1 x2 x3 x4).h1 3 l := by
  unfold out0_6
  refine (congrFun (canon_r0_3 _) _).trans ?_
  rw [pay4_apply, pay2_c3]
  simp only [ld_r0_0, ld_r0_1, ld_r0_2]
  rw [colMeanK_apply]
  simp only [pay27_eq, cosK_apply, pay8_apply, pay10_apply]
  rfl

/-- Column 4: the forward full match, hypothesis row l against the premise's last state. -/
theorem out6_c4 (l : Fin 128) :
    out0_6 x0 x1 x2 x3 x4 (ix3 (0 : Fin 1) l (⟨4, by omega⟩ : Fin 210)) = (rowsK x0 x1 x2 x3 x4).h1 4 l := by
  unfold out0_6
  refine (congrFun (canon_r0_3 _) _).trans ?_
  rw [pay4_apply, pay2_c4]
  simp only [ld_r0_0, ld_r0_1, ld_r0_2]
  rw [pay39_eq, mv1VecK_apply]
  simp only [pay9_apply, pay11_apply]
  rfl

/-- Columns 5 .. 24: the same under each perspective of the first weight matrix. -/
theorem out6_w5 (l : Fin 128) (p : Fin 20) :
    out0_6 x0 x1 x2 x3 x4 (ix3 (0 : Fin 1) l (⟨5 + p.val, by omega⟩ : Fin 210)) = (rowsK x0 x1 x2 x3 x4).h20 0 l p := by
  unfold out0_6
  refine (congrFun (canon_r0_3 _) _).trans ?_
  rw [pay4_apply, pay2_w5]
  simp only [ld_r0_0, ld_r0_1, ld_r0_2]
  rw [pay44_eq, mvpVecK_apply]
  simp only [pay15_apply, pay9_apply, pay11_apply]
  rfl

/-- Column 25: the backward full match, hypothesis row l against the premise's first backward row. -/
theorem out6_c25 (l : Fin 128) :
    out0_6 x0 x1 x2 x3 x4 (ix3 (0 : Fin 1) l (⟨25, by omega⟩ : Fin 210)) = (rowsK x0 x1 x2 x3 x4).h1 5 l := by
  unfold out0_6
  refine (congrFun (canon_r0_3 _) _).trans ?_
  rw [pay4_apply, pay2_c25]
  simp only [ld_r0_0, ld_r0_1, ld_r0_2]
  rw [pay45_eq, mv1VecK_apply]
  simp only [pay10_apply, pay13_apply]
  rfl

/-- Columns 26 .. 45: the same under each perspective of the second weight matrix. -/
theorem out6_w26 (l : Fin 128) (p : Fin 20) :
    out0_6 x0 x1 x2 x3 x4 (ix3 (0 : Fin 1) l (⟨26 + p.val, by omega⟩ : Fin 210)) = (rowsK x0 x1 x2 x3 x4).h20 1 l p := by
  unfold out0_6
  refine (congrFun (canon_r0_3 _) _).trans ?_
  rw [pay4_apply, pay2_w26]
  simp only [ld_r0_0, ld_r0_1, ld_r0_2]
  rw [pay49_eq, mvpVecK_apply]
  simp only [pay16_apply, pay10_apply, pay13_apply]
  rfl

/-- Column 126: hypothesis row l against its forward attentive mean of the premise. -/
theorem out6_c126 (l : Fin 128) :
    out0_6 x0 x1 x2 x3 x4 (ix3 (0 : Fin 1) l (⟨126, by omega⟩ : Fin 210)) = (rowsK x0 x1 x2 x3 x4).h1 6 l := by
  unfold out0_6
  refine (congrFun (canon_r0_3 _) _).trans ?_
  rw [pay4_apply, pay2_c126]
  simp only [ld_r0_0, ld_r0_1, ld_r0_2]
  rw [pay346_eq, mv1K_apply]
  simp only [pay335_eq, attMeanIK_apply, pay26_eq, cosK_apply, pay7_apply, pay9_apply]
  rfl

/-- Columns 127 .. 146: the same under each perspective of the fifth weight matrix. -/
theorem out6_w127 (l : Fin 128) (p : Fin 20) :
    out0_6 x0 x1 x2 x3 x4 (ix3 (0 : Fin 1) l (⟨127 + p.val, by omega⟩ : Fin 210)) = (rowsK x0 x1 x2 x3 x4).h20 6 l p := by
  unfold out0_6
  refine (congrFun (canon_r0_3 _) _).trans ?_
  rw [pay4_apply, pay2_w127]
  simp only [ld_r0_0, ld_r0_1, ld_r0_2]
  rw [pay347_eq, mvpK_apply]
  simp only [pay335_eq, attMeanIK_apply, pay26_eq, cosK_apply, pay19_apply, pay7_apply, pay9_apply]
  rfl

/-- Column 147: hypothesis row l against its backward attentive mean of the premise. -/
theorem out6_c147 (l : Fin 128) :
    out0_6 x0 x1 x2 x3 x4 (ix3 (0 : Fin 1) l (⟨147, by omega⟩ : Fin 210)) = (rowsK x0 x1 x2 x3 x4).h1 7 l := by
  unfold out0_6
  refine (congrFun (canon_r0_3 _) _).trans ?_
  rw [pay4_apply, pay2_c147]
  simp only [ld_r0_0, ld_r0_1, ld_r0_2]
  rw [pay352_eq, mv1K_apply]
  simp only [pay336_eq, attMeanIK_apply, pay27_eq, cosK_apply, pay8_apply, pay10_apply]
  rfl

/-- Columns 148 .. 167: the same under each perspective of the sixth weight matrix. -/
theorem out6_w148 (l : Fin 128) (p : Fin 20) :
    out0_6 x0 x1 x2 x3 x4 (ix3 (0 : Fin 1) l (⟨148 + p.val, by omega⟩ : Fin 210)) = (rowsK x0 x1 x2 x3 x4).h20 7 l p := by
  unfold out0_6
  refine (congrFun (canon_r0_3 _) _).trans ?_
  rw [pay4_apply, pay2_w148]
  simp only [ld_r0_0, ld_r0_1, ld_r0_2]
  rw [pay353_eq, mvpK_apply]
  simp only [pay336_eq, attMeanIK_apply, pay27_eq, cosK_apply, pay20_apply, pay8_apply, pay10_apply]
  rfl

/-- Column 168: hypothesis row l against its forward attentive maximum of the premise. -/
theorem out6_c168 (l : Fin 128) :
    out0_6 x0 x1 x2 x3 x4 (ix3 (0 : Fin 1) l (⟨168, by omega⟩ : Fin 210)) = (rowsK x0 x1 x2 x3 x4).h1 8 l := by
  unfold out0_6
  refine (congrFun (canon_r0_3 _) _).trans ?_
  rw [pay4_apply, pay2_c168]
  simp only [ld_r0_0, ld_r0_1, ld_r0_2]
  rw [pay371_eq, mv1K_apply]
  simp only [pay360_eq, attMaxIK_apply, pay26_eq, cosK_apply, pay7_apply, pay9_apply]
  rfl

/-- Columns 169 .. 188: the same under each perspective of the seventh weight matrix. -/
theorem out6_w169 (l : Fin 128) (p : Fin 20) :
    out0_6 x0 x1 x2 x3 x4 (ix3 (0 : Fin 1) l (⟨169 + p.val, by omega⟩ : Fin 210)) = (rowsK x0 x1 x2 x3 x4).h20 8 l p := by
  unfold out0_6
  refine (congrFun (canon_r0_3 _) _).trans ?_
  rw [pay4_apply, pay2_w169]
  simp only [ld_r0_0, ld_r0_1, ld_r0_2]
  rw [pay372_eq, mvpK_apply]
  simp only [pay360_eq, attMaxIK_apply, pay26_eq, cosK_apply, pay21_apply, pay7_apply, pay9_apply]
  rfl

/-- Column 189: hypothesis row l against its backward attentive maximum of the premise. -/
theorem out6_c189 (l : Fin 128) :
    out0_6 x0 x1 x2 x3 x4 (ix3 (0 : Fin 1) l (⟨189, by omega⟩ : Fin 210)) = (rowsK x0 x1 x2 x3 x4).h1 9 l := by
  unfold out0_6
  refine (congrFun (canon_r0_3 _) _).trans ?_
  rw [pay4_apply, pay2_c189]
  simp only [ld_r0_0, ld_r0_1, ld_r0_2]
  rw [pay373_eq, mv1K_apply]
  simp only [pay364_eq, attMaxIK_apply, pay27_eq, cosK_apply, pay8_apply, pay10_apply]
  rfl

/-- Columns 190 .. 209: the same under each perspective of the eighth weight matrix. -/
theorem out6_w190 (l : Fin 128) (p : Fin 20) :
    out0_6 x0 x1 x2 x3 x4 (ix3 (0 : Fin 1) l (⟨190 + p.val, by omega⟩ : Fin 210)) = (rowsK x0 x1 x2 x3 x4).h20 9 l p := by
  unfold out0_6
  refine (congrFun (canon_r0_3 _) _).trans ?_
  rw [pay4_apply, pay2_w190]
  simp only [ld_r0_0, ld_r0_1, ld_r0_2]
  rw [pay378_eq, mvpK_apply]
  simp only [pay364_eq, attMaxIK_apply, pay27_eq, cosK_apply, pay22_apply, pay8_apply, pay10_apply]
  rfl

end H

end Cert.Mpm
end
-- ==== Proof.Mpm.KOutPair.lean ====
/-
  The eight 20-column segments of the two stored blocks that come from the perspective loop over pairs of positions.
  Premise block, columns 46..65 / 66..85: for premise position l and perspective p of the third weight matrix, the
  largest / the mean over the hypothesis positions j of the cosine between the weighted forward rows of l and of j
  (the product of the norms clipped at eps); columns 86..105 / 106..125: the same for the backward rows under the
  fourth weight matrix. Hypothesis block, the same columns: the same statistics over the premise positions.
  Each segment is one piece of the joined [128, 210] matrix, itself twenty columns laid side by side (or twenty rows
  stacked and transposed), one per perspective.
-/
import proofs.«116293_j48241072668683_2_alg».proof.Proof.Gen.KernelIdeal.Frame
import proofs.«116293_j48241072668683_2_alg».proof.Proof.Mpm.KIn
import proofs.«116293_j48241072668683_2_alg».proof.Proof.Mpm.KPair
import proofs.«116293_j48241072668683_2_alg».proof.Proof.Mpm.Spec

set_option pp.maxSteps 5000
set_option pp.deepTerms false

noncomputable section

namespace Cert.Mpm

open Idealize.ShloMosaic Idealize.ShloMosaic.ValueIdx Cert.KernelIdeal Cert.KernelIdeal.Gen
open scoped BigOperators

/-- The rows the kernel reads from its five blocks: the two halves of every premise and hypothesis row, the two last
    forward states and the eight weight matrices. -/
def rowsK' (x0 x1 : Vec Ideal S1x128x200 .f32) (x2 x3 : Vec Ideal S1x1x100 .f32) (x4 : Vec Ideal S8x20x100 .f32) : Rows where
  pf l h := x0 (ix3 0 l (colF h))
  pb l h := x0 (ix3 0 l (colB h))
  hf l h := x1 (ix3 0 l (colF h))
  hb l h := x1 (ix3 0 l (colB h))
  pl h := x2 (ix3 0 0 h)
  hl h := x3 (ix3 0 0 h)
  w k p h := x4 (ix3 k p h)

/-- Column p of a 20-column segment starting at column s. -/
def segCol (s : ℕ) (hs : s + 20 ≤ 210) (p : Fin 20) : Fin 210 := ⟨s + p.val, Nat.lt_of_lt_of_le (Nat.add_lt_add_left p.isLt s) hs⟩

/-- Columns 46..65 of the premise side's joined matrix are its ninth piece. -/
theorem pay1_at_46 (v64 : FVec Ideal S128x128 .f32) (v83 : FVec Ideal S128x1 .f32) (v107 : FVec Ideal S128x20 .f32) (v126 : FVec Ideal S128x1 .f32)
    (v150 v957 v958 v1683 v1684 : FVec Ideal S128x20 .f32) (v1733 : FVec Ideal S128x1 .f32) (v1751 : FVec Ideal S128x20 .f32)
    (v1766 : FVec Ideal S128x1 .f32) (v1784 : FVec Ideal S128x20 .f32) (v2013 : FVec Ideal S128x1 .f32) (v2031 : FVec Ideal S128x20 .f32)
    (v2046 : FVec Ideal S128x1 .f32) (v2064 : FVec Ideal S128x20 .f32) (v2132 v2136 : FVec Ideal S128x1 .f32) (l : Fin 128) (p : Fin 20) :
    k0_pay1 v64 v83 v107 v126 v150 v957 v958 v1683 v1684 v1733 v1751 v1766 v1784 v2013 v2031 v2046 v2064 v2132 v2136
        (ix2 l (segCol 46 (by decide) p)) = v957 (ix2 l p) := by
  unfold k0_pay1
  refine concatenate_apply_piece (t := S128x210) 1 _ _ _ 8 ?_ S128x20 v957 ?_ rfl 46 ?_ (ix2 l p) (fun b hb => ?_) ?_
  · show 8 < 20
    decide
  · rfl
  · rfl
  · match b with
    | ⟨0, _⟩ => rfl
    | ⟨1, _⟩ => exact absurd rfl hb
  · rfl

/-- Columns 66..85 of the premise side's joined matrix are its tenth piece. -/
theorem pay1_at_66 (v64 : FVec Ideal S128x128 .f32) (v83 : FVec Ideal S128x1 .f32) (v107 : FVec Ideal S128x20 .f32) (v126 : FVec Ideal S128x1 .f32)
    (v150 v957 v958 v1683 v1684 : FVec Ideal S128x20 .f32) (v1733 : FVec Ideal S128x1 .f32) (v1751 : FVec Ideal S128x20 .f32)
    (v1766 : FVec Ideal S128x1 .f32) (v1784 : FVec Ideal S128x20 .f32) (v2013 : FVec Ideal S128x1 .f32) (v2031 : FVec Ideal S128x20 .f32)
    (v2046 : FVec Ideal S128x1 .f32) (v2064 : FVec Ideal S128x20 .f32) (v2132 v2136 : FVec Ideal S128x1 .f32) (l : Fin 128) (p : Fin 20) :
    k0_pay1 v64 v83 v107 v126 v150 v957 v958 v1683 v1684 v1733 v1751 v1766 v1784 v2013 v2031 v2046 v2064 v2132 v2136
        (ix2 l (segCol 66 (by decide) p)) = v958 (ix2 l p) := by
  unfold k0_pay1
  refine concatenate_apply_piece (t := S128x210) 1 _ _ _ 9 ?_ S128x20 v958 ?_ rfl 66 ?_ (ix2 l p) (fun b hb => ?_) ?_
  · show 9 < 20
    decide
  · rfl
  · rfl
  · match b with
    | ⟨0, _⟩ => rfl
    | ⟨1, _⟩ => exact absurd rfl hb
  · rfl

/-- Columns 86..105 of the premise side's joined matrix are its eleventh piece. -/
theorem pay1_at_86 (v64 : FVec Ideal S128x128 .f32) (v83 : FVec Ideal S128x1 .f32) (v107 : FVec Ideal S128x20 .f32) (v126 : FVec Ideal S128x1 .f32)
    (v150 v957 v958 v1683 v1684 : FVec Ideal S128x20 .f32) (v1733 : FVec Ideal S128x1 .f32) (v1751 : FVec Ideal S128x20 .f32)
    (v1766 : FVec Ideal S128x1 .f32) (v1784 : FVec Ideal S128x20 .f32) (v2013 : FVec Ideal S128x1 .f32) (v2031 : FVec Ideal S128x20 .f32)
    (v2046 : FVec Ideal S128x1 .f32) (v2064 : FVec Ideal S128x20 .f32) (v2132 v2136 : FVec Ideal S128x1 .f32) (l : Fin 128) (p : Fin 20) :
    k0_pay1 v64 v83 v107 v126 v150 v957 v958 v1683 v1684 v1733 v1751 v1766 v1784 v2013 v2031 v2046 v2064 v2132 v2136
        (ix2 l (segCol 86 (by decide) p)) = v1683 (ix2 l p) := by
  unfold k0_pay1
  refine concatenate_apply_piece (t := S128x210) 1 _ _ _ 10 ?_ S128x20 v1683 ?_ rfl 86 ?_ (ix2 l p) (fun b hb => ?_) ?_
  · show 10 < 20
    decide
  · rfl
  · rfl
  · match b with
    | ⟨0, _⟩ => rfl
    | ⟨1, _⟩ => exact absurd rfl hb
  · rfl

/-- Columns 106..125 of the premise side's joined matrix are its twelfth piece. -/
theorem pay1_at_106 (v64 : FVec Ideal S128x128 .f32) (v83 : FVec Ideal S128x1 .f32) (v107 : FVec Ideal S128x20 .f32) (v126 : FVec Ideal S128x1 .f32)
    (v150 v957 v958 v1683 v1684 : FVec Ideal S128x20 .f32) (v1733 : FVec Ideal S128x1 .f32) (v1751 : FVec Ideal S128x20 .f32)
    (v1766 : FVec Ideal S128x1 .f32) (v1784 : FVec Ideal S128x20 .f32) (v2013 : FVec Ideal S128x1 .f32) (v2031 : FVec Ideal S128x20 .f32)
    (v2046 : FVec Ideal S128x1 .f32) (v2064 : FVec Ideal S128x20 .f32) (v2132 v2136 : FVec Ideal S128x1 .f32) (l : Fin 128) (p : Fin 20) :
    k0_pay1 v64 v83 v107 v126 v150 v957 v958 v1683 v1684 v1733 v1751 v1766 v1784 v2013 v2031 v2046 v2064 v2132 v2136
        (ix2 l (segCol 106 (by decide) p)) = v1684 (ix2 l p) := by
  unfold k0_pay1
  refine concatenate_apply_piece (t := S128x210) 1 _ _ _ 11 ?_ S128x20 v1684 ?_ rfl 106 ?_ (ix2 l p) (fun b hb => ?_) ?_
  · show 11 < 20
    decide
  · rfl
  · rfl
  · match b with
    | ⟨0, _⟩ => rfl
    | ⟨1, _⟩ => exact absurd rfl hb
  · rfl

/-- Columns 46..65 of the hypothesis side's joined matrix are its ninth piece. -/
theorem pay2_at_46 (v48 v64 : FVec Ideal S128x128 .f32) (v169 : FVec Ideal S128x1 .f32) (v193 : FVec Ideal S128x20 .f32) (v212 : FVec Ideal S128x1 .f32)
    (v236 v960 v962 v1686 v1688 : FVec Ideal S128x20 .f32) (v1799 : FVec Ideal S128x1 .f32) (v1817 : FVec Ideal S128x20 .f32)
    (v1832 : FVec Ideal S128x1 .f32) (v1850 : FVec Ideal S128x20 .f32) (v2079 : FVec Ideal S128x1 .f32) (v2097 : FVec Ideal S128x20 .f32)
    (v2112 : FVec Ideal S128x1 .f32) (v2130 : FVec Ideal S128x20 .f32) (l : Fin 128) (p : Fin 20) :
    k0_pay2 v48 v64 v169 v193 v212 v236 v960 v962 v1686 v1688 v1799 v1817 v1832 v1850 v2079 v2097 v2112 v2130
        (ix2 l (segCol 46 (by decide) p)) = v960 (ix2 l p) := by
  unfold k0_pay2
  refine concatenate_apply_piece (t := S128x210) 1 _ _ _ 8 ?_ S128x20 v960 ?_ rfl 46 ?_ (ix2 l p) (fun b hb => ?_) ?_
  · show 8 < 20
    decide
  · rfl
  · rfl
  · match b with
    | ⟨0, _⟩ => rfl
    | ⟨1, _⟩ => exact absurd rfl hb
  · rfl

/-- Columns 66..85 of the hypothesis side's joined matrix are its tenth piece. -/
theorem pay2_at_66 (v48 v64 : FVec Ideal S128x128 .f32) (v169 : FVec Ideal S128x1 .f32) (v193 : FVec Ideal S128x20 .f32) (v212 : FVec Ideal S128x1 .f32)
    (v236 v960 v962 v1686 v1688 : FVec Ideal S128x20 .f32) (v1799 : FVec Ideal S128x1 .f32) (v1817 : FVec Ideal S128x20 .f32)
    (v1832 : FVec Ideal S128x1 .f32) (v1850 : FVec Ideal S128x20 .f32) (v2079 : FVec Ideal S128x1 .f32) (v2097 : FVec Ideal S128x20 .f32)
    (v2112 : FVec Ideal S128x1 .f32) (v2130 : FVec Ideal S128x20 .f32) (l : Fin 128) (p : Fin 20) :
    k0_pay2 v48 v64 v169 v193 v212 v236 v960 v962 v1686 v1688 v1799 v1817 v1832 v1850 v2079 v2097 v2112 v2130
        (ix2 l (segCol 66 (by decide) p)) = v962 (ix2 l p) := by
  unfold k0_pay2
  refine concatenate_apply_piece (t := S128x210) 1 _ _ _ 9 ?_ S128x20 v962 ?_ rfl 66 ?_ (ix2 l p) (fun b hb => ?_) ?_
  · show 9 < 20
    decide
  · rfl
  · rfl
  · match b with
    | ⟨0, _⟩ => rfl
    | ⟨1, _⟩ => exact absurd rfl hb
  · rfl

/-- Columns 86..105 of the hypothesis side's joined matrix are its eleventh piece. -/
theorem pay2_at_86 (v48 v64 : FVec Ideal S128x128 .f32) (v169 : FVec Ideal S128x1 .f32) (v193 : FVec Ideal S128x20 .f32) (v212 : FVec Ideal S128x1 .f32)
    (v236 v960 v962 v1686 v1688 : FVec Ideal S128x20 .f32) (v1799 : FVec Ideal S128x1 .f32) (v1817 : FVec Ideal S128x20 .f32)
    (v1832 : FVec Ideal S128x1 .f32) (v1850 : FVec Ideal S128x20 .f32) (v2079 : FVec Ideal S128x1 .f32) (v2097 : FVec Ideal S128x20 .f32)
    (v2112 : FVec Ideal S128x1 .f32) (v2130 : FVec Ideal S128x20 .f32) (l : Fin 128) (p : Fin 20) :
    k0_pay2 v48 v64 v169 v193 v212 v236 v960 v962 v1686 v1688 v1799 v1817 v1832 v1850 v2079 v2097 v2112 v2130
        (ix2 l (segCol 86 (by decide) p)) = v1686 (ix2 l p) := by
  unfold k0_pay2
  refine concatenate_apply_piece (t := S128x210) 1 _ _ _ 10 ?_ S128x20 v1686 ?_ rfl 86 ?_ (ix2 l p) (fun b hb => ?_) ?_
  · show 10 < 20
    decide
  · rfl
  · rfl
  · match b with
    | ⟨0, _⟩ => rfl
    | ⟨1, _⟩ => exact absurd rfl hb
  · rfl

/-- Columns 106..125 of the hypothesis side's joined matrix are its twelfth piece. -/
theorem pay2_at_106 (v48 v64 : FVec Ideal S128x128 .f32) (v169 : FVec Ideal S128x1 .f32) (v193 : FVec Ideal S128x20 .f32) (v212 : FVec Ideal S128x1 .f32)
    (v236 v960 v962 v1686 v1688 : FVec Ideal S128x20 .f32) (v1799 : FVec Ideal S128x1 .f32) (v1817 : FVec Ideal S128x20 .f32)
    (v1832 : FVec Ideal S128x1 .f32) (v1850 : FVec Ideal S128x20 .f32) (v2079 : FVec Ideal S128x1 .f32) (v2097 : FVec Ideal S128x20 .f32)
    (v2112 : FVec Ideal S128x1 .f32) (v2130 : FVec Ideal S128x20 .f32) (l : Fin 128) (p : Fin 20) :
    k0_pay2 v48 v64 v169 v193 v212 v236 v960 v962 v1686 v1688 v1799 v1817 v1832 v1850 v2079 v2097 v2112 v2130
        (ix2 l (segCol 106 (by decide) p)) = v1688 (ix2 l p) := by
  unfold k0_pay2
  refine concatenate_apply_piece (t := S128x210) 1 _ _ _ 11 ?_ S128x20 v1688 ?_ rfl 106 ?_ (ix2 l p) (fun b hb => ?_) ?_
  · show 11 < 20
    decide
  · rfl
  · rfl
  · match b with
    | ⟨0, _⟩ => rfl
    | ⟨1, _⟩ => exact absurd rfl hb
  · rfl

set_option maxHeartbeats 1000000 in
/-- Columns 46..65 of the premise output: under each perspective of the third weight matrix, the largest cosine of
    the premise position's forward row over the hypothesis positions. -/
theorem out5_maxF (x0 x1 : Vec Ideal S1x128x200 .f32) (x2 x3 : Vec Ideal S1x1x100 .f32) (x4 : Vec Ideal S8x20x100 .f32)
    (l : Fin 128) (p : Fin 20) :
    out0_5 x0 x1 x2 x3 x4 (ix3 0 l (segCol 46 (by decide) p)) = (rowsK' x0 x1 x2 x3 x4).p20 2 l p := by
  unfold out0_5
  rw [canon_r0_3 (F := Ideal), pay3_apply, pay1_at_46]
  simp only [ld_r0_0 (F := Ideal), ld_r0_2 (F := Ideal)]
  show cat20 (fun q => pwMaxRowK (F := Ideal) (k0_pay7 x0) (k0_pay9 x1) (k0_pay17 x4) q (wSlices q)) (ix2 l p) = _
  rw [cat20_apply, pwMaxRowK_apply]
  simp only [pay7_apply, pay9_apply, pay17_apply]
  rfl

set_option maxHeartbeats 1000000 in
/-- Columns 66..85 of the premise output: the mean of the same cosines over the hypothesis positions. -/
theorem out5_meanF (x0 x1 : Vec Ideal S1x128x200 .f32) (x2 x3 : Vec Ideal S1x1x100 .f32) (x4 : Vec Ideal S8x20x100 .f32)
    (l : Fin 128) (p : Fin 20) :
    out0_5 x0 x1 x2 x3 x4 (ix3 0 l (segCol 66 (by decide) p)) = (rowsK' x0 x1 x2 x3 x4).p20 3 l p := by
  unfold out0_5
  rw [canon_r0_3 (F := Ideal), pay3_apply, pay1_at_66]
  simp only [ld_r0_0 (F := Ideal), ld_r0_2 (F := Ideal)]
  show cat20 (fun q => pwMeanRowK (F := Ideal) (k0_pay7 x0) (k0_pay9 x1) (k0_pay17 x4) q (wSlices q)) (ix2 l p) = _
  rw [cat20_apply, pwMeanRowK_apply]
  simp only [pay7_apply, pay9_apply, pay17_apply]
  rfl

set_option maxHeartbeats 1000000 in
/-- Columns 86..105 of the premise output: under each perspective of the fourth weight matrix, the largest cosine of
    the premise position's backward row over the hypothesis positions. -/
theorem out5_maxB (x0 x1 : Vec Ideal S1x128x200 .f32) (x2 x3 : Vec Ideal S1x1x100 .f32) (x4 : Vec Ideal S8x20x100 .f32)
    (l : Fin 128) (p : Fin 20) :
    out0_5 x0 x1 x2 x3 x4 (ix3 0 l (segCol 86 (by decide) p)) = (rowsK' x0 x1 x2 x3 x4).p20 4 l p := by
  unfold out0_5
  rw [canon_r0_3 (F := Ideal), pay3_apply, pay1_at_86]
  simp only [ld_r0_0 (F := Ideal), ld_r0_2 (F := Ideal)]
  show cat20 (fun q => pwMaxRowK (F := Ideal) (k0_pay8 x0) (k0_pay10 x1) (k0_pay18 x4) q (wSlices q)) (ix2 l p) = _
  rw [cat20_apply, pwMaxRowK_apply]
  simp only [pay8_apply, pay10_apply, pay18_apply]
  rfl

set_option maxHeartbeats 1000000 in
/-- Columns 106..125 of the premise output: the mean of the same cosines over the hypothesis positions. -/
theorem out5_meanB (x0 x1 : Vec Ideal S1x128x200 .f32) (x2 x3 : Vec Ideal S1x1x100 .f32) (x4 : Vec Ideal S8x20x100 .f32)
    (l : Fin 128) (p : Fin 20) :
    out0_5 x0 x1 x2 x3 x4 (ix3 0 l (segCol 106 (by decide) p)) = (rowsK' x0 x1 x2 x3 x4).p20 5 l p := by
  unfold out0_5
  rw [canon_r0_3 (F := Ideal), pay3_apply, pay1_at_106]
  simp only [ld_r0_0 (F := Ideal), ld_r0_2 (F := Ideal)]
  show cat20 (fun q => pwMeanRowK (F := Ideal) (k0_pay8 x0) (k0_pay10 x1) (k0_pay18 x4) q (wSlices q)) (ix2 l p) = _
  rw [cat20_apply, pwMeanRowK_apply]
  simp only [pay8_apply, pay10_apply, pay18_apply]
  rfl

set_option maxHeartbeats 1000000 in
/-- Columns 46..65 of the hypothesis output: under each perspective of the third weight matrix, the largest cosine
    of the hypothesis position's forward row over the premise positions. -/
theorem out6_maxF (x0 x1 : Vec Ideal S1x128x200 .f32) (x2 x3 : Vec Ideal S1x1x100 .f32) (x4 : Vec Ideal S8x20x100 .f32)
    (l : Fin 128) (p : Fin 20) :
    out0_6 x0 x1 x2 x3 x4 (ix3 0 l (segCol 46 (by decide) p)) = (rowsK' x0 x1 x2 x3 x4).h20 2 l p := by
  unfold out0_6
  rw [canon_r0_3 (F := Ideal), pay4_apply, pay2_at_46]
  simp only [ld_r0_0 (F := Ideal), ld_r0_2 (F := Ideal)]
  show cat20T (fun q => pwMaxColK (F := Ideal) (k0_pay7 x0) (k0_pay9 x1) (k0_pay17 x4) q (wSlices q)) (ix2 l p) = _
  rw [cat20T_apply, pwMaxColK_apply]
  simp only [pay7_apply, pay9_apply, pay17_apply]
  rfl

set_option maxHeartbeats 1000000 in
/-- Columns 66..85 of the hypothesis output: the mean of the same cosines over the premise positions. -/
theorem out6_meanF (x0 x1 : Vec Ideal S1x128x200 .f32) (x2 x3 : Vec Ideal S1x1x100 .f32) (x4 : Vec Ideal S8x20x100 .f32)
    (l : Fin 128) (p : Fin 20) :
    out0_6 x0 x1 x2 x3 x4 (ix3 0 l (segCol 66 (by decide) p)) = (rowsK' x0 x1 x2 x3 x4).h20 3 l p := by
  unfold out0_6
  rw [canon_r0_3 (F := Ideal), pay4_apply, pay2_at_66]
  simp only [ld_r0_0 (F := Ideal), ld_r0_2 (F := Ideal)]
  show cat20T (fun q => pwMeanColK (F := Ideal) (k0_pay7 x0) (k0_pay9 x1) (k0_pay17 x4) q (wSlices q)) (ix2 l p) = _
  rw [cat20T_apply, pwMeanColK_apply]
  simp only [pay7_apply, pay9_apply, pay17_apply]
  rfl

set_option maxHeartbeats 1000000 in
/-- Columns 86..105 of the hypothesis output: under each perspective of the fourth weight matrix, the largest cosine
    of the hypothesis position's backward row over the premise positions. -/
theorem out6_maxB (x0 x1 : Vec Ideal S1x128x200 .f32) (x2 x3 : Vec Ideal S1x1x100 .f32) (x4 : Vec Ideal S8x20x100 .f32)
    (l : Fin 128) (p : Fin 20) :
    out0_6 x0 x1 x2 x3 x4 (ix3 0 l (segCol 86 (by decide) p)) = (rowsK' x0 x1 x2 x3 x4).h20 4 l p := by
  unfold out0_6
  rw [canon_r0_3 (F := Ideal), pay4_apply, pay2_at_86]
  simp only [ld_r0_0 (F := Ideal), ld_r0_2 (F := Ideal)]
  show cat20T (fun q => pwMaxColK (F := Ideal) (k0_pay8 x0) (k0_pay10 x1) (k0_pay18 x4) q (wSlices q)) (ix2 l p) = _
  rw [cat20T_apply, pwMaxColK_apply]
  simp only [pay8_apply, pay10_apply, pay18_apply]
  rfl

set_option maxHeartbeats 1000000 in
/-- Columns 106..125 of the hypothesis output: the mean of the same cosines over the premise positions. -/
theorem out6_meanB (x0 x1 : Vec Ideal S1x128x200 .f32) (x2 x3 : Vec Ideal S1x1x100 .f32) (x4 : Vec Ideal S8x20x100 .f32)
    (l : Fin 128) (p : Fin 20) :
    out0_6 x0 x1 x2 x3 x4 (ix3 0 l (segCol 106 (by decide) p)) = (rowsK' x0 x1 x2 x3 x4).h20 5 l p := by
  unfold out0_6
  rw [canon_r0_3 (F := Ideal), pay4_apply, pay2_at_106]
  simp only [ld_r0_0 (F := Ideal), ld_r0_2 (F := Ideal)]
  show cat20T (fun q => pwMeanColK (F := Ideal) (k0_pay8 x0) (k0_pay10 x1) (k0_pay18 x4) q (wSlices q)) (ix2 l p) = _
  rw [cat20T_apply, pwMeanColK_apply]
  simp only [pay8_apply, pay10_apply, pay18_apply]
  rfl

/-- The columns where the four pairwise segments start. -/
def pairStart : Fin 4 → ℕ := ![46, 66, 86, 106]

/-- Each of the four segments lies inside the 210 columns. -/
theorem pairStart_le (s : Fin 4) : pairStart s + 20 ≤ 210 := by
  match s with
  | ⟨0, _⟩ => exact (by decide : (46 : ℕ) + 20 ≤ 210)
  | ⟨1, _⟩ => exact (by decide : (66 : ℕ) + 20 ≤ 210)
  | ⟨2, _⟩ => exact (by decide : (86 : ℕ) + 20 ≤ 210)
  | ⟨3, _⟩ => exact (by decide : (106 : ℕ) + 20 ≤ 210)

/-- The four pairwise segments of the premise output are the specification's segments 2..5. -/
theorem out5_pair (x0 x1 : Vec Ideal S1x128x200 .f32) (x2 x3 : Vec Ideal S1x1x100 .f32) (x4 : Vec Ideal S8x20x100 .f32)
    (s : Fin 4) (l : Fin 128) (p : Fin 20) :
    out0_5 x0 x1 x2 x3 x4 (ix3 0 l (segCol (pairStart s) (pairStart_le s) p))
      = (rowsK' x0 x1 x2 x3 x4).p20 ⟨s.val + 2, Nat.lt_of_lt_of_le (Nat.add_lt_add_right s.isLt 2) (by decide)⟩ l p := by
  match s with
  | ⟨0, _⟩ => exact out5_maxF x0 x1 x2 x3 x4 l p
  | ⟨1, _⟩ => exact out5_meanF x0 x1 x2 x3 x4 l p
  | ⟨2, _⟩ => exact out5_maxB x0 x1 x2 x3 x4 l p
  | ⟨3, _⟩ => exact out5_meanB x0 x1 x2 x3 x4 l p

/-- The four pairwise segments of the hypothesis output are the specification's segments 2..5. -/
theorem out6_pair (x0 x1 : Vec Ideal S1x128x200 .f32) (x2 x3 : Vec Ideal S1x1x100 .f32) (x4 : Vec Ideal S8x20x100 .f32)
    (s : Fin 4) (l : Fin 128) (p : Fin 20) :
    out0_6 x0 x1 x2 x3 x4 (ix3 0 l (segCol (pairStart s) (pairStart_le s) p))
      = (rowsK' x0 x1 x2 x3 x4).h20 ⟨s.val + 2, Nat.lt_of_lt_of_le (Nat.add_lt_add_right s.isLt 2) (by decide)⟩ l p := by
  match s with
  | ⟨0, _⟩ => exact out6_maxF x0 x1 x2 x3 x4 l p
  | ⟨1, _⟩ => exact out6_meanF x0 x1 x2 x3 x4 l p
  | ⟨2, _⟩ => exact out6_maxB x0 x1 x2 x3 x4 l p
  | ⟨3, _⟩ => exact out6_meanB x0 x1 x2 x3 x4 l p

end Cert.Mpm
end
-- ==== Proof.Mpm.KOutAll.lean ====
/-
  The two output blocks read at every column: the ten one-column segments and the ten 20-column segments of each
  block, by cases on the segment, each case being the segment's own reading.
-/
import proofs.«116293_j48241072668683_2_alg».proof.Proof.Mpm.KOut
import proofs.«116293_j48241072668683_2_alg».proof.Proof.Mpm.KOutPair

noncomputable section

namespace Cert.Mpm

open Idealize.ShloMosaic Idealize.ShloMosaic.ValueIdx Cert.KernelIdeal Cert.KernelIdeal.Gen

/-- The column of each one-column segment, in storage order. -/
def oneCol : Fin 10 → ℕ := ![0, 1, 2, 3, 4, 25, 126, 147, 168, 189]
/-- The first column of each 20-column segment, in storage order. -/
def wideCol : Fin 10 → ℕ := ![5, 26, 46, 66, 86, 106, 127, 148, 169, 190]

/-- Every one-column segment lies inside the row. -/
theorem oneCol_lt : ∀ s : Fin 10, oneCol s < 210 := by decide
/-- Every 20-column segment starts early enough to fit. -/
theorem wideCol_le : ∀ s : Fin 10, wideCol s ≤ 190 := by decide
/-- Every column of a 20-column segment lies inside the row. -/
theorem wideCol_lt (s : Fin 10) (p : Fin 20) : wideCol s + p.val < 210 := by
  have h1 := wideCol_le s
  have h2 := p.isLt
  omega

section All
variable (x0 x1 : Vec Ideal S1x128x200 .f32) (x2 x3 : Vec Ideal S1x1x100 .f32) (x4 : Vec Ideal S8x20x100 .f32)

/-- The premise's block at each one-column segment. -/
theorem out5_one (s : Fin 10) (l : Fin 128) :
    out0_5 x0 x1 x2 x3 x4 (ix3 (0 : Fin 1) l (⟨oneCol s, oneCol_lt s⟩ : Fin 210)) = (rowsK x0 x1 x2 x3 x4).p1 s l := by
  fin_cases s
  · exact out5_c0 x0 x1 x2 x3 x4 l
  · exact out5_c1 x0 x1 x2 x3 x4 l
  · exact out5_c2 x0 x1 x2 x3 x4 l
  · exact out5_c3 x0 x1 x2 x3 x4 l
  · exact out5_c4 x0 x1 x2 x3 x4 l
  · exact out5_c25 x0 x1 x2 x3 x4 l
  · exact out5_c126 x0 x1 x2 x3 x4 l
  · exact out5_c147 x0 x1 x2 x3 x4 l
  · exact out5_c168 x0 x1 x2 x3 x4 l
  · exact out5_c189 x0 x1 x2 x3 x4 l

/-- The hypothesis's block at each one-column segment. -/
theorem out6_one (s : Fin 10) (l : Fin 128) :
    out0_6 x0 x1 x2 x3 x4 (ix3 (0 : Fin 1) l (⟨oneCol s, oneCol_lt s⟩ : Fin 210)) = (rowsK x0 x1 x2 x3 x4).h1 s l := by
  fin_cases s
  · exact out6_c0 x0 x1 x2 x3 x4 l
  · exact out6_c1 x0 x1 x2 x3 x4 l
  · exact out6_c2 x0 x1 x2 x3 x4 l
  · exact out6_c3 x0 x1 x2 x3 x4 l
  · exact out6_c4 x0 x1 x2 x3 x4 l
  · exact out6_c25 x0 x1 x2 x3 x4 l
  · exact out6_c126 x0 x1 x2 x3 x4 l
  · exact out6_c147 x0 x1 x2 x3 x4 l
  · exact out6_c168 x0 x1 x2 x3 x4 l
  · exact out6_c189 x0 x1 x2 x3 x4 l

/-- The premise's block at each 20-column segment. -/
theorem out5_wide (s : Fin 10) (l : Fin 128) (p : Fin 20) :
    out0_5 x0 x1 x2 x3 x4 (ix3 (0 : Fin 1) l (⟨wideCol s + p.val, wideCol_lt s p⟩ : Fin 210))
      = (rowsK x0 x1 x2 x3 x4).p20 s l p := by
  fin_cases s
  · exact out5_w5 x0 x1 x2 x3 x4 l p
  · exact out5_w26 x0 x1 x2 x3 x4 l p
  · exact out5_maxF x0 x1 x2 x3 x4 l p
  · exact out5_meanF x0 x1 x2 x3 x4 l p
  · exact out5_maxB x0 x1 x2 x3 x4 l p
  · exact out5_meanB x0 x1 x2 x3 x4 l p
  · exact out5_w127 x0 x1 x2 x3 x4 l p
  · exact out5_w148 x0 x1 x2 x3 x4 l p
  · exact out5_w169 x0 x1 x2 x3 x4 l p
  · exact out5_w190 x0 x1 x2 x3 x4 l p

/-- The hypothesis's block at each 20-column segment. -/
theorem out6_wide (s : Fin 10) (l : Fin 128) (p : Fin 20) :
    out0_6 x0 x1 x2 x3 x4 (ix3 (0 : Fin 1) l (⟨wideCol s + p.val, wideCol_lt s p⟩ : Fin 210))
      = (rowsK x0 x1 x2 x3 x4).h20 s l p := by
  fin_cases s
  · exact out6_w5 x0 x1 x2 x3 x4 l p
  · exact out6_w26 x0 x1 x2 x3 x4 l p
  · exact out6_maxF x0 x1 x2 x3 x4 l p
  · exact out6_meanF x0 x1 x2 x3 x4 l p
  · exact out6_maxB x0 x1 x2 x3 x4 l p
  · exact out6_meanB x0 x1 x2 x3 x4 l p
  · exact out6_w127 x0 x1 x2 x3 x4 l p
  · exact out6_w148 x0 x1 x2 x3 x4 l p
  · exact out6_w169 x0 x1 x2 x3 x4 l p
  · exact out6_w190 x0 x1 x2 x3 x4 l p

end All

end Cert.Mpm
end
-- ==== Proof.Mpm.RLast.lean ====
/-
  The last valid position of each sequence and the state read there, as one function of the mask and the sequence.
    lastIdxR mask    : per batch element, max(0, sum(mask) - 1) as a 32-bit word;
    gatherLastR x ix : per batch element b, the row x[b, ix[b], :] kept as a [16, 1, 100] array — an indexed read
                       of x at the pair (b, ix[b]), both coordinates wrapped once if negative, as an indexed read x[b, ix] with a negative index is.
  Both programs compute these with the same host operations, so they are carried whole: nothing here is read at an index.
-/
import proofs.«116293_j48241072668683_2_alg».proof.Proof.Gen.ReferenceIdeal

noncomputable section

namespace Cert.Mpm

open Idealize.ShloMosaic Cert.ReferenceIdeal Cert.ReferenceIdeal.Gen

variable {F : FTy → Type} [FloatOps F]

/-- The clipped last index max(0, sum(mask) - 1), one word per batch element. -/
def lastIdxR (mask : IVec S16x128 32) : IVec S16 32 :=
  maxsi (broadcastInDim S16 ![] bcast_S_S16 (id (constantI S_ 32 0#32)))
    (subi (Host.reduce IntOp.addi mask (constantI S_ 32 0#32) reducesTo_S16x128_S16_d1 h_S_)
      (broadcastInDim S16 ![] bcast_S_S16 (constantI S_ 32 1#32)))

/-- The row of each batch element at its index, as a [16, 1, 100] array. -/
def gatherLastR (x : FVec F S16x128x100 .f32) (ix : IVec S16 32) : FVec F S16x1x100 .f32 :=
  broadcastInDim S16x1x100 ![0, 2] bcast_S16x100_S16x1x100_0_2
    (Host.gather gather_S16x128x100_S16x2_S16x100_1_01_n_n_01_1_11100 x
      (concatenate S16x2 1
        [⟨S16x1, broadcastInDim S16x1 ![0] bcast_S16_S16x1_0
            (select (cmpi .slt (iotaInDim S16 32 0) (broadcastInDim S16 ![] bcast_S_S16 (constantI S_ 32 0#32)))
              (addi (iotaInDim S16 32 0) (broadcastInDim S16 ![] bcast_S_S16 (constantI S_ 32 16#32)))
              (iotaInDim S16 32 0))⟩,
         ⟨S16x1, broadcastInDim S16x1 ![0] bcast_S16_S16x1_0
            (select (cmpi .slt ix (broadcastInDim S16 ![] bcast_S_S16 (constantI S_ 32 0#32)))
              (addi ix (broadcastInDim S16 ![] bcast_S_S16 (constantI S_ 32 128#32)))
              ix)⟩]
        concatenates_S16x1_S16x1_S16x2_d1))

end Cert.Mpm
end
-- ==== Proof.Mpm.RCos.lean ====
/-
  The reference's pairwise cosine between two batches of sequences, and what the reference computes from one such
  cosine tensor c[b, i, j]: its maximum and mean along either sequence axis, the attentive mean of a sequence
  (the cosine-weighted sum of its rows over the clipped total weight) taken along either axis, and the attentive
  maximum (the largest cosine-weighted entry) along either axis. Each is written as the composition of host
  operations the reference applies, for any float instance, and then read at one batch element over the
  extended reals, where a host sum is the exact sum from zero, a host maximum the fold of max from -inf, and a
  broadcast the operand at the coordinates it keeps.
-/
import proofs.«116293_j48241072668683_2_alg».proof.Proof.Gen.ReferenceIdeal
import proofs.«116293_j48241072668683_2_alg».proof.Proof.Mpm.Math
import Idealize.ShloMosaic.Lib.ValueIdx
import Idealize.ShloMosaic.Lib.ValueLayout
import Idealize.ShloMosaic.Lib.Pipeline.Value
import Idealize.ShloMosaic.PureOps.Ideal.Laws

set_option pp.maxSteps 5000
set_option pp.deepTerms false

noncomputable section

namespace Cert.Mpm

open Idealize.ShloMosaic Idealize.ShloMosaic.ValueIdx Cert.ReferenceIdeal Cert.ReferenceIdeal.Gen
open scoped BigOperators

section Defs
variable {F : FTy → Type} [FloatOps F]

/-- The Euclidean norm of every row of a batch of sequences: the square root of the sum of the row's squares. -/
def normR (a : FVec F S16x128x100 .f32) : FVec F S16x128 .f32 :=
  Host.sqrt (Host.reduceAdd (mulf a a) (constant S_ .f32 0x00000000#32) reducesTo_S16x128x100_S16x128_d2 h_S_)

/-- The pairwise cosine: at (b, i, j) the inner product of row i of a with row j of b, over the product of the two
    rows' norms clipped at eps. -/
def cosR (a b : FVec F S16x128x100 .f32) : FVec F S16x128x128 .f32 :=
  Host.divf
    (Host.dotGeneral dot_S16x128x100_S16x128x100_S16x128x128_2_2_1_1_0_0 none a b)
    (maximumf
      (mulf
        (broadcastInDim S16x128x128 ![0, 1, 2] bcast_S16x128x1_S16x128x128_0_1_2
          (broadcastInDim S16x128x1 ![0, 1] bcast_S16x128_S16x128x1_0_1 (normR a)))
        (broadcastInDim S16x128x128 ![0, 1, 2] bcast_S16x1x128_S16x128x128_0_1_2
          (broadcastInDim S16x1x128 ![0, 2] bcast_S16x128_S16x1x128_0_2 (normR b))))
      (broadcastInDim S16x128x128 ![] bcast_S_S16x128x128 (constant S_ .f32 0x322BCC77#32)))

/-- The maximum of a cosine tensor along its last axis, kept as a column. -/
def rowMaxR (c : FVec F S16x128x128 .f32) : FVec F S16x128x1 .f32 :=
  broadcastInDim S16x128x1 ![0, 1] bcast_S16x128_S16x128x1_0_1
    (Host.reduce FloatOps.maximumf c (constant S_ .f32 0xFF800000#32) reducesTo_S16x128x128_S16x128_d2 h_S_)

/-- The mean of a cosine tensor along its last axis, kept as a column: the sum, then the division by 128. -/
def rowMeanR (c : FVec F S16x128x128 .f32) : FVec F S16x128x1 .f32 :=
  Host.divf
    (broadcastInDim S16x128x1 ![0, 1] bcast_S16x128_S16x128x1_0_1
      (Host.reduceAdd c (constant S_ .f32 0x00000000#32) reducesTo_S16x128x128_S16x128_d2 h_S_))
    (broadcastInDim S16x128x1 ![] bcast_S_S16x128x1 (constant S_ .f32 0x43000000#32))

/-- The maximum of a cosine tensor along its middle axis, as a column. -/
def colMaxR (c : FVec F S16x128x128 .f32) : FVec F S16x128x1 .f32 :=
  broadcastInDim S16x128x1 ![0, 1] bcast_S16x128_S16x128x1_0_1
    (Host.reduce FloatOps.maximumf c (constant S_ .f32 0xFF800000#32) reducesTo_S16x128x128_S16x128_d1 h_S_)

/-- The mean of a cosine tensor along its middle axis, as a column: the sum, the division by 128, then the column. -/
def colMeanR (c : FVec F S16x128x128 .f32) : FVec F S16x128x1 .f32 :=
  broadcastInDim S16x128x1 ![0, 1] bcast_S16x128_S16x128x1_0_1
    (Host.divf
      (Host.reduceAdd c (constant S_ .f32 0x00000000#32) reducesTo_S16x128x128_S16x128_d1 h_S_)
      (broadcastInDim S16x128 ![] bcast_S_S16x128 (constant S_ .f32 0x43000000#32)))

/-- The attentive mean along the last axis: at (b, l, h) the sum over j of c[b, l, j] v[b, j, h], over the sum over j
    of c[b, l, j] clipped at eps. -/
def attMeanJR (c : FVec F S16x128x128 .f32) (v : FVec F S16x128x100 .f32) : FVec F S16x128x100 .f32 :=
  Host.divf
    (Host.dotGeneral dot_S16x128x128_S16x128x100_S16x128x100_2_1_1_2_0_0 none c v)
    (broadcastInDim S16x128x100 ![0, 1, 2] bcast_S16x128x1_S16x128x100_0_1_2
      (maximumf
        (broadcastInDim S16x128x1 ![0, 1] bcast_S16x128_S16x128x1_0_1
          (Host.reduceAdd c (constant S_ .f32 0x00000000#32) reducesTo_S16x128x128_S16x128_d2 h_S_))
        (broadcastInDim S16x128x1 ![] bcast_S_S16x128x1 (constant S_ .f32 0x322BCC77#32))))

/-- The attentive mean along the middle axis: at (b, j, h) the sum over i of c[b, i, j] v[b, i, h], over the sum over i
    of c[b, i, j] clipped at eps. -/
def attMeanIR (c : FVec F S16x128x128 .f32) (v : FVec F S16x128x100 .f32) : FVec F S16x128x100 .f32 :=
  Host.divf
    (Host.dotGeneral dot_S16x128x128_S16x128x100_S16x128x100_1_1_2_2_0_0 none c v)
    (broadcastInDim S16x128x100 ![0, 1, 2] bcast_S16x128x1_S16x128x100_0_1_2
      (maximumf
        (broadcastInDim S16x128x1 ![0, 1] bcast_S16x128_S16x128x1_0_1
          (Host.reduceAdd c (constant S_ .f32 0x00000000#32) reducesTo_S16x128x128_S16x128_d1 h_S_))
        (broadcastInDim S16x128x1 ![] bcast_S_S16x128x1 (constant S_ .f32 0x322BCC77#32))))

/-- The attentive maximum along the last axis: at (b, l, h) the maximum over j of v[b, j, h] c[b, l, j]. -/
def attMaxJR (v : FVec F S16x128x100 .f32) (c : FVec F S16x128x128 .f32) : FVec F S16x128x100 .f32 :=
  Host.reduce FloatOps.maximumf
    (mulf
      (broadcastInDim S16x128x128x100 ![0, 1, 2, 3] bcast_S16x1x128x100_S16x128x128x100_0_1_2_3
        (broadcastInDim S16x1x128x100 ![0, 2, 3] bcast_S16x128x100_S16x1x128x100_0_2_3 v))
      (broadcastInDim S16x128x128x100 ![0, 1, 2, 3] bcast_S16x128x128x1_S16x128x128x100_0_1_2_3
        (broadcastInDim S16x128x128x1 ![0, 1, 2] bcast_S16x128x128_S16x128x128x1_0_1_2 c)))
    (constant S_ .f32 0xFF800000#32) reducesTo_S16x128x128x100_S16x128x100_d2 h_S_

/-- The attentive maximum along the middle axis: at (b, j, h) the maximum over i of v[b, i, h] c[b, i, j]. -/
def attMaxIR (v : FVec F S16x128x100 .f32) (c : FVec F S16x128x128 .f32) : FVec F S16x128x100 .f32 :=
  Host.reduce FloatOps.maximumf
    (mulf
      (broadcastInDim S16x128x128x100 ![0, 1, 2, 3] bcast_S16x128x1x100_S16x128x128x100_0_1_2_3
        (broadcastInDim S16x128x1x100 ![0, 1, 3] bcast_S16x128x100_S16x128x1x100_0_1_3 v))
      (broadcastInDim S16x128x128x100 ![0, 1, 2, 3] bcast_S16x128x128x1_S16x128x128x100_0_1_2_3
        (broadcastInDim S16x128x128x1 ![0, 1, 2] bcast_S16x128x128_S16x128x128x1_0_1_2 c)))
    (constant S_ .f32 0xFF800000#32) reducesTo_S16x128x128x100_S16x128x100_d1 h_S_

end Defs

section Reading
variable {α : Type}

/-! ### The pointwise host operations and the broadcasts, read at coordinates -/

/-- The host's quotient at an index is the quotient of the entries. -/
private theorem hdivf_apply {s : Shape} {φ : FTy} (x y : FVec Ideal s φ) (i : s.Idx) :
    Host.divf x y i = Ideal.div (x i) (y i) := rfl

/-- The host's square root at an index is the square root of the entry. -/
private theorem hsqrt_apply {s : Shape} {φ : FTy} (x : FVec Ideal s φ) (i : s.Idx) :
    Host.sqrt x i = Ideal.sqrt (x i) := rfl

/-- A scalar broadcast to any shape reads the scalar everywhere. -/
private theorem bcastScalar_apply {t : Shape} (h : S_.BroadcastsInDim t (![] : Fin 0 → Fin t.rank)) (y : S_.Idx → α) (j : t.Idx) :
    broadcastInDim t ![] h y j = y ix0 :=
  broadcastInDim_apply _ h y j ix0 (fun a => a.elim0)

/-- A [16,128] array made a column [16,128,1] reads, at (b, l, u), the array at (b, l). -/
private theorem bcastCol_apply (y : S16x128.Idx → α) (bi : Fin 16) (l : Fin 128) (u : Fin 1) :
    broadcastInDim S16x128x1 ![0, 1] bcast_S16x128_S16x128x1_0_1 y (ix3 bi l u) = y (ix2 bi l) :=
  broadcastInDim_apply _ bcast_S16x128_S16x128x1_0_1 y (ix3 bi l u) (ix2 bi l) (fun a => match a with
    | ⟨0, _⟩ => by show bi.val = if (16 : Nat) = 1 then 0 else bi.val; rw [if_neg (by decide)]
    | ⟨1, _⟩ => by show l.val = if (128 : Nat) = 1 then 0 else l.val; rw [if_neg (by decide)])

/-- A column [16,128,1] spread along the last axis to [16,128,128] reads, at (b, i, j), the column at (b, i). -/
private theorem bcastColSpread_apply (y : S16x128x1.Idx → α) (bi : Fin 16) (i j : Fin 128) :
    broadcastInDim S16x128x128 ![0, 1, 2] bcast_S16x128x1_S16x128x128_0_1_2 y (ix3 bi i j) = y (ix3 bi i (0 : Fin 1)) :=
  broadcastInDim_apply _ bcast_S16x128x1_S16x128x128_0_1_2 y (ix3 bi i j) (ix3 bi i (0 : Fin 1)) (fun a => match a with
    | ⟨0, _⟩ => by show bi.val = if (16 : Nat) = 1 then 0 else bi.val; rw [if_neg (by decide)]
    | ⟨1, _⟩ => by show i.val = if (128 : Nat) = 1 then 0 else i.val; rw [if_neg (by decide)]
    | ⟨2, _⟩ => by show (0 : Nat) = if (1 : Nat) = 1 then 0 else j.val; rw [if_pos rfl])

/-- A [16,128] array made a row [16,1,128] reads, at (b, u, j), the array at (b, j). -/
private theorem bcastRow_apply (y : S16x128.Idx → α) (bi : Fin 16) (u : Fin 1) (j : Fin 128) :
    broadcastInDim S16x1x128 ![0, 2] bcast_S16x128_S16x1x128_0_2 y (ix3 bi u j) = y (ix2 bi j) :=
  broadcastInDim_apply _ bcast_S16x128_S16x1x128_0_2 y (ix3 bi u j) (ix2 bi j) (fun a => match a with
    | ⟨0, _⟩ => by show bi.val = if (16 : Nat) = 1 then 0 else bi.val; rw [if_neg (by decide)]
    | ⟨1, _⟩ => by show j.val = if (128 : Nat) = 1 then 0 else j.val; rw [if_neg (by decide)])

/-- A row [16,1,128] spread along the middle axis to [16,128,128] reads, at (b, i, j), the row at (b, j). -/
private theorem bcastRowSpread_apply (y : S16x1x128.Idx → α) (bi : Fin 16) (i j : Fin 128) :
    broadcastInDim S16x128x128 ![0, 1, 2] bcast_S16x1x128_S16x128x128_0_1_2 y (ix3 bi i j) = y (ix3 bi (0 : Fin 1) j) :=
  broadcastInDim_apply _ bcast_S16x1x128_S16x128x128_0_1_2 y (ix3 bi i j) (ix3 bi (0 : Fin 1) j) (fun a => match a with
    | ⟨0, _⟩ => by show bi.val = if (16 : Nat) = 1 then 0 else bi.val; rw [if_neg (by decide)]
    | ⟨1, _⟩ => by show (0 : Nat) = if (1 : Nat) = 1 then 0 else i.val; rw [if_pos rfl]
    | ⟨2, _⟩ => by show j.val = if (128 : Nat) = 1 then 0 else j.val; rw [if_neg (by decide)])

/-! ### The host's sums along one axis, from zero -/

/-- The sum of a [16,128,100] array along its last axis, at (b, l): the sum of that row. -/
private theorem hostSum_feat_apply (x : FVec Ideal S16x128x100 .f32) (h' : S16x128x100.ReducesTo [2] S16x128) (hu : 0 < S_.numel)
    (bi : Fin 16) (l : Fin 128) :
    Host.reduceAdd x (constant S_ .f32 0x00000000#32) h' hu (ix2 bi l) = ∑ k : Fin 100, x (ix3 bi l k) := by
  simp only [Host.reduceAdd, Ideal.hostReduceAdd_def]
  rw [Ideal.hostReduceAdd_single h' (by decide)]
  show Ideal.ofBits .f32 0x00000000#32 + _ = _
  rw [Ideal.ofBits_zero_f32, zero_add]
  refine Finset.sum_congr rfl fun k _ => congrArg x (funext fun d => Fin.ext ?_)
  match d with
  | ⟨0, _⟩ => rfl
  | ⟨1, _⟩ => rfl
  | ⟨2, _⟩ => rfl

/-! ### The three batched products, read at coordinates -/

/-- The left factor is read at the result's batch coordinate. -/
private theorem lhs_pair_0 (i : S16x128x128.Idx) (q : dot_S16x128x100_S16x128x100_S16x128x128_2_2_1_1_0_0.contr.Idx) :
    (dot_S16x128x100_S16x128x100_S16x128x128_2_2_1_1_0_0.lhsIdx i q 0).val = (i 0).val := by
  unfold DotDims.lhsIdx
  rw [dif_pos (show (0 : Fin S16x128x100.rank) ∈ dot_S16x128x100_S16x128x100_S16x128x128_2_2_1_1_0_0.lhsBatch by decide)]
  rfl
/-- The left factor is read at the result's row coordinate. -/
private theorem lhs_pair_1 (i : S16x128x128.Idx) (q : dot_S16x128x100_S16x128x100_S16x128x128_2_2_1_1_0_0.contr.Idx) :
    (dot_S16x128x100_S16x128x100_S16x128x128_2_2_1_1_0_0.lhsIdx i q 1).val = (i 1).val := by
  unfold DotDims.lhsIdx
  rw [dif_neg (show ¬(1 : Fin S16x128x100.rank) ∈ dot_S16x128x100_S16x128x100_S16x128x128_2_2_1_1_0_0.lhsBatch by decide), dif_pos (show (1 : Fin S16x128x100.rank) ∈ dot_S16x128x100_S16x128x100_S16x128x128_2_2_1_1_0_0.lhsNonContracting by decide)]
  rfl
/-- The left factor's feature coordinate is the summation index. -/
private theorem lhs_pair_2 (i : S16x128x128.Idx) (q : dot_S16x128x100_S16x128x100_S16x128x128_2_2_1_1_0_0.contr.Idx) :
    (dot_S16x128x100_S16x128x100_S16x128x128_2_2_1_1_0_0.lhsIdx i q 2).val = (q ⟨0, by decide⟩).val :=
  dot_S16x128x100_S16x128x100_S16x128x128_2_2_1_1_0_0.lhsIdx_val_of_single rfl i q
/-- The right factor is read at the result's batch coordinate. -/
private theorem rhs_pair_0 (i : S16x128x128.Idx) (q : dot_S16x128x100_S16x128x100_S16x128x128_2_2_1_1_0_0.contr.Idx) :
    (dot_S16x128x100_S16x128x100_S16x128x128_2_2_1_1_0_0.rhsIdx i q 0).val = (i 0).val := by
  unfold DotDims.rhsIdx
  rw [dif_pos (show (0 : Fin S16x128x100.rank) ∈ dot_S16x128x100_S16x128x100_S16x128x128_2_2_1_1_0_0.rhsBatch by decide)]
  rfl
/-- The right factor's row coordinate is the result's last coordinate. -/
private theorem rhs_pair_1 (i : S16x128x128.Idx) (q : dot_S16x128x100_S16x128x100_S16x128x128_2_2_1_1_0_0.contr.Idx) :
    (dot_S16x128x100_S16x128x100_S16x128x128_2_2_1_1_0_0.rhsIdx i q 1).val = (i 2).val := by
  unfold DotDims.rhsIdx
  rw [dif_neg (show ¬(1 : Fin S16x128x100.rank) ∈ dot_S16x128x100_S16x128x100_S16x128x128_2_2_1_1_0_0.rhsBatch by decide), dif_pos (show (1 : Fin S16x128x100.rank) ∈ dot_S16x128x100_S16x128x100_S16x128x128_2_2_1_1_0_0.rhsNonContracting by decide)]
  rfl
/-- The right factor's feature coordinate is the summation index. -/
private theorem rhs_pair_2 (i : S16x128x128.Idx) (q : dot_S16x128x100_S16x128x100_S16x128x128_2_2_1_1_0_0.contr.Idx) :
    (dot_S16x128x100_S16x128x100_S16x128x128_2_2_1_1_0_0.rhsIdx i q 2).val = (q ⟨0, by decide⟩).val :=
  dot_S16x128x100_S16x128x100_S16x128x128_2_2_1_1_0_0.rhsIdx_val_of_single rfl i q

/-- The batched product of rows against rows, at (b, i, j): the sum over the feature axis of row i of the left factor
    times row j of the right. -/
theorem dotPair_apply (a b : FVec Ideal S16x128x100 .f32) (bi : Fin 16) (i j : Fin 128) :
    Host.dotGeneral dot_S16x128x100_S16x128x100_S16x128x128_2_2_1_1_0_0 none a b (ix3 bi i j)
      = ∑ k : Fin 100, a (ix3 bi i k) * b (ix3 bi j k) := by
  simp only [Host.dotGeneral]
  rw [Ideal.dotGeneral_apply, ← Equiv.sum_comp (ValueIdx.contrEquiv1 dot_S16x128x100_S16x128x100_S16x128x128_2_2_1_1_0_0 100 rfl rfl).symm]
  refine Finset.sum_congr rfl fun k _ => ?_
  have hk := ValueIdx.contrEquiv1_symm_val dot_S16x128x100_S16x128x100_S16x128x128_2_2_1_1_0_0 100 rfl rfl k
  have el : dot_S16x128x100_S16x128x100_S16x128x128_2_2_1_1_0_0.lhsIdx (ix3 bi i j) ((ValueIdx.contrEquiv1 dot_S16x128x100_S16x128x100_S16x128x128_2_2_1_1_0_0 100 rfl rfl).symm k) = ix3 bi i k := funext fun d => Fin.ext (by
    match d with
    | ⟨0, _⟩ => exact lhs_pair_0 _ _
    | ⟨1, _⟩ => exact lhs_pair_1 _ _
    | ⟨2, _⟩ => exact (lhs_pair_2 _ _).trans hk)
  have er : dot_S16x128x100_S16x128x100_S16x128x128_2_2_1_1_0_0.rhsIdx (ix3 bi i j) ((ValueIdx.contrEquiv1 dot_S16x128x100_S16x128x100_S16x128x128_2_2_1_1_0_0 100 rfl rfl).symm k) = ix3 bi j k := funext fun d => Fin.ext (by
    match d with
    | ⟨0, _⟩ => exact rhs_pair_0 _ _
    | ⟨1, _⟩ => exact rhs_pair_1 _ _
    | ⟨2, _⟩ => exact (rhs_pair_2 _ _).trans hk)
  rw [el, er]

/-! ### The norm and the pairwise cosine -/

/-- At (b, l) the norm is the Euclidean norm of that row. -/
theorem normR_apply (a : FVec Ideal S16x128x100 .f32) (bi : Fin 16) (l : Fin 128) :
    normR a (ix2 bi l) = nrm fun h => a (ix3 bi l h) := by
  unfold normR
  rw [hsqrt_apply, hostSum_feat_apply]
  rfl

/-- At (b, i, j) the reference's pairwise cosine is the cosine of row i of a with row j of b, the product of the
    norms clipped at eps. -/
theorem cosR_apply (a b : FVec Ideal S16x128x100 .f32) (bi : Fin 16) (i j : Fin 128) :
    cosR a b (ix3 bi i j) = cosPair (fun h => a (ix3 bi i h)) (fun h => b (ix3 bi j h)) := by
  unfold cosR
  rw [hdivf_apply, dotPair_apply]
  simp only [maximumf_apply, mulf_apply]
  rw [bcastColSpread_apply, bcastCol_apply, bcastRowSpread_apply, bcastRow_apply, bcastScalar_apply, normR_apply, normR_apply]
  rfl

/-! ### Sums and maxima of a cosine tensor along one axis -/

/-- The sum of a [16,128,128] array along its last axis, at (b, l): the sum over j of the entries (b, l, j). -/
private theorem hostSum_last_apply (x : FVec Ideal S16x128x128 .f32) (h' : S16x128x128.ReducesTo [2] S16x128) (hu : 0 < S_.numel)
    (bi : Fin 16) (l : Fin 128) :
    Host.reduceAdd x (constant S_ .f32 0x00000000#32) h' hu (ix2 bi l) = ∑ k : Fin 128, x (ix3 bi l k) := by
  simp only [Host.reduceAdd, Ideal.hostReduceAdd_def]
  rw [Ideal.hostReduceAdd_single h' (by decide)]
  show Ideal.ofBits .f32 0x00000000#32 + _ = _
  rw [Ideal.ofBits_zero_f32, zero_add]
  refine Finset.sum_congr rfl fun k _ => congrArg x (funext fun d => Fin.ext ?_)
  match d with
  | ⟨0, _⟩ => rfl
  | ⟨1, _⟩ => rfl
  | ⟨2, _⟩ => rfl

/-- The sum of a [16,128,128] array along its middle axis, at (b, l): the sum over i of the entries (b, i, l). -/
private theorem hostSum_mid_apply (x : FVec Ideal S16x128x128 .f32) (h' : S16x128x128.ReducesTo [1] S16x128) (hu : 0 < S_.numel)
    (bi : Fin 16) (l : Fin 128) :
    Host.reduceAdd x (constant S_ .f32 0x00000000#32) h' hu (ix2 bi l) = ∑ k : Fin 128, x (ix3 bi k l) := by
  simp only [Host.reduceAdd, Ideal.hostReduceAdd_def]
  rw [Ideal.hostReduceAdd_single h' (by decide)]
  show Ideal.ofBits .f32 0x00000000#32 + _ = _
  rw [Ideal.ofBits_zero_f32, zero_add]
  refine Finset.sum_congr rfl fun k _ => congrArg x (funext fun d => Fin.ext ?_)
  match d with
  | ⟨0, _⟩ => rfl
  | ⟨1, _⟩ => rfl
  | ⟨2, _⟩ => rfl

/-- The maximum of a [16,128,128] array along its last axis, from -inf, at (b, l): the maximum over j of (b, l, j). -/
private theorem hostMax_last_apply (x : FVec Ideal S16x128x128 .f32) (h' : S16x128x128.ReducesTo [2] S16x128) (hu : 0 < S_.numel)
    (bi : Fin 16) (l : Fin 128) :
    Host.reduce FloatOps.maximumf x (constant S_ .f32 0xFF800000#32) h' hu (ix2 bi l) = fmax fun k : Fin 128 => x (ix3 bi l k) := by
  rw [Host.reduce_eq_fold_single FloatOps.maximumf x _ h' (by decide) hu]
  refine congrArg (fun f => Finset.fold max (Ideal.ofBits .f32 0xFF800000#32) f (Finset.univ : Finset (Fin 128)))
    (funext fun k => congrArg x (funext fun d => Fin.ext ?_))
  match d with
  | ⟨0, _⟩ => rfl
  | ⟨1, _⟩ => rfl
  | ⟨2, _⟩ => rfl

/-- The maximum of a [16,128,128] array along its middle axis, from -inf, at (b, l): the maximum over i of (b, i, l). -/
private theorem hostMax_mid_apply (x : FVec Ideal S16x128x128 .f32) (h' : S16x128x128.ReducesTo [1] S16x128) (hu : 0 < S_.numel)
    (bi : Fin 16) (l : Fin 128) :
    Host.reduce FloatOps.maximumf x (constant S_ .f32 0xFF800000#32) h' hu (ix2 bi l) = fmax fun k : Fin 128 => x (ix3 bi k l) := by
  rw [Host.reduce_eq_fold_single FloatOps.maximumf x _ h' (by decide) hu]
  refine congrArg (fun f => Finset.fold max (Ideal.ofBits .f32 0xFF800000#32) f (Finset.univ : Finset (Fin 128)))
    (funext fun k => congrArg x (funext fun d => Fin.ext ?_))
  match d with
  | ⟨0, _⟩ => rfl
  | ⟨1, _⟩ => rfl
  | ⟨2, _⟩ => rfl

/-! ### The four statistics of a cosine tensor -/

/-- At (b, l) the row maximum is the maximum over j of c[b, l, j]. -/
theorem rowMaxR_apply (c : FVec Ideal S16x128x128 .f32) (bi : Fin 16) (l : Fin 128) (u : Fin 1) :
    rowMaxR c (ix3 bi l u) = fmax fun j => c (ix3 bi l j) := by
  unfold rowMaxR
  rw [bcastCol_apply, hostMax_last_apply]

/-- At (b, l) the row mean is the mean over j of c[b, l, j]. -/
theorem rowMeanR_apply (c : FVec Ideal S16x128x128 .f32) (bi : Fin 16) (l : Fin 128) (u : Fin 1) :
    rowMeanR c (ix3 bi l u) = fmean fun j => c (ix3 bi l j) := by
  unfold rowMeanR
  rw [hdivf_apply, bcastCol_apply, hostSum_last_apply, bcastScalar_apply]
  rfl

/-- At (b, l) the column maximum is the maximum over i of c[b, i, l]. -/
theorem colMaxR_apply (c : FVec Ideal S16x128x128 .f32) (bi : Fin 16) (l : Fin 128) (u : Fin 1) :
    colMaxR c (ix3 bi l u) = fmax fun i => c (ix3 bi i l) := by
  unfold colMaxR
  rw [bcastCol_apply, hostMax_mid_apply]

/-- At (b, l) the column mean is the mean over i of c[b, i, l]. -/
theorem colMeanR_apply (c : FVec Ideal S16x128x128 .f32) (bi : Fin 16) (l : Fin 128) (u : Fin 1) :
    colMeanR c (ix3 bi l u) = fmean fun i => c (ix3 bi i l) := by
  unfold colMeanR
  rw [bcastCol_apply, hdivf_apply, hostSum_mid_apply, bcastScalar_apply]
  rfl

/-! ### The attentive mean -/

/-- A column [16,128,1] spread along the feature axis to [16,128,100] reads, at (b, l, h), the column at (b, l). -/
private theorem bcastColFeat_apply (y : S16x128x1.Idx → α) (bi : Fin 16) (l : Fin 128) (h : Fin 100) :
    broadcastInDim S16x128x100 ![0, 1, 2] bcast_S16x128x1_S16x128x100_0_1_2 y (ix3 bi l h) = y (ix3 bi l (0 : Fin 1)) :=
  broadcastInDim_apply _ bcast_S16x128x1_S16x128x100_0_1_2 y (ix3 bi l h) (ix3 bi l (0 : Fin 1)) (fun a => match a with
    | ⟨0, _⟩ => by show bi.val = if (16 : Nat) = 1 then 0 else bi.val; rw [if_neg (by decide)]
    | ⟨1, _⟩ => by show l.val = if (128 : Nat) = 1 then 0 else l.val; rw [if_neg (by decide)]
    | ⟨2, _⟩ => by show (0 : Nat) = if (1 : Nat) = 1 then 0 else h.val; rw [if_pos rfl])

/-- The cosine tensor is read at the result's batch coordinate. -/
private theorem lhs_mixJ_0 (i : S16x128x100.Idx) (q : dot_S16x128x128_S16x128x100_S16x128x100_2_1_1_2_0_0.contr.Idx) :
    (dot_S16x128x128_S16x128x100_S16x128x100_2_1_1_2_0_0.lhsIdx i q 0).val = (i 0).val := by
  unfold DotDims.lhsIdx
  rw [dif_pos (show (0 : Fin S16x128x128.rank) ∈ dot_S16x128x128_S16x128x100_S16x128x100_2_1_1_2_0_0.lhsBatch by decide)]
  rfl
/-- The cosine tensor's middle coordinate is the result's row coordinate. -/
private theorem lhs_mixJ_1 (i : S16x128x100.Idx) (q : dot_S16x128x128_S16x128x100_S16x128x100_2_1_1_2_0_0.contr.Idx) :
    (dot_S16x128x128_S16x128x100_S16x128x100_2_1_1_2_0_0.lhsIdx i q 1).val = (i 1).val := by
  unfold DotDims.lhsIdx
  rw [dif_neg (show ¬(1 : Fin S16x128x128.rank) ∈ dot_S16x128x128_S16x128x100_S16x128x100_2_1_1_2_0_0.lhsBatch by decide), dif_pos (show (1 : Fin S16x128x128.rank) ∈ dot_S16x128x128_S16x128x100_S16x128x100_2_1_1_2_0_0.lhsNonContracting by decide)]
  rfl
/-- The cosine tensor's last coordinate is the summation index. -/
private theorem lhs_mixJ_2 (i : S16x128x100.Idx) (q : dot_S16x128x128_S16x128x100_S16x128x100_2_1_1_2_0_0.contr.Idx) :
    (dot_S16x128x128_S16x128x100_S16x128x100_2_1_1_2_0_0.lhsIdx i q 2).val = (q ⟨0, by decide⟩).val :=
  dot_S16x128x128_S16x128x100_S16x128x100_2_1_1_2_0_0.lhsIdx_val_of_single rfl i q
/-- The sequence is read at the result's batch coordinate. -/
private theorem rhs_mixJ_0 (i : S16x128x100.Idx) (q : dot_S16x128x128_S16x128x100_S16x128x100_2_1_1_2_0_0.contr.Idx) :
    (dot_S16x128x128_S16x128x100_S16x128x100_2_1_1_2_0_0.rhsIdx i q 0).val = (i 0).val := by
  unfold DotDims.rhsIdx
  rw [dif_pos (show (0 : Fin S16x128x100.rank) ∈ dot_S16x128x128_S16x128x100_S16x128x100_2_1_1_2_0_0.rhsBatch by decide)]
  rfl
/-- The sequence's row coordinate is the summation index. -/
private theorem rhs_mixJ_1 (i : S16x128x100.Idx) (q : dot_S16x128x128_S16x128x100_S16x128x100_2_1_1_2_0_0.contr.Idx) :
    (dot_S16x128x128_S16x128x100_S16x128x100_2_1_1_2_0_0.rhsIdx i q 1).val = (q ⟨0, by decide⟩).val :=
  dot_S16x128x128_S16x128x100_S16x128x100_2_1_1_2_0_0.rhsIdx_val_of_single rfl i q
/-- The sequence's feature coordinate is the result's. -/
private theorem rhs_mixJ_2 (i : S16x128x100.Idx) (q : dot_S16x128x128_S16x128x100_S16x128x100_2_1_1_2_0_0.contr.Idx) :
    (dot_S16x128x128_S16x128x100_S16x128x100_2_1_1_2_0_0.rhsIdx i q 2).val = (i 2).val := by
  unfold DotDims.rhsIdx
  rw [dif_neg (show ¬(2 : Fin S16x128x100.rank) ∈ dot_S16x128x128_S16x128x100_S16x128x100_2_1_1_2_0_0.rhsBatch by decide), dif_pos (show (2 : Fin S16x128x100.rank) ∈ dot_S16x128x128_S16x128x100_S16x128x100_2_1_1_2_0_0.rhsNonContracting by decide)]
  rfl

/-- The batched product of a cosine tensor with a sequence along the tensor's last axis, at (b, l, h): the sum over j of
    c[b, l, j] times v[b, j, h]. -/
theorem dotMixJ_apply (c : FVec Ideal S16x128x128 .f32) (v : FVec Ideal S16x128x100 .f32) (bi : Fin 16) (l : Fin 128) (h : Fin 100) :
    Host.dotGeneral dot_S16x128x128_S16x128x100_S16x128x100_2_1_1_2_0_0 none c v (ix3 bi l h)
      = ∑ k : Fin 128, c (ix3 bi l k) * v (ix3 bi k h) := by
  simp only [Host.dotGeneral]
  rw [Ideal.dotGeneral_apply, ← Equiv.sum_comp (ValueIdx.contrEquiv1 dot_S16x128x128_S16x128x100_S16x128x100_2_1_1_2_0_0 128 rfl rfl).symm]
  refine Finset.sum_congr rfl fun k _ => ?_
  have hk := ValueIdx.contrEquiv1_symm_val dot_S16x128x128_S16x128x100_S16x128x100_2_1_1_2_0_0 128 rfl rfl k
  have el : dot_S16x128x128_S16x128x100_S16x128x100_2_1_1_2_0_0.lhsIdx (ix3 bi l h) ((ValueIdx.contrEquiv1 dot_S16x128x128_S16x128x100_S16x128x100_2_1_1_2_0_0 128 rfl rfl).symm k) = ix3 bi l k := funext fun d => Fin.ext (by
    match d with
    | ⟨0, _⟩ => exact lhs_mixJ_0 _ _
    | ⟨1, _⟩ => exact lhs_mixJ_1 _ _
    | ⟨2, _⟩ => exact (lhs_mixJ_2 _ _).trans hk)
  have er : dot_S16x128x128_S16x128x100_S16x128x100_2_1_1_2_0_0.rhsIdx (ix3 bi l h) ((ValueIdx.contrEquiv1 dot_S16x128x128_S16x128x100_S16x128x100_2_1_1_2_0_0 128 rfl rfl).symm k) = ix3 bi k h := funext fun d => Fin.ext (by
    match d with
    | ⟨0, _⟩ => exact rhs_mixJ_0 _ _
    | ⟨1, _⟩ => exact (rhs_mixJ_1 _ _).trans hk
    | ⟨2, _⟩ => exact rhs_mixJ_2 _ _)
  rw [el, er]

/-- The cosine tensor is read at the result's batch coordinate. -/
private theorem lhs_mixI_0 (i : S16x128x100.Idx) (q : dot_S16x128x128_S16x128x100_S16x128x100_1_1_2_2_0_0.contr.Idx) :
    (dot_S16x128x128_S16x128x100_S16x128x100_1_1_2_2_0_0.lhsIdx i q 0).val = (i 0).val := by
  unfold DotDims.lhsIdx
  rw [dif_pos (show (0 : Fin S16x128x128.rank) ∈ dot_S16x128x128_S16x128x100_S16x128x100_1_1_2_2_0_0.lhsBatch by decide)]
  rfl
/-- The cosine tensor's middle coordinate is the summation index. -/
private theorem lhs_mixI_1 (i : S16x128x100.Idx) (q : dot_S16x128x128_S16x128x100_S16x128x100_1_1_2_2_0_0.contr.Idx) :
    (dot_S16x128x128_S16x128x100_S16x128x100_1_1_2_2_0_0.lhsIdx i q 1).val = (q ⟨0, by decide⟩).val :=
  dot_S16x128x128_S16x128x100_S16x128x100_1_1_2_2_0_0.lhsIdx_val_of_single rfl i q
/-- The cosine tensor's last coordinate is the result's row coordinate. -/
private theorem lhs_mixI_2 (i : S16x128x100.Idx) (q : dot_S16x128x128_S16x128x100_S16x128x100_1_1_2_2_0_0.contr.Idx) :
    (dot_S16x128x128_S16x128x100_S16x128x100_1_1_2_2_0_0.lhsIdx i q 2).val = (i 1).val := by
  unfold DotDims.lhsIdx
  rw [dif_neg (show ¬(2 : Fin S16x128x128.rank) ∈ dot_S16x128x128_S16x128x100_S16x128x100_1_1_2_2_0_0.lhsBatch by decide), dif_pos (show (2 : Fin S16x128x128.rank) ∈ dot_S16x128x128_S16x128x100_S16x128x100_1_1_2_2_0_0.lhsNonContracting by decide)]
  rfl
/-- The sequence is read at the result's batch coordinate. -/
private theorem rhs_mixI_0 (i : S16x128x100.Idx) (q : dot_S16x128x128_S16x128x100_S16x128x100_1_1_2_2_0_0.contr.Idx) :
    (dot_S16x128x128_S16x128x100_S16x128x100_1_1_2_2_0_0.rhsIdx i q 0).val = (i 0).val := by
  unfold DotDims.rhsIdx
  rw [dif_pos (show (0 : Fin S16x128x100.rank) ∈ dot_S16x128x128_S16x128x100_S16x128x100_1_1_2_2_0_0.rhsBatch by decide)]
  rfl
/-- The sequence's row coordinate is the summation index. -/
private theorem rhs_mixI_1 (i : S16x128x100.Idx) (q : dot_S16x128x128_S16x128x100_S16x128x100_1_1_2_2_0_0.contr.Idx) :
    (dot_S16x128x128_S16x128x100_S16x128x100_1_1_2_2_0_0.rhsIdx i q 1).val = (q ⟨0, by decide⟩).val :=
  dot_S16x128x128_S16x128x100_S16x128x100_1_1_2_2_0_0.rhsIdx_val_of_single rfl i q
/-- The sequence's feature coordinate is the result's. -/
private theorem rhs_mixI_2 (i : S16x128x100.Idx) (q : dot_S16x128x128_S16x128x100_S16x128x100_1_1_2_2_0_0.contr.Idx) :
    (dot_S16x128x128_S16x128x100_S16x128x100_1_1_2_2_0_0.rhsIdx i q 2).val = (i 2).val := by
  unfold DotDims.rhsIdx
  rw [dif_neg (show ¬(2 : Fin S16x128x100.rank) ∈ dot_S16x128x128_S16x128x100_S16x128x100_1_1_2_2_0_0.rhsBatch by decide), dif_pos (show (2 : Fin S16x128x100.rank) ∈ dot_S16x128x128_S16x128x100_S16x128x100_1_1_2_2_0_0.rhsNonContracting by decide)]
  rfl

/-- The batched product of a cosine tensor with a sequence along the tensor's middle axis, at (b, j, h): the sum over i of
    c[b, i, j] times v[b, i, h]. -/
theorem dotMixI_apply (c : FVec Ideal S16x128x128 .f32) (v : FVec Ideal S16x128x100 .f32) (bi : Fin 16) (j : Fin 128) (h : Fin 100) :
    Host.dotGeneral dot_S16x128x128_S16x128x100_S16x128x100_1_1_2_2_0_0 none c v (ix3 bi j h)
      = ∑ k : Fin 128, c (ix3 bi k j) * v (ix3 bi k h) := by
  simp only [Host.dotGeneral]
  rw [Ideal.dotGeneral_apply, ← Equiv.sum_comp (ValueIdx.contrEquiv1 dot_S16x128x128_S16x128x100_S16x128x100_1_1_2_2_0_0 128 rfl rfl).symm]
  refine Finset.sum_congr rfl fun k _ => ?_
  have hk := ValueIdx.contrEquiv1_symm_val dot_S16x128x128_S16x128x100_S16x128x100_1_1_2_2_0_0 128 rfl rfl k
  have el : dot_S16x128x128_S16x128x100_S16x128x100_1_1_2_2_0_0.lhsIdx (ix3 bi j h) ((ValueIdx.contrEquiv1 dot_S16x128x128_S16x128x100_S16x128x100_1_1_2_2_0_0 128 rfl rfl).symm k) = ix3 bi k j := funext fun d => Fin.ext (by
    match d with
    | ⟨0, _⟩ => exact lhs_mixI_0 _ _
    | ⟨1, _⟩ => exact (lhs_mixI_1 _ _).trans hk
    | ⟨2, _⟩ => exact lhs_mixI_2 _ _)
  have er : dot_S16x128x128_S16x128x100_S16x128x100_1_1_2_2_0_0.rhsIdx (ix3 bi j h) ((ValueIdx.contrEquiv1 dot_S16x128x128_S16x128x100_S16x128x100_1_1_2_2_0_0 128 rfl rfl).symm k) = ix3 bi k h := funext fun d => Fin.ext (by
    match d with
    | ⟨0, _⟩ => exact rhs_mixI_0 _ _
    | ⟨1, _⟩ => exact (rhs_mixI_1 _ _).trans hk
    | ⟨2, _⟩ => exact rhs_mixI_2 _ _)
  rw [el, er]

/-- At (b, l, h) the attentive mean along the last axis is the cosine-weighted sum of v's rows over the clipped total
    weight of row l. -/
theorem attMeanJR_apply (c : FVec Ideal S16x128x128 .f32) (v : FVec Ideal S16x128x100 .f32) (bi : Fin 16) (l : Fin 128) (h : Fin 100) :
    attMeanJR c v (ix3 bi l h) = attMean (fun j => c (ix3 bi l j)) (fun j h => v (ix3 bi j h)) h := by
  unfold attMeanJR
  rw [hdivf_apply, dotMixJ_apply, bcastColFeat_apply]
  simp only [maximumf_apply]
  rw [bcastCol_apply, hostSum_last_apply, bcastScalar_apply]
  rfl

/-- At (b, j, h) the attentive mean along the middle axis is the cosine-weighted sum of v's rows over the clipped total
    weight of column j. -/
theorem attMeanIR_apply (c : FVec Ideal S16x128x128 .f32) (v : FVec Ideal S16x128x100 .f32) (bi : Fin 16) (j : Fin 128) (h : Fin 100) :
    attMeanIR c v (ix3 bi j h) = attMean (fun i => c (ix3 bi i j)) (fun i h => v (ix3 bi i h)) h := by
  unfold attMeanIR
  rw [hdivf_apply, dotMixI_apply, bcastColFeat_apply]
  simp only [maximumf_apply]
  rw [bcastCol_apply, hostSum_mid_apply, bcastScalar_apply]
  rfl

/-! ### The attentive maximum -/

/-- A sequence [16,128,100] given a unit axis in second place reads, at (b, u, j, h), the sequence at (b, j, h). -/
private theorem bcastSeqJ_apply (y : S16x128x100.Idx → α) (bi : Fin 16) (u : Fin 1) (j : Fin 128) (h : Fin 100) :
    broadcastInDim S16x1x128x100 ![0, 2, 3] bcast_S16x128x100_S16x1x128x100_0_2_3 y (ix4 bi u j h) = y (ix3 bi j h) :=
  broadcastInDim_apply _ bcast_S16x128x100_S16x1x128x100_0_2_3 y (ix4 bi u j h) (ix3 bi j h) (fun a => match a with
    | ⟨0, _⟩ => by show bi.val = if (16 : Nat) = 1 then 0 else bi.val; rw [if_neg (by decide)]
    | ⟨1, _⟩ => by show j.val = if (128 : Nat) = 1 then 0 else j.val; rw [if_neg (by decide)]
    | ⟨2, _⟩ => by show h.val = if (100 : Nat) = 1 then 0 else h.val; rw [if_neg (by decide)])

/-- That array spread along its unit axis to [16,128,128,100] reads, at (b, i, j, h), the entry (b, 0, j, h). -/
private theorem bcastSeqJSpread_apply (y : S16x1x128x100.Idx → α) (bi : Fin 16) (i j : Fin 128) (h : Fin 100) :
    broadcastInDim S16x128x128x100 ![0, 1, 2, 3] bcast_S16x1x128x100_S16x128x128x100_0_1_2_3 y (ix4 bi i j h) = y (ix4 bi (0 : Fin 1) j h) :=
  broadcastInDim_apply _ bcast_S16x1x128x100_S16x128x128x100_0_1_2_3 y (ix4 bi i j h) (ix4 bi (0 : Fin 1) j h) (fun a => match a with
    | ⟨0, _⟩ => by show bi.val = if (16 : Nat) = 1 then 0 else bi.val; rw [if_neg (by decide)]
    | ⟨1, _⟩ => by show (0 : Nat) = if (1 : Nat) = 1 then 0 else i.val; rw [if_pos rfl]
    | ⟨2, _⟩ => by show j.val = if (128 : Nat) = 1 then 0 else j.val; rw [if_neg (by decide)]
    | ⟨3, _⟩ => by show h.val = if (100 : Nat) = 1 then 0 else h.val; rw [if_neg (by decide)])

/-- A sequence [16,128,100] given a unit axis in third place reads, at (b, i, u, h), the sequence at (b, i, h). -/
private theorem bcastSeqI_apply (y : S16x128x100.Idx → α) (bi : Fin 16) (i : Fin 128) (u : Fin 1) (h : Fin 100) :
    broadcastInDim S16x128x1x100 ![0, 1, 3] bcast_S16x128x100_S16x128x1x100_0_1_3 y (ix4 bi i u h) = y (ix3 bi i h) :=
  broadcastInDim_apply _ bcast_S16x128x100_S16x128x1x100_0_1_3 y (ix4 bi i u h) (ix3 bi i h) (fun a => match a with
    | ⟨0, _⟩ => by show bi.val = if (16 : Nat) = 1 then 0 else bi.val; rw [if_neg (by decide)]
    | ⟨1, _⟩ => by show i.val = if (128 : Nat) = 1 then 0 else i.val; rw [if_neg (by decide)]
    | ⟨2, _⟩ => by show h.val = if (100 : Nat) = 1 then 0 else h.val; rw [if_neg (by decide)])

/-- That array spread along its unit axis to [16,128,128,100] reads, at (b, i, j, h), the entry (b, i, 0, h). -/
private theorem bcastSeqISpread_apply (y : S16x128x1x100.Idx → α) (bi : Fin 16) (i j : Fin 128) (h : Fin 100) :
    broadcastInDim S16x128x128x100 ![0, 1, 2, 3] bcast_S16x128x1x100_S16x128x128x100_0_1_2_3 y (ix4 bi i j h) = y (ix4 bi i (0 : Fin 1) h) :=
  broadcastInDim_apply _ bcast_S16x128x1x100_S16x128x128x100_0_1_2_3 y (ix4 bi i j h) (ix4 bi i (0 : Fin 1) h) (fun a => match a with
    | ⟨0, _⟩ => by show bi.val = if (16 : Nat) = 1 then 0 else bi.val; rw [if_neg (by decide)]
    | ⟨1, _⟩ => by show i.val = if (128 : Nat) = 1 then 0 else i.val; rw [if_neg (by decide)]
    | ⟨2, _⟩ => by show (0 : Nat) = if (1 : Nat) = 1 then 0 else j.val; rw [if_pos rfl]
    | ⟨3, _⟩ => by show h.val = if (100 : Nat) = 1 then 0 else h.val; rw [if_neg (by decide)])

/-- A cosine tensor [16,128,128] given a unit last axis reads, at (b, i, j, u), the tensor at (b, i, j). -/
private theorem bcastCos_apply (y : S16x128x128.Idx → α) (bi : Fin 16) (i j : Fin 128) (u : Fin 1) :
    broadcastInDim S16x128x128x1 ![0, 1, 2] bcast_S16x128x128_S16x128x128x1_0_1_2 y (ix4 bi i j u) = y (ix3 bi i j) :=
  broadcastInDim_apply _ bcast_S16x128x128_S16x128x128x1_0_1_2 y (ix4 bi i j u) (ix3 bi i j) (fun a => match a with
    | ⟨0, _⟩ => by show bi.val = if (16 : Nat) = 1 then 0 else bi.val; rw [if_neg (by decide)]
    | ⟨1, _⟩ => by show i.val = if (128 : Nat) = 1 then 0 else i.val; rw [if_neg (by decide)]
    | ⟨2, _⟩ => by show j.val = if (128 : Nat) = 1 then 0 else j.val; rw [if_neg (by decide)])

/-- That array spread along the feature axis to [16,128,128,100] reads, at (b, i, j, h), the entry (b, i, j, 0). -/
private theorem bcastCosSpread_apply (y : S16x128x128x1.Idx → α) (bi : Fin 16) (i j : Fin 128) (h : Fin 100) :
    broadcastInDim S16x128x128x100 ![0, 1, 2, 3] bcast_S16x128x128x1_S16x128x128x100_0_1_2_3 y (ix4 bi i j h) = y (ix4 bi i j (0 : Fin 1)) :=
  broadcastInDim_apply _ bcast_S16x128x128x1_S16x128x128x100_0_1_2_3 y (ix4 bi i j h) (ix4 bi i j (0 : Fin 1)) (fun a => match a with
    | ⟨0, _⟩ => by show bi.val = if (16 : Nat) = 1 then 0 else bi.val; rw [if_neg (by decide)]
    | ⟨1, _⟩ => by show i.val = if (128 : Nat) = 1 then 0 else i.val; rw [if_neg (by decide)]
    | ⟨2, _⟩ => by show j.val = if (128 : Nat) = 1 then 0 else j.val; rw [if_neg (by decide)]
    | ⟨3, _⟩ => by show (0 : Nat) = if (1 : Nat) = 1 then 0 else h.val; rw [if_pos rfl])

/-- The maximum of a [16,128,128,100] array along its third axis, from -inf, at (b, l, h): the maximum over j of the
    entries (b, l, j, h). -/
private theorem hostMax4_j_apply (x : FVec Ideal S16x128x128x100 .f32) (h' : S16x128x128x100.ReducesTo [2] S16x128x100) (hu : 0 < S_.numel)
    (bi : Fin 16) (l : Fin 128) (h : Fin 100) :
    Host.reduce FloatOps.maximumf x (constant S_ .f32 0xFF800000#32) h' hu (ix3 bi l h) = fmax fun k : Fin 128 => x (ix4 bi l k h) := by
  rw [Host.reduce_eq_fold_single FloatOps.maximumf x _ h' (by decide) hu]
  refine congrArg (fun f => Finset.fold max (Ideal.ofBits .f32 0xFF800000#32) f (Finset.univ : Finset (Fin 128)))
    (funext fun k => congrArg x (funext fun d => Fin.ext ?_))
  match d with
  | ⟨0, _⟩ => rfl
  | ⟨1, _⟩ => rfl
  | ⟨2, _⟩ => rfl
  | ⟨3, _⟩ => rfl

/-- The maximum of a [16,128,128,100] array along its second axis, from -inf, at (b, l, h): the maximum over i of the
    entries (b, i, l, h). -/
private theorem hostMax4_i_apply (x : FVec Ideal S16x128x128x100 .f32) (h' : S16x128x128x100.ReducesTo [1] S16x128x100) (hu : 0 < S_.numel)
    (bi : Fin 16) (l : Fin 128) (h : Fin 100) :
    Host.reduce FloatOps.maximumf x (constant S_ .f32 0xFF800000#32) h' hu (ix3 bi l h) = fmax fun k : Fin 128 => x (ix4 bi k l h) := by
  rw [Host.reduce_eq_fold_single FloatOps.maximumf x _ h' (by decide) hu]
  refine congrArg (fun f => Finset.fold max (Ideal.ofBits .f32 0xFF800000#32) f (Finset.univ : Finset (Fin 128)))
    (funext fun k => congrArg x (funext fun d => Fin.ext ?_))
  match d with
  | ⟨0, _⟩ => rfl
  | ⟨1, _⟩ => rfl
  | ⟨2, _⟩ => rfl
  | ⟨3, _⟩ => rfl

/-- At (b, l, h) the attentive maximum along the last axis is the largest over j of v[b, j, h] times c[b, l, j]. -/
theorem attMaxJR_apply (v : FVec Ideal S16x128x100 .f32) (c : FVec Ideal S16x128x128 .f32) (bi : Fin 16) (l : Fin 128) (h : Fin 100) :
    attMaxJR v c (ix3 bi l h) = attMax (fun j => c (ix3 bi l j)) (fun j h => v (ix3 bi j h)) h := by
  unfold attMaxJR attMax
  rw [hostMax4_j_apply]
  refine congrArg fmax (funext fun k => ?_)
  rw [mulf_apply, bcastSeqJSpread_apply, bcastSeqJ_apply, bcastCosSpread_apply, bcastCos_apply]

/-- At (b, j, h) the attentive maximum along the middle axis is the largest over i of v[b, i, h] times c[b, i, j]. -/
theorem attMaxIR_apply (v : FVec Ideal S16x128x100 .f32) (c : FVec Ideal S16x128x128 .f32) (bi : Fin 16) (j : Fin 128) (h : Fin 100) :
    attMaxIR v c (ix3 bi j h) = attMax (fun i => c (ix3 bi i j)) (fun i h => v (ix3 bi i h)) h := by
  unfold attMaxIR attMax
  rw [hostMax4_i_apply]
  refine congrArg fmax (funext fun k => ?_)
  rw [mulf_apply, bcastSeqISpread_apply, bcastSeqI_apply, bcastCosSpread_apply, bcastCos_apply]

end Reading

end Cert.Mpm
end
-- ==== Proof.Mpm.RMpm.lean ====
/-
  The reference's multi-perspective matching, one call at a time, as compositions of the host operations it runs:
    mv1R1 / mvpR1 : the cosine column and the perspective block against ONE row v2 (a sequence's chosen state);
    mv1R / mvpR   : the same against a full second operand, row by row;
    pwR           : the pairwise tensor, at (i, j, p) the cosine of row i of v1 with row j of v2 after both are scaled
                    by perspective p's weights, with the product of the norms clipped;
    pwMaxJR, pwMeanJR, pwMaxIR, pwMeanIR : its maxima and means over either sequence axis.
  The reference forms the scaled rows w * v explicitly, takes each norm as the square root of a sum of squares, and
  divides the inner product by the clipped norms, so each value read at an index is already the textbook formula.
-/
import proofs.«116293_j48241072668683_2_alg».proof.Proof.Gen.ReferenceIdeal
import proofs.«116293_j48241072668683_2_alg».proof.Proof.Mpm.Math
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

set_option pp.maxSteps 5000
set_option pp.deepTerms false

noncomputable section

namespace Cert.Mpm

open Idealize.ShloMosaic Idealize.ShloMosaic.ValueIdx Cert.ReferenceIdeal Cert.ReferenceIdeal.Gen
open scoped BigOperators

/-! ## Host reductions along one axis, read at coordinates -/

section HostBase
variable {φ : FTy} {u : Shape}

/-- The host's sum of a rank-3 array along its last axis, at (i, j): the initial value plus the sum over that axis. -/
theorem hostSum3_last {a b c : ℕ} (x : FVec Ideal ⟨3, ![a, b, c]⟩ φ) (init : u.Idx → Ideal φ)
    (h' : (⟨3, ![a, b, c]⟩ : Shape).ReducesTo [2] ⟨2, ![a, b]⟩) (hu : 0 < u.numel) (i : Fin a) (j : Fin b) :
    Host.reduceAdd x init h' hu (ix2 i j) = init (Shape.Idx.first hu) + ∑ k : Fin c, x (ix3 i j k) := by
  rw [hostReduceAdd_apply, Ideal.hostReduceAdd_single h' ⟨h'.1, Nat.succ_pos _, h'.2⟩]
  refine congrArg (_ + ·) (Finset.sum_congr rfl fun k _ => congrArg x ?_)
  funext d
  match d with
  | ⟨0, _⟩ => exact Fin.ext rfl
  | ⟨1, _⟩ => exact Fin.ext rfl
  | ⟨2, _⟩ => exact Fin.ext rfl

/-- The host's sum of a rank-4 array along its last axis, at (i, j, k). -/
theorem hostSum4_last {a b c d : ℕ} (x : FVec Ideal ⟨4, ![a, b, c, d]⟩ φ) (init : u.Idx → Ideal φ)
    (h' : (⟨4, ![a, b, c, d]⟩ : Shape).ReducesTo [3] ⟨3, ![a, b, c]⟩) (hu : 0 < u.numel) (i : Fin a) (j : Fin b) (k : Fin c) :
    Host.reduceAdd x init h' hu (ix3 i j k) = init (Shape.Idx.first hu) + ∑ m : Fin d, x (ix4 i j k m) := by
  rw [hostReduceAdd_apply, Ideal.hostReduceAdd_single h' ⟨h'.1, Nat.succ_pos _, h'.2⟩]
  refine congrArg (_ + ·) (Finset.sum_congr rfl fun m _ => congrArg x ?_)
  funext e
  match e with
  | ⟨0, _⟩ => exact Fin.ext rfl
  | ⟨1, _⟩ => exact Fin.ext rfl
  | ⟨2, _⟩ => exact Fin.ext rfl
  | ⟨3, _⟩ => exact Fin.ext rfl

/-- The zero the sums start from. -/
theorem zero0_first (hu : 0 < (⟨0, ![]⟩ : Shape).numel) :
    constant (F := Ideal) (⟨0, ![]⟩ : Shape) .f32 0x00000000#32 (Shape.Idx.first hu) = 0 := by
  rw [constant_apply, Ideal.ofBits_zero_f32]

/-- A square root taken on the host, at an index. -/
theorem hostSqrt_apply {s : Shape} (a : FVec Ideal s φ) (i : s.Idx) : Host.sqrt a i = Ideal.sqrt (a i) := rfl

/-- The clip value, broadcast from a scalar, reads eps everywhere. -/
theorem epsSplat_apply {T : Shape} (h : (⟨0, ![]⟩ : Shape).BroadcastsInDim T ![]) (j : T.Idx) :
    broadcastInDim T ![] h (constant (F := Ideal) (⟨0, ![]⟩ : Shape) .f32 0x322BCC77#32) j = eps := by
  rw [broadcastInDim_scalar_apply]; rfl

end HostBase

/-! ## The one-row form: v2 is a single row per batch element -/

section Defs1
variable {F : FTy → Type} [FloatOps F]

/-- The Euclidean norm of each row of a [16, 128, 100] array: the square root of the row's sum of squares. -/
def normRows (v : FVec F S16x128x100 .f32) : FVec F S16x128 .f32 :=
  Host.sqrt (Host.reduceAdd (mulf v v) (constant S_ .f32 0x00000000#32) reducesTo_S16x128x100_S16x128_d2 h_S_)

/-- The same for the single row of a [16, 1, 100] array. -/
def normRow1 (v : FVec F S16x1x100 .f32) : FVec F S16x1 .f32 :=
  Host.sqrt (Host.reduceAdd (mulf v v) (constant S_ .f32 0x00000000#32) reducesTo_S16x1x100_S16x1_d2 h_S_)

/-- The cosine column against one row: the inner product of each row of v1 with v2's row, over the product of the
    two norms, each clipped at eps. -/
def mv1R1 (v1 : FVec F S16x128x100 .f32) (v2 : FVec F S16x1x100 .f32) : FVec F S16x128x1 .f32 :=
  broadcastInDim S16x128x1 ![0, 1] bcast_S16x128_S16x128x1_0_1
    (Host.divf
      (Host.reduceAdd (mulf v1 (broadcastInDim S16x128x100 ![0, 1, 2] bcast_S16x1x100_S16x128x100_0_1_2 v2))
        (constant S_ .f32 0x00000000#32) reducesTo_S16x128x100_S16x128_d2 h_S_)
      (mulf
        (maximumf (normRows v1) (broadcastInDim S16x128 ![] bcast_S_S16x128 (constant S_ .f32 0x322BCC77#32)))
        (broadcastInDim S16x128 ![0, 1] bcast_S16x1_S16x128_0_1
          (maximumf (normRow1 v2) (broadcastInDim S16x1 ![] bcast_S_S16x1 (constant S_ .f32 0x322BCC77#32))))))

/-- Every row of v scaled by every perspective's weights: at (b, l, p, h) the product w[p, h] * v[b, l, h]. -/
def scaledRows (w : FVec F S20x100 .f32) (v : FVec F S16x128x100 .f32) : FVec F S16x128x20x100 .f32 :=
  mulf
    (broadcastInDim S16x128x20x100 ![0, 1, 2, 3] bcast_S1x1x20x100_S16x128x20x100_0_1_2_3
      (broadcastInDim S1x1x20x100 ![2, 3] bcast_S20x100_S1x1x20x100_2_3 w))
    (broadcastInDim S16x128x20x100 ![0, 1, 2, 3] bcast_S16x128x1x100_S16x128x20x100_0_1_2_3
      (broadcastInDim S16x128x1x100 ![0, 1, 3] bcast_S16x128x100_S16x128x1x100_0_1_3 v))

/-- The single row of v scaled by every perspective's weights: at (b, 0, p, h) the product w[p, h] * v[b, 0, h]. -/
def scaledRow1 (w : FVec F S20x100 .f32) (v : FVec F S16x1x100 .f32) : FVec F S16x1x20x100 .f32 :=
  mulf
    (broadcastInDim S16x1x20x100 ![0, 1, 2, 3] bcast_S1x1x20x100_S16x1x20x100_0_1_2_3
      (broadcastInDim S1x1x20x100 ![2, 3] bcast_S20x100_S1x1x20x100_2_3 w))
    (broadcastInDim S16x1x20x100 ![0, 1, 2, 3] bcast_S16x1x1x100_S16x1x20x100_0_1_2_3
      (broadcastInDim S16x1x1x100 ![0, 1, 3] bcast_S16x1x100_S16x1x1x100_0_1_3 v))

/-- The norm of each scaled row of a [16, 128, 20, 100] array. -/
def normScaled (x : FVec F S16x128x20x100 .f32) : FVec F S16x128x20 .f32 :=
  Host.sqrt (Host.reduceAdd (mulf x x) (constant S_ .f32 0x00000000#32) reducesTo_S16x128x20x100_S16x128x20_d3 h_S_)

/-- The norm of each scaled row of a [16, 1, 20, 100] array. -/
def normScaled1 (x : FVec F S16x1x20x100 .f32) : FVec F S16x1x20 .f32 :=
  Host.sqrt (Host.reduceAdd (mulf x x) (constant S_ .f32 0x00000000#32) reducesTo_S16x1x20x100_S16x1x20_d3 h_S_)

/-- The perspective block against one row: the cosine of the scaled rows of v1 with the scaled row of v2. -/
def mvpR1 (v1 : FVec F S16x128x100 .f32) (v2 : FVec F S16x1x100 .f32) (w : FVec F S20x100 .f32) : FVec F S16x128x20 .f32 :=
  Host.divf
    (Host.reduceAdd
      (mulf (scaledRows w v1)
        (broadcastInDim S16x128x20x100 ![0, 1, 2, 3] bcast_S16x1x20x100_S16x128x20x100_0_1_2_3 (scaledRow1 w v2)))
      (constant S_ .f32 0x00000000#32) reducesTo_S16x128x20x100_S16x128x20_d3 h_S_)
    (mulf
      (maximumf (normScaled (scaledRows w v1)) (broadcastInDim S16x128x20 ![] bcast_S_S16x128x20 (constant S_ .f32 0x322BCC77#32)))
      (broadcastInDim S16x128x20 ![0, 1, 2] bcast_S16x1x20_S16x128x20_0_1_2
        (maximumf (normScaled1 (scaledRow1 w v2)) (broadcastInDim S16x1x20 ![] bcast_S_S16x1x20 (constant S_ .f32 0x322BCC77#32)))))

end Defs1

/-- A row's norm on the host is the norm of the row. -/
theorem normRows_apply (v : FVec Ideal S16x128x100 .f32) (bi : Fin 16) (l : Fin 128) :
    normRows v (ix2 bi l) = nrm fun h => v (ix3 bi l h) := by
  unfold normRows
  rw [hostSqrt_apply, hostSum3_last, zero0_first, zero_add]
  rfl

/-- The single row's norm. -/
theorem normRow1_apply (v : FVec Ideal S16x1x100 .f32) (bi : Fin 16) (z : Fin 1) :
    normRow1 v (ix2 bi z) = nrm fun h => v (ix3 bi z h) := by
  unfold normRow1
  rw [hostSqrt_apply, hostSum3_last, zero0_first, zero_add]
  rfl

/-- At row l the reference's column is the clipped cosine of v1's row l with v2's row. -/
theorem mv1R1_apply (v1 : FVec Ideal S16x128x100 .f32) (v2 : FVec Ideal S16x1x100 .f32) (bi : Fin 16) (l : Fin 128) (u : Fin 1) :
    mv1R1 v1 v2 (ix3 bi l u) = cosSim (fun h => v1 (ix3 bi l h)) (fun h => v2 (ix3 bi 0 h)) := by
  unfold mv1R1
  have e0 : ∀ y : FVec Ideal S16x128 .f32,
      broadcastInDim S16x128x1 ![0, 1] bcast_S16x128_S16x128x1_0_1 y (ix3 bi l u) = y (ix2 bi l) := fun y =>
    congrArg y (funext fun a => match a with | ⟨0, _⟩ => rfl | ⟨1, _⟩ => rfl)
  have e1 : ∀ y : FVec Ideal S16x1 .f32,
      broadcastInDim S16x128 ![0, 1] bcast_S16x1_S16x128_0_1 y (ix2 bi l) = y (ix2 bi 0) := fun y =>
    congrArg y (funext fun a => match a with | ⟨0, _⟩ => rfl | ⟨1, _⟩ => rfl)
  have e2 : ∀ h : Fin 100,
      broadcastInDim S16x128x100 ![0, 1, 2] bcast_S16x1x100_S16x128x100_0_1_2 v2 (ix3 bi l h) = v2 (ix3 bi 0 h) := fun h =>
    congrArg v2 (funext fun a => match a with | ⟨0, _⟩ => rfl | ⟨1, _⟩ => rfl | ⟨2, _⟩ => rfl)
  rw [e0, hostDivf_apply, hostSum3_last, zero0_first, zero_add, mulf_apply, maximumf_apply, epsSplat_apply, e1,
    maximumf_apply, epsSplat_apply, normRows_apply, normRow1_apply]
  simp only [mulf_apply, e2]
  rfl

/-- A scaled row at (b, l, p, h) is the weight times the entry. -/
theorem scaledRows_apply (w : FVec Ideal S20x100 .f32) (v : FVec Ideal S16x128x100 .f32) (bi : Fin 16) (l : Fin 128) (p : Fin 20) (h : Fin 100) :
    scaledRows w v (ix4 bi l p h) = w (ix2 p h) * v (ix3 bi l h) := by
  unfold scaledRows
  rw [mulf_apply]
  refine congrArg₂ (· * ·) (congrArg w (funext fun a => ?_)) (congrArg v (funext fun a => ?_))
  · match a with
    | ⟨0, _⟩ => rfl
    | ⟨1, _⟩ => rfl
  · match a with
    | ⟨0, _⟩ => rfl
    | ⟨1, _⟩ => rfl
    | ⟨2, _⟩ => rfl

/-- The scaled single row at (b, 0, p, h). -/
theorem scaledRow1_apply (w : FVec Ideal S20x100 .f32) (v : FVec Ideal S16x1x100 .f32) (bi : Fin 16) (z : Fin 1) (p : Fin 20) (h : Fin 100) :
    scaledRow1 w v (ix4 bi z p h) = w (ix2 p h) * v (ix3 bi 0 h) := by
  unfold scaledRow1
  rw [mulf_apply]
  refine congrArg₂ (· * ·) (congrArg w (funext fun a => ?_)) (congrArg v (funext fun a => ?_))
  · match a with
    | ⟨0, _⟩ => rfl
    | ⟨1, _⟩ => rfl
  · match a with
    | ⟨0, _⟩ => rfl
    | ⟨1, _⟩ => rfl
    | ⟨2, _⟩ => rfl

/-- The norm of a scaled row. -/
theorem normScaled_apply (x : FVec Ideal S16x128x20x100 .f32) (bi : Fin 16) (l : Fin 128) (p : Fin 20) :
    normScaled x (ix3 bi l p) = nrm fun h => x (ix4 bi l p h) := by
  unfold normScaled
  rw [hostSqrt_apply, hostSum4_last, zero0_first, zero_add]
  rfl

/-- The norm of the scaled single row. -/
theorem normScaled1_apply (x : FVec Ideal S16x1x20x100 .f32) (bi : Fin 16) (z : Fin 1) (p : Fin 20) :
    normScaled1 x (ix3 bi z p) = nrm fun h => x (ix4 bi z p h) := by
  unfold normScaled1
  rw [hostSqrt_apply, hostSum4_last, zero0_first, zero_add]
  rfl

/-- At (l, p) the reference's block is the clipped cosine of the two rows scaled by perspective p's weights. -/
theorem mvpR1_apply (v1 : FVec Ideal S16x128x100 .f32) (v2 : FVec Ideal S16x1x100 .f32) (w : FVec Ideal S20x100 .f32)
    (bi : Fin 16) (l : Fin 128) (p : Fin 20) :
    mvpR1 v1 v2 w (ix3 bi l p)
      = cosSim (wmul (fun h => w (ix2 p h)) (fun h => v1 (ix3 bi l h))) (wmul (fun h => w (ix2 p h)) (fun h => v2 (ix3 bi 0 h))) := by
  unfold mvpR1
  have e1 : ∀ y : FVec Ideal S16x1x20 .f32,
      broadcastInDim S16x128x20 ![0, 1, 2] bcast_S16x1x20_S16x128x20_0_1_2 y (ix3 bi l p) = y (ix3 bi 0 p) := fun y =>
    congrArg y (funext fun a => match a with | ⟨0, _⟩ => rfl | ⟨1, _⟩ => rfl | ⟨2, _⟩ => rfl)
  have e2 : ∀ (y : FVec Ideal S16x1x20x100 .f32) (h : Fin 100),
      broadcastInDim S16x128x20x100 ![0, 1, 2, 3] bcast_S16x1x20x100_S16x128x20x100_0_1_2_3 y (ix4 bi l p h) = y (ix4 bi 0 p h) := fun y h =>
    congrArg y (funext fun a => match a with | ⟨0, _⟩ => rfl | ⟨1, _⟩ => rfl | ⟨2, _⟩ => rfl | ⟨3, _⟩ => rfl)
  rw [hostDivf_apply, hostSum4_last, zero0_first, zero_add, mulf_apply, maximumf_apply, epsSplat_apply, e1,
    maximumf_apply, epsSplat_apply, normScaled_apply, normScaled1_apply]
  simp only [mulf_apply, e2, scaledRows_apply, scaledRow1_apply]
  rfl

/-! ## The full form: v2 has a row for every row of v1 -/

section Defs2
variable {F : FTy → Type} [FloatOps F]

/-- The cosine column row by row: the inner product of row l of v1 with row l of v2, over the product of the two
    norms, each clipped at eps. -/
def mv1R (v1 v2 : FVec F S16x128x100 .f32) : FVec F S16x128x1 .f32 :=
  broadcastInDim S16x128x1 ![0, 1] bcast_S16x128_S16x128x1_0_1
    (Host.divf
      (Host.reduceAdd (mulf v1 v2) (constant S_ .f32 0x00000000#32) reducesTo_S16x128x100_S16x128_d2 h_S_)
      (mulf
        (maximumf (normRows v1) (broadcastInDim S16x128 ![] bcast_S_S16x128 (constant S_ .f32 0x322BCC77#32)))
        (maximumf (normRows v2) (broadcastInDim S16x128 ![] bcast_S_S16x128 (constant S_ .f32 0x322BCC77#32)))))

/-- The perspective block row by row: the cosine of the scaled rows of v1 with the scaled rows of v2. -/
def mvpR (v1 v2 : FVec F S16x128x100 .f32) (w : FVec F S20x100 .f32) : FVec F S16x128x20 .f32 :=
  Host.divf
    (Host.reduceAdd (mulf (scaledRows w v1) (scaledRows w v2)) (constant S_ .f32 0x00000000#32) reducesTo_S16x128x20x100_S16x128x20_d3 h_S_)
    (mulf
      (maximumf (normScaled (scaledRows w v1)) (broadcastInDim S16x128x20 ![] bcast_S_S16x128x20 (constant S_ .f32 0x322BCC77#32)))
      (maximumf (normScaled (scaledRows w v2)) (broadcastInDim S16x128x20 ![] bcast_S_S16x128x20 (constant S_ .f32 0x322BCC77#32))))

end Defs2

/-- At row l the column is the clipped cosine of the two rows l. -/
theorem mv1R_apply (v1 v2 : FVec Ideal S16x128x100 .f32) (bi : Fin 16) (l : Fin 128) (u : Fin 1) :
    mv1R v1 v2 (ix3 bi l u) = cosSim (fun h => v1 (ix3 bi l h)) (fun h => v2 (ix3 bi l h)) := by
  unfold mv1R
  have e0 : ∀ y : FVec Ideal S16x128 .f32,
      broadcastInDim S16x128x1 ![0, 1] bcast_S16x128_S16x128x1_0_1 y (ix3 bi l u) = y (ix2 bi l) := fun y =>
    congrArg y (funext fun a => match a with | ⟨0, _⟩ => rfl | ⟨1, _⟩ => rfl)
  rw [e0, hostDivf_apply, hostSum3_last, zero0_first, zero_add, mulf_apply, maximumf_apply, epsSplat_apply,
    maximumf_apply, epsSplat_apply, normRows_apply, normRows_apply]
  simp only [mulf_apply]
  rfl

/-- At (l, p) the block is the clipped cosine of the two rows l scaled by perspective p's weights. -/
theorem mvpR_apply (v1 v2 : FVec Ideal S16x128x100 .f32) (w : FVec Ideal S20x100 .f32) (bi : Fin 16) (l : Fin 128) (p : Fin 20) :
    mvpR v1 v2 w (ix3 bi l p)
      = cosSim (wmul (fun h => w (ix2 p h)) (fun h => v1 (ix3 bi l h))) (wmul (fun h => w (ix2 p h)) (fun h => v2 (ix3 bi l h))) := by
  unfold mvpR
  rw [hostDivf_apply, hostSum4_last, zero0_first, zero_add, mulf_apply, maximumf_apply, epsSplat_apply,
    maximumf_apply, epsSplat_apply, normScaled_apply, normScaled_apply]
  simp only [mulf_apply, scaledRows_apply]
  rfl

/-! ## The pairwise tensor -/

section HostBase2
variable {φ : FTy} {u : Shape}

/-- The host's sum of a rank-4 array along its third axis, at (i, j, m). -/
theorem hostSum4_ax2 {a b c d : ℕ} (x : FVec Ideal ⟨4, ![a, b, c, d]⟩ φ) (init : u.Idx → Ideal φ)
    (h' : (⟨4, ![a, b, c, d]⟩ : Shape).ReducesTo [2] ⟨3, ![a, b, d]⟩) (hu : 0 < u.numel) (i : Fin a) (j : Fin b) (m : Fin d) :
    Host.reduceAdd x init h' hu (ix3 i j m) = init (Shape.Idx.first hu) + ∑ k : Fin c, x (ix4 i j k m) := by
  rw [hostReduceAdd_apply, Ideal.hostReduceAdd_single h' ⟨h'.1, Nat.succ_pos _, h'.2⟩]
  refine congrArg (_ + ·) (Finset.sum_congr rfl fun k _ => congrArg x ?_)
  funext e
  match e with
  | ⟨0, _⟩ => exact Fin.ext rfl
  | ⟨1, _⟩ => exact Fin.ext rfl
  | ⟨2, _⟩ => exact Fin.ext rfl
  | ⟨3, _⟩ => exact Fin.ext rfl

/-- The host's sum of a rank-4 array along its second axis, at (i, k, m). -/
theorem hostSum4_ax1 {a b c d : ℕ} (x : FVec Ideal ⟨4, ![a, b, c, d]⟩ φ) (init : u.Idx → Ideal φ)
    (h' : (⟨4, ![a, b, c, d]⟩ : Shape).ReducesTo [1] ⟨3, ![a, c, d]⟩) (hu : 0 < u.numel) (i : Fin a) (k : Fin c) (m : Fin d) :
    Host.reduceAdd x init h' hu (ix3 i k m) = init (Shape.Idx.first hu) + ∑ j : Fin b, x (ix4 i j k m) := by
  rw [hostReduceAdd_apply, Ideal.hostReduceAdd_single h' ⟨h'.1, Nat.succ_pos _, h'.2⟩]
  refine congrArg (_ + ·) (Finset.sum_congr rfl fun j _ => congrArg x ?_)
  funext e
  match e with
  | ⟨0, _⟩ => exact Fin.ext rfl
  | ⟨1, _⟩ => exact Fin.ext rfl
  | ⟨2, _⟩ => exact Fin.ext rfl
  | ⟨3, _⟩ => exact Fin.ext rfl

/-- The host's maximum of a rank-4 array along its third axis, at (i, j, m): the fold of max from the initial value. -/
theorem hostMax4_ax2 {a b c d : ℕ} (x : FVec Ideal ⟨4, ![a, b, c, d]⟩ φ) (init : u.Idx → Ideal φ)
    (h' : (⟨4, ![a, b, c, d]⟩ : Shape).ReducesTo [2] ⟨3, ![a, b, d]⟩) (hu : 0 < u.numel) (i : Fin a) (j : Fin b) (m : Fin d) :
    Host.reduce FloatOps.maximumf x init h' hu (ix3 i j m)
      = (Finset.univ : Finset (Fin c)).fold max (init (Shape.Idx.first hu)) fun k => x (ix4 i j k m) := by
  rw [Host.reduce_eq_fold_single FloatOps.maximumf x init h' ⟨h'.1, Nat.succ_pos _, h'.2⟩ hu]
  refine congrArg (Finset.fold max _ · Finset.univ) (funext fun k => congrArg x ?_)
  funext e
  match e with
  | ⟨0, _⟩ => exact Fin.ext rfl
  | ⟨1, _⟩ => exact Fin.ext rfl
  | ⟨2, _⟩ => exact Fin.ext rfl
  | ⟨3, _⟩ => exact Fin.ext rfl

/-- The host's maximum of a rank-4 array along its second axis, at (i, k, m). -/
theorem hostMax4_ax1 {a b c d : ℕ} (x : FVec Ideal ⟨4, ![a, b, c, d]⟩ φ) (init : u.Idx → Ideal φ)
    (h' : (⟨4, ![a, b, c, d]⟩ : Shape).ReducesTo [1] ⟨3, ![a, c, d]⟩) (hu : 0 < u.numel) (i : Fin a) (k : Fin c) (m : Fin d) :
    Host.reduce FloatOps.maximumf x init h' hu (ix3 i k m)
      = (Finset.univ : Finset (Fin b)).fold max (init (Shape.Idx.first hu)) fun j => x (ix4 i j k m) := by
  rw [Host.reduce_eq_fold_single FloatOps.maximumf x init h' ⟨h'.1, Nat.succ_pos _, h'.2⟩ hu]
  refine congrArg (Finset.fold max _ · Finset.univ) (funext fun j => congrArg x ?_)
  funext e
  match e with
  | ⟨0, _⟩ => exact Fin.ext rfl
  | ⟨1, _⟩ => exact Fin.ext rfl
  | ⟨2, _⟩ => exact Fin.ext rfl
  | ⟨3, _⟩ => exact Fin.ext rfl

end HostBase2

section Defs3
variable {F : FTy → Type} [FloatOps F]

/-- Every row of v scaled by every perspective's weights, the perspective axis second: at (b, p, i, h) the product
    w[p, h] * v[b, i, h]. -/
def scaledP (w : FVec F S20x100 .f32) (v : FVec F S16x128x100 .f32) : FVec F S16x20x128x100 .f32 :=
  mulf
    (broadcastInDim S16x20x128x100 ![0, 1, 2, 3] bcast_S1x20x1x100_S16x20x128x100_0_1_2_3
      (broadcastInDim S1x20x1x100 ![1, 3] bcast_S20x100_S1x20x1x100_1_3 w))
    (broadcastInDim S16x20x128x100 ![0, 1, 2, 3] bcast_S16x1x128x100_S16x20x128x100_0_1_2_3
      (broadcastInDim S16x1x128x100 ![0, 2, 3] bcast_S16x128x100_S16x1x128x100_0_2_3 v))

/-- The norm of each scaled row of a [16, 20, 128, 100] array. -/
def normP (x : FVec F S16x20x128x100 .f32) : FVec F S16x20x128 .f32 :=
  Host.sqrt (Host.reduceAdd (mulf x x) (constant S_ .f32 0x00000000#32) reducesTo_S16x20x128x100_S16x20x128_d3 h_S_)

/-- The pairwise tensor: the inner products of the scaled rows of v1 with the scaled rows of v2, over the product of
    their norms clipped at eps, with the perspective axis moved last. -/
def pwR (v1 v2 : FVec F S16x128x100 .f32) (w : FVec F S20x100 .f32) : FVec F S16x128x128x20 .f32 :=
  transpose S16x128x128x20 [0, 2, 3, 1]
    (Host.divf
      (Host.dotGeneral dot_S16x20x128x100_S16x20x128x100_S16x20x128x128_3_3_2_2_01_01 none (scaledP w v1) (scaledP w v2))
      (maximumf
        (mulf
          (broadcastInDim S16x20x128x128 ![0, 1, 2, 3] bcast_S16x20x128x1_S16x20x128x128_0_1_2_3
            (broadcastInDim S16x20x128x1 ![0, 1, 2] bcast_S16x20x128_S16x20x128x1_0_1_2 (normP (scaledP w v1))))
          (broadcastInDim S16x20x128x128 ![0, 1, 2, 3] bcast_S16x20x1x128_S16x20x128x128_0_1_2_3
            (broadcastInDim S16x20x1x128 ![0, 1, 3] bcast_S16x20x128_S16x20x1x128_0_1_3 (normP (scaledP w v2)))))
        (broadcastInDim S16x20x128x128 ![] bcast_S_S16x20x128x128 (constant S_ .f32 0x322BCC77#32))))
    transposes_S16x20x128x128_S16x128x128x20_0_2_3_1

/-- The maximum of the pairwise tensor over the second sequence axis. -/
def pwMaxJR (t : FVec F S16x128x128x20 .f32) : FVec F S16x128x20 .f32 :=
  Host.reduce FloatOps.maximumf t (constant S_ .f32 0xFF800000#32) reducesTo_S16x128x128x20_S16x128x20_d2 h_S_

/-- The mean of the pairwise tensor over the second sequence axis. -/
def pwMeanJR (t : FVec F S16x128x128x20 .f32) : FVec F S16x128x20 .f32 :=
  Host.divf (Host.reduceAdd t (constant S_ .f32 0x00000000#32) reducesTo_S16x128x128x20_S16x128x20_d2 h_S_)
    (broadcastInDim S16x128x20 ![] bcast_S_S16x128x20 (constant S_ .f32 0x43000000#32))

/-- The maximum of the pairwise tensor over the first sequence axis. -/
def pwMaxIR (t : FVec F S16x128x128x20 .f32) : FVec F S16x128x20 .f32 :=
  Host.reduce FloatOps.maximumf t (constant S_ .f32 0xFF800000#32) reducesTo_S16x128x128x20_S16x128x20_d1 h_S_

/-- The mean of the pairwise tensor over the first sequence axis. -/
def pwMeanIR (t : FVec F S16x128x128x20 .f32) : FVec F S16x128x20 .f32 :=
  Host.divf (Host.reduceAdd t (constant S_ .f32 0x00000000#32) reducesTo_S16x128x128x20_S16x128x20_d1 h_S_)
    (broadcastInDim S16x128x20 ![] bcast_S_S16x128x20 (constant S_ .f32 0x43000000#32))

end Defs3

/-- A scaled row at (b, p, i, h) is the weight times the entry. -/
theorem scaledP_apply (w : FVec Ideal S20x100 .f32) (v : FVec Ideal S16x128x100 .f32) (bi : Fin 16) (p : Fin 20) (i : Fin 128) (h : Fin 100) :
    scaledP w v (ix4 bi p i h) = w (ix2 p h) * v (ix3 bi i h) := by
  unfold scaledP
  rw [mulf_apply]
  refine congrArg₂ (· * ·) (congrArg w (funext fun a => ?_)) (congrArg v (funext fun a => ?_))
  · match a with
    | ⟨0, _⟩ => rfl
    | ⟨1, _⟩ => rfl
  · match a with
    | ⟨0, _⟩ => rfl
    | ⟨1, _⟩ => rfl
    | ⟨2, _⟩ => rfl

/-- The norm of a scaled row, perspective axis second. -/
theorem normP_apply (x : FVec Ideal S16x20x128x100 .f32) (bi : Fin 16) (p : Fin 20) (i : Fin 128) :
    normP x (ix3 bi p i) = nrm fun h => x (ix4 bi p i h) := by
  unfold normP
  rw [hostSqrt_apply, hostSum4_last, zero0_first, zero_add]
  rfl

/-- The dimension numbers of the pairwise contraction: batched over the first two axes, contracting the last. -/
local notation "dotP" => dot_S16x20x128x100_S16x20x128x100_S16x20x128x128_3_3_2_2_01_01

/-- The left operand's index on its batch axis 0. -/
private theorem dotP_lhs0 (i : S16x20x128x128.Idx) (q : (dotP).contr.Idx) : ((dotP).lhsIdx i q 0).val = (i 0).val := by
  unfold DotDims.lhsIdx
  rw [dif_pos (show (0 : Fin S16x20x128x100.rank) ∈ (dotP).lhsBatch by decide)]
  rfl
/-- The left operand's index on its batch axis 1. -/
private theorem dotP_lhs1 (i : S16x20x128x128.Idx) (q : (dotP).contr.Idx) : ((dotP).lhsIdx i q 1).val = (i 1).val := by
  unfold DotDims.lhsIdx
  rw [dif_pos (show (1 : Fin S16x20x128x100.rank) ∈ (dotP).lhsBatch by decide)]
  rfl
/-- The left operand's index on its free axis 2. -/
private theorem dotP_lhs2 (i : S16x20x128x128.Idx) (q : (dotP).contr.Idx) : ((dotP).lhsIdx i q 2).val = (i 2).val := by
  unfold DotDims.lhsIdx
  rw [dif_neg (show ¬(2 : Fin S16x20x128x100.rank) ∈ (dotP).lhsBatch by decide),
    dif_pos (show (2 : Fin S16x20x128x100.rank) ∈ (dotP).lhsNonContracting by decide)]
  rfl
/-- The left operand's index on its contracted axis 3. -/
private theorem dotP_lhs3 (i : S16x20x128x128.Idx) (q : (dotP).contr.Idx) : ((dotP).lhsIdx i q 3).val = (q ⟨0, by decide⟩).val :=
  (dotP).lhsIdx_val_of_single rfl i q
/-- The right operand's index on its batch axis 0. -/
private theorem dotP_rhs0 (i : S16x20x128x128.Idx) (q : (dotP).contr.Idx) : ((dotP).rhsIdx i q 0).val = (i 0).val := by
  unfold DotDims.rhsIdx
  rw [dif_pos (show (0 : Fin S16x20x128x100.rank) ∈ (dotP).rhsBatch by decide)]
  rfl
/-- The right operand's index on its batch axis 1. -/
private theorem dotP_rhs1 (i : S16x20x128x128.Idx) (q : (dotP).contr.Idx) : ((dotP).rhsIdx i q 1).val = (i 1).val := by
  unfold DotDims.rhsIdx
  rw [dif_pos (show (1 : Fin S16x20x128x100.rank) ∈ (dotP).rhsBatch by decide)]
  rfl
/-- The right operand's index on its free axis 2: the result's last coordinate. -/
private theorem dotP_rhs2 (i : S16x20x128x128.Idx) (q : (dotP).contr.Idx) : ((dotP).rhsIdx i q 2).val = (i 3).val := by
  unfold DotDims.rhsIdx
  rw [dif_neg (show ¬(2 : Fin S16x20x128x100.rank) ∈ (dotP).rhsBatch by decide),
    dif_pos (show (2 : Fin S16x20x128x100.rank) ∈ (dotP).rhsNonContracting by decide)]
  rfl
/-- The right operand's index on its contracted axis 3. -/
private theorem dotP_rhs3 (i : S16x20x128x128.Idx) (q : (dotP).contr.Idx) : ((dotP).rhsIdx i q 3).val = (q ⟨0, by decide⟩).val :=
  (dotP).rhsIdx_val_of_single rfl i q

/-- The batched contraction of two [16, 20, 128, 100] arrays over their last axis, batched over the first two: at
    (b, p, i, j) the inner product of row (b, p, i) of the first with row (b, p, j) of the second. -/
theorem dotPairs_apply (x y : FVec Ideal S16x20x128x100 .f32) (bi : Fin 16) (p : Fin 20) (i j : Fin 128) :
    Host.dotGeneral dotP none x y (ix4 bi p i j) = ∑ h : Fin 100, x (ix4 bi p i h) * y (ix4 bi p j h) := by
  simp only [Host.dotGeneral]
  rw [Ideal.dotGeneral_apply, ← Equiv.sum_comp (contrEquiv1 dotP 100 rfl rfl).symm]
  refine Finset.sum_congr rfl fun k _ => ?_
  have hk := contrEquiv1_symm_val dotP 100 rfl rfl k
  have el : (dotP).lhsIdx (ix4 bi p i j) ((contrEquiv1 dotP 100 rfl rfl).symm k) = ix4 bi p i k :=
    funext fun a => Fin.ext (by
      match a with
      | ⟨0, _⟩ => exact dotP_lhs0 _ _
      | ⟨1, _⟩ => exact dotP_lhs1 _ _
      | ⟨2, _⟩ => exact dotP_lhs2 _ _
      | ⟨3, _⟩ => exact (dotP_lhs3 _ _).trans hk)
  have er : (dotP).rhsIdx (ix4 bi p i j) ((contrEquiv1 dotP 100 rfl rfl).symm k) = ix4 bi p j k :=
    funext fun a => Fin.ext (by
      match a with
      | ⟨0, _⟩ => exact dotP_rhs0 _ _
      | ⟨1, _⟩ => exact dotP_rhs1 _ _
      | ⟨2, _⟩ => exact dotP_rhs2 _ _
      | ⟨3, _⟩ => exact (dotP_rhs3 _ _).trans hk)
  rw [el, er]

/-- At (i, j, p) the pairwise tensor is the cosine of row i of v1 with row j of v2, both scaled by perspective p's
    weights, with the product of the norms clipped at eps. -/
theorem pwR_apply (v1 v2 : FVec Ideal S16x128x100 .f32) (w : FVec Ideal S20x100 .f32) (bi : Fin 16) (i j : Fin 128) (p : Fin 20) :
    pwR v1 v2 w (ix4 bi i j p)
      = cosPair (wmul (fun h => w (ix2 p h)) (fun h => v1 (ix3 bi i h))) (wmul (fun h => w (ix2 p h)) (fun h => v2 (ix3 bi j h))) := by
  unfold pwR
  rw [transpose_apply [0, 2, 3, 1] _ transposes_S16x20x128x128_S16x128x128x20_0_2_3_1 (ix4 bi i j p) (ix4 bi p i j)
    (fun b => match b with | ⟨0, _⟩ => rfl | ⟨1, _⟩ => rfl | ⟨2, _⟩ => rfl | ⟨3, _⟩ => rfl)]
  have e1 : ∀ y : FVec Ideal S16x20x128 .f32,
      broadcastInDim S16x20x128x128 ![0, 1, 2, 3] bcast_S16x20x128x1_S16x20x128x128_0_1_2_3
        (broadcastInDim S16x20x128x1 ![0, 1, 2] bcast_S16x20x128_S16x20x128x1_0_1_2 y) (ix4 bi p i j) = y (ix3 bi p i) := fun y =>
    congrArg y (funext fun a => match a with | ⟨0, _⟩ => rfl | ⟨1, _⟩ => rfl | ⟨2, _⟩ => rfl)
  have e2 : ∀ y : FVec Ideal S16x20x128 .f32,
      broadcastInDim S16x20x128x128 ![0, 1, 2, 3] bcast_S16x20x1x128_S16x20x128x128_0_1_2_3
        (broadcastInDim S16x20x1x128 ![0, 1, 3] bcast_S16x20x128_S16x20x1x128_0_1_3 y) (ix4 bi p i j) = y (ix3 bi p j) := fun y =>
    congrArg y (funext fun a => match a with | ⟨0, _⟩ => rfl | ⟨1, _⟩ => rfl | ⟨2, _⟩ => rfl)
  rw [hostDivf_apply, dotPairs_apply, maximumf_apply, epsSplat_apply, mulf_apply, e1, e2, normP_apply, normP_apply]
  simp only [scaledP_apply]
  rfl

/-- The maximum over j of the pairwise tensor, from -inf. -/
theorem pwMaxJR_apply (t : FVec Ideal S16x128x128x20 .f32) (bi : Fin 16) (i : Fin 128) (p : Fin 20) :
    pwMaxJR t (ix3 bi i p) = fmax fun j => t (ix4 bi i j p) := by
  unfold pwMaxJR
  rw [hostMax4_ax2]
  rfl

/-- The mean over j of the pairwise tensor. -/
theorem pwMeanJR_apply (t : FVec Ideal S16x128x128x20 .f32) (bi : Fin 16) (i : Fin 128) (p : Fin 20) :
    pwMeanJR t (ix3 bi i p) = fmean fun j => t (ix4 bi i j p) := by
  unfold pwMeanJR
  rw [hostDivf_apply, hostSum4_ax2, zero0_first, zero_add, broadcastInDim_scalar_apply]
  rfl

/-- The maximum over i of the pairwise tensor, from -inf. -/
theorem pwMaxIR_apply (t : FVec Ideal S16x128x128x20 .f32) (bi : Fin 16) (j : Fin 128) (p : Fin 20) :
    pwMaxIR t (ix3 bi j p) = fmax fun i => t (ix4 bi i j p) := by
  unfold pwMaxIR
  rw [hostMax4_ax1]
  rfl

/-- The mean over i of the pairwise tensor. -/
theorem pwMeanIR_apply (t : FVec Ideal S16x128x128x20 .f32) (bi : Fin 16) (j : Fin 128) (p : Fin 20) :
    pwMeanIR t (ix3 bi j p) = fmean fun i => t (ix4 bi i j p) := by
  unfold pwMeanIR
  rw [hostDivf_apply, hostSum4_ax1, zero0_first, zero_add, broadcastInDim_scalar_apply]
  rfl

end Cert.Mpm
end
-- ==== Proof.Mpm.RDefs.lean ====
/-
  The reference's two results as compositions of its functions.
  From the five arguments (x0 premise states [16,128,200], x1 premise mask [16,128], x2 hypothesis states, x3 hypothesis
  mask, x4 weights [8,20,100]) the program takes the forward and backward halves of each sequence, each sequence's last
  forward state (an indexed read at the clipped mask sum) and first backward state (row 0), the eight weight matrices,
  and the two cosine tensors; each result is the concatenation, along the last axis, of twenty pieces computed from
  these. rowsR reads the same inputs for ONE batch element as the rows of Spec.lean.
-/
import proofs.«116293_j48241072668683_2_alg».proof.Proof.Gen.ReferenceIdeal
import proofs.«116293_j48241072668683_2_alg».proof.Proof.Mpm.RLast
import proofs.«116293_j48241072668683_2_alg».proof.Proof.Mpm.RCos
import proofs.«116293_j48241072668683_2_alg».proof.Proof.Mpm.RMpm
import proofs.«116293_j48241072668683_2_alg».proof.Proof.Mpm.Spec
import Idealize.ShloMosaic.Lib.ValueIdx

noncomputable section

namespace Cert.Mpm

open Idealize.ShloMosaic Idealize.ShloMosaic.ValueIdx Cert.ReferenceIdeal Cert.ReferenceIdeal.Gen

section Defs
variable {F : FTy → Type} [FloatOps F]

/-- The forward half (features 0..99) of a sequence array. -/
def pfR (x : FVec F S16x128x200 .f32) : FVec F S16x128x100 .f32 :=
  extractStridedSlice S16x128x100 ![0, 0, 0] x slices_S16x128x200_S16x128x100_0_0_0
/-- The backward half (features 100..199). -/
def pbR (x : FVec F S16x128x200 .f32) : FVec F S16x128x100 .f32 :=
  extractStridedSlice S16x128x100 ![0, 0, 100] x slices_S16x128x200_S16x128x100_0_0_100
/-- Row 0 of every batch element, kept as [16, 1, 100]. -/
def firstRowR (v : FVec F S16x128x100 .f32) : FVec F S16x1x100 .f32 :=
  extractStridedSlice S16x1x100 ![0, 0, 0] v slices_S16x128x100_S16x1x100_0_0_0

/-- The eight weight matrices [20, 100]. -/
def wR0 (x4 : FVec F S8x20x100 .f32) : FVec F S20x100 .f32 := shapeCast _ (extractStridedSlice S1x20x100 ![0, 0, 0] x4 slices_S8x20x100_S1x20x100_0_0_0) shapeCasts_S1x20x100_S20x100
def wR1 (x4 : FVec F S8x20x100 .f32) : FVec F S20x100 .f32 := shapeCast _ (extractStridedSlice S1x20x100 ![1, 0, 0] x4 slices_S8x20x100_S1x20x100_1_0_0) shapeCasts_S1x20x100_S20x100
def wR2 (x4 : FVec F S8x20x100 .f32) : FVec F S20x100 .f32 := shapeCast _ (extractStridedSlice S1x20x100 ![2, 0, 0] x4 slices_S8x20x100_S1x20x100_2_0_0) shapeCasts_S1x20x100_S20x100
def wR3 (x4 : FVec F S8x20x100 .f32) : FVec F S20x100 .f32 := shapeCast _ (extractStridedSlice S1x20x100 ![3, 0, 0] x4 slices_S8x20x100_S1x20x100_3_0_0) shapeCasts_S1x20x100_S20x100
def wR4 (x4 : FVec F S8x20x100 .f32) : FVec F S20x100 .f32 := shapeCast _ (extractStridedSlice S1x20x100 ![4, 0, 0] x4 slices_S8x20x100_S1x20x100_4_0_0) shapeCasts_S1x20x100_S20x100
def wR5 (x4 : FVec F S8x20x100 .f32) : FVec F S20x100 .f32 := shapeCast _ (extractStridedSlice S1x20x100 ![5, 0, 0] x4 slices_S8x20x100_S1x20x100_5_0_0) shapeCasts_S1x20x100_S20x100
def wR6 (x4 : FVec F S8x20x100 .f32) : FVec F S20x100 .f32 := shapeCast _ (extractStridedSlice S1x20x100 ![6, 0, 0] x4 slices_S8x20x100_S1x20x100_6_0_0) shapeCasts_S1x20x100_S20x100
def wR7 (x4 : FVec F S8x20x100 .f32) : FVec F S20x100 .f32 := shapeCast _ (extractStridedSlice S1x20x100 ![7, 0, 0] x4 slices_S8x20x100_S1x20x100_7_0_0) shapeCasts_S1x20x100_S20x100

/-- The last forward state of the premise / of the hypothesis, [16, 1, 100]. -/
def plR (x0 : FVec F S16x128x200 .f32) (x1 : IVec S16x128 32) : FVec F S16x1x100 .f32 := gatherLastR (pfR x0) (lastIdxR x1)
def hlR (x2 : FVec F S16x128x200 .f32) (x3 : IVec S16x128 32) : FVec F S16x1x100 .f32 := gatherLastR (pfR x2) (lastIdxR x3)

/-- The forward and the backward cosine tensors [16, 128, 128]. -/
def cfR (x0 x2 : FVec F S16x128x200 .f32) : FVec F S16x128x128 .f32 := cosR (pfR x0) (pfR x2)
def cbR (x0 x2 : FVec F S16x128x200 .f32) : FVec F S16x128x128 .f32 := cosR (pbR x0) (pbR x2)

end Defs

/-- The rows of batch element b, read off the reference's arguments. -/
def rowsR (x0 : FVec Ideal S16x128x200 .f32) (x1 : IVec S16x128 32) (x2 : FVec Ideal S16x128x200 .f32) (x3 : IVec S16x128 32)
    (x4 : FVec Ideal S8x20x100 .f32) (b : Fin 16) : Rows where
  pf l h := x0 (ix3 b l ⟨h.val, by omega⟩)
  pb l h := x0 (ix3 b l ⟨100 + h.val, by omega⟩)
  hf l h := x2 (ix3 b l ⟨h.val, by omega⟩)
  hb l h := x2 (ix3 b l ⟨100 + h.val, by omega⟩)
  pl h := plR x0 x1 (ix3 b 0 h)
  hl h := hlR x2 x3 (ix3 b 0 h)
  w k p h := x4 (ix3 k p h)

end Cert.Mpm
end
-- ==== Proof.Mpm.ROut.lean ====
/-
  The reference's two results, each the join along the last axis of twenty pieces (sixteen, then four), written as
  compositions of the reference's functions, and read column by column for one batch element: every one of the 210
  columns of either result is the entry the specification names, a function of the rows of that batch element alone.
  A join read at a column is the piece whose span holds the column, at the column less the widths before it; the piece
  is then read by its own formula, and the halves, first rows and weight matrices it is applied to are read off the
  arguments.
-/
import proofs.«116293_j48241072668683_2_alg».proof.Proof.Mpm.RDefs
import Idealize.ShloMosaic.Lib.ValueIdx
import Idealize.ShloMosaic.Lib.ValueLayout
import Idealize.ShloMosaic.Lib.Pipeline.Value

set_option pp.maxSteps 5000
set_option pp.deepTerms false

noncomputable section

namespace Cert.Mpm

open Idealize.ShloMosaic Idealize.ShloMosaic.ValueIdx Cert.ReferenceIdeal Cert.ReferenceIdeal.Gen
open scoped BigOperators

/-! ### The join of twenty pieces along the last axis -/

section Join
variable {α : Type}

/-- The width of a piece along the last axis of a [16, 128, N] join. -/
abbrev lastWidth (N : ℕ) (s : Shape) : ℕ :=
  if h : s.rank = (⟨3, ![16, 128, N]⟩ : Shape).rank then s.size ((2 : Fin (⟨3, ![16, 128, N]⟩ : Shape).rank).cast h.symm) else 0

/-- A join along the last axis of arrays [16, 128, ·], read at (b, l, col) where col = pre + c, pre the total width of
    the pieces before piece k (computed from the list of the pieces' shapes) and c a column of piece k: it is piece k
    at (b, l, c). -/
theorem cat3_apply {N : ℕ} (xs : List ((s : Shape) × (s.Idx → α)))
    (h : Shape.Concatenates (xs.map (·.1)) (⟨3, ![16, 128, N]⟩ : Shape) 2) (k : ℕ) (hk : k < xs.length) (n : ℕ)
    (x₁ : (⟨3, ![16, 128, n]⟩ : Shape).Idx → α) (hxk : xs[k] = ⟨⟨3, ![16, 128, n]⟩, x₁⟩)
    (shapes : List Shape) (hshapes : xs.map (·.1) = shapes) (pre : ℕ)
    (hpre : ((shapes.take k).map (lastWidth N)).sum = pre)
    (b : Fin 16) (l : Fin 128) (c : Fin n) (col : Fin N) (hcol : pre + c.val = col.val) :
    concatenate (⟨3, ![16, 128, N]⟩ : Shape) 2 xs h (ix3 b l col) = x₁ (ix3 b l c) :=
  concatenate_apply_piece 2 xs h _ k hk _ x₁ hxk rfl pre (by rw [List.map_take, hshapes]; exact hpre) (ix3 b l c)
    (fun d hd => match d, hd with
      | ⟨0, _⟩, _ => rfl
      | ⟨1, _⟩, _ => rfl
      | ⟨2, _⟩, hd => absurd (Fin.ext rfl) hd) hcol

/-- The shapes of the sixteen pieces, of the four, and of the two joins. -/
abbrev shapes16 : List Shape := [S16x128x1, S16x128x1, S16x128x1, S16x128x1, S16x128x1, S16x128x20, S16x128x1, S16x128x20, S16x128x20, S16x128x20, S16x128x20, S16x128x20, S16x128x1, S16x128x20, S16x128x1, S16x128x20]
abbrev shapes4 : List Shape := [S16x128x1, S16x128x20, S16x128x1, S16x128x20]
abbrev shapes2 : List Shape := [S16x128x168, S16x128x42]

/-- The first sixteen pieces joined: five single columns, a block of twenty, a column, five blocks, a column, a block,
    a column, a block; 168 columns. -/
def join16 (u0 u1 u2 u3 u4 : S16x128x1.Idx → α) (u5 : S16x128x20.Idx → α) (u6 : S16x128x1.Idx → α)
    (u7 u8 u9 u10 u11 : S16x128x20.Idx → α) (u12 : S16x128x1.Idx → α) (u13 : S16x128x20.Idx → α)
    (u14 : S16x128x1.Idx → α) (u15 : S16x128x20.Idx → α) : S16x128x168.Idx → α :=
  concatenate S16x128x168 2 [⟨S16x128x1, u0⟩, ⟨S16x128x1, u1⟩, ⟨S16x128x1, u2⟩, ⟨S16x128x1, u3⟩, ⟨S16x128x1, u4⟩, ⟨S16x128x20, u5⟩, ⟨S16x128x1, u6⟩, ⟨S16x128x20, u7⟩, ⟨S16x128x20, u8⟩, ⟨S16x128x20, u9⟩, ⟨S16x128x20, u10⟩, ⟨S16x128x20, u11⟩, ⟨S16x128x1, u12⟩, ⟨S16x128x20, u13⟩, ⟨S16x128x1, u14⟩, ⟨S16x128x20, u15⟩] concatenates_S16x128x1_S16x128x1_S16x128x1_S16x128x1_S16x128x1_S16x128x20_S16x128x1_S16x128x20_S16x128x20_S16x128x20_S16x128x20_S16x128x20_S16x128x1_S16x128x20_S16x128x1_S16x128x20_S16x128x168_d2

/-- The last four pieces joined: a column, a block of twenty, a column, a block; 42 columns. -/
def join4 (t0 : S16x128x1.Idx → α) (t1 : S16x128x20.Idx → α) (t2 : S16x128x1.Idx → α) (t3 : S16x128x20.Idx → α) :
    S16x128x42.Idx → α :=
  concatenate S16x128x42 2 [⟨S16x128x1, t0⟩, ⟨S16x128x20, t1⟩, ⟨S16x128x1, t2⟩, ⟨S16x128x20, t3⟩] concatenates_S16x128x1_S16x128x20_S16x128x1_S16x128x20_S16x128x42_d2

/-- The two joins side by side; 210 columns. -/
def join2 (a : S16x128x168.Idx → α) (c : S16x128x42.Idx → α) : S16x128x210.Idx → α :=
  concatenate S16x128x210 2 [⟨S16x128x168, a⟩, ⟨S16x128x42, c⟩] concatenates_S16x128x168_S16x128x42_S16x128x210_d2

/-- A column below 168 of the whole is that column of the first join. -/
theorem join2_left (a : S16x128x168.Idx → α) (c : S16x128x42.Idx → α) (b : Fin 16) (l : Fin 128) (k : Fin 168) (col : Fin 210)
    (hcol : k.val = col.val) : join2 a c (ix3 b l col) = a (ix3 b l k) :=
  cat3_apply _ _ 0 (by show (0 : ℕ) < 2; decide) 168 a rfl shapes2 rfl 0 (by decide) b l k col (by rw [Nat.zero_add]; exact hcol)

/-- A column 168 + k of the whole is column k of the second join. -/
theorem join2_right (a : S16x128x168.Idx → α) (c : S16x128x42.Idx → α) (b : Fin 16) (l : Fin 128) (k : Fin 42) (col : Fin 210)
    (hcol : 168 + k.val = col.val) : join2 a c (ix3 b l col) = c (ix3 b l k) :=
  cat3_apply _ _ 1 (by show (1 : ℕ) < 2; decide) 42 c rfl shapes2 rfl 168 (by decide) b l k col hcol

variable {u0 u1 u2 u3 u4 : S16x128x1.Idx → α} {u5 : S16x128x20.Idx → α} {u6 : S16x128x1.Idx → α}
  {u7 u8 u9 u10 u11 : S16x128x20.Idx → α} {u12 : S16x128x1.Idx → α} {u13 : S16x128x20.Idx → α}
  {u14 : S16x128x1.Idx → α} {u15 : S16x128x20.Idx → α}
  {t0 : S16x128x1.Idx → α} {t1 : S16x128x20.Idx → α} {t2 : S16x128x1.Idx → α} {t3 : S16x128x20.Idx → α}
  (b : Fin 16) (l : Fin 128)

/-- The whole join of the twenty pieces. -/
local notation "joined" => join2 (join16 u0 u1 u2 u3 u4 u5 u6 u7 u8 u9 u10 u11 u12 u13 u14 u15) (join4 t0 t1 t2 t3)

/-- Column 0 is the first piece. -/
theorem joined_at0 : joined (ix3 b l ⟨0, by decide⟩) = u0 (ix3 b l 0) :=
  (join2_left _ _ b l ⟨0, by decide⟩ _ rfl).trans (cat3_apply _ _ 0 (by show (0 : ℕ) < 16; decide) 1 u0 rfl shapes16 rfl 0 (by decide) b l 0 _ rfl)
/-- Column 1 is the second piece. -/
theorem joined_at1 : joined (ix3 b l ⟨1, by decide⟩) = u1 (ix3 b l 0) :=
  (join2_left _ _ b l ⟨1, by decide⟩ _ rfl).trans (cat3_apply _ _ 1 (by show (1 : ℕ) < 16; decide) 1 u1 rfl shapes16 rfl 1 (by decide) b l 0 _ rfl)
/-- Column 2 is the third piece. -/
theorem joined_at2 : joined (ix3 b l ⟨2, by decide⟩) = u2 (ix3 b l 0) :=
  (join2_left _ _ b l ⟨2, by decide⟩ _ rfl).trans (cat3_apply _ _ 2 (by show (2 : ℕ) < 16; decide) 1 u2 rfl shapes16 rfl 2 (by decide) b l 0 _ rfl)
/-- Column 3 is the fourth piece. -/
theorem joined_at3 : joined (ix3 b l ⟨3, by decide⟩) = u3 (ix3 b l 0) :=
  (join2_left _ _ b l ⟨3, by decide⟩ _ rfl).trans (cat3_apply _ _ 3 (by show (3 : ℕ) < 16; decide) 1 u3 rfl shapes16 rfl 3 (by decide) b l 0 _ rfl)
/-- Column 4 is the fifth piece. -/
theorem joined_at4 : joined (ix3 b l ⟨4, by decide⟩) = u4 (ix3 b l 0) :=
  (join2_left _ _ b l ⟨4, by decide⟩ _ rfl).trans (cat3_apply _ _ 4 (by show (4 : ℕ) < 16; decide) 1 u4 rfl shapes16 rfl 4 (by decide) b l 0 _ rfl)
/-- Columns 5 .. 24 are the sixth piece. -/
theorem joined_from5 (p : Fin 20) (hp : 5 + p.val < 210) : joined (ix3 b l ⟨5 + p.val, hp⟩) = u5 (ix3 b l p) :=
  (join2_left _ _ b l ⟨5 + p.val, by omega⟩ _ rfl).trans (cat3_apply _ _ 5 (by show (5 : ℕ) < 16; decide) 20 u5 rfl shapes16 rfl 5 (by decide) b l p _ rfl)
/-- Column 25 is the seventh piece. -/
theorem joined_at25 : joined (ix3 b l ⟨25, by decide⟩) = u6 (ix3 b l 0) :=
  (join2_left _ _ b l ⟨25, by decide⟩ _ rfl).trans (cat3_apply _ _ 6 (by show (6 : ℕ) < 16; decide) 1 u6 rfl shapes16 rfl 25 (by decide) b l 0 _ rfl)
/-- Columns 26 .. 45 are the eighth piece. -/
theorem joined_from26 (p : Fin 20) (hp : 26 + p.val < 210) : joined (ix3 b l ⟨26 + p.val, hp⟩) = u7 (ix3 b l p) :=
  (join2_left _ _ b l ⟨26 + p.val, by omega⟩ _ rfl).trans (cat3_apply _ _ 7 (by show (7 : ℕ) < 16; decide) 20 u7 rfl shapes16 rfl 26 (by decide) b l p _ rfl)
/-- Columns 46 .. 65 are the ninth piece. -/
theorem joined_from46 (p : Fin 20) (hp : 46 + p.val < 210) : joined (ix3 b l ⟨46 + p.val, hp⟩) = u8 (ix3 b l p) :=
  (join2_left _ _ b l ⟨46 + p.val, by omega⟩ _ rfl).trans (cat3_apply _ _ 8 (by show (8 : ℕ) < 16; decide) 20 u8 rfl shapes16 rfl 46 (by decide) b l p _ rfl)
/-- Columns 66 .. 85 are the tenth piece. -/
theorem joined_from66 (p : Fin 20) (hp : 66 + p.val < 210) : joined (ix3 b l ⟨66 + p.val, hp⟩) = u9 (ix3 b l p) :=
  (join2_left _ _ b l ⟨66 + p.val, by omega⟩ _ rfl).trans (cat3_apply _ _ 9 (by show (9 : ℕ) < 16; decide) 20 u9 rfl shapes16 rfl 66 (by decide) b l p _ rfl)
/-- Columns 86 .. 105 are the eleventh piece. -/
theorem joined_from86 (p : Fin 20) (hp : 86 + p.val < 210) : joined (ix3 b l ⟨86 + p.val, hp⟩) = u10 (ix3 b l p) :=
  (join2_left _ _ b l ⟨86 + p.val, by omega⟩ _ rfl).trans (cat3_apply _ _ 10 (by show (10 : ℕ) < 16; decide) 20 u10 rfl shapes16 rfl 86 (by decide) b l p _ rfl)
/-- Columns 106 .. 125 are the twelfth piece. -/
theorem joined_from106 (p : Fin 20) (hp : 106 + p.val < 210) : joined (ix3 b l ⟨106 + p.val, hp⟩) = u11 (ix3 b l p) :=
  (join2_left _ _ b l ⟨106 + p.val, by omega⟩ _ rfl).trans (cat3_apply _ _ 11 (by show (11 : ℕ) < 16; decide) 20 u11 rfl shapes16 rfl 106 (by decide) b l p _ rfl)
/-- Column 126 is the thirteenth piece. -/
theorem joined_at126 : joined (ix3 b l ⟨126, by decide⟩) = u12 (ix3 b l 0) :=
  (join2_left _ _ b l ⟨126, by decide⟩ _ rfl).trans (cat3_apply _ _ 12 (by show (12 : ℕ) < 16; decide) 1 u12 rfl shapes16 rfl 126 (by decide) b l 0 _ rfl)
/-- Columns 127 .. 146 are the fourteenth piece. -/
theorem joined_from127 (p : Fin 20) (hp : 127 + p.val < 210) : joined (ix3 b l ⟨127 + p.val, hp⟩) = u13 (ix3 b l p) :=
  (join2_left _ _ b l ⟨127 + p.val, by omega⟩ _ rfl).trans (cat3_apply _ _ 13 (by show (13 : ℕ) < 16; decide) 20 u13 rfl shapes16 rfl 127 (by decide) b l p _ rfl)
/-- Column 147 is the fifteenth piece. -/
theorem joined_at147 : joined (ix3 b l ⟨147, by decide⟩) = u14 (ix3 b l 0) :=
  (join2_left _ _ b l ⟨147, by decide⟩ _ rfl).trans (cat3_apply _ _ 14 (by show (14 : ℕ) < 16; decide) 1 u14 rfl shapes16 rfl 147 (by decide) b l 0 _ rfl)
/-- Columns 148 .. 167 are the sixteenth piece. -/
theorem joined_from148 (p : Fin 20) (hp : 148 + p.val < 210) : joined (ix3 b l ⟨148 + p.val, hp⟩) = u15 (ix3 b l p) :=
  (join2_left _ _ b l ⟨148 + p.val, by omega⟩ _ rfl).trans (cat3_apply _ _ 15 (by show (15 : ℕ) < 16; decide) 20 u15 rfl shapes16 rfl 148 (by decide) b l p _ rfl)
/-- Column 168 is the first piece of the second join. -/
theorem joined_at168 : joined (ix3 b l ⟨168, by decide⟩) = t0 (ix3 b l 0) :=
  (join2_right _ _ b l ⟨0, by decide⟩ _ rfl).trans (cat3_apply _ _ 0 (by show (0 : ℕ) < 4; decide) 1 t0 rfl shapes4 rfl 0 (by decide) b l 0 _ rfl)
/-- Columns 169 .. 188 are its second piece. -/
theorem joined_from169 (p : Fin 20) (hp : 169 + p.val < 210) : joined (ix3 b l ⟨169 + p.val, hp⟩) = t1 (ix3 b l p) :=
  (join2_right _ _ b l ⟨1 + p.val, by omega⟩ _ (by show 168 + (1 + p.val) = 169 + p.val; omega)).trans
    (cat3_apply _ _ 1 (by show (1 : ℕ) < 4; decide) 20 t1 rfl shapes4 rfl 1 (by decide) b l p _ rfl)
/-- Column 189 is its third piece. -/
theorem joined_at189 : joined (ix3 b l ⟨189, by decide⟩) = t2 (ix3 b l 0) :=
  (join2_right _ _ b l ⟨21, by decide⟩ _ rfl).trans (cat3_apply _ _ 2 (by show (2 : ℕ) < 4; decide) 1 t2 rfl shapes4 rfl 21 (by decide) b l 0 _ rfl)
/-- Columns 190 .. 209 are its fourth piece. -/
theorem joined_from190 (p : Fin 20) (hp : 190 + p.val < 210) : joined (ix3 b l ⟨190 + p.val, hp⟩) = t3 (ix3 b l p) :=
  (join2_right _ _ b l ⟨22 + p.val, by omega⟩ _ (by show 168 + (22 + p.val) = 190 + p.val; omega)).trans
    (cat3_apply _ _ 3 (by show (3 : ℕ) < 4; decide) 20 t3 rfl shapes4 rfl 22 (by decide) b l p _ rfl)

end Join

/-! ### The two results -/

section Defs
variable {F : FTy → Type} [FloatOps F]

/-- The first result, one row per premise position: the statistics of the two cosine tensors along the hypothesis axis,
    the full match against the hypothesis's last forward and first backward states, the maxima and means of the two
    pairwise tensors over the hypothesis positions, the attentive mean match, then the attentive maximum match. -/
def refP (x0 : FVec F S16x128x200 .f32) (x1 : IVec S16x128 32) (x2 : FVec F S16x128x200 .f32) (x3 : IVec S16x128 32)
    (x4 : FVec F S8x20x100 .f32) : FVec F S16x128x210 .f32 :=
  join2
    (join16
      (rowMaxR (cfR x0 x2)) (rowMeanR (cfR x0 x2)) (rowMaxR (cbR x0 x2)) (rowMeanR (cbR x0 x2))
      (mv1R1 (pfR x0) (hlR x2 x3)) (mvpR1 (pfR x0) (hlR x2 x3) (wR0 x4))
      (mv1R1 (pbR x0) (firstRowR (pbR x2))) (mvpR1 (pbR x0) (firstRowR (pbR x2)) (wR1 x4))
      (pwMaxJR (pwR (pfR x0) (pfR x2) (wR2 x4))) (pwMeanJR (pwR (pfR x0) (pfR x2) (wR2 x4)))
      (pwMaxJR (pwR (pbR x0) (pbR x2) (wR3 x4))) (pwMeanJR (pwR (pbR x0) (pbR x2) (wR3 x4)))
      (mv1R (pfR x0) (attMeanJR (cfR x0 x2) (pfR x2))) (mvpR (pfR x0) (attMeanJR (cfR x0 x2) (pfR x2)) (wR4 x4))
      (mv1R (pbR x0) (attMeanJR (cbR x0 x2) (pbR x2))) (mvpR (pbR x0) (attMeanJR (cbR x0 x2) (pbR x2)) (wR5 x4)))
    (join4
      (mv1R (pfR x0) (attMaxJR (pfR x2) (cfR x0 x2))) (mvpR (pfR x0) (attMaxJR (pfR x2) (cfR x0 x2)) (wR6 x4))
      (mv1R (pbR x0) (attMaxJR (pbR x2) (cbR x0 x2))) (mvpR (pbR x0) (attMaxJR (pbR x2) (cbR x0 x2)) (wR7 x4)))

/-- The second result, one row per hypothesis position: the same with the two sequences' roles exchanged, every
    reduction taken along the premise axis. -/
def refH (x0 : FVec F S16x128x200 .f32) (x1 : IVec S16x128 32) (x2 : FVec F S16x128x200 .f32) (x3 : IVec S16x128 32)
    (x4 : FVec F S8x20x100 .f32) : FVec F S16x128x210 .f32 :=
  join2
    (join16
      (colMaxR (cfR x0 x2)) (colMeanR (cfR x0 x2)) (colMaxR (cbR x0 x2)) (colMeanR (cbR x0 x2))
      (mv1R1 (pfR x2) (plR x0 x1)) (mvpR1 (pfR x2) (plR x0 x1) (wR0 x4))
      (mv1R1 (pbR x2) (firstRowR (pbR x0))) (mvpR1 (pbR x2) (firstRowR (pbR x0)) (wR1 x4))
      (pwMaxIR (pwR (pfR x0) (pfR x2) (wR2 x4))) (pwMeanIR (pwR (pfR x0) (pfR x2) (wR2 x4)))
      (pwMaxIR (pwR (pbR x0) (pbR x2) (wR3 x4))) (pwMeanIR (pwR (pbR x0) (pbR x2) (wR3 x4)))
      (mv1R (pfR x2) (attMeanIR (cfR x0 x2) (pfR x0))) (mvpR (pfR x2) (attMeanIR (cfR x0 x2) (pfR x0)) (wR4 x4))
      (mv1R (pbR x2) (attMeanIR (cbR x0 x2) (pbR x0))) (mvpR (pbR x2) (attMeanIR (cbR x0 x2) (pbR x0)) (wR5 x4)))
    (join4
      (mv1R (pfR x2) (attMaxIR (pfR x0) (cfR x0 x2))) (mvpR (pfR x2) (attMaxIR (pfR x0) (cfR x0 x2)) (wR6 x4))
      (mv1R (pbR x2) (attMaxIR (pbR x0) (cbR x0 x2))) (mvpR (pbR x2) (attMaxIR (pbR x0) (cbR x0 x2)) (wR7 x4)))

/-! ### The inputs read at coordinates -/

/-- The forward half at (b, l, h) is the argument at feature h. -/
theorem pfR_apply (x : FVec F S16x128x200 .f32) (b : Fin 16) (l : Fin 128) (h : Fin 100) :
    pfR x (ix3 b l h) = x (ix3 b l ⟨h.val, by have := h.isLt; omega⟩) := by
  unfold pfR
  exact extractStridedSlice_apply ![0, 0, 0] x slices_S16x128x200_S16x128x100_0_0_0 (ix3 b l h) _ (fun a => match a with
    | ⟨0, _⟩ => by show b.val = 0 + b.val; omega
    | ⟨1, _⟩ => by show l.val = 0 + l.val; omega
    | ⟨2, _⟩ => by show h.val = 0 + h.val; omega)

/-- The backward half at (b, l, h) is the argument at feature 100 + h. -/
theorem pbR_apply (x : FVec F S16x128x200 .f32) (b : Fin 16) (l : Fin 128) (h : Fin 100) :
    pbR x (ix3 b l h) = x (ix3 b l ⟨100 + h.val, by have := h.isLt; omega⟩) := by
  unfold pbR
  exact extractStridedSlice_apply ![0, 0, 100] x slices_S16x128x200_S16x128x100_0_0_100 (ix3 b l h) _ (fun a => match a with
    | ⟨0, _⟩ => by show b.val = 0 + b.val; omega
    | ⟨1, _⟩ => by show l.val = 0 + l.val; omega
    | ⟨2, _⟩ => rfl)

/-- The kept first row at (b, 0, h) is the sequence's row 0. -/
theorem firstRowR_apply (v : FVec F S16x128x100 .f32) (b : Fin 16) (z : Fin 1) (h : Fin 100) :
    firstRowR v (ix3 b z h) = v (ix3 b (0 : Fin 128) h) := by
  unfold firstRowR
  exact extractStridedSlice_apply ![0, 0, 0] v slices_S16x128x100_S16x1x100_0_0_0 (ix3 b z h) (ix3 b (0 : Fin 128) h) (fun a => match a with
    | ⟨0, _⟩ => by show b.val = 0 + b.val; omega
    | ⟨1, _⟩ => by show (0 : ℕ) = 0 + z.val; omega
    | ⟨2, _⟩ => by show h.val = 0 + h.val; omega)

/-- Weight matrix 0 at (p, h). -/
theorem wR0_apply (x4 : FVec F S8x20x100 .f32) (p : Fin 20) (h : Fin 100) : wR0 x4 (ix2 p h) = x4 (ix3 (0 : Fin 8) p h) := by
  unfold wR0
  rw [shapeCast_1ab_ab_apply]
  exact extractStridedSlice_apply ![0, 0, 0] x4 slices_S8x20x100_S1x20x100_0_0_0 (ix3 (0 : Fin 1) p h) (ix3 (0 : Fin 8) p h) (fun a => match a with
    | ⟨0, _⟩ => rfl
    | ⟨1, _⟩ => by show p.val = 0 + p.val; omega
    | ⟨2, _⟩ => by show h.val = 0 + h.val; omega)
/-- Weight matrix 1 at (p, h). -/
theorem wR1_apply (x4 : FVec F S8x20x100 .f32) (p : Fin 20) (h : Fin 100) : wR1 x4 (ix2 p h) = x4 (ix3 (1 : Fin 8) p h) := by
  unfold wR1
  rw [shapeCast_1ab_ab_apply]
  exact extractStridedSlice_apply ![1, 0, 0] x4 slices_S8x20x100_S1x20x100_1_0_0 (ix3 (0 : Fin 1) p h) (ix3 (1 : Fin 8) p h) (fun a => match a with
    | ⟨0, _⟩ => rfl
    | ⟨1, _⟩ => by show p.val = 0 + p.val; omega
    | ⟨2, _⟩ => by show h.val = 0 + h.val; omega)
/-- Weight matrix 2 at (p, h). -/
theorem wR2_apply (x4 : FVec F S8x20x100 .f32) (p : Fin 20) (h : Fin 100) : wR2 x4 (ix2 p h) = x4 (ix3 (2 : Fin 8) p h) := by
  unfold wR2
  rw [shapeCast_1ab_ab_apply]
  exact extractStridedSlice_apply ![2, 0, 0] x4 slices_S8x20x100_S1x20x100_2_0_0 (ix3 (0 : Fin 1) p h) (ix3 (2 : Fin 8) p h) (fun a => match a with
    | ⟨0, _⟩ => rfl
    | ⟨1, _⟩ => by show p.val = 0 + p.val; omega
    | ⟨2, _⟩ => by show h.val = 0 + h.val; omega)
/-- Weight matrix 3 at (p, h). -/
theorem wR3_apply (x4 : FVec F S8x20x100 .f32) (p : Fin 20) (h : Fin 100) : wR3 x4 (ix2 p h) = x4 (ix3 (3 : Fin 8) p h) := by
  unfold wR3
  rw [shapeCast_1ab_ab_apply]
  exact extractStridedSlice_apply ![3, 0, 0] x4 slices_S8x20x100_S1x20x100_3_0_0 (ix3 (0 : Fin 1) p h) (ix3 (3 : Fin 8) p h) (fun a => match a with
    | ⟨0, _⟩ => rfl
    | ⟨1, _⟩ => by show p.val = 0 + p.val; omega
    | ⟨2, _⟩ => by show h.val = 0 + h.val; omega)
/-- Weight matrix 4 at (p, h). -/
theorem wR4_apply (x4 : FVec F S8x20x100 .f32) (p : Fin 20) (h : Fin 100) : wR4 x4 (ix2 p h) = x4 (ix3 (4 : Fin 8) p h) := by
  unfold wR4
  rw [shapeCast_1ab_ab_apply]
  exact extractStridedSlice_apply ![4, 0, 0] x4 slices_S8x20x100_S1x20x100_4_0_0 (ix3 (0 : Fin 1) p h) (ix3 (4 : Fin 8) p h) (fun a => match a with
    | ⟨0, _⟩ => rfl
    | ⟨1, _⟩ => by show p.val = 0 + p.val; omega
    | ⟨2, _⟩ => by show h.val = 0 + h.val; omega)
/-- Weight matrix 5 at (p, h). -/
theorem wR5_apply (x4 : FVec F S8x20x100 .f32) (p : Fin 20) (h : Fin 100) : wR5 x4 (ix2 p h) = x4 (ix3 (5 : Fin 8) p h) := by
  unfold wR5
  rw [shapeCast_1ab_ab_apply]
  exact extractStridedSlice_apply ![5, 0, 0] x4 slices_S8x20x100_S1x20x100_5_0_0 (ix3 (0 : Fin 1) p h) (ix3 (5 : Fin 8) p h) (fun a => match a with
    | ⟨0, _⟩ => rfl
    | ⟨1, _⟩ => by show p.val = 0 + p.val; omega
    | ⟨2, _⟩ => by show h.val = 0 + h.val; omega)
/-- Weight matrix 6 at (p, h). -/
theorem wR6_apply (x4 : FVec F S8x20x100 .f32) (p : Fin 20) (h : Fin 100) : wR6 x4 (ix2 p h) = x4 (ix3 (6 : Fin 8) p h) := by
  unfold wR6
  rw [shapeCast_1ab_ab_apply]
  exact extractStridedSlice_apply ![6, 0, 0] x4 slices_S8x20x100_S1x20x100_6_0_0 (ix3 (0 : Fin 1) p h) (ix3 (6 : Fin 8) p h) (fun a => match a with
    | ⟨0, _⟩ => rfl
    | ⟨1, _⟩ => by show p.val = 0 + p.val; omega
    | ⟨2, _⟩ => by show h.val = 0 + h.val; omega)
/-- Weight matrix 7 at (p, h). -/
theorem wR7_apply (x4 : FVec F S8x20x100 .f32) (p : Fin 20) (h : Fin 100) : wR7 x4 (ix2 p h) = x4 (ix3 (7 : Fin 8) p h) := by
  unfold wR7
  rw [shapeCast_1ab_ab_apply]
  exact extractStridedSlice_apply ![7, 0, 0] x4 slices_S8x20x100_S1x20x100_7_0_0 (ix3 (0 : Fin 1) p h) (ix3 (7 : Fin 8) p h) (fun a => match a with
    | ⟨0, _⟩ => rfl
    | ⟨1, _⟩ => by show p.val = 0 + p.val; omega
    | ⟨2, _⟩ => by show h.val = 0 + h.val; omega)

end Defs

/-- The forward cosine tensor at (b, i, j): the cosine of the forward halves of premise row i and hypothesis row j. -/
theorem cfR_apply (x0 x2 : FVec Ideal S16x128x200 .f32) (b : Fin 16) (i j : Fin 128) :
    cfR x0 x2 (ix3 b i j)
      = cosPair (fun h => x0 (ix3 b i ⟨h.val, by have := h.isLt; omega⟩)) (fun h => x2 (ix3 b j ⟨h.val, by have := h.isLt; omega⟩)) := by
  unfold cfR
  rw [cosR_apply]
  simp only [pfR_apply]

/-- The backward cosine tensor at (b, i, j): the same of the backward halves. -/
theorem cbR_apply (x0 x2 : FVec Ideal S16x128x200 .f32) (b : Fin 16) (i j : Fin 128) :
    cbR x0 x2 (ix3 b i j)
      = cosPair (fun h => x0 (ix3 b i ⟨100 + h.val, by have := h.isLt; omega⟩)) (fun h => x2 (ix3 b j ⟨100 + h.val, by have := h.isLt; omega⟩)) := by
  unfold cbR
  rw [cosR_apply]
  simp only [pbR_apply]

/-! ### The columns of the two results -/

/-- The ten single columns lie inside the 210. -/
theorem oneColR_lt (s : Fin 10) : (![0, 1, 2, 3, 4, 25, 126, 147, 168, 189] : Fin 10 → ℕ) s < 210 := by
  fin_cases s <;> decide

/-- The ten blocks of twenty columns lie inside the 210. -/
theorem wideColR_lt (s : Fin 10) (p : Fin 20) : (![5, 26, 46, 66, 86, 106, 127, 148, 169, 190] : Fin 10 → ℕ) s + p.val < 210 := by
  have := p.isLt
  fin_cases s <;> simp <;> omega

/-- Reads every piece at its index, down to the entries of the arguments. -/
local macro "read_pieces" : tactic =>
  `(tactic| simp only [rowMaxR_apply, rowMeanR_apply, colMaxR_apply, colMeanR_apply, mv1R1_apply, mvpR1_apply, mv1R_apply,
    mvpR_apply, pwMaxJR_apply, pwMeanJR_apply, pwMaxIR_apply, pwMeanIR_apply, pwR_apply, attMeanJR_apply, attMeanIR_apply,
    attMaxJR_apply, attMaxIR_apply, cfR_apply, cbR_apply, pfR_apply, pbR_apply, firstRowR_apply, wR0_apply, wR1_apply,
    wR2_apply, wR3_apply, wR4_apply, wR5_apply, wR6_apply, wR7_apply])

/-- Each single column of the first result, at premise position l of batch element b, is the specification's entry. -/
theorem refP_one (x0 : FVec Ideal S16x128x200 .f32) (x1 : IVec S16x128 32) (x2 : FVec Ideal S16x128x200 .f32) (x3 : IVec S16x128 32)
    (x4 : FVec Ideal S8x20x100 .f32) (b : Fin 16) (s : Fin 10) (l : Fin 128) :
    refP x0 x1 x2 x3 x4 (ix3 b l ⟨(![0, 1, 2, 3, 4, 25, 126, 147, 168, 189] : Fin 10 → ℕ) s, oneColR_lt s⟩)
      = (rowsR x0 x1 x2 x3 x4 b).p1 s l := by
  unfold refP
  match s with
  | ⟨0, _⟩ =>
    refine (joined_at0 b l).trans ?_
    read_pieces
    rfl
  | ⟨1, _⟩ =>
    refine (joined_at1 b l).trans ?_
    read_pieces
    rfl
  | ⟨2, _⟩ =>
    refine (joined_at2 b l).trans ?_
    read_pieces
    rfl
  | ⟨3, _⟩ =>
    refine (joined_at3 b l).trans ?_
    read_pieces
    rfl
  | ⟨4, _⟩ =>
    refine (joined_at4 b l).trans ?_
    read_pieces
    rfl
  | ⟨5, _⟩ =>
    refine (joined_at25 b l).trans ?_
    read_pieces
    rfl
  | ⟨6, _⟩ =>
    refine (joined_at126 b l).trans ?_
    read_pieces
    rfl
  | ⟨7, _⟩ =>
    refine (joined_at147 b l).trans ?_
    read_pieces
    rfl
  | ⟨8, _⟩ =>
    refine (joined_at168 b l).trans ?_
    read_pieces
    rfl
  | ⟨9, _⟩ =>
    refine (joined_at189 b l).trans ?_
    read_pieces
    rfl

/-- Each block of twenty columns of the first result, at premise position l and perspective p, is the specification's entry. -/
theorem refP_wide (x0 : FVec Ideal S16x128x200 .f32) (x1 : IVec S16x128 32) (x2 : FVec Ideal S16x128x200 .f32) (x3 : IVec S16x128 32)
    (x4 : FVec Ideal S8x20x100 .f32) (b : Fin 16) (s : Fin 10) (l : Fin 128) (p : Fin 20) :
    refP x0 x1 x2 x3 x4 (ix3 b l ⟨(![5, 26, 46, 66, 86, 106, 127, 148, 169, 190] : Fin 10 → ℕ) s + p.val, wideColR_lt s p⟩)
      = (rowsR x0 x1 x2 x3 x4 b).p20 s l p := by
  unfold refP
  match s with
  | ⟨0, _⟩ =>
    refine (joined_from5 b l p _).trans ?_
    read_pieces
    rfl
  | ⟨1, _⟩ =>
    refine (joined_from26 b l p _).trans ?_
    read_pieces
    rfl
  | ⟨2, _⟩ =>
    refine (joined_from46 b l p _).trans ?_
    read_pieces
    rfl
  | ⟨3, _⟩ =>
    refine (joined_from66 b l p _).trans ?_
    read_pieces
    rfl
  | ⟨4, _⟩ =>
    refine (joined_from86 b l p _).trans ?_
    read_pieces
    rfl
  | ⟨5, _⟩ =>
    refine (joined_from106 b l p _).trans ?_
    read_pieces
    rfl
  | ⟨6, _⟩ =>
    refine (joined_from127 b l p _).trans ?_
    read_pieces
    rfl
  | ⟨7, _⟩ =>
    refine (joined_from148 b l p _).trans ?_
    read_pieces
    rfl
  | ⟨8, _⟩ =>
    refine (joined_from169 b l p _).trans ?_
    read_pieces
    rfl
  | ⟨9, _⟩ =>
    refine (joined_from190 b l p _).trans ?_
    read_pieces
    rfl

/-- Each single column of the second result, at hypothesis position l of batch element b, is the specification's entry. -/
theorem refH_one (x0 : FVec Ideal S16x128x200 .f32) (x1 : IVec S16x128 32) (x2 : FVec Ideal S16x128x200 .f32) (x3 : IVec S16x128 32)
    (x4 : FVec Ideal S8x20x100 .f32) (b : Fin 16) (s : Fin 10) (l : Fin 128) :
    refH x0 x1 x2 x3 x4 (ix3 b l ⟨(![0, 1, 2, 3, 4, 25, 126, 147, 168, 189] : Fin 10 → ℕ) s, oneColR_lt s⟩)
      = (rowsR x0 x1 x2 x3 x4 b).h1 s l := by
  unfold refH
  match s with
  | ⟨0, _⟩ =>
    refine (joined_at0 b l).trans ?_
    read_pieces
    rfl
  | ⟨1, _⟩ =>
    refine (joined_at1 b l).trans ?_
    read_pieces
    rfl
  | ⟨2, _⟩ =>
    refine (joined_at2 b l).trans ?_
    read_pieces
    rfl
  | ⟨3, _⟩ =>
    refine (joined_at3 b l).trans ?_
    read_pieces
    rfl
  | ⟨4, _⟩ =>
    refine (joined_at4 b l).trans ?_
    read_pieces
    rfl
  | ⟨5, _⟩ =>
    refine (joined_at25 b l).trans ?_
    read_pieces
    rfl
  | ⟨6, _⟩ =>
    refine (joined_at126 b l).trans ?_
    read_pieces
    rfl
  | ⟨7, _⟩ =>
    refine (joined_at147 b l).trans ?_
    read_pieces
    rfl
  | ⟨8, _⟩ =>
    refine (joined_at168 b l).trans ?_
    read_pieces
    rfl
  | ⟨9, _⟩ =>
    refine (joined_at189 b l).trans ?_
    read_pieces
    rfl

/-- Each block of twenty columns of the second result, at hypothesis position l and perspective p, is the specification's
    entry. -/
theorem refH_wide (x0 : FVec Ideal S16x128x200 .f32) (x1 : IVec S16x128 32) (x2 : FVec Ideal S16x128x200 .f32) (x3 : IVec S16x128 32)
    (x4 : FVec Ideal S8x20x100 .f32) (b : Fin 16) (s : Fin 10) (l : Fin 128) (p : Fin 20) :
    refH x0 x1 x2 x3 x4 (ix3 b l ⟨(![5, 26, 46, 66, 86, 106, 127, 148, 169, 190] : Fin 10 → ℕ) s + p.val, wideColR_lt s p⟩)
      = (rowsR x0 x1 x2 x3 x4 b).h20 s l p := by
  unfold refH
  match s with
  | ⟨0, _⟩ =>
    refine (joined_from5 b l p _).trans ?_
    read_pieces
    rfl
  | ⟨1, _⟩ =>
    refine (joined_from26 b l p _).trans ?_
    read_pieces
    rfl
  | ⟨2, _⟩ =>
    refine (joined_from46 b l p _).trans ?_
    read_pieces
    rfl
  | ⟨3, _⟩ =>
    refine (joined_from66 b l p _).trans ?_
    read_pieces
    rfl
  | ⟨4, _⟩ =>
    refine (joined_from86 b l p _).trans ?_
    read_pieces
    rfl
  | ⟨5, _⟩ =>
    refine (joined_from106 b l p _).trans ?_
    read_pieces
    rfl
  | ⟨6, _⟩ =>
    refine (joined_from127 b l p _).trans ?_
    read_pieces
    rfl
  | ⟨7, _⟩ =>
    refine (joined_from148 b l p _).trans ?_
    read_pieces
    rfl
  | ⟨8, _⟩ =>
    refine (joined_from169 b l p _).trans ?_
    read_pieces
    rfl
  | ⟨9, _⟩ =>
    refine (joined_from190 b l p _).trans ?_
    read_pieces
    rfl

end Cert.Mpm
end
-- ==== Proof.Mpm.KRLast.lean ====
/-
  The last index and the gathered last state, written once with the kernel program's shape and gather records
  and once with the reference program's, are the same functions: the operations are the same and the two
  programs' records are the same literals, their side conditions being propositions.
-/
import proofs.«116293_j48241072668683_2_alg».proof.Proof.Mpm.KArr
import proofs.«116293_j48241072668683_2_alg».proof.Proof.Mpm.RLast

noncomputable section

namespace Cert.Mpm

open Idealize.ShloMosaic

/-- The clipped last index is the same function on both sides. -/
theorem lastIdxK_eq_lastIdxR (mask : IVec Cert.KernelIdeal.S16x128 32) : lastIdxK mask = lastIdxR mask := rfl

/-- The gathered last state is the same function on both sides. -/
theorem gatherLastK_eq_gatherLastR {F : FTy → Type} [FloatOps F] (x : FVec F Cert.KernelIdeal.S16x128x100 .f32)
    (ix : IVec Cert.KernelIdeal.S16 32) : gatherLastK x ix = gatherLastR x ix := rfl

end Cert.Mpm
end
-- ==== Proof.Mpm.Link.lean ====
/-
  The rows the kernel reads at grid point t are the rows the reference reads for batch element t.
  The kernel's premise and hypothesis blocks at point t are batch element t of the two sequence arrays, its weight
  block is the whole weight array, and its two last-state blocks are batch element t of the arrays the host
  operations before the region leave: the forward half of each sequence gathered at the clipped last index of its
  mask, which is how the reference forms its own last states.
-/
import proofs.«116293_j48241072668683_2_alg».proof.Proof.Mpm.KArr
import proofs.«116293_j48241072668683_2_alg».proof.Proof.Mpm.KRLast
import proofs.«116293_j48241072668683_2_alg».proof.Proof.Mpm.KOut
import proofs.«116293_j48241072668683_2_alg».proof.Proof.Mpm.RDefs

noncomputable section

namespace Cert.Mpm

open Idealize.ShloMosaic Idealize.ShloMosaic.ValueIdx Idealize.ShloMosaic.TcCoe Idealize.SL.Sem
open Cert.KernelIdeal Cert.KernelIdeal.Gen Cert.KernelIdeal.Value

/-- Two collections of rows with the same seven fields are the same. -/
theorem Rows.ext' {A B : Rows} (hpf : A.pf = B.pf) (hpb : A.pb = B.pb) (hhf : A.hf = B.hf) (hhb : A.hb = B.hb)
    (hpl : A.pl = B.pl) (hhl : A.hl = B.hl) (hw : A.w = B.w) : A = B := by
  cases A; cases B
  rw [Rows.mk.injEq]
  exact ⟨hpf, hpb, hhf, hhb, hpl, hhl, hw⟩

variable (m : (ℓ : Loc nD τ sig) → Buf (Elt Ideal) ℓ) (c : Dev nD)

set_option maxHeartbeats 4000000 in
/-- The kernel's rows at grid point t, from its five blocks, are the reference's rows of batch element t, from
    the five arguments. -/
theorem rows_link (t : Fin 16) :
    rowsK (iblk m c 0 t) (iblk m c 1 t) (iblk m c 2 t) (iblk m c 3 t) (iblk m c 4 t)
      = rowsR (m ((c : Thread nD τ).loc main_arg0)) (m ((c : Thread nD τ).loc main_arg1))
          (m ((c : Thread nD τ).loc main_arg2)) (m ((c : Thread nD τ).loc main_arg3))
          (m ((c : Thread nD τ).loc main_arg4)) t := by
  refine Rows.ext' ?_ ?_ ?_ ?_ ?_ ?_ ?_
  · funext l h
    exact (iblk0_apply m c t l (colF h)).trans (congrFun (V_main_arg0 m c) _)
  · funext l h
    exact (iblk0_apply m c t l (colB h)).trans (congrFun (V_main_arg0 m c) _)
  · funext l h
    exact (iblk1_apply m c t l (colF h)).trans (congrFun (V_main_arg2 m c) _)
  · funext l h
    exact (iblk1_apply m c t l (colB h)).trans (congrFun (V_main_arg2 m c) _)
  · funext h
    refine (iblk2_apply m c t h).trans ((congrFun (V_last_p m c) _).trans ?_)
    rw [gatherLastK_eq_gatherLastR, lastIdxK_eq_lastIdxR]
    rfl
  · funext h
    refine (iblk3_apply m c t h).trans ((congrFun (V_last_h m c) _).trans ?_)
    rw [gatherLastK_eq_gatherLastR, lastIdxK_eq_lastIdxR]
    rfl
  · funext k p h
    exact (iblk4_apply m c t k p h).trans (congrFun (V_main_arg4 m c) _)

end Cert.Mpm
end
-- ==== Proof.Mpm.Final.lean ====
/-
  The two programs' results are equal, index by index, and the certificate's claims.
  After the kernel's run, output array P at (t, l, col) holds what grid point t computed at (0, l, col) from its input
  blocks; every column is one of ten single columns or lies in one of ten blocks of twenty, where that value is a
  named function (Spec.lean) of the rows the point reads; those rows are the rows the reference reads for batch element
  t; and the reference's result at (t, l, col) is the same named function of them. So the kernel's two output arrays
  are the reference's two results as functions of the five arguments. The reference's run ends with its two result
  buffers at those functions of its own arguments, which agree with the kernel's.
-/
import proofs.«116293_j48241072668683_2_alg».proof.Defs
import proofs.«116293_j48241072668683_2_alg».proof.Proof.Gen.Kernel.Frame
import proofs.«116293_j48241072668683_2_alg».proof.Proof.Gen.KernelIdeal.Value
import proofs.«116293_j48241072668683_2_alg».proof.Proof.Gen.ReferenceIdeal
import proofs.«116293_j48241072668683_2_alg».proof.Proof.Gen.Pre_finite_inputs
import proofs.«116293_j48241072668683_2_alg».proof.Proof.Mpm.Spec
import proofs.«116293_j48241072668683_2_alg».proof.Proof.Mpm.KArr
import proofs.«116293_j48241072668683_2_alg».proof.Proof.Mpm.KOutAll
import proofs.«116293_j48241072668683_2_alg».proof.Proof.Mpm.ROut
import proofs.«116293_j48241072668683_2_alg».proof.Proof.Mpm.Link
import Idealize.ShloMosaic.Lib.StableHlo.Run
import Idealize.ShloMosaic.Lib.ValueIdx

noncomputable section

namespace Cert.Mpm

open Idealize.ShloMosaic Idealize.ShloMosaic.ValueIdx Idealize.ShloMosaic.TcCoe Idealize.SL.Sem
open Idealize.ShloMosaic.Pipeline (Dat)
open Cert.KernelIdeal Cert.KernelIdeal.Gen Cert.KernelIdeal.Value

/-! ## The column of an output row: one of ten single columns or inside one of ten blocks of twenty -/

/-- Every column 0..209 is one of the ten single columns or lies in one of the ten blocks of twenty. -/
theorem col_cases (col : Fin 210) :
    (∃ s : Fin 10, col.val = (![0, 1, 2, 3, 4, 25, 126, 147, 168, 189] : Fin 10 → ℕ) s)
      ∨ (∃ (s : Fin 10) (p : Fin 20), col.val = (![5, 26, 46, 66, 86, 106, 127, 148, 169, 190] : Fin 10 → ℕ) s + p.val) := by
  revert col
  decide

variable (m : (ℓ : Loc nD τ sig) → Buf (Elt Ideal) ℓ) (c : Dev nD)

/-- Each single column is inside the row. -/
theorem tab1_lt (s : Fin 10) : (![0, 1, 2, 3, 4, 25, 126, 147, 168, 189] : Fin 10 → ℕ) s < 210 := by
  revert s; decide
/-- Each column of a block of twenty is inside the row. -/
theorem tab20_lt (s : Fin 10) (p : Fin 20) : (![5, 26, 46, 66, 86, 106, 127, 148, 169, 190] : Fin 10 → ℕ) s + p.val < 210 := by
  revert s p; decide

/-- The first output array after the kernel's run is the reference's first result as a function of the arguments. -/
theorem arr5_eq :
    ((dats m 0 c).arrAt 5 cfg0.N : FVec Ideal Cert.ReferenceIdeal.S16x128x210 .f32)
      = refP (F := Ideal) (m ((c : Thread nD τ).loc main_arg0)) (m ((c : Thread nD τ).loc main_arg1)) (m ((c : Thread nD τ).loc main_arg2))
          (m ((c : Thread nD τ).loc main_arg3)) (m ((c : Thread nD τ).loc main_arg4)) := by
  funext i
  obtain ⟨t, l, col, rfl⟩ : ∃ (t : Fin 16) (l : Fin 128) (col : Fin 210), i = ix3 t l col := ⟨i 0, i 1, i 2, eq_ix3 i⟩
  refine (arr5_apply m c t l col).trans ?_
  rcases col_cases col with ⟨s, hs⟩ | ⟨s, p, hs⟩
  · have hc : col = ⟨_, tab1_lt s⟩ := Fin.ext hs
    rw [hc]
    exact ((out5_one _ _ _ _ _ s l).trans (congrArg (fun R : Rows => R.p1 s l) (rows_link m c t))).trans
      (refP_one _ _ _ _ _ t s l).symm
  · have hc : col = ⟨_, tab20_lt s p⟩ := Fin.ext hs
    rw [hc]
    exact ((out5_wide _ _ _ _ _ s l p).trans (congrArg (fun R : Rows => R.p20 s l p) (rows_link m c t))).trans
      (refP_wide _ _ _ _ _ t s l p).symm

/-- The second output array after the kernel's run is the reference's second result as a function of the arguments. -/
theorem arr6_eq :
    ((dats m 0 c).arrAt 6 cfg0.N : FVec Ideal Cert.ReferenceIdeal.S16x128x210 .f32)
      = refH (F := Ideal) (m ((c : Thread nD τ).loc main_arg0)) (m ((c : Thread nD τ).loc main_arg1)) (m ((c : Thread nD τ).loc main_arg2))
          (m ((c : Thread nD τ).loc main_arg3)) (m ((c : Thread nD τ).loc main_arg4)) := by
  funext i
  obtain ⟨t, l, col, rfl⟩ : ∃ (t : Fin 16) (l : Fin 128) (col : Fin 210), i = ix3 t l col := ⟨i 0, i 1, i 2, eq_ix3 i⟩
  refine (arr6_apply m c t l col).trans ?_
  rcases col_cases col with ⟨s, hs⟩ | ⟨s, p, hs⟩
  · have hc : col = ⟨_, tab1_lt s⟩ := Fin.ext hs
    rw [hc]
    exact ((out6_one _ _ _ _ _ s l).trans (congrArg (fun R : Rows => R.h1 s l) (rows_link m c t))).trans
      (refH_one _ _ _ _ _ t s l).symm
  · have hc : col = ⟨_, tab20_lt s p⟩ := Fin.ext hs
    rw [hc]
    exact ((out6_wide _ _ _ _ _ s l p).trans (congrArg (fun R : Rows => R.h20 s l p) (rows_link m c t))).trans
      (refH_wide _ _ _ _ _ t s l p).symm

/-! ## The claims -/

/-- The printed kernel runs and leaves its arguments as they were. -/
theorem frame_k : Cert.frame_Kernel := fun m ρ _ => Cert.Kernel.Gen.frame m ρ
/-- The idealized kernel runs and leaves its arguments as they were. -/
theorem frame_ki : Cert.frame_KernelIdeal := fun m ρ _ => Cert.KernelIdeal.Gen.frame m ρ
/-- The idealization rewrote nothing. -/
theorem preserves : Cert.preserves_Kernel_KernelIdeal := trivial

section Reference
open Idealize.ShloMosaic.StableHlo

/-- What the reference's run gives: from any memory, every execution of its operations in a row terminates with every
    buffer holding the fold of the operations' results over the launch contents. -/
abbrev RefRuns (ops : List (HloOp Cert.ReferenceIdeal.τ Cert.ReferenceIdeal.sig (Elt Ideal))) : Prop :=
  ∀ (m' : (ℓ : Loc Cert.ReferenceIdeal.nD Cert.ReferenceIdeal.τ Cert.ReferenceIdeal.sig) → Buf (Elt Ideal) ℓ)
    (g' : Dev Cert.ReferenceIdeal.nD → PrngReg),
    θ_run (Cert.ReferenceIdeal.defs (F := Ideal)) (onTc (τ := Cert.ReferenceIdeal.τ) (Cert.ReferenceIdeal.main (F := Ideal))) ⟨m', fun _ => 0, g'⟩ fun r =>
      ∀ (d : Dev Cert.ReferenceIdeal.nD) (b : Ref Cert.ReferenceIdeal.sig .tc),
        r.2.mem ((d.tc : Thread Cert.ReferenceIdeal.nD Cert.ReferenceIdeal.τ).loc b) = after ops (launchContents m' d) (Proc.devRef .tc b)

/-- No operation of the reference writes an argument. -/
abbrev RefKeeps (ops : List (HloOp Cert.ReferenceIdeal.τ Cert.ReferenceIdeal.sig (Elt Ideal))) (a : Ref Cert.ReferenceIdeal.sig .tc) : Prop :=
  ∀ V0 : Valuation Cert.ReferenceIdeal.τ Cert.ReferenceIdeal.sig (Elt Ideal), after ops V0 (Proc.devRef .tc a) = V0 (Proc.devRef .tc a)

/-- The reference runs and leaves its arguments as they were, given its run and that no operation writes an argument. -/
theorem frame_ri_of (ops : List (HloOp Cert.ReferenceIdeal.τ Cert.ReferenceIdeal.sig (Elt Ideal))) (hrun : RefRuns ops)
    (hA0 : RefKeeps ops Cert.ReferenceIdeal.main_arg0) (hA1 : RefKeeps ops Cert.ReferenceIdeal.main_arg1)
    (hA2 : RefKeeps ops Cert.ReferenceIdeal.main_arg2) (hA3 : RefKeeps ops Cert.ReferenceIdeal.main_arg3)
    (hA4 : RefKeeps ops Cert.ReferenceIdeal.main_arg4) : Cert.frame_ReferenceIdeal := fun m' g' _ =>
  (θ_run Cert.ReferenceIdeal.defs _ _).mono (fun r h c =>
      ⟨(h c Cert.ReferenceIdeal.main_arg0).trans (hA0 _), (h c Cert.ReferenceIdeal.main_arg1).trans (hA1 _),
        (h c Cert.ReferenceIdeal.main_arg2).trans (hA2 _), (h c Cert.ReferenceIdeal.main_arg3).trans (hA3 _),
        (h c Cert.ReferenceIdeal.main_arg4).trans (hA4 _)⟩)
    (hrun m' g')

/-- The two programs, from memories that agree on the arguments, end with equal results: the kernel's output arrays
    are the reference's two results as functions of the arguments, and the reference's run ends at those functions of
    its own arguments, which are the kernel's. -/
theorem algebraic_of (ops : List (HloOp Cert.ReferenceIdeal.τ Cert.ReferenceIdeal.sig (Elt Ideal))) (hrun : RefRuns ops)
    (hP : ∀ V0 : Valuation Cert.ReferenceIdeal.τ Cert.ReferenceIdeal.sig (Elt Ideal),
      after ops V0 (Proc.devRef .tc Cert.ReferenceIdeal.main_v621)
        = refP (F := Ideal) (V0 (Proc.devRef .tc Cert.ReferenceIdeal.main_arg0)) (V0 (Proc.devRef .tc Cert.ReferenceIdeal.main_arg1))
            (V0 (Proc.devRef .tc Cert.ReferenceIdeal.main_arg2)) (V0 (Proc.devRef .tc Cert.ReferenceIdeal.main_arg3))
            (V0 (Proc.devRef .tc Cert.ReferenceIdeal.main_arg4)))
    (hH : ∀ V0 : Valuation Cert.ReferenceIdeal.τ Cert.ReferenceIdeal.sig (Elt Ideal),
      after ops V0 (Proc.devRef .tc Cert.ReferenceIdeal.main_v624)
        = refH (F := Ideal) (V0 (Proc.devRef .tc Cert.ReferenceIdeal.main_arg0)) (V0 (Proc.devRef .tc Cert.ReferenceIdeal.main_arg1))
            (V0 (Proc.devRef .tc Cert.ReferenceIdeal.main_arg2)) (V0 (Proc.devRef .tc Cert.ReferenceIdeal.main_arg3))
            (V0 (Proc.devRef .tc Cert.ReferenceIdeal.main_arg4)))
    (hA0 : RefKeeps ops Cert.ReferenceIdeal.main_arg0) (hA1 : RefKeeps ops Cert.ReferenceIdeal.main_arg1)
    (hA2 : RefKeeps ops Cert.ReferenceIdeal.main_arg2) (hA3 : RefKeeps ops Cert.ReferenceIdeal.main_arg3)
    (hA4 : RefKeeps ops Cert.ReferenceIdeal.main_arg4) : Cert.algebraic_KernelIdeal_ReferenceIdeal := by
  intro m g m' g' _ hagree
  refine ⟨fun c => (dats m 0 c).arrAt 5 cfg0.N, fun c => (dats m 0 c).arrAt 6 cfg0.N,
    Cert.KernelIdeal.Value.run_blocks (F := Ideal) m g, ?_⟩
  refine (θ_run Cert.ReferenceIdeal.defs _ _).mono (fun r h c => ?_) (hrun m' g')
  obtain ⟨e0, e1, e2, e3, e4⟩ := hagree c
  refine ⟨?_, ?_, (h c Cert.ReferenceIdeal.main_arg0).trans (hA0 _), (h c Cert.ReferenceIdeal.main_arg1).trans (hA1 _),
    (h c Cert.ReferenceIdeal.main_arg2).trans (hA2 _), (h c Cert.ReferenceIdeal.main_arg3).trans (hA3 _),
    (h c Cert.ReferenceIdeal.main_arg4).trans (hA4 _)⟩
  · have key : refP (F := Ideal) (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        = (dats m 0 c).arrAt 5 cfg0.N := by
      rw [e0, e1, e2, e3, e4]
      exact (arr5_eq m c).symm
    exact ((h c Cert.ReferenceIdeal.main_v621).trans (hP _)).trans key
  · have key : refH (F := Ideal) (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        = (dats m 0 c).arrAt 6 cfg0.N := by
      rw [e0, e1, e2, e3, e4]
      exact (arr6_eq m c).symm
    exact ((h c Cert.ReferenceIdeal.main_v624).trans (hH _)).trans key

end Reference

end Cert.Mpm
end
-- ==== Proof.Mpm.RunRead.lean ====
/-
  The reference program's run read back one stretch at a time. The program is a straight line of host operations,
  cut into 62 stretches at the ends of the reference's function calls. For contents W before a stretch:
    keepK : a buffer the stretch does not write keeps its contents;
    resK_<buffer> : a buffer the stretch writes and a later stretch reads holds, after it, the reference's function
                    of the contents before it (the halves of a sequence, the
                    last-state gather, the weight matrices, the cosine tensor and what is computed from it, the
                    matching functions of one or of twenty perspectives).
  The three concatenations that lay the matching vectors side by side (cat16R, cat4R, cat2R) are written here as the
  functions of their blocks.
-/
import proofs.«116293_j48241072668683_2_alg».proof.Proof.Mpm.RunOps
import proofs.«116293_j48241072668683_2_alg».proof.Proof.Mpm.RDefs

noncomputable section

namespace Cert.Mpm

open Idealize.ShloMosaic Cert.ReferenceIdeal Cert.ReferenceIdeal.Gen

section Concats
variable {F : FTy → Type} [FloatOps F]

/-- Sixteen matching blocks side by side along the feature axis: widths 1, 1, 1, 1, 1, 20, 1, 20, 20, 20, 20, 20, 1, 20,
    1, 20, together 168. -/
def cat16R (u0 u1 u2 u3 u4 : FVec F S16x128x1 .f32) (u5 : FVec F S16x128x20 .f32) (u6 : FVec F S16x128x1 .f32)
    (u7 u8 u9 u10 u11 : FVec F S16x128x20 .f32) (u12 : FVec F S16x128x1 .f32) (u13 : FVec F S16x128x20 .f32)
    (u14 : FVec F S16x128x1 .f32) (u15 : FVec F S16x128x20 .f32) : FVec F S16x128x168 .f32 :=
  concatenate S16x128x168 2 [⟨S16x128x1, u0⟩, ⟨S16x128x1, u1⟩, ⟨S16x128x1, u2⟩, ⟨S16x128x1, u3⟩, ⟨S16x128x1, u4⟩, ⟨S16x128x20, u5⟩, ⟨S16x128x1, u6⟩, ⟨S16x128x20, u7⟩, ⟨S16x128x20, u8⟩, ⟨S16x128x20, u9⟩, ⟨S16x128x20, u10⟩, ⟨S16x128x20, u11⟩, ⟨S16x128x1, u12⟩, ⟨S16x128x20, u13⟩, ⟨S16x128x1, u14⟩, ⟨S16x128x20, u15⟩] concatenates_S16x128x1_S16x128x1_S16x128x1_S16x128x1_S16x128x1_S16x128x20_S16x128x1_S16x128x20_S16x128x20_S16x128x20_S16x128x20_S16x128x20_S16x128x1_S16x128x20_S16x128x1_S16x128x20_S16x128x168_d2

/-- Four matching blocks side by side along the feature axis: widths 1, 20, 1, 20, together 42. -/
def cat4R (a : FVec F S16x128x1 .f32) (b : FVec F S16x128x20 .f32) (c : FVec F S16x128x1 .f32) (d : FVec F S16x128x20 .f32) :
    FVec F S16x128x42 .f32 :=
  concatenate S16x128x42 2 [⟨S16x128x1, a⟩, ⟨S16x128x20, b⟩, ⟨S16x128x1, c⟩, ⟨S16x128x20, d⟩] concatenates_S16x128x1_S16x128x20_S16x128x1_S16x128x20_S16x128x42_d2

/-- The two groups side by side: widths 168 and 42, together the 210 matching features. -/
def cat2R (a : FVec F S16x128x168 .f32) (b : FVec F S16x128x42 .f32) : FVec F S16x128x210 .f32 :=
  concatenate S16x128x210 2 [⟨S16x128x168, a⟩, ⟨S16x128x42, b⟩] concatenates_S16x128x168_S16x128x42_S16x128x210_d2

end Concats

end Cert.Mpm

namespace Cert.Mpm.Ref

open Cert.ReferenceIdeal Cert.ReferenceIdeal.Gen Idealize.ShloMosaic Idealize.ShloMosaic.TcCoe Idealize.SL.Sem Idealize.ShloMosaic.StableHlo

variable {F : FTy → Type} [FloatOps F]

/-! ### A buffer a stretch does not write keeps its contents -/

theorem keep1 (W : Valuation τ sig (Elt F)) (r : Ref sig .tc) (h : r ∉ wrC1) : after opsC1 W (Proc.devRef .tc r) = W (Proc.devRef .tc r) := after_of_writes_sub opsC1 W opsC1_wr h
theorem keep2 (W : Valuation τ sig (Elt F)) (r : Ref sig .tc) (h : r ∉ wrC2) : after opsC2 W (Proc.devRef .tc r) = W (Proc.devRef .tc r) := after_of_writes_sub opsC2 W opsC2_wr h
theorem keep3 (W : Valuation τ sig (Elt F)) (r : Ref sig .tc) (h : r ∉ wrC3) : after opsC3 W (Proc.devRef .tc r) = W (Proc.devRef .tc r) := after_of_writes_sub opsC3 W opsC3_wr h
theorem keep4 (W : Valuation τ sig (Elt F)) (r : Ref sig .tc) (h : r ∉ wrC4) : after opsC4 W (Proc.devRef .tc r) = W (Proc.devRef .tc r) := after_of_writes_sub opsC4 W opsC4_wr h
theorem keep5 (W : Valuation τ sig (Elt F)) (r : Ref sig .tc) (h : r ∉ wrC5) : after opsC5 W (Proc.devRef .tc r) = W (Proc.devRef .tc r) := after_of_writes_sub opsC5 W opsC5_wr h
theorem keep6 (W : Valuation τ sig (Elt F)) (r : Ref sig .tc) (h : r ∉ wrC6) : after opsC6 W (Proc.devRef .tc r) = W (Proc.devRef .tc r) := after_of_writes_sub opsC6 W opsC6_wr h
theorem keep7 (W : Valuation τ sig (Elt F)) (r : Ref sig .tc) (h : r ∉ wrC7) : after opsC7 W (Proc.devRef .tc r) = W (Proc.devRef .tc r) := after_of_writes_sub opsC7 W opsC7_wr h
theorem keep8 (W : Valuation τ sig (Elt F)) (r : Ref sig .tc) (h : r ∉ wrC8) : after opsC8 W (Proc.devRef .tc r) = W (Proc.devRef .tc r) := after_of_writes_sub opsC8 W opsC8_wr h
theorem keep9 (W : Valuation τ sig (Elt F)) (r : Ref sig .tc) (h : r ∉ wrC9) : after opsC9 W (Proc.devRef .tc r) = W (Proc.devRef .tc r) := after_of_writes_sub opsC9 W opsC9_wr h
theorem keep10 (W : Valuation τ sig (Elt F)) (r : Ref sig .tc) (h : r ∉ wrC10) : after opsC10 W (Proc.devRef .tc r) = W (Proc.devRef .tc r) := after_of_writes_sub opsC10 W opsC10_wr h
theorem keep11 (W : Valuation τ sig (Elt F)) (r : Ref sig .tc) (h : r ∉ wrC11) : after opsC11 W (Proc.devRef .tc r) = W (Proc.devRef .tc r) := after_of_writes_sub opsC11 W opsC11_wr h
theorem keep12 (W : Valuation τ sig (Elt F)) (r : Ref sig .tc) (h : r ∉ wrC12) : after opsC12 W (Proc.devRef .tc r) = W (Proc.devRef .tc r) := after_of_writes_sub opsC12 W opsC12_wr h
theorem keep13 (W : Valuation τ sig (Elt F)) (r : Ref sig .tc) (h : r ∉ wrC13) : after opsC13 W (Proc.devRef .tc r) = W (Proc.devRef .tc r) := after_of_writes_sub opsC13 W opsC13_wr h
theorem keep14 (W : Valuation τ sig (Elt F)) (r : Ref sig .tc) (h : r ∉ wrC14) : after opsC14 W (Proc.devRef .tc r) = W (Proc.devRef .tc r) := after_of_writes_sub opsC14 W opsC14_wr h
theorem keep15 (W : Valuation τ sig (Elt F)) (r : Ref sig .tc) (h : r ∉ wrC15) : after opsC15 W (Proc.devRef .tc r) = W (Proc.devRef .tc r) := after_of_writes_sub opsC15 W opsC15_wr h
theorem keep16 (W : Valuation τ sig (Elt F)) (r : Ref sig .tc) (h : r ∉ wrC16) : after opsC16 W (Proc.devRef .tc r) = W (Proc.devRef .tc r) := after_of_writes_sub opsC16 W opsC16_wr h
theorem keep17 (W : Valuation τ sig (Elt F)) (r : Ref sig .tc) (h : r ∉ wrC17) : after opsC17 W (Proc.devRef .tc r) = W (Proc.devRef .tc r) := after_of_writes_sub opsC17 W opsC17_wr h
theorem keep18 (W : Valuation τ sig (Elt F)) (r : Ref sig .tc) (h : r ∉ wrC18) : after opsC18 W (Proc.devRef .tc r) = W (Proc.devRef .tc r) := after_of_writes_sub opsC18 W opsC18_wr h
theorem keep19 (W : Valuation τ sig (Elt F)) (r : Ref sig .tc) (h : r ∉ wrC19) : after opsC19 W (Proc.devRef .tc r) = W (Proc.devRef .tc r) := after_of_writes_sub opsC19 W opsC19_wr h
theorem keep20 (W : Valuation τ sig (Elt F)) (r : Ref sig .tc) (h : r ∉ wrC20) : after opsC20 W (Proc.devRef .tc r) = W (Proc.devRef .tc r) := after_of_writes_sub opsC20 W opsC20_wr h
theorem keep21 (W : Valuation τ sig (Elt F)) (r : Ref sig .tc) (h : r ∉ wrC21) : after opsC21 W (Proc.devRef .tc r) = W (Proc.devRef .tc r) := after_of_writes_sub opsC21 W opsC21_wr h
theorem keep22 (W : Valuation τ sig (Elt F)) (r : Ref sig .tc) (h : r ∉ wrC22) : after opsC22 W (Proc.devRef .tc r) = W (Proc.devRef .tc r) := after_of_writes_sub opsC22 W opsC22_wr h
theorem keep23 (W : Valuation τ sig (Elt F)) (r : Ref sig .tc) (h : r ∉ wrC23) : after opsC23 W (Proc.devRef .tc r) = W (Proc.devRef .tc r) := after_of_writes_sub opsC23 W opsC23_wr h
theorem keep24 (W : Valuation τ sig (Elt F)) (r : Ref sig .tc) (h : r ∉ wrC24) : after opsC24 W (Proc.devRef .tc r) = W (Proc.devRef .tc r) := after_of_writes_sub opsC24 W opsC24_wr h
theorem keep25 (W : Valuation τ sig (Elt F)) (r : Ref sig .tc) (h : r ∉ wrC25) : after opsC25 W (Proc.devRef .tc r) = W (Proc.devRef .tc r) := after_of_writes_sub opsC25 W opsC25_wr h
theorem keep26 (W : Valuation τ sig (Elt F)) (r : Ref sig .tc) (h : r ∉ wrC26) : after opsC26 W (Proc.devRef .tc r) = W (Proc.devRef .tc r) := after_of_writes_sub opsC26 W opsC26_wr h
theorem keep27 (W : Valuation τ sig (Elt F)) (r : Ref sig .tc) (h : r ∉ wrC27) : after opsC27 W (Proc.devRef .tc r) = W (Proc.devRef .tc r) := after_of_writes_sub opsC27 W opsC27_wr h
theorem keep28 (W : Valuation τ sig (Elt F)) (r : Ref sig .tc) (h : r ∉ wrC28) : after opsC28 W (Proc.devRef .tc r) = W (Proc.devRef .tc r) := after_of_writes_sub opsC28 W opsC28_wr h
theorem keep29 (W : Valuation τ sig (Elt F)) (r : Ref sig .tc) (h : r ∉ wrC29) : after opsC29 W (Proc.devRef .tc r) = W (Proc.devRef .tc r) := after_of_writes_sub opsC29 W opsC29_wr h
theorem keep30 (W : Valuation τ sig (Elt F)) (r : Ref sig .tc) (h : r ∉ wrC30) : after opsC30 W (Proc.devRef .tc r) = W (Proc.devRef .tc r) := after_of_writes_sub opsC30 W opsC30_wr h
theorem keep31 (W : Valuation τ sig (Elt F)) (r : Ref sig .tc) (h : r ∉ wrC31) : after opsC31 W (Proc.devRef .tc r) = W (Proc.devRef .tc r) := after_of_writes_sub opsC31 W opsC31_wr h
theorem keep32 (W : Valuation τ sig (Elt F)) (r : Ref sig .tc) (h : r ∉ wrC32) : after opsC32 W (Proc.devRef .tc r) = W (Proc.devRef .tc r) := after_of_writes_sub opsC32 W opsC32_wr h
theorem keep33 (W : Valuation τ sig (Elt F)) (r : Ref sig .tc) (h : r ∉ wrC33) : after opsC33 W (Proc.devRef .tc r) = W (Proc.devRef .tc r) := after_of_writes_sub opsC33 W opsC33_wr h
theorem keep34 (W : Valuation τ sig (Elt F)) (r : Ref sig .tc) (h : r ∉ wrC34) : after opsC34 W (Proc.devRef .tc r) = W (Proc.devRef .tc r) := after_of_writes_sub opsC34 W opsC34_wr h
theorem keep35 (W : Valuation τ sig (Elt F)) (r : Ref sig .tc) (h : r ∉ wrC35) : after opsC35 W (Proc.devRef .tc r) = W (Proc.devRef .tc r) := after_of_writes_sub opsC35 W opsC35_wr h
theorem keep36 (W : Valuation τ sig (Elt F)) (r : Ref sig .tc) (h : r ∉ wrC36) : after opsC36 W (Proc.devRef .tc r) = W (Proc.devRef .tc r) := after_of_writes_sub opsC36 W opsC36_wr h
theorem keep37 (W : Valuation τ sig (Elt F)) (r : Ref sig .tc) (h : r ∉ wrC37) : after opsC37 W (Proc.devRef .tc r) = W (Proc.devRef .tc r) := after_of_writes_sub opsC37 W opsC37_wr h
theorem keep38 (W : Valuation τ sig (Elt F)) (r : Ref sig .tc) (h : r ∉ wrC38) : after opsC38 W (Proc.devRef .tc r) = W (Proc.devRef .tc r) := after_of_writes_sub opsC38 W opsC38_wr h
theorem keep39 (W : Valuation τ sig (Elt F)) (r : Ref sig .tc) (h : r ∉ wrC39) : after opsC39 W (Proc.devRef .tc r) = W (Proc.devRef .tc r) := after_of_writes_sub opsC39 W opsC39_wr h
theorem keep40 (W : Valuation τ sig (Elt F)) (r : Ref sig .tc) (h : r ∉ wrC40) : after opsC40 W (Proc.devRef .tc r) = W (Proc.devRef .tc r) := after_of_writes_sub opsC40 W opsC40_wr h
theorem keep41 (W : Valuation τ sig (Elt F)) (r : Ref sig .tc) (h : r ∉ wrC41) : after opsC41 W (Proc.devRef .tc r) = W (Proc.devRef .tc r) := after_of_writes_sub opsC41 W opsC41_wr h
theorem keep42 (W : Valuation τ sig (Elt F)) (r : Ref sig .tc) (h : r ∉ wrC42) : after opsC42 W (Proc.devRef .tc r) = W (Proc.devRef .tc r) := after_of_writes_sub opsC42 W opsC42_wr h
theorem keep43 (W : Valuation τ sig (Elt F)) (r : Ref sig .tc) (h : r ∉ wrC43) : after opsC43 W (Proc.devRef .tc r) = W (Proc.devRef .tc r) := after_of_writes_sub opsC43 W opsC43_wr h
theorem keep44 (W : Valuation τ sig (Elt F)) (r : Ref sig .tc) (h : r ∉ wrC44) : after opsC44 W (Proc.devRef .tc r) = W (Proc.devRef .tc r) := after_of_writes_sub opsC44 W opsC44_wr h
theorem keep45 (W : Valuation τ sig (Elt F)) (r : Ref sig .tc) (h : r ∉ wrC45) : after opsC45 W (Proc.devRef .tc r) = W (Proc.devRef .tc r) := after_of_writes_sub opsC45 W opsC45_wr h
theorem keep46 (W : Valuation τ sig (Elt F)) (r : Ref sig .tc) (h : r ∉ wrC46) : after opsC46 W (Proc.devRef .tc r) = W (Proc.devRef .tc r) := after_of_writes_sub opsC46 W opsC46_wr h
theorem keep47 (W : Valuation τ sig (Elt F)) (r : Ref sig .tc) (h : r ∉ wrC47) : after opsC47 W (Proc.devRef .tc r) = W (Proc.devRef .tc r) := after_of_writes_sub opsC47 W opsC47_wr h
theorem keep48 (W : Valuation τ sig (Elt F)) (r : Ref sig .tc) (h : r ∉ wrC48) : after opsC48 W (Proc.devRef .tc r) = W (Proc.devRef .tc r) := after_of_writes_sub opsC48 W opsC48_wr h
theorem keep49 (W : Valuation τ sig (Elt F)) (r : Ref sig .tc) (h : r ∉ wrC49) : after opsC49 W (Proc.devRef .tc r) = W (Proc.devRef .tc r) := after_of_writes_sub opsC49 W opsC49_wr h
theorem keep50 (W : Valuation τ sig (Elt F)) (r : Ref sig .tc) (h : r ∉ wrC50) : after opsC50 W (Proc.devRef .tc r) = W (Proc.devRef .tc r) := after_of_writes_sub opsC50 W opsC50_wr h
theorem keep51 (W : Valuation τ sig (Elt F)) (r : Ref sig .tc) (h : r ∉ wrC51) : after opsC51 W (Proc.devRef .tc r) = W (Proc.devRef .tc r) := after_of_writes_sub opsC51 W opsC51_wr h
theorem keep52 (W : Valuation τ sig (Elt F)) (r : Ref sig .tc) (h : r ∉ wrC52) : after opsC52 W (Proc.devRef .tc r) = W (Proc.devRef .tc r) := after_of_writes_sub opsC52 W opsC52_wr h
theorem keep53 (W : Valuation τ sig (Elt F)) (r : Ref sig .tc) (h : r ∉ wrC53) : after opsC53 W (Proc.devRef .tc r) = W (Proc.devRef .tc r) := after_of_writes_sub opsC53 W opsC53_wr h
theorem keep54 (W : Valuation τ sig (Elt F)) (r : Ref sig .tc) (h : r ∉ wrC54) : after opsC54 W (Proc.devRef .tc r) = W (Proc.devRef .tc r) := after_of_writes_sub opsC54 W opsC54_wr h
theorem keep55 (W : Valuation τ sig (Elt F)) (r : Ref sig .tc) (h : r ∉ wrC55) : after opsC55 W (Proc.devRef .tc r) = W (Proc.devRef .tc r) := after_of_writes_sub opsC55 W opsC55_wr h
theorem keep56 (W : Valuation τ sig (Elt F)) (r : Ref sig .tc) (h : r ∉ wrC56) : after opsC56 W (Proc.devRef .tc r) = W (Proc.devRef .tc r) := after_of_writes_sub opsC56 W opsC56_wr h
theorem keep57 (W : Valuation τ sig (Elt F)) (r : Ref sig .tc) (h : r ∉ wrC57) : after opsC57 W (Proc.devRef .tc r) = W (Proc.devRef .tc r) := after_of_writes_sub opsC57 W opsC57_wr h
theorem keep58 (W : Valuation τ sig (Elt F)) (r : Ref sig .tc) (h : r ∉ wrC58) : after opsC58 W (Proc.devRef .tc r) = W (Proc.devRef .tc r) := after_of_writes_sub opsC58 W opsC58_wr h
theorem keep59 (W : Valuation τ sig (Elt F)) (r : Ref sig .tc) (h : r ∉ wrC59) : after opsC59 W (Proc.devRef .tc r) = W (Proc.devRef .tc r) := after_of_writes_sub opsC59 W opsC59_wr h
theorem keep60 (W : Valuation τ sig (Elt F)) (r : Ref sig .tc) (h : r ∉ wrC60) : after opsC60 W (Proc.devRef .tc r) = W (Proc.devRef .tc r) := after_of_writes_sub opsC60 W opsC60_wr h
theorem keep61 (W : Valuation τ sig (Elt F)) (r : Ref sig .tc) (h : r ∉ wrC61) : after opsC61 W (Proc.devRef .tc r) = W (Proc.devRef .tc r) := after_of_writes_sub opsC61 W opsC61_wr h
theorem keep62 (W : Valuation τ sig (Elt F)) (r : Ref sig .tc) (h : r ∉ wrC62) : after opsC62 W (Proc.devRef .tc r) = W (Proc.devRef .tc r) := after_of_writes_sub opsC62 W opsC62_wr h

/-! ### What a stretch leaves in the buffers a later stretch reads -/

/-! The halves of the two sequences. -/
theorem res1_v0 (W : Valuation τ sig (Elt F)) : after opsC1 W (Proc.devRef .tc main_v0) = pfR (W (Proc.devRef .tc main_arg0)) := by
  after_results <;> rfl
theorem res1_v1 (W : Valuation τ sig (Elt F)) : after opsC1 W (Proc.devRef .tc main_v1) = pbR (W (Proc.devRef .tc main_arg0)) := by
  after_results <;> rfl
theorem res1_v2 (W : Valuation τ sig (Elt F)) : after opsC1 W (Proc.devRef .tc main_v2) = pfR (W (Proc.devRef .tc main_arg2)) := by
  after_results <;> rfl
theorem res1_v3 (W : Valuation τ sig (Elt F)) : after opsC1 W (Proc.devRef .tc main_v3) = pbR (W (Proc.devRef .tc main_arg2)) := by
  after_results <;> rfl

/-! The last valid positions and the first sequence's state there; the second stretch also leaves the batch counter
    0 .. 15 that the third reads again. -/
theorem res2_v11 (W : Valuation τ sig (Elt F)) : after opsC2 W (Proc.devRef .tc main_v11) = lastIdxR (W (Proc.devRef .tc main_arg3)) := by
  after_results_simp <;> rfl
theorem res2_v12 (W : Valuation τ sig (Elt F)) : after opsC2 W (Proc.devRef .tc main_v12) = iotaInDim S16 32 0 := by
  after_results_simp <;> rfl
set_option maxHeartbeats 2000000 in
theorem res2_v27 (W : Valuation τ sig (Elt F)) :
    after opsC2 W (Proc.devRef .tc main_v27) = gatherLastR (W (Proc.devRef .tc main_v0)) (lastIdxR (W (Proc.devRef .tc main_arg1))) := by
  after_results_simp
  repeat (first
    | rw [nullary_result] | rw [unary_result] | rw [binary_result] | rw [ternary_result]
    | (rw [nullary_result_ne]; rotate_left; decide)
    | (rw [unary_result_ne]; rotate_left; decide)
    | (rw [binary_result_ne]; rotate_left; decide)
    | (rw [ternary_result_ne]; rotate_left; decide))
  rfl

set_option maxHeartbeats 2000000 in
/-- The second sequence's state at its last valid position, given that the batch counter is still in its buffer. -/
theorem res3_v42 (W : Valuation τ sig (Elt F)) (h12 : W (Proc.devRef .tc main_v12) = iotaInDim S16 32 0) :
    after opsC3 W (Proc.devRef .tc main_v42) = gatherLastR (W (Proc.devRef .tc main_v2)) (W (Proc.devRef .tc main_v11)) := by
  after_results_simp
  repeat (first
    | rw [nullary_result] | rw [unary_result] | rw [binary_result] | rw [ternary_result]
    | (rw [nullary_result_ne]; rotate_left; decide)
    | (rw [unary_result_ne]; rotate_left; decide)
    | (rw [binary_result_ne]; rotate_left; decide)
    | (rw [ternary_result_ne]; rotate_left; decide))
  rw [h12]
  rfl

/-! The first positions of the two backward halves. -/
theorem res4_v43 (W : Valuation τ sig (Elt F)) : after opsC4 W (Proc.devRef .tc main_v43) = firstRowR (W (Proc.devRef .tc main_v1)) := by
  after_results <;> rfl
theorem res4_v44 (W : Valuation τ sig (Elt F)) : after opsC4 W (Proc.devRef .tc main_v44) = firstRowR (W (Proc.devRef .tc main_v3)) := by
  after_results <;> rfl

/-! The two cosine tensors, and each one's maxima and means along either sequence axis. -/
theorem res5_v55 (W : Valuation τ sig (Elt F)) :
    after opsC5 W (Proc.devRef .tc main_v55) = cosR (W (Proc.devRef .tc main_v0)) (W (Proc.devRef .tc main_v2)) := by
  after_results_simp <;> rfl
theorem res6_v66 (W : Valuation τ sig (Elt F)) :
    after opsC6 W (Proc.devRef .tc main_v66) = cosR (W (Proc.devRef .tc main_v1)) (W (Proc.devRef .tc main_v3)) := by
  after_results_simp <;> rfl
theorem res7_v68 (W : Valuation τ sig (Elt F)) : after opsC7 W (Proc.devRef .tc main_v68) = rowMaxR (W (Proc.devRef .tc main_v55)) := by
  after_results_simp <;> rfl
theorem res7_v72 (W : Valuation τ sig (Elt F)) : after opsC7 W (Proc.devRef .tc main_v72) = rowMeanR (W (Proc.devRef .tc main_v55)) := by
  after_results_simp <;> rfl
theorem res7_v74 (W : Valuation τ sig (Elt F)) : after opsC7 W (Proc.devRef .tc main_v74) = rowMaxR (W (Proc.devRef .tc main_v66)) := by
  after_results_simp <;> rfl
theorem res7_v78 (W : Valuation τ sig (Elt F)) : after opsC7 W (Proc.devRef .tc main_v78) = rowMeanR (W (Proc.devRef .tc main_v66)) := by
  after_results_simp <;> rfl
theorem res7_v80 (W : Valuation τ sig (Elt F)) : after opsC7 W (Proc.devRef .tc main_v80) = colMaxR (W (Proc.devRef .tc main_v55)) := by
  after_results_simp <;> rfl
theorem res7_v84 (W : Valuation τ sig (Elt F)) : after opsC7 W (Proc.devRef .tc main_v84) = colMeanR (W (Proc.devRef .tc main_v55)) := by
  after_results_simp <;> rfl
theorem res7_v86 (W : Valuation τ sig (Elt F)) : after opsC7 W (Proc.devRef .tc main_v86) = colMaxR (W (Proc.devRef .tc main_v66)) := by
  after_results_simp <;> rfl
theorem res7_v90 (W : Valuation τ sig (Elt F)) : after opsC7 W (Proc.devRef .tc main_v90) = colMeanR (W (Proc.devRef .tc main_v66)) := by
  after_results_simp <;> rfl

/-! The weight matrices, each cut from the parameter block where it is used. -/
theorem res8_v92 (W : Valuation τ sig (Elt F)) : after opsC8 W (Proc.devRef .tc main_v92) = wR0 (W (Proc.devRef .tc main_arg4)) := by
  after_results <;> rfl
theorem res11_v129 (W : Valuation τ sig (Elt F)) : after opsC11 W (Proc.devRef .tc main_v129) = wR1 (W (Proc.devRef .tc main_arg4)) := by
  after_results <;> rfl
theorem res14_v166 (W : Valuation τ sig (Elt F)) : after opsC14 W (Proc.devRef .tc main_v166) = wR0 (W (Proc.devRef .tc main_arg4)) := by
  after_results <;> rfl
theorem res17_v203 (W : Valuation τ sig (Elt F)) : after opsC17 W (Proc.devRef .tc main_v203) = wR1 (W (Proc.devRef .tc main_arg4)) := by
  after_results <;> rfl
theorem res20_v240 (W : Valuation τ sig (Elt F)) : after opsC20 W (Proc.devRef .tc main_v240) = wR2 (W (Proc.devRef .tc main_arg4)) := by
  after_results <;> rfl
theorem res22_v264 (W : Valuation τ sig (Elt F)) : after opsC22 W (Proc.devRef .tc main_v264) = wR3 (W (Proc.devRef .tc main_arg4)) := by
  after_results <;> rfl
theorem res29_v332 (W : Valuation τ sig (Elt F)) : after opsC29 W (Proc.devRef .tc main_v332) = wR4 (W (Proc.devRef .tc main_arg4)) := by
  after_results <;> rfl
theorem res32_v365 (W : Valuation τ sig (Elt F)) : after opsC32 W (Proc.devRef .tc main_v365) = wR5 (W (Proc.devRef .tc main_arg4)) := by
  after_results <;> rfl
theorem res35_v398 (W : Valuation τ sig (Elt F)) : after opsC35 W (Proc.devRef .tc main_v398) = wR4 (W (Proc.devRef .tc main_arg4)) := by
  after_results <;> rfl
theorem res38_v431 (W : Valuation τ sig (Elt F)) : after opsC38 W (Proc.devRef .tc main_v431) = wR5 (W (Proc.devRef .tc main_arg4)) := by
  after_results <;> rfl
theorem res45_v488 (W : Valuation τ sig (Elt F)) : after opsC45 W (Proc.devRef .tc main_v488) = wR6 (W (Proc.devRef .tc main_arg4)) := by
  after_results <;> rfl
theorem res48_v521 (W : Valuation τ sig (Elt F)) : after opsC48 W (Proc.devRef .tc main_v521) = wR7 (W (Proc.devRef .tc main_arg4)) := by
  after_results <;> rfl
theorem res51_v554 (W : Valuation τ sig (Elt F)) : after opsC51 W (Proc.devRef .tc main_v554) = wR6 (W (Proc.devRef .tc main_arg4)) := by
  after_results <;> rfl
theorem res54_v587 (W : Valuation τ sig (Elt F)) : after opsC54 W (Proc.devRef .tc main_v587) = wR7 (W (Proc.devRef .tc main_arg4)) := by
  after_results <;> rfl

/-! The full matching: each sequence against the other's last (forward) or first (backward) state. -/
theorem res9_v105 (W : Valuation τ sig (Elt F)) :
    after opsC9 W (Proc.devRef .tc main_v105) = mv1R1 (W (Proc.devRef .tc main_v0)) (W (Proc.devRef .tc main_v42)) := by
  after_results_simp <;> rfl
theorem res10_v127 (W : Valuation τ sig (Elt F)) :
    after opsC10 W (Proc.devRef .tc main_v127)
      = mvpR1 (W (Proc.devRef .tc main_v0)) (W (Proc.devRef .tc main_v42)) (W (Proc.devRef .tc main_v92)) := by
  after_results_simp <;> rfl
theorem res12_v142 (W : Valuation τ sig (Elt F)) :
    after opsC12 W (Proc.devRef .tc main_v142) = mv1R1 (W (Proc.devRef .tc main_v1)) (W (Proc.devRef .tc main_v44)) := by
  after_results_simp <;> rfl
theorem res13_v164 (W : Valuation τ sig (Elt F)) :
    after opsC13 W (Proc.devRef .tc main_v164)
      = mvpR1 (W (Proc.devRef .tc main_v1)) (W (Proc.devRef .tc main_v44)) (W (Proc.devRef .tc main_v129)) := by
  after_results_simp <;> rfl
theorem res15_v179 (W : Valuation τ sig (Elt F)) :
    after opsC15 W (Proc.devRef .tc main_v179) = mv1R1 (W (Proc.devRef .tc main_v2)) (W (Proc.devRef .tc main_v27)) := by
  after_results_simp <;> rfl
theorem res16_v201 (W : Valuation τ sig (Elt F)) :
    after opsC16 W (Proc.devRef .tc main_v201)
      = mvpR1 (W (Proc.devRef .tc main_v2)) (W (Proc.devRef .tc main_v27)) (W (Proc.devRef .tc main_v166)) := by
  after_results_simp <;> rfl
theorem res18_v216 (W : Valuation τ sig (Elt F)) :
    after opsC18 W (Proc.devRef .tc main_v216) = mv1R1 (W (Proc.devRef .tc main_v3)) (W (Proc.devRef .tc main_v43)) := by
  after_results_simp <;> rfl
theorem res19_v238 (W : Valuation τ sig (Elt F)) :
    after opsC19 W (Proc.devRef .tc main_v238)
      = mvpR1 (W (Proc.devRef .tc main_v3)) (W (Proc.devRef .tc main_v43)) (W (Proc.devRef .tc main_v203)) := by
  after_results_simp <;> rfl

/-! The pairwise matching: the perspective cosines of every pair of positions, and their maxima and means. -/
theorem res21_v262 (W : Valuation τ sig (Elt F)) :
    after opsC21 W (Proc.devRef .tc main_v262)
      = pwR (W (Proc.devRef .tc main_v0)) (W (Proc.devRef .tc main_v2)) (W (Proc.devRef .tc main_v240)) := by
  after_results_simp <;> rfl
theorem res23_v286 (W : Valuation τ sig (Elt F)) :
    after opsC23 W (Proc.devRef .tc main_v286)
      = pwR (W (Proc.devRef .tc main_v1)) (W (Proc.devRef .tc main_v3)) (W (Proc.devRef .tc main_v264)) := by
  after_results_simp <;> rfl
theorem res24_v287 (W : Valuation τ sig (Elt F)) : after opsC24 W (Proc.devRef .tc main_v287) = pwMaxJR (W (Proc.devRef .tc main_v262)) := by
  after_results_simp <;> rfl
theorem res24_v290 (W : Valuation τ sig (Elt F)) : after opsC24 W (Proc.devRef .tc main_v290) = pwMeanJR (W (Proc.devRef .tc main_v262)) := by
  after_results_simp <;> rfl
theorem res24_v291 (W : Valuation τ sig (Elt F)) : after opsC24 W (Proc.devRef .tc main_v291) = pwMaxJR (W (Proc.devRef .tc main_v286)) := by
  after_results_simp <;> rfl
theorem res24_v294 (W : Valuation τ sig (Elt F)) : after opsC24 W (Proc.devRef .tc main_v294) = pwMeanJR (W (Proc.devRef .tc main_v286)) := by
  after_results_simp <;> rfl
theorem res24_v295 (W : Valuation τ sig (Elt F)) : after opsC24 W (Proc.devRef .tc main_v295) = pwMaxIR (W (Proc.devRef .tc main_v262)) := by
  after_results_simp <;> rfl
theorem res24_v298 (W : Valuation τ sig (Elt F)) : after opsC24 W (Proc.devRef .tc main_v298) = pwMeanIR (W (Proc.devRef .tc main_v262)) := by
  after_results_simp <;> rfl
theorem res24_v299 (W : Valuation τ sig (Elt F)) : after opsC24 W (Proc.devRef .tc main_v299) = pwMaxIR (W (Proc.devRef .tc main_v286)) := by
  after_results_simp <;> rfl
theorem res24_v302 (W : Valuation τ sig (Elt F)) : after opsC24 W (Proc.devRef .tc main_v302) = pwMeanIR (W (Proc.devRef .tc main_v286)) := by
  after_results_simp <;> rfl

/-! The attentive means and maxima of each sequence under each cosine tensor. -/
theorem res25_v309 (W : Valuation τ sig (Elt F)) :
    after opsC25 W (Proc.devRef .tc main_v309) = attMeanJR (W (Proc.devRef .tc main_v55)) (W (Proc.devRef .tc main_v2)) := by
  after_results_simp <;> rfl
theorem res26_v316 (W : Valuation τ sig (Elt F)) :
    after opsC26 W (Proc.devRef .tc main_v316) = attMeanJR (W (Proc.devRef .tc main_v66)) (W (Proc.devRef .tc main_v3)) := by
  after_results_simp <;> rfl
theorem res27_v323 (W : Valuation τ sig (Elt F)) :
    after opsC27 W (Proc.devRef .tc main_v323) = attMeanIR (W (Proc.devRef .tc main_v55)) (W (Proc.devRef .tc main_v0)) := by
  after_results_simp <;> rfl
theorem res28_v330 (W : Valuation τ sig (Elt F)) :
    after opsC28 W (Proc.devRef .tc main_v330) = attMeanIR (W (Proc.devRef .tc main_v66)) (W (Proc.devRef .tc main_v1)) := by
  after_results_simp <;> rfl
theorem res41_v468 (W : Valuation τ sig (Elt F)) :
    after opsC41 W (Proc.devRef .tc main_v468) = attMaxJR (W (Proc.devRef .tc main_v2)) (W (Proc.devRef .tc main_v55)) := by
  after_results_simp <;> rfl
theorem res42_v474 (W : Valuation τ sig (Elt F)) :
    after opsC42 W (Proc.devRef .tc main_v474) = attMaxJR (W (Proc.devRef .tc main_v3)) (W (Proc.devRef .tc main_v66)) := by
  after_results_simp <;> rfl
theorem res43_v480 (W : Valuation τ sig (Elt F)) :
    after opsC43 W (Proc.devRef .tc main_v480) = attMaxIR (W (Proc.devRef .tc main_v0)) (W (Proc.devRef .tc main_v55)) := by
  after_results_simp <;> rfl
theorem res44_v486 (W : Valuation τ sig (Elt F)) :
    after opsC44 W (Proc.devRef .tc main_v486) = attMaxIR (W (Proc.devRef .tc main_v1)) (W (Proc.devRef .tc main_v66)) := by
  after_results_simp <;> rfl

/-! The attentive matchings: each sequence against its attentive mean, then against its attentive maximum. -/
theorem res30_v343 (W : Valuation τ sig (Elt F)) :
    after opsC30 W (Proc.devRef .tc main_v343) = mv1R (W (Proc.devRef .tc main_v0)) (W (Proc.devRef .tc main_v309)) := by
  after_results_simp <;> rfl
theorem res31_v363 (W : Valuation τ sig (Elt F)) :
    after opsC31 W (Proc.devRef .tc main_v363)
      = mvpR (W (Proc.devRef .tc main_v0)) (W (Proc.devRef .tc main_v309)) (W (Proc.devRef .tc main_v332)) := by
  after_results_simp <;> rfl
theorem res33_v376 (W : Valuation τ sig (Elt F)) :
    after opsC33 W (Proc.devRef .tc main_v376) = mv1R (W (Proc.devRef .tc main_v1)) (W (Proc.devRef .tc main_v316)) := by
  after_results_simp <;> rfl
theorem res34_v396 (W : Valuation τ sig (Elt F)) :
    after opsC34 W (Proc.devRef .tc main_v396)
      = mvpR (W (Proc.devRef .tc main_v1)) (W (Proc.devRef .tc main_v316)) (W (Proc.devRef .tc main_v365)) := by
  after_results_simp <;> rfl
theorem res36_v409 (W : Valuation τ sig (Elt F)) :
    after opsC36 W (Proc.devRef .tc main_v409) = mv1R (W (Proc.devRef .tc main_v2)) (W (Proc.devRef .tc main_v323)) := by
  after_results_simp <;> rfl
theorem res37_v429 (W : Valuation τ sig (Elt F)) :
    after opsC37 W (Proc.devRef .tc main_v429)
      = mvpR (W (Proc.devRef .tc main_v2)) (W (Proc.devRef .tc main_v323)) (W (Proc.devRef .tc main_v398)) := by
  after_results_simp <;> rfl
theorem res39_v442 (W : Valuation τ sig (Elt F)) :
    after opsC39 W (Proc.devRef .tc main_v442) = mv1R (W (Proc.devRef .tc main_v3)) (W (Proc.devRef .tc main_v330)) := by
  after_results_simp <;> rfl
theorem res40_v462 (W : Valuation τ sig (Elt F)) :
    after opsC40 W (Proc.devRef .tc main_v462)
      = mvpR (W (Proc.devRef .tc main_v3)) (W (Proc.devRef .tc main_v330)) (W (Proc.devRef .tc main_v431)) := by
  after_results_simp <;> rfl
theorem res46_v499 (W : Valuation τ sig (Elt F)) :
    after opsC46 W (Proc.devRef .tc main_v499) = mv1R (W (Proc.devRef .tc main_v0)) (W (Proc.devRef .tc main_v468)) := by
  after_results_simp <;> rfl
theorem res47_v519 (W : Valuation τ sig (Elt F)) :
    after opsC47 W (Proc.devRef .tc main_v519)
      = mvpR (W (Proc.devRef .tc main_v0)) (W (Proc.devRef .tc main_v468)) (W (Proc.devRef .tc main_v488)) := by
  after_results_simp <;> rfl
theorem res49_v532 (W : Valuation τ sig (Elt F)) :
    after opsC49 W (Proc.devRef .tc main_v532) = mv1R (W (Proc.devRef .tc main_v1)) (W (Proc.devRef .tc main_v474)) := by
  after_results_simp <;> rfl
theorem res50_v552 (W : Valuation τ sig (Elt F)) :
    after opsC50 W (Proc.devRef .tc main_v552)
      = mvpR (W (Proc.devRef .tc main_v1)) (W (Proc.devRef .tc main_v474)) (W (Proc.devRef .tc main_v521)) := by
  after_results_simp <;> rfl
theorem res52_v565 (W : Valuation τ sig (Elt F)) :
    after opsC52 W (Proc.devRef .tc main_v565) = mv1R (W (Proc.devRef .tc main_v2)) (W (Proc.devRef .tc main_v480)) := by
  after_results_simp <;> rfl
theorem res53_v585 (W : Valuation τ sig (Elt F)) :
    after opsC53 W (Proc.devRef .tc main_v585)
      = mvpR (W (Proc.devRef .tc main_v2)) (W (Proc.devRef .tc main_v480)) (W (Proc.devRef .tc main_v554)) := by
  after_results_simp <;> rfl
theorem res55_v598 (W : Valuation τ sig (Elt F)) :
    after opsC55 W (Proc.devRef .tc main_v598) = mv1R (W (Proc.devRef .tc main_v3)) (W (Proc.devRef .tc main_v486)) := by
  after_results_simp <;> rfl
theorem res56_v618 (W : Valuation τ sig (Elt F)) :
    after opsC56 W (Proc.devRef .tc main_v618)
      = mvpR (W (Proc.devRef .tc main_v3)) (W (Proc.devRef .tc main_v486)) (W (Proc.devRef .tc main_v587)) := by
  after_results_simp <;> rfl

/-! The matching vectors laid side by side: sixteen blocks, four blocks, and the two groups, for each result. -/
theorem res57_v619 (W : Valuation τ sig (Elt F)) :
    after opsC57 W (Proc.devRef .tc main_v619)
      = cat16R (W (Proc.devRef .tc main_v68)) (W (Proc.devRef .tc main_v72)) (W (Proc.devRef .tc main_v74)) (W (Proc.devRef .tc main_v78))
          (W (Proc.devRef .tc main_v105)) (W (Proc.devRef .tc main_v127)) (W (Proc.devRef .tc main_v142)) (W (Proc.devRef .tc main_v164))
          (W (Proc.devRef .tc main_v287)) (W (Proc.devRef .tc main_v290)) (W (Proc.devRef .tc main_v291)) (W (Proc.devRef .tc main_v294))
          (W (Proc.devRef .tc main_v343)) (W (Proc.devRef .tc main_v363)) (W (Proc.devRef .tc main_v376)) (W (Proc.devRef .tc main_v396)) := by
  after_results <;> rfl
theorem res58_v620 (W : Valuation τ sig (Elt F)) :
    after opsC58 W (Proc.devRef .tc main_v620)
      = cat4R (W (Proc.devRef .tc main_v499)) (W (Proc.devRef .tc main_v519)) (W (Proc.devRef .tc main_v532)) (W (Proc.devRef .tc main_v552)) := by
  after_results <;> rfl
theorem res59_v621 (W : Valuation τ sig (Elt F)) :
    after opsC59 W (Proc.devRef .tc main_v621) = cat2R (W (Proc.devRef .tc main_v619)) (W (Proc.devRef .tc main_v620)) := by
  after_results <;> rfl
theorem res60_v622 (W : Valuation τ sig (Elt F)) :
    after opsC60 W (Proc.devRef .tc main_v622)
      = cat16R (W (Proc.devRef .tc main_v80)) (W (Proc.devRef .tc main_v84)) (W (Proc.devRef .tc main_v86)) (W (Proc.devRef .tc main_v90))
          (W (Proc.devRef .tc main_v179)) (W (Proc.devRef .tc main_v201)) (W (Proc.devRef .tc main_v216)) (W (Proc.devRef .tc main_v238))
          (W (Proc.devRef .tc main_v295)) (W (Proc.devRef .tc main_v298)) (W (Proc.devRef .tc main_v299)) (W (Proc.devRef .tc main_v302))
          (W (Proc.devRef .tc main_v409)) (W (Proc.devRef .tc main_v429)) (W (Proc.devRef .tc main_v442)) (W (Proc.devRef .tc main_v462)) := by
  after_results <;> rfl
theorem res61_v623 (W : Valuation τ sig (Elt F)) :
    after opsC61 W (Proc.devRef .tc main_v623)
      = cat4R (W (Proc.devRef .tc main_v565)) (W (Proc.devRef .tc main_v585)) (W (Proc.devRef .tc main_v598)) (W (Proc.devRef .tc main_v618)) := by
  after_results <;> rfl
theorem res62_v624 (W : Valuation τ sig (Elt F)) :
    after opsC62 W (Proc.devRef .tc main_v624) = cat2R (W (Proc.devRef .tc main_v622)) (W (Proc.devRef .tc main_v623)) := by
  after_results <;> rfl

end Cert.Mpm.Ref
end
-- ==== Proof.Mpm.RunFinal.lean ====
/-
  The reference program's whole run read back. The program is 62 stretches of host operations in a row; read from the
  last stretch backwards, a buffer a stretch does not write holds what it held before it, and a buffer it writes holds
  the reference's function of the earlier contents. Followed down to the contents at launch, the two result buffers
  hold the two matching tensors as functions of the five arguments, and the arguments are unchanged.
-/
import proofs.«116293_j48241072668683_2_alg».proof.Proof.Mpm.RunRead
import proofs.«116293_j48241072668683_2_alg».proof.Proof.Mpm.ROut

noncomputable section

namespace Cert.Mpm.Ref

open Cert.ReferenceIdeal Cert.ReferenceIdeal.Gen Idealize.ShloMosaic Idealize.ShloMosaic.TcCoe Idealize.SL.Sem Idealize.ShloMosaic.StableHlo

variable {F : FTy → Type} [FloatOps F]

/-- The program's operations, in order: the 62 stretches in a row. -/
abbrev opsAll : List (HloOp τ sig (Elt F)) := opsC1 ++ opsC2 ++ opsC3 ++ opsC4 ++ opsC5 ++ opsC6 ++ opsC7 ++ opsC8 ++ opsC9 ++ opsC10 ++ opsC11 ++ opsC12 ++ opsC13 ++ opsC14 ++ opsC15 ++ opsC16 ++ opsC17 ++ opsC18 ++ opsC19 ++ opsC20 ++ opsC21 ++ opsC22 ++ opsC23 ++ opsC24 ++ opsC25 ++ opsC26 ++ opsC27 ++ opsC28 ++ opsC29 ++ opsC30 ++ opsC31 ++ opsC32 ++ opsC33 ++ opsC34 ++ opsC35 ++ opsC36 ++ opsC37 ++ opsC38 ++ opsC39 ++ opsC40 ++ opsC41 ++ opsC42 ++ opsC43 ++ opsC44 ++ opsC45 ++ opsC46 ++ opsC47 ++ opsC48 ++ opsC49 ++ opsC50 ++ opsC51 ++ opsC52 ++ opsC53 ++ opsC54 ++ opsC55 ++ opsC56 ++ opsC57 ++ opsC58 ++ opsC59 ++ opsC60 ++ opsC61 ++ opsC62

/-- What a buffer holds, stated at the buffer taken as it stands (for rewriting at any buffer of that form). -/
theorem atBuf {V : Valuation τ sig (Elt F)} {b : DevRef τ sig} {x : b.ty.Contents (Elt F)} (h : V b = x) : V (no_index b) = x := h

/-- The second sequence's state at its last valid position, over the second and third stretches together: the batch
    counter the third reads is the one the second left. -/
theorem res23_v42 (W : Valuation τ sig (Elt F)) :
    after opsC3 (after opsC2 W) (Proc.devRef .tc main_v42)
      = gatherLastR (W (Proc.devRef .tc main_v2)) (lastIdxR (W (Proc.devRef .tc main_arg3))) := by
  rw [res3_v42 _ (res2_v12 W), keep2 W main_v2 (by decide), res2_v11]

/-- One pass from the last stretch back to the launch contents: every stretch's rule for a buffer it leaves alone, and
    every rule for a buffer a stretch writes. -/
local macro "read_back" : tactic =>
  `(tactic| simp (disch := decide) only [
      atBuf (keep62 _ _ _), atBuf (keep61 _ _ _), atBuf (keep60 _ _ _), atBuf (keep59 _ _ _), atBuf (keep58 _ _ _), atBuf (keep57 _ _ _),
      atBuf (keep56 _ _ _), atBuf (keep55 _ _ _), atBuf (keep54 _ _ _), atBuf (keep53 _ _ _), atBuf (keep52 _ _ _), atBuf (keep51 _ _ _),
      atBuf (keep50 _ _ _), atBuf (keep49 _ _ _), atBuf (keep48 _ _ _), atBuf (keep47 _ _ _), atBuf (keep46 _ _ _), atBuf (keep45 _ _ _),
      atBuf (keep44 _ _ _), atBuf (keep43 _ _ _), atBuf (keep42 _ _ _), atBuf (keep41 _ _ _), atBuf (keep40 _ _ _), atBuf (keep39 _ _ _),
      atBuf (keep38 _ _ _), atBuf (keep37 _ _ _), atBuf (keep36 _ _ _), atBuf (keep35 _ _ _), atBuf (keep34 _ _ _), atBuf (keep33 _ _ _),
      atBuf (keep32 _ _ _), atBuf (keep31 _ _ _), atBuf (keep30 _ _ _), atBuf (keep29 _ _ _), atBuf (keep28 _ _ _), atBuf (keep27 _ _ _),
      atBuf (keep26 _ _ _), atBuf (keep25 _ _ _), atBuf (keep24 _ _ _), atBuf (keep23 _ _ _), atBuf (keep22 _ _ _), atBuf (keep21 _ _ _),
      atBuf (keep20 _ _ _), atBuf (keep19 _ _ _), atBuf (keep18 _ _ _), atBuf (keep17 _ _ _), atBuf (keep16 _ _ _), atBuf (keep15 _ _ _),
      atBuf (keep14 _ _ _), atBuf (keep13 _ _ _), atBuf (keep12 _ _ _), atBuf (keep11 _ _ _), atBuf (keep10 _ _ _), atBuf (keep9 _ _ _),
      atBuf (keep8 _ _ _), atBuf (keep7 _ _ _), atBuf (keep6 _ _ _), atBuf (keep5 _ _ _), atBuf (keep4 _ _ _), atBuf (keep3 _ _ _),
      atBuf (keep2 _ _ _), atBuf (keep1 _ _ _),
      atBuf (res62_v624 _), atBuf (res61_v623 _), atBuf (res60_v622 _), atBuf (res59_v621 _), atBuf (res58_v620 _), atBuf (res57_v619 _),
      atBuf (res56_v618 _), atBuf (res55_v598 _), atBuf (res54_v587 _), atBuf (res53_v585 _), atBuf (res52_v565 _), atBuf (res51_v554 _),
      atBuf (res50_v552 _), atBuf (res49_v532 _), atBuf (res48_v521 _), atBuf (res47_v519 _), atBuf (res46_v499 _), atBuf (res45_v488 _),
      atBuf (res44_v486 _), atBuf (res43_v480 _), atBuf (res42_v474 _), atBuf (res41_v468 _),
      atBuf (res40_v462 _), atBuf (res39_v442 _), atBuf (res38_v431 _), atBuf (res37_v429 _), atBuf (res36_v409 _), atBuf (res35_v398 _),
      atBuf (res34_v396 _), atBuf (res33_v376 _), atBuf (res32_v365 _), atBuf (res31_v363 _), atBuf (res30_v343 _), atBuf (res29_v332 _),
      atBuf (res28_v330 _), atBuf (res27_v323 _), atBuf (res26_v316 _), atBuf (res25_v309 _),
      atBuf (res24_v287 _), atBuf (res24_v290 _), atBuf (res24_v291 _), atBuf (res24_v294 _), atBuf (res24_v295 _), atBuf (res24_v298 _),
      atBuf (res24_v299 _), atBuf (res24_v302 _),
      atBuf (res23_v286 _), atBuf (res22_v264 _), atBuf (res21_v262 _), atBuf (res20_v240 _),
      atBuf (res19_v238 _), atBuf (res18_v216 _), atBuf (res17_v203 _), atBuf (res16_v201 _), atBuf (res15_v179 _), atBuf (res14_v166 _),
      atBuf (res13_v164 _), atBuf (res12_v142 _), atBuf (res11_v129 _), atBuf (res10_v127 _), atBuf (res9_v105 _), atBuf (res8_v92 _),
      atBuf (res7_v68 _), atBuf (res7_v72 _), atBuf (res7_v74 _), atBuf (res7_v78 _), atBuf (res7_v80 _), atBuf (res7_v84 _),
      atBuf (res7_v86 _), atBuf (res7_v90 _),
      atBuf (res6_v66 _), atBuf (res5_v55 _), atBuf (res4_v43 _), atBuf (res4_v44 _), atBuf (res23_v42 _), atBuf (res2_v27 _),
      atBuf (res1_v0 _), atBuf (res1_v1 _), atBuf (res1_v2 _), atBuf (res1_v3 _)])

/-- The premise argument is unchanged by the run. -/
theorem read_arg0 (V0 : Valuation τ sig (Elt F)) : after opsAll V0 (Proc.devRef .tc main_arg0) = V0 (Proc.devRef .tc main_arg0) := by
  simp only [opsAll, StableHlo.after_append]
  read_back

/-- The premise mask is unchanged by the run. -/
theorem read_arg1 (V0 : Valuation τ sig (Elt F)) : after opsAll V0 (Proc.devRef .tc main_arg1) = V0 (Proc.devRef .tc main_arg1) := by
  simp only [opsAll, StableHlo.after_append]
  read_back

/-- The hypothesis argument is unchanged by the run. -/
theorem read_arg2 (V0 : Valuation τ sig (Elt F)) : after opsAll V0 (Proc.devRef .tc main_arg2) = V0 (Proc.devRef .tc main_arg2) := by
  simp only [opsAll, StableHlo.after_append]
  read_back

/-- The hypothesis mask is unchanged by the run. -/
theorem read_arg3 (V0 : Valuation τ sig (Elt F)) : after opsAll V0 (Proc.devRef .tc main_arg3) = V0 (Proc.devRef .tc main_arg3) := by
  simp only [opsAll, StableHlo.after_append]
  read_back

/-- The weights are unchanged by the run. -/
theorem read_arg4 (V0 : Valuation τ sig (Elt F)) : after opsAll V0 (Proc.devRef .tc main_arg4) = V0 (Proc.devRef .tc main_arg4) := by
  simp only [opsAll, StableHlo.after_append]
  read_back

set_option maxHeartbeats 4000000 in
/-- The first result buffer holds the premise-side matching tensor of the five arguments. -/
theorem read_P (V0 : Valuation τ sig (Elt F)) :
    after opsAll V0 (Proc.devRef .tc main_v621)
      = refP (V0 (Proc.devRef .tc main_arg0)) (V0 (Proc.devRef .tc main_arg1)) (V0 (Proc.devRef .tc main_arg2))
          (V0 (Proc.devRef .tc main_arg3)) (V0 (Proc.devRef .tc main_arg4)) := by
  simp only [opsAll, StableHlo.after_append]
  read_back
  rfl

set_option maxHeartbeats 4000000 in
/-- The second result buffer holds the hypothesis-side matching tensor of the five arguments. -/
theorem read_H (V0 : Valuation τ sig (Elt F)) :
    after opsAll V0 (Proc.devRef .tc main_v624)
      = refH (V0 (Proc.devRef .tc main_arg0)) (V0 (Proc.devRef .tc main_arg1)) (V0 (Proc.devRef .tc main_arg2))
          (V0 (Proc.devRef .tc main_arg3)) (V0 (Proc.devRef .tc main_arg4)) := by
  simp only [opsAll, StableHlo.after_append]
  read_back
  rfl

end Cert.Mpm.Ref
end
-- ==== Proof.lean ====
/-
  The certificate's claim for the multi-perspective matching kernel: the printed kernel and its idealization run and
  leave their arguments as they were, the idealization rewrote nothing, the reference runs and leaves its arguments as
  they were, and over the extended reals the kernel's two output arrays equal the reference's two results, index by
  index (Mpm/Final.lean). The stated facts of the three programs come first, then the five conjuncts. The reference's
  run is its 923 host operations in a row (Mpm/RunMain.lean), read back stretch by stretch (Mpm/RunFinal.lean): no
  operation writes an argument, and the two result buffers end at the two matching tensors as functions of the arguments.
-/
import proofs.«116293_j48241072668683_2_alg».proof.Defs
import proofs.«116293_j48241072668683_2_alg».proof.Proof.Gen.Kernel
import proofs.«116293_j48241072668683_2_alg».proof.Proof.Gen.Kernel.Skeleton
import proofs.«116293_j48241072668683_2_alg».proof.Proof.Gen.Kernel.Launch
import proofs.«116293_j48241072668683_2_alg».proof.Proof.Gen.Kernel.Points
import proofs.«116293_j48241072668683_2_alg».proof.Proof.Gen.Kernel.Frame
import proofs.«116293_j48241072668683_2_alg».proof.Proof.Gen.KernelIdeal
import proofs.«116293_j48241072668683_2_alg».proof.Proof.Gen.KernelIdeal.Skeleton
import proofs.«116293_j48241072668683_2_alg».proof.Proof.Gen.KernelIdeal.Launch
import proofs.«116293_j48241072668683_2_alg».proof.Proof.Gen.KernelIdeal.Points
import proofs.«116293_j48241072668683_2_alg».proof.Proof.Gen.KernelIdeal.Frame
import proofs.«116293_j48241072668683_2_alg».proof.Proof.Gen.ReferenceIdeal
import proofs.«116293_j48241072668683_2_alg».proof.Proof.Gen.Pre_finite_inputs
import proofs.«116293_j48241072668683_2_alg».proof.Proof.Gen.KernelIdeal.Value
import proofs.«116293_j48241072668683_2_alg».proof.Proof.Mpm.Final
import proofs.«116293_j48241072668683_2_alg».proof.Proof.Mpm.RunMain
import proofs.«116293_j48241072668683_2_alg».proof.Proof.Mpm.RunFinal
import Idealize.ShloMosaic.Adequacy
import Idealize.ShloMosaic.Init

noncomputable section

namespace Cert.Proof

open Idealize.ShloMosaic Idealize.SL.Sem

/-- The reference's run at the extended reals: every buffer ends at the fold of the 923 operations over the launch contents. -/
theorem ref_runs : Cert.Mpm.RefRuns (Cert.Mpm.Ref.ops (F := Ideal)) := fun m' g' => Cert.Mpm.Ref.run0 (F := Ideal) m' g'

theorem claim : Cert.Claim := ⟨Cert.Kernel.Gen.facts, Cert.KernelIdeal.Gen.facts, Cert.ReferenceIdeal.Gen.facts, Cert.Pre_finite_inputs.Gen.facts,
  Cert.Mpm.frame_k,
  Cert.Mpm.frame_ki,
  Cert.Mpm.frame_ri_of _ ref_runs (Cert.Mpm.Ref.read_arg0 (F := Ideal)) (Cert.Mpm.Ref.read_arg1 (F := Ideal)) (Cert.Mpm.Ref.read_arg2 (F := Ideal))
    (Cert.Mpm.Ref.read_arg3 (F := Ideal)) (Cert.Mpm.Ref.read_arg4 (F := Ideal)),
  Cert.Mpm.preserves,
  Cert.Mpm.algebraic_of _ ref_runs (Cert.Mpm.Ref.read_P (F := Ideal)) (Cert.Mpm.Ref.read_H (F := Ideal))
    (Cert.Mpm.Ref.read_arg0 (F := Ideal)) (Cert.Mpm.Ref.read_arg1 (F := Ideal)) (Cert.Mpm.Ref.read_arg2 (F := Ideal))
    (Cert.Mpm.Ref.read_arg3 (F := Ideal)) (Cert.Mpm.Ref.read_arg4 (F := Ideal))⟩

end Cert.Proof

end
